-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32x16 : Shape := ⟨3, ![1024, 32, 16]⟩
abbrev S_ : Shape := ⟨0, ![]⟩

class Facts : Prop where
  bcast_S_S1024x32x16 : S_.BroadcastsInDim S1024x32x16 (![] : Fin 0 → Fin S1024x32x16.rank)
  reducesTo_S1024x32x16_S_d0_1_2 : S1024x32x16.ReducesTo [0, 1, 2] S_
  h_S_ : 0 < S_.numel

variable [Facts]

def fn {F : FTy → Type} [FloatOps F] (main_arg0 : FVec F S1024x32x16 .f32) : IVec S_ 1 :=
  let main_v0 : FVec F S1024x32x16 .f32 := Host.absf main_arg0
  let main_cst : FVec F S_ .f32 := constant S_ .f32 0x7F800000#32
  let main_v1 : FVec F S1024x32x16 .f32 := broadcastInDim S1024x32x16 ![] bcast_S_S1024x32x16 main_cst
  let main_v2 : IVec S1024x32x16 1 := cmpf .olt main_v0 main_v1
  let main_c : IVec S_ 1 := constantI S_ 1 1#1
  let main_v3 : IVec S_ 1 := (fun x v => Host.reduce IntOp.andi x v reducesTo_S1024x32x16_S_d0_1_2 h_S_) main_v2 main_c
  main_v3
-- ==== Kernel.lean ====
abbrev S1024x32x16 : Shape := ⟨3, ![1024, 32, 16]⟩
abbrev S1024x512 : Shape := ⟨2, ![1024, 512]⟩
abbrev S1024x57408 : Shape := ⟨2, ![1024, 57408]⟩
abbrev S64x512 : Shape := ⟨2, ![64, 512]⟩
abbrev S64x57408 : Shape := ⟨2, ![64, 57408]⟩
abbrev S64x1 : Shape := ⟨2, ![64, 1]⟩
abbrev S64x511 : Shape := ⟨2, ![64, 511]⟩
abbrev S64x510 : Shape := ⟨2, ![64, 510]⟩
abbrev S64x509 : Shape := ⟨2, ![64, 509]⟩
abbrev S64x508 : Shape := ⟨2, ![64, 508]⟩
abbrev S64x507 : Shape := ⟨2, ![64, 507]⟩
abbrev S64x506 : Shape := ⟨2, ![64, 506]⟩
abbrev S64x505 : Shape := ⟨2, ![64, 505]⟩
abbrev S64x504 : Shape := ⟨2, ![64, 504]⟩
abbrev S64x503 : Shape := ⟨2, ![64, 503]⟩
abbrev S64x502 : Shape := ⟨2, ![64, 502]⟩
abbrev S64x501 : Shape := ⟨2, ![64, 501]⟩
abbrev S64x500 : Shape := ⟨2, ![64, 500]⟩
abbrev S64x499 : Shape := ⟨2, ![64, 499]⟩
abbrev S64x498 : Shape := ⟨2, ![64, 498]⟩
abbrev S64x497 : Shape := ⟨2, ![64, 497]⟩
abbrev S64x496 : Shape := ⟨2, ![64, 496]⟩
abbrev S64x495 : Shape := ⟨2, ![64, 495]⟩
abbrev S64x494 : Shape := ⟨2, ![64, 494]⟩
abbrev S64x493 : Shape := ⟨2, ![64, 493]⟩
abbrev S64x492 : Shape := ⟨2, ![64, 492]⟩
abbrev S64x491 : Shape := ⟨2, ![64, 491]⟩
abbrev S64x490 : Shape := ⟨2, ![64, 490]⟩
abbrev S64x489 : Shape := ⟨2, ![64, 489]⟩
abbrev S64x488 : Shape := ⟨2, ![64, 488]⟩
abbrev S64x487 : Shape := ⟨2, ![64, 487]⟩
abbrev S64x486 : Shape := ⟨2, ![64, 486]⟩
abbrev S64x485 : Shape := ⟨2, ![64, 485]⟩
abbrev S64x484 : Shape := ⟨2, ![64, 484]⟩
abbrev S64x483 : Shape := ⟨2, ![64, 483]⟩
abbrev S64x482 : Shape := ⟨2, ![64, 482]⟩
abbrev S64x481 : Shape := ⟨2, ![64, 481]⟩
abbrev S64x480 : Shape := ⟨2, ![64, 480]⟩
abbrev S64x479 : Shape := ⟨2, ![64, 479]⟩
abbrev S64x478 : Shape := ⟨2, ![64, 478]⟩
abbrev S64x477 : Shape := ⟨2, ![64, 477]⟩
abbrev S64x476 : Shape := ⟨2, ![64, 476]⟩
abbrev S64x475 : Shape := ⟨2, ![64, 475]⟩
abbrev S64x474 : Shape := ⟨2, ![64, 474]⟩
abbrev S64x473 : Shape := ⟨2, ![64, 473]⟩
abbrev S64x472 : Shape := ⟨2, ![64, 472]⟩
abbrev S64x471 : Shape := ⟨2, ![64, 471]⟩
abbrev S64x470 : Shape := ⟨2, ![64, 470]⟩
abbrev S64x469 : Shape := ⟨2, ![64, 469]⟩
abbrev S64x468 : Shape := ⟨2, ![64, 468]⟩
abbrev S64x467 : Shape := ⟨2, ![64, 467]⟩
abbrev S64x466 : Shape := ⟨2, ![64, 466]⟩
abbrev S64x465 : Shape := ⟨2, ![64, 465]⟩
abbrev S64x464 : Shape := ⟨2, ![64, 464]⟩
abbrev S64x463 : Shape := ⟨2, ![64, 463]⟩
abbrev S64x462 : Shape := ⟨2, ![64, 462]⟩
abbrev S64x461 : Shape := ⟨2, ![64, 461]⟩
abbrev S64x460 : Shape := ⟨2, ![64, 460]⟩
abbrev S64x459 : Shape := ⟨2, ![64, 459]⟩
abbrev S64x458 : Shape := ⟨2, ![64, 458]⟩
abbrev S64x457 : Shape := ⟨2, ![64, 457]⟩
abbrev S64x456 : Shape := ⟨2, ![64, 456]⟩
abbrev S64x455 : Shape := ⟨2, ![64, 455]⟩
abbrev S64x454 : Shape := ⟨2, ![64, 454]⟩
abbrev S64x453 : Shape := ⟨2, ![64, 453]⟩
abbrev S64x452 : Shape := ⟨2, ![64, 452]⟩
abbrev S64x451 : Shape := ⟨2, ![64, 451]⟩
abbrev S64x450 : Shape := ⟨2, ![64, 450]⟩
abbrev S64x449 : Shape := ⟨2, ![64, 449]⟩
abbrev S64x448 : Shape := ⟨2, ![64, 448]⟩
abbrev S64x447 : Shape := ⟨2, ![64, 447]⟩
abbrev S64x446 : Shape := ⟨2, ![64, 446]⟩
abbrev S64x445 : Shape := ⟨2, ![64, 445]⟩
abbrev S64x444 : Shape := ⟨2, ![64, 444]⟩
abbrev S64x443 : Shape := ⟨2, ![64, 443]⟩
abbrev S64x442 : Shape := ⟨2, ![64, 442]⟩
abbrev S64x441 : Shape := ⟨2, ![64, 441]⟩
abbrev S64x440 : Shape := ⟨2, ![64, 440]⟩
abbrev S64x439 : Shape := ⟨2, ![64, 439]⟩
abbrev S64x438 : Shape := ⟨2, ![64, 438]⟩
abbrev S64x437 : Shape := ⟨2, ![64, 437]⟩
abbrev S64x436 : Shape := ⟨2, ![64, 436]⟩
abbrev S64x435 : Shape := ⟨2, ![64, 435]⟩
abbrev S64x434 : Shape := ⟨2, ![64, 434]⟩
abbrev S64x433 : Shape := ⟨2, ![64, 433]⟩
abbrev S64x432 : Shape := ⟨2, ![64, 432]⟩
abbrev S64x431 : Shape := ⟨2, ![64, 431]⟩
abbrev S64x430 : Shape := ⟨2, ![64, 430]⟩
abbrev S64x429 : Shape := ⟨2, ![64, 429]⟩
abbrev S64x428 : Shape := ⟨2, ![64, 428]⟩
abbrev S64x427 : Shape := ⟨2, ![64, 427]⟩
abbrev S64x426 : Shape := ⟨2, ![64, 426]⟩
abbrev S64x425 : Shape := ⟨2, ![64, 425]⟩
abbrev S64x424 : Shape := ⟨2, ![64, 424]⟩
abbrev S64x423 : Shape := ⟨2, ![64, 423]⟩
abbrev S64x422 : Shape := ⟨2, ![64, 422]⟩
abbrev S64x421 : Shape := ⟨2, ![64, 421]⟩
abbrev S64x420 : Shape := ⟨2, ![64, 420]⟩
abbrev S64x419 : Shape := ⟨2, ![64, 419]⟩
abbrev S64x418 : Shape := ⟨2, ![64, 418]⟩
abbrev S64x417 : Shape := ⟨2, ![64, 417]⟩
abbrev S64x416 : Shape := ⟨2, ![64, 416]⟩
abbrev S64x415 : Shape := ⟨2, ![64, 415]⟩
abbrev S64x414 : Shape := ⟨2, ![64, 414]⟩
abbrev S64x413 : Shape := ⟨2, ![64, 413]⟩
abbrev S64x412 : Shape := ⟨2, ![64, 412]⟩
abbrev S64x411 : Shape := ⟨2, ![64, 411]⟩
abbrev S64x410 : Shape := ⟨2, ![64, 410]⟩
abbrev S64x409 : Shape := ⟨2, ![64, 409]⟩
abbrev S64x408 : Shape := ⟨2, ![64, 408]⟩
abbrev S64x407 : Shape := ⟨2, ![64, 407]⟩
abbrev S64x406 : Shape := ⟨2, ![64, 406]⟩
abbrev S64x405 : Shape := ⟨2, ![64, 405]⟩
abbrev S64x404 : Shape := ⟨2, ![64, 404]⟩
abbrev S64x403 : Shape := ⟨2, ![64, 403]⟩
abbrev S64x402 : Shape := ⟨2, ![64, 402]⟩
abbrev S64x401 : Shape := ⟨2, ![64, 401]⟩
abbrev S64x400 : Shape := ⟨2, ![64, 400]⟩
abbrev S64x399 : Shape := ⟨2, ![64, 399]⟩
abbrev S64x398 : Shape := ⟨2, ![64, 398]⟩
abbrev S64x397 : Shape := ⟨2, ![64, 397]⟩
abbrev S64x396 : Shape := ⟨2, ![64, 396]⟩
abbrev S64x395 : Shape := ⟨2, ![64, 395]⟩
abbrev S64x394 : Shape := ⟨2, ![64, 394]⟩
abbrev S64x393 : Shape := ⟨2, ![64, 393]⟩
abbrev S64x392 : Shape := ⟨2, ![64, 392]⟩
abbrev S64x391 : Shape := ⟨2, ![64, 391]⟩
abbrev S64x390 : Shape := ⟨2, ![64, 390]⟩
abbrev S64x389 : Shape := ⟨2, ![64, 389]⟩
abbrev S64x388 : Shape := ⟨2, ![64, 388]⟩
abbrev S64x387 : Shape := ⟨2, ![64, 387]⟩
abbrev S64x386 : Shape := ⟨2, ![64, 386]⟩
abbrev S64x385 : Shape := ⟨2, ![64, 385]⟩
abbrev S1024x384 : Shape := ⟨2, ![1024, 384]⟩
abbrev S1024x41024 : Shape := ⟨2, ![1024, 41024]⟩
abbrev S64x384 : Shape := ⟨2, ![64, 384]⟩
abbrev S64x41024 : Shape := ⟨2, ![64, 41024]⟩
abbrev S64x383 : Shape := ⟨2, ![64, 383]⟩
abbrev S64x382 : Shape := ⟨2, ![64, 382]⟩
abbrev S64x381 : Shape := ⟨2, ![64, 381]⟩
abbrev S64x380 : Shape := ⟨2, ![64, 380]⟩
abbrev S64x379 : Shape := ⟨2, ![64, 379]⟩
abbrev S64x378 : Shape := ⟨2, ![64, 378]⟩
abbrev S64x377 : Shape := ⟨2, ![64, 377]⟩
abbrev S64x376 : Shape := ⟨2, ![64, 376]⟩
abbrev S64x375 : Shape := ⟨2, ![64, 375]⟩
abbrev S64x374 : Shape := ⟨2, ![64, 374]⟩
abbrev S64x373 : Shape := ⟨2, ![64, 373]⟩
abbrev S64x372 : Shape := ⟨2, ![64, 372]⟩
abbrev S64x371 : Shape := ⟨2, ![64, 371]⟩
abbrev S64x370 : Shape := ⟨2, ![64, 370]⟩
abbrev S64x369 : Shape := ⟨2, ![64, 369]⟩
abbrev S64x368 : Shape := ⟨2, ![64, 368]⟩
abbrev S64x367 : Shape := ⟨2, ![64, 367]⟩
abbrev S64x366 : Shape := ⟨2, ![64, 366]⟩
abbrev S64x365 : Shape := ⟨2, ![64, 365]⟩
abbrev S64x364 : Shape := ⟨2, ![64, 364]⟩
abbrev S64x363 : Shape := ⟨2, ![64, 363]⟩
abbrev S64x362 : Shape := ⟨2, ![64, 362]⟩
abbrev S64x361 : Shape := ⟨2, ![64, 361]⟩
abbrev S64x360 : Shape := ⟨2, ![64, 360]⟩
abbrev S64x359 : Shape := ⟨2, ![64, 359]⟩
abbrev S64x358 : Shape := ⟨2, ![64, 358]⟩
abbrev S64x357 : Shape := ⟨2, ![64, 357]⟩
abbrev S64x356 : Shape := ⟨2, ![64, 356]⟩
abbrev S64x355 : Shape := ⟨2, ![64, 355]⟩
abbrev S64x354 : Shape := ⟨2, ![64, 354]⟩
abbrev S64x353 : Shape := ⟨2, ![64, 353]⟩
abbrev S64x352 : Shape := ⟨2, ![64, 352]⟩
abbrev S64x351 : Shape := ⟨2, ![64, 351]⟩
abbrev S64x350 : Shape := ⟨2, ![64, 350]⟩
abbrev S64x349 : Shape := ⟨2, ![64, 349]⟩
abbrev S64x348 : Shape := ⟨2, ![64, 348]⟩
abbrev S64x347 : Shape := ⟨2, ![64, 347]⟩
abbrev S64x346 : Shape := ⟨2, ![64, 346]⟩
abbrev S64x345 : Shape := ⟨2, ![64, 345]⟩
abbrev S64x344 : Shape := ⟨2, ![64, 344]⟩
abbrev S64x343 : Shape := ⟨2, ![64, 343]⟩
abbrev S64x342 : Shape := ⟨2, ![64, 342]⟩
abbrev S64x341 : Shape := ⟨2, ![64, 341]⟩
abbrev S64x340 : Shape := ⟨2, ![64, 340]⟩
abbrev S64x339 : Shape := ⟨2, ![64, 339]⟩
abbrev S64x338 : Shape := ⟨2, ![64, 338]⟩
abbrev S64x337 : Shape := ⟨2, ![64, 337]⟩
abbrev S64x336 : Shape := ⟨2, ![64, 336]⟩
abbrev S64x335 : Shape := ⟨2, ![64, 335]⟩
abbrev S64x334 : Shape := ⟨2, ![64, 334]⟩
abbrev S64x333 : Shape := ⟨2, ![64, 333]⟩
abbrev S64x332 : Shape := ⟨2, ![64, 332]⟩
abbrev S64x331 : Shape := ⟨2, ![64, 331]⟩
abbrev S64x330 : Shape := ⟨2, ![64, 330]⟩
abbrev S64x329 : Shape := ⟨2, ![64, 329]⟩
abbrev S64x328 : Shape := ⟨2, ![64, 328]⟩
abbrev S64x327 : Shape := ⟨2, ![64, 327]⟩
abbrev S64x326 : Shape := ⟨2, ![64, 326]⟩
abbrev S64x325 : Shape := ⟨2, ![64, 325]⟩
abbrev S64x324 : Shape := ⟨2, ![64, 324]⟩
abbrev S64x323 : Shape := ⟨2, ![64, 323]⟩
abbrev S64x322 : Shape := ⟨2, ![64, 322]⟩
abbrev S64x321 : Shape := ⟨2, ![64, 321]⟩
abbrev S64x320 : Shape := ⟨2, ![64, 320]⟩
abbrev S64x319 : Shape := ⟨2, ![64, 319]⟩
abbrev S64x318 : Shape := ⟨2, ![64, 318]⟩
abbrev S64x317 : Shape := ⟨2, ![64, 317]⟩
abbrev S64x316 : Shape := ⟨2, ![64, 316]⟩
abbrev S64x315 : Shape := ⟨2, ![64, 315]⟩
abbrev S64x314 : Shape := ⟨2, ![64, 314]⟩
abbrev S64x313 : Shape := ⟨2, ![64, 313]⟩
abbrev S64x312 : Shape := ⟨2, ![64, 312]⟩
abbrev S64x311 : Shape := ⟨2, ![64, 311]⟩
abbrev S64x310 : Shape := ⟨2, ![64, 310]⟩
abbrev S64x309 : Shape := ⟨2, ![64, 309]⟩
abbrev S64x308 : Shape := ⟨2, ![64, 308]⟩
abbrev S64x307 : Shape := ⟨2, ![64, 307]⟩
abbrev S64x306 : Shape := ⟨2, ![64, 306]⟩
abbrev S64x305 : Shape := ⟨2, ![64, 305]⟩
abbrev S64x304 : Shape := ⟨2, ![64, 304]⟩
abbrev S64x303 : Shape := ⟨2, ![64, 303]⟩
abbrev S64x302 : Shape := ⟨2, ![64, 302]⟩
abbrev S64x301 : Shape := ⟨2, ![64, 301]⟩
abbrev S64x300 : Shape := ⟨2, ![64, 300]⟩
abbrev S64x299 : Shape := ⟨2, ![64, 299]⟩
abbrev S64x298 : Shape := ⟨2, ![64, 298]⟩
abbrev S64x297 : Shape := ⟨2, ![64, 297]⟩
abbrev S64x296 : Shape := ⟨2, ![64, 296]⟩
abbrev S64x295 : Shape := ⟨2, ![64, 295]⟩
abbrev S64x294 : Shape := ⟨2, ![64, 294]⟩
abbrev S64x293 : Shape := ⟨2, ![64, 293]⟩
abbrev S64x292 : Shape := ⟨2, ![64, 292]⟩
abbrev S64x291 : Shape := ⟨2, ![64, 291]⟩
abbrev S64x290 : Shape := ⟨2, ![64, 290]⟩
abbrev S64x289 : Shape := ⟨2, ![64, 289]⟩
abbrev S64x288 : Shape := ⟨2, ![64, 288]⟩
abbrev S64x287 : Shape := ⟨2, ![64, 287]⟩
abbrev S64x286 : Shape := ⟨2, ![64, 286]⟩
abbrev S64x285 : Shape := ⟨2, ![64, 285]⟩
abbrev S64x284 : Shape := ⟨2, ![64, 284]⟩
abbrev S64x283 : Shape := ⟨2, ![64, 283]⟩
abbrev S64x282 : Shape := ⟨2, ![64, 282]⟩
abbrev S64x281 : Shape := ⟨2, ![64, 281]⟩
abbrev S64x280 : Shape := ⟨2, ![64, 280]⟩
abbrev S64x279 : Shape := ⟨2, ![64, 279]⟩
abbrev S64x278 : Shape := ⟨2, ![64, 278]⟩
abbrev S64x277 : Shape := ⟨2, ![64, 277]⟩
abbrev S64x276 : Shape := ⟨2, ![64, 276]⟩
abbrev S64x275 : Shape := ⟨2, ![64, 275]⟩
abbrev S64x274 : Shape := ⟨2, ![64, 274]⟩
abbrev S64x273 : Shape := ⟨2, ![64, 273]⟩
abbrev S64x272 : Shape := ⟨2, ![64, 272]⟩
abbrev S64x271 : Shape := ⟨2, ![64, 271]⟩
abbrev S64x270 : Shape := ⟨2, ![64, 270]⟩
abbrev S64x269 : Shape := ⟨2, ![64, 269]⟩
abbrev S64x268 : Shape := ⟨2, ![64, 268]⟩
abbrev S64x267 : Shape := ⟨2, ![64, 267]⟩
abbrev S64x266 : Shape := ⟨2, ![64, 266]⟩
abbrev S64x265 : Shape := ⟨2, ![64, 265]⟩
abbrev S64x264 : Shape := ⟨2, ![64, 264]⟩
abbrev S64x263 : Shape := ⟨2, ![64, 263]⟩
abbrev S64x262 : Shape := ⟨2, ![64, 262]⟩
abbrev S64x261 : Shape := ⟨2, ![64, 261]⟩
abbrev S64x260 : Shape := ⟨2, ![64, 260]⟩
abbrev S64x259 : Shape := ⟨2, ![64, 259]⟩
abbrev S64x258 : Shape := ⟨2, ![64, 258]⟩
abbrev S64x257 : Shape := ⟨2, ![64, 257]⟩
abbrev S1024x256 : Shape := ⟨2, ![1024, 256]⟩
abbrev S1024x24640 : Shape := ⟨2, ![1024, 24640]⟩
abbrev S64x256 : Shape := ⟨2, ![64, 256]⟩
abbrev S64x24640 : Shape := ⟨2, ![64, 24640]⟩
abbrev S64x255 : Shape := ⟨2, ![64, 255]⟩
abbrev S64x254 : Shape := ⟨2, ![64, 254]⟩
abbrev S64x253 : Shape := ⟨2, ![64, 253]⟩
abbrev S64x252 : Shape := ⟨2, ![64, 252]⟩
abbrev S64x251 : Shape := ⟨2, ![64, 251]⟩
abbrev S64x250 : Shape := ⟨2, ![64, 250]⟩
abbrev S64x249 : Shape := ⟨2, ![64, 249]⟩
abbrev S64x248 : Shape := ⟨2, ![64, 248]⟩
abbrev S64x247 : Shape := ⟨2, ![64, 247]⟩
abbrev S64x246 : Shape := ⟨2, ![64, 246]⟩
abbrev S64x245 : Shape := ⟨2, ![64, 245]⟩
abbrev S64x244 : Shape := ⟨2, ![64, 244]⟩
abbrev S64x243 : Shape := ⟨2, ![64, 243]⟩
abbrev S64x242 : Shape := ⟨2, ![64, 242]⟩
abbrev S64x241 : Shape := ⟨2, ![64, 241]⟩
abbrev S64x240 : Shape := ⟨2, ![64, 240]⟩
abbrev S64x239 : Shape := ⟨2, ![64, 239]⟩
abbrev S64x238 : Shape := ⟨2, ![64, 238]⟩
abbrev S64x237 : Shape := ⟨2, ![64, 237]⟩
abbrev S64x236 : Shape := ⟨2, ![64, 236]⟩
abbrev S64x235 : Shape := ⟨2, ![64, 235]⟩
abbrev S64x234 : Shape := ⟨2, ![64, 234]⟩
abbrev S64x233 : Shape := ⟨2, ![64, 233]⟩
abbrev S64x232 : Shape := ⟨2, ![64, 232]⟩
abbrev S64x231 : Shape := ⟨2, ![64, 231]⟩
abbrev S64x230 : Shape := ⟨2, ![64, 230]⟩
abbrev S64x229 : Shape := ⟨2, ![64, 229]⟩
abbrev S64x228 : Shape := ⟨2, ![64, 228]⟩
abbrev S64x227 : Shape := ⟨2, ![64, 227]⟩
abbrev S64x226 : Shape := ⟨2, ![64, 226]⟩
abbrev S64x225 : Shape := ⟨2, ![64, 225]⟩
abbrev S64x224 : Shape := ⟨2, ![64, 224]⟩
abbrev S64x223 : Shape := ⟨2, ![64, 223]⟩
abbrev S64x222 : Shape := ⟨2, ![64, 222]⟩
abbrev S64x221 : Shape := ⟨2, ![64, 221]⟩
abbrev S64x220 : Shape := ⟨2, ![64, 220]⟩
abbrev S64x219 : Shape := ⟨2, ![64, 219]⟩
abbrev S64x218 : Shape := ⟨2, ![64, 218]⟩
abbrev S64x217 : Shape := ⟨2, ![64, 217]⟩
abbrev S64x216 : Shape := ⟨2, ![64, 216]⟩
abbrev S64x215 : Shape := ⟨2, ![64, 215]⟩
abbrev S64x214 : Shape := ⟨2, ![64, 214]⟩
abbrev S64x213 : Shape := ⟨2, ![64, 213]⟩
abbrev S64x212 : Shape := ⟨2, ![64, 212]⟩
abbrev S64x211 : Shape := ⟨2, ![64, 211]⟩
abbrev S64x210 : Shape := ⟨2, ![64, 210]⟩
abbrev S64x209 : Shape := ⟨2, ![64, 209]⟩
abbrev S64x208 : Shape := ⟨2, ![64, 208]⟩
abbrev S64x207 : Shape := ⟨2, ![64, 207]⟩
abbrev S64x206 : Shape := ⟨2, ![64, 206]⟩
abbrev S64x205 : Shape := ⟨2, ![64, 205]⟩
abbrev S64x204 : Shape := ⟨2, ![64, 204]⟩
abbrev S64x203 : Shape := ⟨2, ![64, 203]⟩
abbrev S64x202 : Shape := ⟨2, ![64, 202]⟩
abbrev S64x201 : Shape := ⟨2, ![64, 201]⟩
abbrev S64x200 : Shape := ⟨2, ![64, 200]⟩
abbrev S64x199 : Shape := ⟨2, ![64, 199]⟩
abbrev S64x198 : Shape := ⟨2, ![64, 198]⟩
abbrev S64x197 : Shape := ⟨2, ![64, 197]⟩
abbrev S64x196 : Shape := ⟨2, ![64, 196]⟩
abbrev S64x195 : Shape := ⟨2, ![64, 195]⟩
abbrev S64x194 : Shape := ⟨2, ![64, 194]⟩
abbrev S64x193 : Shape := ⟨2, ![64, 193]⟩
abbrev S64x192 : Shape := ⟨2, ![64, 192]⟩
abbrev S64x191 : Shape := ⟨2, ![64, 191]⟩
abbrev S64x190 : Shape := ⟨2, ![64, 190]⟩
abbrev S64x189 : Shape := ⟨2, ![64, 189]⟩
abbrev S64x188 : Shape := ⟨2, ![64, 188]⟩
abbrev S64x187 : Shape := ⟨2, ![64, 187]⟩
abbrev S64x186 : Shape := ⟨2, ![64, 186]⟩
abbrev S64x185 : Shape := ⟨2, ![64, 185]⟩
abbrev S64x184 : Shape := ⟨2, ![64, 184]⟩
abbrev S64x183 : Shape := ⟨2, ![64, 183]⟩
abbrev S64x182 : Shape := ⟨2, ![64, 182]⟩
abbrev S64x181 : Shape := ⟨2, ![64, 181]⟩
abbrev S64x180 : Shape := ⟨2, ![64, 180]⟩
abbrev S64x179 : Shape := ⟨2, ![64, 179]⟩
abbrev S64x178 : Shape := ⟨2, ![64, 178]⟩
abbrev S64x177 : Shape := ⟨2, ![64, 177]⟩
abbrev S64x176 : Shape := ⟨2, ![64, 176]⟩
abbrev S64x175 : Shape := ⟨2, ![64, 175]⟩
abbrev S64x174 : Shape := ⟨2, ![64, 174]⟩
abbrev S64x173 : Shape := ⟨2, ![64, 173]⟩
abbrev S64x172 : Shape := ⟨2, ![64, 172]⟩
abbrev S64x171 : Shape := ⟨2, ![64, 171]⟩
abbrev S64x170 : Shape := ⟨2, ![64, 170]⟩
abbrev S64x169 : Shape := ⟨2, ![64, 169]⟩
abbrev S64x168 : Shape := ⟨2, ![64, 168]⟩
abbrev S64x167 : Shape := ⟨2, ![64, 167]⟩
abbrev S64x166 : Shape := ⟨2, ![64, 166]⟩
abbrev S64x165 : Shape := ⟨2, ![64, 165]⟩
abbrev S64x164 : Shape := ⟨2, ![64, 164]⟩
abbrev S64x163 : Shape := ⟨2, ![64, 163]⟩
abbrev S64x162 : Shape := ⟨2, ![64, 162]⟩
abbrev S64x161 : Shape := ⟨2, ![64, 161]⟩
abbrev S64x160 : Shape := ⟨2, ![64, 160]⟩
abbrev S64x159 : Shape := ⟨2, ![64, 159]⟩
abbrev S64x158 : Shape := ⟨2, ![64, 158]⟩
abbrev S64x157 : Shape := ⟨2, ![64, 157]⟩
abbrev S64x156 : Shape := ⟨2, ![64, 156]⟩
abbrev S64x155 : Shape := ⟨2, ![64, 155]⟩
abbrev S64x154 : Shape := ⟨2, ![64, 154]⟩
abbrev S64x153 : Shape := ⟨2, ![64, 153]⟩
abbrev S64x152 : Shape := ⟨2, ![64, 152]⟩
abbrev S64x151 : Shape := ⟨2, ![64, 151]⟩
abbrev S64x150 : Shape := ⟨2, ![64, 150]⟩
abbrev S64x149 : Shape := ⟨2, ![64, 149]⟩
abbrev S64x148 : Shape := ⟨2, ![64, 148]⟩
abbrev S64x147 : Shape := ⟨2, ![64, 147]⟩
abbrev S64x146 : Shape := ⟨2, ![64, 146]⟩
abbrev S64x145 : Shape := ⟨2, ![64, 145]⟩
abbrev S64x144 : Shape := ⟨2, ![64, 144]⟩
abbrev S64x143 : Shape := ⟨2, ![64, 143]⟩
abbrev S64x142 : Shape := ⟨2, ![64, 142]⟩
abbrev S64x141 : Shape := ⟨2, ![64, 141]⟩
abbrev S64x140 : Shape := ⟨2, ![64, 140]⟩
abbrev S64x139 : Shape := ⟨2, ![64, 139]⟩
abbrev S64x138 : Shape := ⟨2, ![64, 138]⟩
abbrev S64x137 : Shape := ⟨2, ![64, 137]⟩
abbrev S64x136 : Shape := ⟨2, ![64, 136]⟩
abbrev S64x135 : Shape := ⟨2, ![64, 135]⟩
abbrev S64x134 : Shape := ⟨2, ![64, 134]⟩
abbrev S64x133 : Shape := ⟨2, ![64, 133]⟩
abbrev S64x132 : Shape := ⟨2, ![64, 132]⟩
abbrev S64x131 : Shape := ⟨2, ![64, 131]⟩
abbrev S64x130 : Shape := ⟨2, ![64, 130]⟩
abbrev S64x129 : Shape := ⟨2, ![64, 129]⟩
abbrev S1024x128 : Shape := ⟨2, ![1024, 128]⟩
abbrev S1024x8256 : Shape := ⟨2, ![1024, 8256]⟩
abbrev S64x128 : Shape := ⟨2, ![64, 128]⟩
abbrev S64x8256 : Shape := ⟨2, ![64, 8256]⟩
abbrev S64x127 : Shape := ⟨2, ![64, 127]⟩
abbrev S64x126 : Shape := ⟨2, ![64, 126]⟩
abbrev S64x125 : Shape := ⟨2, ![64, 125]⟩
abbrev S64x124 : Shape := ⟨2, ![64, 124]⟩
abbrev S64x123 : Shape := ⟨2, ![64, 123]⟩
abbrev S64x122 : Shape := ⟨2, ![64, 122]⟩
abbrev S64x121 : Shape := ⟨2, ![64, 121]⟩
abbrev S64x120 : Shape := ⟨2, ![64, 120]⟩
abbrev S64x119 : Shape := ⟨2, ![64, 119]⟩
abbrev S64x118 : Shape := ⟨2, ![64, 118]⟩
abbrev S64x117 : Shape := ⟨2, ![64, 117]⟩
abbrev S64x116 : Shape := ⟨2, ![64, 116]⟩
abbrev S64x115 : Shape := ⟨2, ![64, 115]⟩
abbrev S64x114 : Shape := ⟨2, ![64, 114]⟩
abbrev S64x113 : Shape := ⟨2, ![64, 113]⟩
abbrev S64x112 : Shape := ⟨2, ![64, 112]⟩
abbrev S64x111 : Shape := ⟨2, ![64, 111]⟩
abbrev S64x110 : Shape := ⟨2, ![64, 110]⟩
abbrev S64x109 : Shape := ⟨2, ![64, 109]⟩
abbrev S64x108 : Shape := ⟨2, ![64, 108]⟩
abbrev S64x107 : Shape := ⟨2, ![64, 107]⟩
abbrev S64x106 : Shape := ⟨2, ![64, 106]⟩
abbrev S64x105 : Shape := ⟨2, ![64, 105]⟩
abbrev S64x104 : Shape := ⟨2, ![64, 104]⟩
abbrev S64x103 : Shape := ⟨2, ![64, 103]⟩
abbrev S64x102 : Shape := ⟨2, ![64, 102]⟩
abbrev S64x101 : Shape := ⟨2, ![64, 101]⟩
abbrev S64x100 : Shape := ⟨2, ![64, 100]⟩
abbrev S64x99 : Shape := ⟨2, ![64, 99]⟩
abbrev S64x98 : Shape := ⟨2, ![64, 98]⟩
abbrev S64x97 : Shape := ⟨2, ![64, 97]⟩
abbrev S64x96 : Shape := ⟨2, ![64, 96]⟩
abbrev S64x95 : Shape := ⟨2, ![64, 95]⟩
abbrev S64x94 : Shape := ⟨2, ![64, 94]⟩
abbrev S64x93 : Shape := ⟨2, ![64, 93]⟩
abbrev S64x92 : Shape := ⟨2, ![64, 92]⟩
abbrev S64x91 : Shape := ⟨2, ![64, 91]⟩
abbrev S64x90 : Shape := ⟨2, ![64, 90]⟩
abbrev S64x89 : Shape := ⟨2, ![64, 89]⟩
abbrev S64x88 : Shape := ⟨2, ![64, 88]⟩
abbrev S64x87 : Shape := ⟨2, ![64, 87]⟩
abbrev S64x86 : Shape := ⟨2, ![64, 86]⟩
abbrev S64x85 : Shape := ⟨2, ![64, 85]⟩
abbrev S64x84 : Shape := ⟨2, ![64, 84]⟩
abbrev S64x83 : Shape := ⟨2, ![64, 83]⟩
abbrev S64x82 : Shape := ⟨2, ![64, 82]⟩
abbrev S64x81 : Shape := ⟨2, ![64, 81]⟩
abbrev S64x80 : Shape := ⟨2, ![64, 80]⟩
abbrev S64x79 : Shape := ⟨2, ![64, 79]⟩
abbrev S64x78 : Shape := ⟨2, ![64, 78]⟩
abbrev S64x77 : Shape := ⟨2, ![64, 77]⟩
abbrev S64x76 : Shape := ⟨2, ![64, 76]⟩
abbrev S64x75 : Shape := ⟨2, ![64, 75]⟩
abbrev S64x74 : Shape := ⟨2, ![64, 74]⟩
abbrev S64x73 : Shape := ⟨2, ![64, 73]⟩
abbrev S64x72 : Shape := ⟨2, ![64, 72]⟩
abbrev S64x71 : Shape := ⟨2, ![64, 71]⟩
abbrev S64x70 : Shape := ⟨2, ![64, 70]⟩
abbrev S64x69 : Shape := ⟨2, ![64, 69]⟩
abbrev S64x68 : Shape := ⟨2, ![64, 68]⟩
abbrev S64x67 : Shape := ⟨2, ![64, 67]⟩
abbrev S64x66 : Shape := ⟨2, ![64, 66]⟩
abbrev S64x65 : Shape := ⟨2, ![64, 65]⟩
abbrev S64x64 : Shape := ⟨2, ![64, 64]⟩
abbrev S64x63 : Shape := ⟨2, ![64, 63]⟩
abbrev S64x62 : Shape := ⟨2, ![64, 62]⟩
abbrev S64x61 : Shape := ⟨2, ![64, 61]⟩
abbrev S64x60 : Shape := ⟨2, ![64, 60]⟩
abbrev S64x59 : Shape := ⟨2, ![64, 59]⟩
abbrev S64x58 : Shape := ⟨2, ![64, 58]⟩
abbrev S64x57 : Shape := ⟨2, ![64, 57]⟩
abbrev S64x56 : Shape := ⟨2, ![64, 56]⟩
abbrev S64x55 : Shape := ⟨2, ![64, 55]⟩
abbrev S64x54 : Shape := ⟨2, ![64, 54]⟩
abbrev S64x53 : Shape := ⟨2, ![64, 53]⟩
abbrev S64x52 : Shape := ⟨2, ![64, 52]⟩
abbrev S64x51 : Shape := ⟨2, ![64, 51]⟩
abbrev S64x50 : Shape := ⟨2, ![64, 50]⟩
abbrev S64x49 : Shape := ⟨2, ![64, 49]⟩
abbrev S64x48 : Shape := ⟨2, ![64, 48]⟩
abbrev S64x47 : Shape := ⟨2, ![64, 47]⟩
abbrev S64x46 : Shape := ⟨2, ![64, 46]⟩
abbrev S64x45 : Shape := ⟨2, ![64, 45]⟩
abbrev S64x44 : Shape := ⟨2, ![64, 44]⟩
abbrev S64x43 : Shape := ⟨2, ![64, 43]⟩
abbrev S64x42 : Shape := ⟨2, ![64, 42]⟩
abbrev S64x41 : Shape := ⟨2, ![64, 41]⟩
abbrev S64x40 : Shape := ⟨2, ![64, 40]⟩
abbrev S64x39 : Shape := ⟨2, ![64, 39]⟩
abbrev S64x38 : Shape := ⟨2, ![64, 38]⟩
abbrev S64x37 : Shape := ⟨2, ![64, 37]⟩
abbrev S64x36 : Shape := ⟨2, ![64, 36]⟩
abbrev S64x35 : Shape := ⟨2, ![64, 35]⟩
abbrev S64x34 : Shape := ⟨2, ![64, 34]⟩
abbrev S64x33 : Shape := ⟨2, ![64, 33]⟩
abbrev S64x32 : Shape := ⟨2, ![64, 32]⟩
abbrev S64x31 : Shape := ⟨2, ![64, 31]⟩
abbrev S64x30 : Shape := ⟨2, ![64, 30]⟩
abbrev S64x29 : Shape := ⟨2, ![64, 29]⟩
abbrev S64x28 : Shape := ⟨2, ![64, 28]⟩
abbrev S64x27 : Shape := ⟨2, ![64, 27]⟩
abbrev S64x26 : Shape := ⟨2, ![64, 26]⟩
abbrev S64x25 : Shape := ⟨2, ![64, 25]⟩
abbrev S64x24 : Shape := ⟨2, ![64, 24]⟩
abbrev S64x23 : Shape := ⟨2, ![64, 23]⟩
abbrev S64x22 : Shape := ⟨2, ![64, 22]⟩
abbrev S64x21 : Shape := ⟨2, ![64, 21]⟩
abbrev S64x20 : Shape := ⟨2, ![64, 20]⟩
abbrev S64x19 : Shape := ⟨2, ![64, 19]⟩
abbrev S64x18 : Shape := ⟨2, ![64, 18]⟩
abbrev S64x17 : Shape := ⟨2, ![64, 17]⟩
abbrev S64x16 : Shape := ⟨2, ![64, 16]⟩
abbrev S64x15 : Shape := ⟨2, ![64, 15]⟩
abbrev S64x14 : Shape := ⟨2, ![64, 14]⟩
abbrev S64x13 : Shape := ⟨2, ![64, 13]⟩
abbrev S64x12 : Shape := ⟨2, ![64, 12]⟩
abbrev S64x11 : Shape := ⟨2, ![64, 11]⟩
abbrev S64x10 : Shape := ⟨2, ![64, 10]⟩
abbrev S64x9 : Shape := ⟨2, ![64, 9]⟩
abbrev S64x8 : Shape := ⟨2, ![64, 8]⟩
abbrev S64x7 : Shape := ⟨2, ![64, 7]⟩
abbrev S64x6 : Shape := ⟨2, ![64, 6]⟩
abbrev S64x5 : Shape := ⟨2, ![64, 5]⟩
abbrev S64x4 : Shape := ⟨2, ![64, 4]⟩
abbrev S64x3 : Shape := ⟨2, ![64, 3]⟩
abbrev S64x2 : Shape := ⟨2, ![64, 2]⟩
abbrev S1024x131328 : Shape := ⟨2, ![1024, 131328]⟩
abbrev S1024x131328x1 : Shape := ⟨3, ![1024, 131328, 1]⟩

abbrev nBuf : Space → Nat
  | .hbm => 11
  | .vmem => 16
  | .smem => 0
  | _ => 0

abbrev bufTy : (tb : Table) → Fin (tcTables nBuf tb) → BufTy
  | .hbm, ⟨0, _⟩ => ⟨S1024x32x16, .f32⟩
  | .hbm, ⟨1, _⟩ => ⟨S1024x512, .f32⟩
  | .hbm, ⟨2, _⟩ => ⟨S1024x57408, .f32⟩
  | .hbm, ⟨3, _⟩ => ⟨S1024x384, .f32⟩
  | .hbm, ⟨4, _⟩ => ⟨S1024x41024, .f32⟩
  | .hbm, ⟨5, _⟩ => ⟨S1024x256, .f32⟩
  | .hbm, ⟨6, _⟩ => ⟨S1024x24640, .f32⟩
  | .hbm, ⟨7, _⟩ => ⟨S1024x128, .f32⟩
  | .hbm, ⟨8, _⟩ => ⟨S1024x8256, .f32⟩
  | .hbm, ⟨9, _⟩ => ⟨S1024x131328, .f32⟩
  | .hbm, ⟨10, _⟩ => ⟨S1024x131328x1, .f32⟩
  | .local _ .vmem, ⟨0, _⟩ => ⟨S64x512, .f32⟩
  | .local _ .vmem, ⟨1, _⟩ => ⟨S64x512, .f32⟩
  | .local _ .vmem, ⟨2, _⟩ => ⟨S64x57408, .f32⟩
  | .local _ .vmem, ⟨3, _⟩ => ⟨S64x57408, .f32⟩
  | .local _ .vmem, ⟨4, _⟩ => ⟨S64x384, .f32⟩
  | .local _ .vmem, ⟨5, _⟩ => ⟨S64x384, .f32⟩
  | .local _ .vmem, ⟨6, _⟩ => ⟨S64x41024, .f32⟩
  | .local _ .vmem, ⟨7, _⟩ => ⟨S64x41024, .f32⟩
  | .local _ .vmem, ⟨8, _⟩ => ⟨S64x256, .f32⟩
  | .local _ .vmem, ⟨9, _⟩ => ⟨S64x256, .f32⟩
  | .local _ .vmem, ⟨10, _⟩ => ⟨S64x24640, .f32⟩
  | .local _ .vmem, ⟨11, _⟩ => ⟨S64x24640, .f32⟩
  | .local _ .vmem, ⟨12, _⟩ => ⟨S64x128, .f32⟩
  | .local _ .vmem, ⟨13, _⟩ => ⟨S64x128, .f32⟩
  | .local _ .vmem, ⟨14, _⟩ => ⟨S64x8256, .f32⟩
  | .local _ .vmem, ⟨15, _⟩ => ⟨S64x8256, .f32⟩
  | _, _ => ⟨S1024x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x57408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x41024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x24640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x8256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S1024x512.size a
  hwx0_0 : ∀ i : grid0.Coords, EltTy.bits .f32 = 32 ∨ (Rect.block (s := S1024x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x57408.size a ≤ S1024x57408.size a
  hwx0_1 : ∀ i : grid0.Coords, EltTy.bits .f32 = 32 ∨ (Rect.block (s := S1024x57408) S64x57408.size (cc0_transform_1 i) (hinb0_1 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x384.size a ≤ S1024x384.size a
  hwx1_0 : ∀ i : grid1.Coords, EltTy.bits .f32 = 32 ∨ (Rect.block (s := S1024x384) S64x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x41024.size a ≤ S1024x41024.size a
  hwx1_1 : ∀ i : grid1.Coords, EltTy.bits .f32 = 32 ∨ (Rect.block (s := S1024x41024) S64x41024.size (cc1_transform_1 i) (hinb1_1 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x256.size a ≤ S1024x256.size a
  hwx2_0 : ∀ i : grid2.Coords, EltTy.bits .f32 = 32 ∨ (Rect.block (s := S1024x256) S64x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x24640.size a ≤ S1024x24640.size a
  hwx2_1 : ∀ i : grid2.Coords, EltTy.bits .f32 = 32 ∨ (Rect.block (s := S1024x24640) S64x24640.size (cc2_transform_1 i) (hinb2_1 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S1024x128.size a
  hwx3_0 : ∀ i : grid3.Coords, EltTy.bits .f32 = 32 ∨ (Rect.block (s := S1024x128) S64x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x8256.size a ≤ S1024x8256.size a
  hwx3_1 : ∀ i : grid3.Coords, EltTy.bits .f32 = 32 ∨ (Rect.block (s := S1024x8256) S64x8256.size (cc3_transform_1 i) (hinb3_1 i)).WholeWords (EltTy.packing .f32)

class Shapes1.Facts₀ : Prop where
  shapeCasts_S1024x32x16_S1024x512 : S1024x32x16.ShapeCasts S1024x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S64x512_o0_0_S64x1 : S64x512.Slices ![0, 0] S64x1
  broadcasts_S64x1_S64x512 : S64x1.Broadcasts S64x512
  inb_S64x57408_S64x512_0_0 : ∀ a, (![0, 0] : Fin 2 → Nat) a + S64x512.size a ≤ S64x57408.size a
  slices_S64x512_o0_1_S64x1 : S64x512.Slices ![0, 1] S64x1
  slices_S64x512_o0_1_S64x511 : S64x512.Slices ![0, 1] S64x511
  broadcasts_S64x1_S64x511 : S64x1.Broadcasts S64x511
  inb_S64x57408_S64x511_0_512 : ∀ a, (![0, 512] : Fin 2 → Nat) a + S64x511.size a ≤ S64x57408.size a
  h_S64x511 : 0 < S64x511.numel
  slices_S64x512_o0_2_S64x1 : S64x512.Slices ![0, 2] S64x1
  slices_S64x512_o0_2_S64x510 : S64x512.Slices ![0, 2] S64x510
  broadcasts_S64x1_S64x510 : S64x1.Broadcasts S64x510
  inb_S64x57408_S64x510_0_1023 : ∀ a, (![0, 1023] : Fin 2 → Nat) a + S64x510.size a ≤ S64x57408.size a
  h_S64x510 : 0 < S64x510.numel
  slices_S64x512_o0_3_S64x1 : S64x512.Slices ![0, 3] S64x1
  slices_S64x512_o0_3_S64x509 : S64x512.Slices ![0, 3] S64x509
  broadcasts_S64x1_S64x509 : S64x1.Broadcasts S64x509
  inb_S64x57408_S64x509_0_1533 : ∀ a, (![0, 1533] : Fin 2 → Nat) a + S64x509.size a ≤ S64x57408.size a
  h_S64x509 : 0 < S64x509.numel
  slices_S64x512_o0_4_S64x1 : S64x512.Slices ![0, 4] S64x1
  slices_S64x512_o0_4_S64x508 : S64x512.Slices ![0, 4] S64x508
  broadcasts_S64x1_S64x508 : S64x1.Broadcasts S64x508
  inb_S64x57408_S64x508_0_2042 : ∀ a, (![0, 2042] : Fin 2 → Nat) a + S64x508.size a ≤ S64x57408.size a
  h_S64x508 : 0 < S64x508.numel
  slices_S64x512_o0_5_S64x1 : S64x512.Slices ![0, 5] S64x1
  slices_S64x512_o0_5_S64x507 : S64x512.Slices ![0, 5] S64x507
  broadcasts_S64x1_S64x507 : S64x1.Broadcasts S64x507
  inb_S64x57408_S64x507_0_2550 : ∀ a, (![0, 2550] : Fin 2 → Nat) a + S64x507.size a ≤ S64x57408.size a
  h_S64x507 : 0 < S64x507.numel
  slices_S64x512_o0_6_S64x1 : S64x512.Slices ![0, 6] S64x1
  slices_S64x512_o0_6_S64x506 : S64x512.Slices ![0, 6] S64x506
  broadcasts_S64x1_S64x506 : S64x1.Broadcasts S64x506
  inb_S64x57408_S64x506_0_3057 : ∀ a, (![0, 3057] : Fin 2 → Nat) a + S64x506.size a ≤ S64x57408.size a
  h_S64x506 : 0 < S64x506.numel
  slices_S64x512_o0_7_S64x1 : S64x512.Slices ![0, 7] S64x1
  slices_S64x512_o0_7_S64x505 : S64x512.Slices ![0, 7] S64x505
  broadcasts_S64x1_S64x505 : S64x1.Broadcasts S64x505
  inb_S64x57408_S64x505_0_3563 : ∀ a, (![0, 3563] : Fin 2 → Nat) a + S64x505.size a ≤ S64x57408.size a
  h_S64x505 : 0 < S64x505.numel
  slices_S64x512_o0_8_S64x1 : S64x512.Slices ![0, 8] S64x1
  slices_S64x512_o0_8_S64x504 : S64x512.Slices ![0, 8] S64x504
  broadcasts_S64x1_S64x504 : S64x1.Broadcasts S64x504
  inb_S64x57408_S64x504_0_4068 : ∀ a, (![0, 4068] : Fin 2 → Nat) a + S64x504.size a ≤ S64x57408.size a
  h_S64x504 : 0 < S64x504.numel
  slices_S64x512_o0_9_S64x1 : S64x512.Slices ![0, 9] S64x1
  slices_S64x512_o0_9_S64x503 : S64x512.Slices ![0, 9] S64x503
  broadcasts_S64x1_S64x503 : S64x1.Broadcasts S64x503
  inb_S64x57408_S64x503_0_4572 : ∀ a, (![0, 4572] : Fin 2 → Nat) a + S64x503.size a ≤ S64x57408.size a
  h_S64x503 : 0 < S64x503.numel
  slices_S64x512_o0_10_S64x1 : S64x512.Slices ![0, 10] S64x1
  slices_S64x512_o0_10_S64x502 : S64x512.Slices ![0, 10] S64x502
  broadcasts_S64x1_S64x502 : S64x1.Broadcasts S64x502
  inb_S64x57408_S64x502_0_5075 : ∀ a, (![0, 5075] : Fin 2 → Nat) a + S64x502.size a ≤ S64x57408.size a
  h_S64x502 : 0 < S64x502.numel
  slices_S64x512_o0_11_S64x1 : S64x512.Slices ![0, 11] S64x1
  slices_S64x512_o0_11_S64x501 : S64x512.Slices ![0, 11] S64x501
  broadcasts_S64x1_S64x501 : S64x1.Broadcasts S64x501
  inb_S64x57408_S64x501_0_5577 : ∀ a, (![0, 5577] : Fin 2 → Nat) a + S64x501.size a ≤ S64x57408.size a
  h_S64x501 : 0 < S64x501.numel
  slices_S64x512_o0_12_S64x1 : S64x512.Slices ![0, 12] S64x1
  slices_S64x512_o0_12_S64x500 : S64x512.Slices ![0, 12] S64x500
  broadcasts_S64x1_S64x500 : S64x1.Broadcasts S64x500
  inb_S64x57408_S64x500_0_6078 : ∀ a, (![0, 6078] : Fin 2 → Nat) a + S64x500.size a ≤ S64x57408.size a
  h_S64x500 : 0 < S64x500.numel
  slices_S64x512_o0_13_S64x1 : S64x512.Slices ![0, 13] S64x1
  slices_S64x512_o0_13_S64x499 : S64x512.Slices ![0, 13] S64x499
  broadcasts_S64x1_S64x499 : S64x1.Broadcasts S64x499
  inb_S64x57408_S64x499_0_6578 : ∀ a, (![0, 6578] : Fin 2 → Nat) a + S64x499.size a ≤ S64x57408.size a
  h_S64x499 : 0 < S64x499.numel
  slices_S64x512_o0_14_S64x1 : S64x512.Slices ![0, 14] S64x1
  slices_S64x512_o0_14_S64x498 : S64x512.Slices ![0, 14] S64x498
  broadcasts_S64x1_S64x498 : S64x1.Broadcasts S64x498
  inb_S64x57408_S64x498_0_7077 : ∀ a, (![0, 7077] : Fin 2 → Nat) a + S64x498.size a ≤ S64x57408.size a
  h_S64x498 : 0 < S64x498.numel
  slices_S64x512_o0_15_S64x1 : S64x512.Slices ![0, 15] S64x1
  slices_S64x512_o0_15_S64x497 : S64x512.Slices ![0, 15] S64x497
  broadcasts_S64x1_S64x497 : S64x1.Broadcasts S64x497
  inb_S64x57408_S64x497_0_7575 : ∀ a, (![0, 7575] : Fin 2 → Nat) a + S64x497.size a ≤ S64x57408.size a
  h_S64x497 : 0 < S64x497.numel
  slices_S64x512_o0_16_S64x1 : S64x512.Slices ![0, 16] S64x1
  slices_S64x512_o0_16_S64x496 : S64x512.Slices ![0, 16] S64x496
  broadcasts_S64x1_S64x496 : S64x1.Broadcasts S64x496
  inb_S64x57408_S64x496_0_8072 : ∀ a, (![0, 8072] : Fin 2 → Nat) a + S64x496.size a ≤ S64x57408.size a
  h_S64x496 : 0 < S64x496.numel
  slices_S64x512_o0_17_S64x1 : S64x512.Slices ![0, 17] S64x1
  slices_S64x512_o0_17_S64x495 : S64x512.Slices ![0, 17] S64x495
  broadcasts_S64x1_S64x495 : S64x1.Broadcasts S64x495
  inb_S64x57408_S64x495_0_8568 : ∀ a, (![0, 8568] : Fin 2 → Nat) a + S64x495.size a ≤ S64x57408.size a
  h_S64x495 : 0 < S64x495.numel
  slices_S64x512_o0_18_S64x1 : S64x512.Slices ![0, 18] S64x1
  slices_S64x512_o0_18_S64x494 : S64x512.Slices ![0, 18] S64x494
  broadcasts_S64x1_S64x494 : S64x1.Broadcasts S64x494
  inb_S64x57408_S64x494_0_9063 : ∀ a, (![0, 9063] : Fin 2 → Nat) a + S64x494.size a ≤ S64x57408.size a
  h_S64x494 : 0 < S64x494.numel
  slices_S64x512_o0_19_S64x1 : S64x512.Slices ![0, 19] S64x1
  slices_S64x512_o0_19_S64x493 : S64x512.Slices ![0, 19] S64x493
  broadcasts_S64x1_S64x493 : S64x1.Broadcasts S64x493
  inb_S64x57408_S64x493_0_9557 : ∀ a, (![0, 9557] : Fin 2 → Nat) a + S64x493.size a ≤ S64x57408.size a
  h_S64x493 : 0 < S64x493.numel
  slices_S64x512_o0_20_S64x1 : S64x512.Slices ![0, 20] S64x1
  slices_S64x512_o0_20_S64x492 : S64x512.Slices ![0, 20] S64x492
  broadcasts_S64x1_S64x492 : S64x1.Broadcasts S64x492
  inb_S64x57408_S64x492_0_10050 : ∀ a, (![0, 10050] : Fin 2 → Nat) a + S64x492.size a ≤ S64x57408.size a
  h_S64x492 : 0 < S64x492.numel
  slices_S64x512_o0_21_S64x1 : S64x512.Slices ![0, 21] S64x1
  slices_S64x512_o0_21_S64x491 : S64x512.Slices ![0, 21] S64x491
  broadcasts_S64x1_S64x491 : S64x1.Broadcasts S64x491
  inb_S64x57408_S64x491_0_10542 : ∀ a, (![0, 10542] : Fin 2 → Nat) a + S64x491.size a ≤ S64x57408.size a
  h_S64x491 : 0 < S64x491.numel
  slices_S64x512_o0_22_S64x1 : S64x512.Slices ![0, 22] S64x1
  slices_S64x512_o0_22_S64x490 : S64x512.Slices ![0, 22] S64x490
  broadcasts_S64x1_S64x490 : S64x1.Broadcasts S64x490
  inb_S64x57408_S64x490_0_11033 : ∀ a, (![0, 11033] : Fin 2 → Nat) a + S64x490.size a ≤ S64x57408.size a
  h_S64x490 : 0 < S64x490.numel
  slices_S64x512_o0_23_S64x1 : S64x512.Slices ![0, 23] S64x1
  slices_S64x512_o0_23_S64x489 : S64x512.Slices ![0, 23] S64x489
  broadcasts_S64x1_S64x489 : S64x1.Broadcasts S64x489
  inb_S64x57408_S64x489_0_11523 : ∀ a, (![0, 11523] : Fin 2 → Nat) a + S64x489.size a ≤ S64x57408.size a
  h_S64x489 : 0 < S64x489.numel
  slices_S64x512_o0_24_S64x1 : S64x512.Slices ![0, 24] S64x1
  slices_S64x512_o0_24_S64x488 : S64x512.Slices ![0, 24] S64x488
  broadcasts_S64x1_S64x488 : S64x1.Broadcasts S64x488
  inb_S64x57408_S64x488_0_12012 : ∀ a, (![0, 12012] : Fin 2 → Nat) a + S64x488.size a ≤ S64x57408.size a
  h_S64x488 : 0 < S64x488.numel
  slices_S64x512_o0_25_S64x1 : S64x512.Slices ![0, 25] S64x1
  slices_S64x512_o0_25_S64x487 : S64x512.Slices ![0, 25] S64x487
  broadcasts_S64x1_S64x487 : S64x1.Broadcasts S64x487
  inb_S64x57408_S64x487_0_12500 : ∀ a, (![0, 12500] : Fin 2 → Nat) a + S64x487.size a ≤ S64x57408.size a
  h_S64x487 : 0 < S64x487.numel
  slices_S64x512_o0_26_S64x1 : S64x512.Slices ![0, 26] S64x1
  slices_S64x512_o0_26_S64x486 : S64x512.Slices ![0, 26] S64x486
  broadcasts_S64x1_S64x486 : S64x1.Broadcasts S64x486
  inb_S64x57408_S64x486_0_12987 : ∀ a, (![0, 12987] : Fin 2 → Nat) a + S64x486.size a ≤ S64x57408.size a
  h_S64x486 : 0 < S64x486.numel
  slices_S64x512_o0_27_S64x1 : S64x512.Slices ![0, 27] S64x1
  slices_S64x512_o0_27_S64x485 : S64x512.Slices ![0, 27] S64x485
  broadcasts_S64x1_S64x485 : S64x1.Broadcasts S64x485
  inb_S64x57408_S64x485_0_13473 : ∀ a, (![0, 13473] : Fin 2 → Nat) a + S64x485.size a ≤ S64x57408.size a
  h_S64x485 : 0 < S64x485.numel
  slices_S64x512_o0_28_S64x1 : S64x512.Slices ![0, 28] S64x1
  slices_S64x512_o0_28_S64x484 : S64x512.Slices ![0, 28] S64x484
  broadcasts_S64x1_S64x484 : S64x1.Broadcasts S64x484
  inb_S64x57408_S64x484_0_13958 : ∀ a, (![0, 13958] : Fin 2 → Nat) a + S64x484.size a ≤ S64x57408.size a
  h_S64x484 : 0 < S64x484.numel
  slices_S64x512_o0_29_S64x1 : S64x512.Slices ![0, 29] S64x1
  slices_S64x512_o0_29_S64x483 : S64x512.Slices ![0, 29] S64x483
  broadcasts_S64x1_S64x483 : S64x1.Broadcasts S64x483
  inb_S64x57408_S64x483_0_14442 : ∀ a, (![0, 14442] : Fin 2 → Nat) a + S64x483.size a ≤ S64x57408.size a
  h_S64x483 : 0 < S64x483.numel
  slices_S64x512_o0_30_S64x1 : S64x512.Slices ![0, 30] S64x1
  slices_S64x512_o0_30_S64x482 : S64x512.Slices ![0, 30] S64x482
  broadcasts_S64x1_S64x482 : S64x1.Broadcasts S64x482
  inb_S64x57408_S64x482_0_14925 : ∀ a, (![0, 14925] : Fin 2 → Nat) a + S64x482.size a ≤ S64x57408.size a
  h_S64x482 : 0 < S64x482.numel
  slices_S64x512_o0_31_S64x1 : S64x512.Slices ![0, 31] S64x1
  slices_S64x512_o0_31_S64x481 : S64x512.Slices ![0, 31] S64x481
  broadcasts_S64x1_S64x481 : S64x1.Broadcasts S64x481
  inb_S64x57408_S64x481_0_15407 : ∀ a, (![0, 15407] : Fin 2 → Nat) a + S64x481.size a ≤ S64x57408.size a
  h_S64x481 : 0 < S64x481.numel
  slices_S64x512_o0_32_S64x1 : S64x512.Slices ![0, 32] S64x1
  slices_S64x512_o0_32_S64x480 : S64x512.Slices ![0, 32] S64x480
  broadcasts_S64x1_S64x480 : S64x1.Broadcasts S64x480
  inb_S64x57408_S64x480_0_15888 : ∀ a, (![0, 15888] : Fin 2 → Nat) a + S64x480.size a ≤ S64x57408.size a
  h_S64x480 : 0 < S64x480.numel
  slices_S64x512_o0_33_S64x1 : S64x512.Slices ![0, 33] S64x1
  slices_S64x512_o0_33_S64x479 : S64x512.Slices ![0, 33] S64x479
  broadcasts_S64x1_S64x479 : S64x1.Broadcasts S64x479
  inb_S64x57408_S64x479_0_16368 : ∀ a, (![0, 16368] : Fin 2 → Nat) a + S64x479.size a ≤ S64x57408.size a
  h_S64x479 : 0 < S64x479.numel
  slices_S64x512_o0_34_S64x1 : S64x512.Slices ![0, 34] S64x1
  slices_S64x512_o0_34_S64x478 : S64x512.Slices ![0, 34] S64x478
  broadcasts_S64x1_S64x478 : S64x1.Broadcasts S64x478
  inb_S64x57408_S64x478_0_16847 : ∀ a, (![0, 16847] : Fin 2 → Nat) a + S64x478.size a ≤ S64x57408.size a
  h_S64x478 : 0 < S64x478.numel
  slices_S64x512_o0_35_S64x1 : S64x512.Slices ![0, 35] S64x1
  slices_S64x512_o0_35_S64x477 : S64x512.Slices ![0, 35] S64x477
  broadcasts_S64x1_S64x477 : S64x1.Broadcasts S64x477
  inb_S64x57408_S64x477_0_17325 : ∀ a, (![0, 17325] : Fin 2 → Nat) a + S64x477.size a ≤ S64x57408.size a
  h_S64x477 : 0 < S64x477.numel
  slices_S64x512_o0_36_S64x1 : S64x512.Slices ![0, 36] S64x1
  slices_S64x512_o0_36_S64x476 : S64x512.Slices ![0, 36] S64x476
  broadcasts_S64x1_S64x476 : S64x1.Broadcasts S64x476
  inb_S64x57408_S64x476_0_17802 : ∀ a, (![0, 17802] : Fin 2 → Nat) a + S64x476.size a ≤ S64x57408.size a
  h_S64x476 : 0 < S64x476.numel
  slices_S64x512_o0_37_S64x1 : S64x512.Slices ![0, 37] S64x1
  slices_S64x512_o0_37_S64x475 : S64x512.Slices ![0, 37] S64x475
  broadcasts_S64x1_S64x475 : S64x1.Broadcasts S64x475
  inb_S64x57408_S64x475_0_18278 : ∀ a, (![0, 18278] : Fin 2 → Nat) a + S64x475.size a ≤ S64x57408.size a
  h_S64x475 : 0 < S64x475.numel
  slices_S64x512_o0_38_S64x1 : S64x512.Slices ![0, 38] S64x1
  slices_S64x512_o0_38_S64x474 : S64x512.Slices ![0, 38] S64x474
  broadcasts_S64x1_S64x474 : S64x1.Broadcasts S64x474
  inb_S64x57408_S64x474_0_18753 : ∀ a, (![0, 18753] : Fin 2 → Nat) a + S64x474.size a ≤ S64x57408.size a
  h_S64x474 : 0 < S64x474.numel
  slices_S64x512_o0_39_S64x1 : S64x512.Slices ![0, 39] S64x1
  slices_S64x512_o0_39_S64x473 : S64x512.Slices ![0, 39] S64x473
  broadcasts_S64x1_S64x473 : S64x1.Broadcasts S64x473
  inb_S64x57408_S64x473_0_19227 : ∀ a, (![0, 19227] : Fin 2 → Nat) a + S64x473.size a ≤ S64x57408.size a
  h_S64x473 : 0 < S64x473.numel
  slices_S64x512_o0_40_S64x1 : S64x512.Slices ![0, 40] S64x1
  slices_S64x512_o0_40_S64x472 : S64x512.Slices ![0, 40] S64x472
  broadcasts_S64x1_S64x472 : S64x1.Broadcasts S64x472
  inb_S64x57408_S64x472_0_19700 : ∀ a, (![0, 19700] : Fin 2 → Nat) a + S64x472.size a ≤ S64x57408.size a
  h_S64x472 : 0 < S64x472.numel
  slices_S64x512_o0_41_S64x1 : S64x512.Slices ![0, 41] S64x1
  slices_S64x512_o0_41_S64x471 : S64x512.Slices ![0, 41] S64x471
  broadcasts_S64x1_S64x471 : S64x1.Broadcasts S64x471
  inb_S64x57408_S64x471_0_20172 : ∀ a, (![0, 20172] : Fin 2 → Nat) a + S64x471.size a ≤ S64x57408.size a
  h_S64x471 : 0 < S64x471.numel
  slices_S64x512_o0_42_S64x1 : S64x512.Slices ![0, 42] S64x1
  slices_S64x512_o0_42_S64x470 : S64x512.Slices ![0, 42] S64x470
  broadcasts_S64x1_S64x470 : S64x1.Broadcasts S64x470
  inb_S64x57408_S64x470_0_20643 : ∀ a, (![0, 20643] : Fin 2 → Nat) a + S64x470.size a ≤ S64x57408.size a
  h_S64x470 : 0 < S64x470.numel
  slices_S64x512_o0_43_S64x1 : S64x512.Slices ![0, 43] S64x1
  slices_S64x512_o0_43_S64x469 : S64x512.Slices ![0, 43] S64x469
  broadcasts_S64x1_S64x469 : S64x1.Broadcasts S64x469
  inb_S64x57408_S64x469_0_21113 : ∀ a, (![0, 21113] : Fin 2 → Nat) a + S64x469.size a ≤ S64x57408.size a
  h_S64x469 : 0 < S64x469.numel
  slices_S64x512_o0_44_S64x1 : S64x512.Slices ![0, 44] S64x1
  slices_S64x512_o0_44_S64x468 : S64x512.Slices ![0, 44] S64x468
  broadcasts_S64x1_S64x468 : S64x1.Broadcasts S64x468
  inb_S64x57408_S64x468_0_21582 : ∀ a, (![0, 21582] : Fin 2 → Nat) a + S64x468.size a ≤ S64x57408.size a
  h_S64x468 : 0 < S64x468.numel
  slices_S64x512_o0_45_S64x1 : S64x512.Slices ![0, 45] S64x1
  slices_S64x512_o0_45_S64x467 : S64x512.Slices ![0, 45] S64x467
  broadcasts_S64x1_S64x467 : S64x1.Broadcasts S64x467
  inb_S64x57408_S64x467_0_22050 : ∀ a, (![0, 22050] : Fin 2 → Nat) a + S64x467.size a ≤ S64x57408.size a
  h_S64x467 : 0 < S64x467.numel
  slices_S64x512_o0_46_S64x1 : S64x512.Slices ![0, 46] S64x1
  slices_S64x512_o0_46_S64x466 : S64x512.Slices ![0, 46] S64x466
  broadcasts_S64x1_S64x466 : S64x1.Broadcasts S64x466
  inb_S64x57408_S64x466_0_22517 : ∀ a, (![0, 22517] : Fin 2 → Nat) a + S64x466.size a ≤ S64x57408.size a
  h_S64x466 : 0 < S64x466.numel
  slices_S64x512_o0_47_S64x1 : S64x512.Slices ![0, 47] S64x1
  slices_S64x512_o0_47_S64x465 : S64x512.Slices ![0, 47] S64x465
  broadcasts_S64x1_S64x465 : S64x1.Broadcasts S64x465
  inb_S64x57408_S64x465_0_22983 : ∀ a, (![0, 22983] : Fin 2 → Nat) a + S64x465.size a ≤ S64x57408.size a
  h_S64x465 : 0 < S64x465.numel
  slices_S64x512_o0_48_S64x1 : S64x512.Slices ![0, 48] S64x1
  slices_S64x512_o0_48_S64x464 : S64x512.Slices ![0, 48] S64x464
  broadcasts_S64x1_S64x464 : S64x1.Broadcasts S64x464
  inb_S64x57408_S64x464_0_23448 : ∀ a, (![0, 23448] : Fin 2 → Nat) a + S64x464.size a ≤ S64x57408.size a
  h_S64x464 : 0 < S64x464.numel
  slices_S64x512_o0_49_S64x1 : S64x512.Slices ![0, 49] S64x1
  slices_S64x512_o0_49_S64x463 : S64x512.Slices ![0, 49] S64x463
  broadcasts_S64x1_S64x463 : S64x1.Broadcasts S64x463
  inb_S64x57408_S64x463_0_23912 : ∀ a, (![0, 23912] : Fin 2 → Nat) a + S64x463.size a ≤ S64x57408.size a
  h_S64x463 : 0 < S64x463.numel
  slices_S64x512_o0_50_S64x1 : S64x512.Slices ![0, 50] S64x1
  slices_S64x512_o0_50_S64x462 : S64x512.Slices ![0, 50] S64x462
  broadcasts_S64x1_S64x462 : S64x1.Broadcasts S64x462
  inb_S64x57408_S64x462_0_24375 : ∀ a, (![0, 24375] : Fin 2 → Nat) a + S64x462.size a ≤ S64x57408.size a
  h_S64x462 : 0 < S64x462.numel
  slices_S64x512_o0_51_S64x1 : S64x512.Slices ![0, 51] S64x1
  slices_S64x512_o0_51_S64x461 : S64x512.Slices ![0, 51] S64x461
  broadcasts_S64x1_S64x461 : S64x1.Broadcasts S64x461
  inb_S64x57408_S64x461_0_24837 : ∀ a, (![0, 24837] : Fin 2 → Nat) a + S64x461.size a ≤ S64x57408.size a
  h_S64x461 : 0 < S64x461.numel
  slices_S64x512_o0_52_S64x1 : S64x512.Slices ![0, 52] S64x1
  slices_S64x512_o0_52_S64x460 : S64x512.Slices ![0, 52] S64x460
  broadcasts_S64x1_S64x460 : S64x1.Broadcasts S64x460
  inb_S64x57408_S64x460_0_25298 : ∀ a, (![0, 25298] : Fin 2 → Nat) a + S64x460.size a ≤ S64x57408.size a
  h_S64x460 : 0 < S64x460.numel
  slices_S64x512_o0_53_S64x1 : S64x512.Slices ![0, 53] S64x1
  slices_S64x512_o0_53_S64x459 : S64x512.Slices ![0, 53] S64x459
  broadcasts_S64x1_S64x459 : S64x1.Broadcasts S64x459
  inb_S64x57408_S64x459_0_25758 : ∀ a, (![0, 25758] : Fin 2 → Nat) a + S64x459.size a ≤ S64x57408.size a
  h_S64x459 : 0 < S64x459.numel
  slices_S64x512_o0_54_S64x1 : S64x512.Slices ![0, 54] S64x1
  slices_S64x512_o0_54_S64x458 : S64x512.Slices ![0, 54] S64x458
  broadcasts_S64x1_S64x458 : S64x1.Broadcasts S64x458
  inb_S64x57408_S64x458_0_26217 : ∀ a, (![0, 26217] : Fin 2 → Nat) a + S64x458.size a ≤ S64x57408.size a
  h_S64x458 : 0 < S64x458.numel
  slices_S64x512_o0_55_S64x1 : S64x512.Slices ![0, 55] S64x1
  slices_S64x512_o0_55_S64x457 : S64x512.Slices ![0, 55] S64x457
  broadcasts_S64x1_S64x457 : S64x1.Broadcasts S64x457
  inb_S64x57408_S64x457_0_26675 : ∀ a, (![0, 26675] : Fin 2 → Nat) a + S64x457.size a ≤ S64x57408.size a
  h_S64x457 : 0 < S64x457.numel
  slices_S64x512_o0_56_S64x1 : S64x512.Slices ![0, 56] S64x1
  slices_S64x512_o0_56_S64x456 : S64x512.Slices ![0, 56] S64x456
  broadcasts_S64x1_S64x456 : S64x1.Broadcasts S64x456
  inb_S64x57408_S64x456_0_27132 : ∀ a, (![0, 27132] : Fin 2 → Nat) a + S64x456.size a ≤ S64x57408.size a
  h_S64x456 : 0 < S64x456.numel
  slices_S64x512_o0_57_S64x1 : S64x512.Slices ![0, 57] S64x1
  slices_S64x512_o0_57_S64x455 : S64x512.Slices ![0, 57] S64x455
  broadcasts_S64x1_S64x455 : S64x1.Broadcasts S64x455
  inb_S64x57408_S64x455_0_27588 : ∀ a, (![0, 27588] : Fin 2 → Nat) a + S64x455.size a ≤ S64x57408.size a
  h_S64x455 : 0 < S64x455.numel
  slices_S64x512_o0_58_S64x1 : S64x512.Slices ![0, 58] S64x1
  slices_S64x512_o0_58_S64x454 : S64x512.Slices ![0, 58] S64x454
  broadcasts_S64x1_S64x454 : S64x1.Broadcasts S64x454
  inb_S64x57408_S64x454_0_28043 : ∀ a, (![0, 28043] : Fin 2 → Nat) a + S64x454.size a ≤ S64x57408.size a
  h_S64x454 : 0 < S64x454.numel
  slices_S64x512_o0_59_S64x1 : S64x512.Slices ![0, 59] S64x1
  slices_S64x512_o0_59_S64x453 : S64x512.Slices ![0, 59] S64x453
  broadcasts_S64x1_S64x453 : S64x1.Broadcasts S64x453
  inb_S64x57408_S64x453_0_28497 : ∀ a, (![0, 28497] : Fin 2 → Nat) a + S64x453.size a ≤ S64x57408.size a
  h_S64x453 : 0 < S64x453.numel
  slices_S64x512_o0_60_S64x1 : S64x512.Slices ![0, 60] S64x1
  slices_S64x512_o0_60_S64x452 : S64x512.Slices ![0, 60] S64x452
  broadcasts_S64x1_S64x452 : S64x1.Broadcasts S64x452
  inb_S64x57408_S64x452_0_28950 : ∀ a, (![0, 28950] : Fin 2 → Nat) a + S64x452.size a ≤ S64x57408.size a
  h_S64x452 : 0 < S64x452.numel
  slices_S64x512_o0_61_S64x1 : S64x512.Slices ![0, 61] S64x1
  slices_S64x512_o0_61_S64x451 : S64x512.Slices ![0, 61] S64x451
  broadcasts_S64x1_S64x451 : S64x1.Broadcasts S64x451
  inb_S64x57408_S64x451_0_29402 : ∀ a, (![0, 29402] : Fin 2 → Nat) a + S64x451.size a ≤ S64x57408.size a
  h_S64x451 : 0 < S64x451.numel
  slices_S64x512_o0_62_S64x1 : S64x512.Slices ![0, 62] S64x1
  slices_S64x512_o0_62_S64x450 : S64x512.Slices ![0, 62] S64x450
  broadcasts_S64x1_S64x450 : S64x1.Broadcasts S64x450
  inb_S64x57408_S64x450_0_29853 : ∀ a, (![0, 29853] : Fin 2 → Nat) a + S64x450.size a ≤ S64x57408.size a
  h_S64x450 : 0 < S64x450.numel
  slices_S64x512_o0_63_S64x1 : S64x512.Slices ![0, 63] S64x1
  slices_S64x512_o0_63_S64x449 : S64x512.Slices ![0, 63] S64x449
  broadcasts_S64x1_S64x449 : S64x1.Broadcasts S64x449
  inb_S64x57408_S64x449_0_30303 : ∀ a, (![0, 30303] : Fin 2 → Nat) a + S64x449.size a ≤ S64x57408.size a
  h_S64x449 : 0 < S64x449.numel
  slices_S64x512_o0_64_S64x1 : S64x512.Slices ![0, 64] S64x1
  slices_S64x512_o0_64_S64x448 : S64x512.Slices ![0, 64] S64x448
  broadcasts_S64x1_S64x448 : S64x1.Broadcasts S64x448
  inb_S64x57408_S64x448_0_30752 : ∀ a, (![0, 30752] : Fin 2 → Nat) a + S64x448.size a ≤ S64x57408.size a
  h_S64x448 : 0 < S64x448.numel
  slices_S64x512_o0_65_S64x1 : S64x512.Slices ![0, 65] S64x1
  slices_S64x512_o0_65_S64x447 : S64x512.Slices ![0, 65] S64x447
  broadcasts_S64x1_S64x447 : S64x1.Broadcasts S64x447
  inb_S64x57408_S64x447_0_31200 : ∀ a, (![0, 31200] : Fin 2 → Nat) a + S64x447.size a ≤ S64x57408.size a
  h_S64x447 : 0 < S64x447.numel
  slices_S64x512_o0_66_S64x1 : S64x512.Slices ![0, 66] S64x1
  slices_S64x512_o0_66_S64x446 : S64x512.Slices ![0, 66] S64x446
  broadcasts_S64x1_S64x446 : S64x1.Broadcasts S64x446
  inb_S64x57408_S64x446_0_31647 : ∀ a, (![0, 31647] : Fin 2 → Nat) a + S64x446.size a ≤ S64x57408.size a
  h_S64x446 : 0 < S64x446.numel
  slices_S64x512_o0_67_S64x1 : S64x512.Slices ![0, 67] S64x1
  slices_S64x512_o0_67_S64x445 : S64x512.Slices ![0, 67] S64x445
  broadcasts_S64x1_S64x445 : S64x1.Broadcasts S64x445
  inb_S64x57408_S64x445_0_32093 : ∀ a, (![0, 32093] : Fin 2 → Nat) a + S64x445.size a ≤ S64x57408.size a
  h_S64x445 : 0 < S64x445.numel
  slices_S64x512_o0_68_S64x1 : S64x512.Slices ![0, 68] S64x1
  slices_S64x512_o0_68_S64x444 : S64x512.Slices ![0, 68] S64x444
  broadcasts_S64x1_S64x444 : S64x1.Broadcasts S64x444
  inb_S64x57408_S64x444_0_32538 : ∀ a, (![0, 32538] : Fin 2 → Nat) a + S64x444.size a ≤ S64x57408.size a
  h_S64x444 : 0 < S64x444.numel
  slices_S64x512_o0_69_S64x1 : S64x512.Slices ![0, 69] S64x1
  slices_S64x512_o0_69_S64x443 : S64x512.Slices ![0, 69] S64x443
  broadcasts_S64x1_S64x443 : S64x1.Broadcasts S64x443
  inb_S64x57408_S64x443_0_32982 : ∀ a, (![0, 32982] : Fin 2 → Nat) a + S64x443.size a ≤ S64x57408.size a
  h_S64x443 : 0 < S64x443.numel
  slices_S64x512_o0_70_S64x1 : S64x512.Slices ![0, 70] S64x1
  slices_S64x512_o0_70_S64x442 : S64x512.Slices ![0, 70] S64x442
  broadcasts_S64x1_S64x442 : S64x1.Broadcasts S64x442
  inb_S64x57408_S64x442_0_33425 : ∀ a, (![0, 33425] : Fin 2 → Nat) a + S64x442.size a ≤ S64x57408.size a
  h_S64x442 : 0 < S64x442.numel
  slices_S64x512_o0_71_S64x1 : S64x512.Slices ![0, 71] S64x1
  slices_S64x512_o0_71_S64x441 : S64x512.Slices ![0, 71] S64x441
  broadcasts_S64x1_S64x441 : S64x1.Broadcasts S64x441
  inb_S64x57408_S64x441_0_33867 : ∀ a, (![0, 33867] : Fin 2 → Nat) a + S64x441.size a ≤ S64x57408.size a
  h_S64x441 : 0 < S64x441.numel
  slices_S64x512_o0_72_S64x1 : S64x512.Slices ![0, 72] S64x1
  slices_S64x512_o0_72_S64x440 : S64x512.Slices ![0, 72] S64x440
  broadcasts_S64x1_S64x440 : S64x1.Broadcasts S64x440
  inb_S64x57408_S64x440_0_34308 : ∀ a, (![0, 34308] : Fin 2 → Nat) a + S64x440.size a ≤ S64x57408.size a
  h_S64x440 : 0 < S64x440.numel
  slices_S64x512_o0_73_S64x1 : S64x512.Slices ![0, 73] S64x1
  slices_S64x512_o0_73_S64x439 : S64x512.Slices ![0, 73] S64x439
  broadcasts_S64x1_S64x439 : S64x1.Broadcasts S64x439
  inb_S64x57408_S64x439_0_34748 : ∀ a, (![0, 34748] : Fin 2 → Nat) a + S64x439.size a ≤ S64x57408.size a
  h_S64x439 : 0 < S64x439.numel
  slices_S64x512_o0_74_S64x1 : S64x512.Slices ![0, 74] S64x1
  slices_S64x512_o0_74_S64x438 : S64x512.Slices ![0, 74] S64x438
  broadcasts_S64x1_S64x438 : S64x1.Broadcasts S64x438
  inb_S64x57408_S64x438_0_35187 : ∀ a, (![0, 35187] : Fin 2 → Nat) a + S64x438.size a ≤ S64x57408.size a
  h_S64x438 : 0 < S64x438.numel
  slices_S64x512_o0_75_S64x1 : S64x512.Slices ![0, 75] S64x1
  slices_S64x512_o0_75_S64x437 : S64x512.Slices ![0, 75] S64x437
  broadcasts_S64x1_S64x437 : S64x1.Broadcasts S64x437
  inb_S64x57408_S64x437_0_35625 : ∀ a, (![0, 35625] : Fin 2 → Nat) a + S64x437.size a ≤ S64x57408.size a
  h_S64x437 : 0 < S64x437.numel
  slices_S64x512_o0_76_S64x1 : S64x512.Slices ![0, 76] S64x1
  slices_S64x512_o0_76_S64x436 : S64x512.Slices ![0, 76] S64x436
  broadcasts_S64x1_S64x436 : S64x1.Broadcasts S64x436
  inb_S64x57408_S64x436_0_36062 : ∀ a, (![0, 36062] : Fin 2 → Nat) a + S64x436.size a ≤ S64x57408.size a
  h_S64x436 : 0 < S64x436.numel
  slices_S64x512_o0_77_S64x1 : S64x512.Slices ![0, 77] S64x1
  slices_S64x512_o0_77_S64x435 : S64x512.Slices ![0, 77] S64x435
  broadcasts_S64x1_S64x435 : S64x1.Broadcasts S64x435
  inb_S64x57408_S64x435_0_36498 : ∀ a, (![0, 36498] : Fin 2 → Nat) a + S64x435.size a ≤ S64x57408.size a
  h_S64x435 : 0 < S64x435.numel
  slices_S64x512_o0_78_S64x1 : S64x512.Slices ![0, 78] S64x1
  slices_S64x512_o0_78_S64x434 : S64x512.Slices ![0, 78] S64x434
  broadcasts_S64x1_S64x434 : S64x1.Broadcasts S64x434
  inb_S64x57408_S64x434_0_36933 : ∀ a, (![0, 36933] : Fin 2 → Nat) a + S64x434.size a ≤ S64x57408.size a
  h_S64x434 : 0 < S64x434.numel
  slices_S64x512_o0_79_S64x1 : S64x512.Slices ![0, 79] S64x1
  slices_S64x512_o0_79_S64x433 : S64x512.Slices ![0, 79] S64x433
  broadcasts_S64x1_S64x433 : S64x1.Broadcasts S64x433
  inb_S64x57408_S64x433_0_37367 : ∀ a, (![0, 37367] : Fin 2 → Nat) a + S64x433.size a ≤ S64x57408.size a
  h_S64x433 : 0 < S64x433.numel
  slices_S64x512_o0_80_S64x1 : S64x512.Slices ![0, 80] S64x1
  slices_S64x512_o0_80_S64x432 : S64x512.Slices ![0, 80] S64x432
  broadcasts_S64x1_S64x432 : S64x1.Broadcasts S64x432
  inb_S64x57408_S64x432_0_37800 : ∀ a, (![0, 37800] : Fin 2 → Nat) a + S64x432.size a ≤ S64x57408.size a
  h_S64x432 : 0 < S64x432.numel
  slices_S64x512_o0_81_S64x1 : S64x512.Slices ![0, 81] S64x1
  slices_S64x512_o0_81_S64x431 : S64x512.Slices ![0, 81] S64x431
  broadcasts_S64x1_S64x431 : S64x1.Broadcasts S64x431
  inb_S64x57408_S64x431_0_38232 : ∀ a, (![0, 38232] : Fin 2 → Nat) a + S64x431.size a ≤ S64x57408.size a
  h_S64x431 : 0 < S64x431.numel
  slices_S64x512_o0_82_S64x1 : S64x512.Slices ![0, 82] S64x1
  slices_S64x512_o0_82_S64x430 : S64x512.Slices ![0, 82] S64x430
  broadcasts_S64x1_S64x430 : S64x1.Broadcasts S64x430
  inb_S64x57408_S64x430_0_38663 : ∀ a, (![0, 38663] : Fin 2 → Nat) a + S64x430.size a ≤ S64x57408.size a
  h_S64x430 : 0 < S64x430.numel
  slices_S64x512_o0_83_S64x1 : S64x512.Slices ![0, 83] S64x1
  slices_S64x512_o0_83_S64x429 : S64x512.Slices ![0, 83] S64x429
  broadcasts_S64x1_S64x429 : S64x1.Broadcasts S64x429
  inb_S64x57408_S64x429_0_39093 : ∀ a, (![0, 39093] : Fin 2 → Nat) a + S64x429.size a ≤ S64x57408.size a
  h_S64x429 : 0 < S64x429.numel
  slices_S64x512_o0_84_S64x1 : S64x512.Slices ![0, 84] S64x1
  slices_S64x512_o0_84_S64x428 : S64x512.Slices ![0, 84] S64x428
  broadcasts_S64x1_S64x428 : S64x1.Broadcasts S64x428
  inb_S64x57408_S64x428_0_39522 : ∀ a, (![0, 39522] : Fin 2 → Nat) a + S64x428.size a ≤ S64x57408.size a
  h_S64x428 : 0 < S64x428.numel
  slices_S64x512_o0_85_S64x1 : S64x512.Slices ![0, 85] S64x1
  slices_S64x512_o0_85_S64x427 : S64x512.Slices ![0, 85] S64x427
  broadcasts_S64x1_S64x427 : S64x1.Broadcasts S64x427
  inb_S64x57408_S64x427_0_39950 : ∀ a, (![0, 39950] : Fin 2 → Nat) a + S64x427.size a ≤ S64x57408.size a
  h_S64x427 : 0 < S64x427.numel
  slices_S64x512_o0_86_S64x1 : S64x512.Slices ![0, 86] S64x1
  slices_S64x512_o0_86_S64x426 : S64x512.Slices ![0, 86] S64x426
  broadcasts_S64x1_S64x426 : S64x1.Broadcasts S64x426
  inb_S64x57408_S64x426_0_40377 : ∀ a, (![0, 40377] : Fin 2 → Nat) a + S64x426.size a ≤ S64x57408.size a
  h_S64x426 : 0 < S64x426.numel
  slices_S64x512_o0_87_S64x1 : S64x512.Slices ![0, 87] S64x1
  slices_S64x512_o0_87_S64x425 : S64x512.Slices ![0, 87] S64x425
  broadcasts_S64x1_S64x425 : S64x1.Broadcasts S64x425
  inb_S64x57408_S64x425_0_40803 : ∀ a, (![0, 40803] : Fin 2 → Nat) a + S64x425.size a ≤ S64x57408.size a
  h_S64x425 : 0 < S64x425.numel
  slices_S64x512_o0_88_S64x1 : S64x512.Slices ![0, 88] S64x1
  slices_S64x512_o0_88_S64x424 : S64x512.Slices ![0, 88] S64x424
  broadcasts_S64x1_S64x424 : S64x1.Broadcasts S64x424
  inb_S64x57408_S64x424_0_41228 : ∀ a, (![0, 41228] : Fin 2 → Nat) a + S64x424.size a ≤ S64x57408.size a
  h_S64x424 : 0 < S64x424.numel
  slices_S64x512_o0_89_S64x1 : S64x512.Slices ![0, 89] S64x1
  slices_S64x512_o0_89_S64x423 : S64x512.Slices ![0, 89] S64x423
  broadcasts_S64x1_S64x423 : S64x1.Broadcasts S64x423
  inb_S64x57408_S64x423_0_41652 : ∀ a, (![0, 41652] : Fin 2 → Nat) a + S64x423.size a ≤ S64x57408.size a
  h_S64x423 : 0 < S64x423.numel
  slices_S64x512_o0_90_S64x1 : S64x512.Slices ![0, 90] S64x1
  slices_S64x512_o0_90_S64x422 : S64x512.Slices ![0, 90] S64x422
  broadcasts_S64x1_S64x422 : S64x1.Broadcasts S64x422
  inb_S64x57408_S64x422_0_42075 : ∀ a, (![0, 42075] : Fin 2 → Nat) a + S64x422.size a ≤ S64x57408.size a
  h_S64x422 : 0 < S64x422.numel
  slices_S64x512_o0_91_S64x1 : S64x512.Slices ![0, 91] S64x1
  slices_S64x512_o0_91_S64x421 : S64x512.Slices ![0, 91] S64x421
  broadcasts_S64x1_S64x421 : S64x1.Broadcasts S64x421
  inb_S64x57408_S64x421_0_42497 : ∀ a, (![0, 42497] : Fin 2 → Nat) a + S64x421.size a ≤ S64x57408.size a
  h_S64x421 : 0 < S64x421.numel
  slices_S64x512_o0_92_S64x1 : S64x512.Slices ![0, 92] S64x1
  slices_S64x512_o0_92_S64x420 : S64x512.Slices ![0, 92] S64x420
  broadcasts_S64x1_S64x420 : S64x1.Broadcasts S64x420
  inb_S64x57408_S64x420_0_42918 : ∀ a, (![0, 42918] : Fin 2 → Nat) a + S64x420.size a ≤ S64x57408.size a
  h_S64x420 : 0 < S64x420.numel
  slices_S64x512_o0_93_S64x1 : S64x512.Slices ![0, 93] S64x1
  slices_S64x512_o0_93_S64x419 : S64x512.Slices ![0, 93] S64x419
  broadcasts_S64x1_S64x419 : S64x1.Broadcasts S64x419
  inb_S64x57408_S64x419_0_43338 : ∀ a, (![0, 43338] : Fin 2 → Nat) a + S64x419.size a ≤ S64x57408.size a
  h_S64x419 : 0 < S64x419.numel
  slices_S64x512_o0_94_S64x1 : S64x512.Slices ![0, 94] S64x1
  slices_S64x512_o0_94_S64x418 : S64x512.Slices ![0, 94] S64x418
  broadcasts_S64x1_S64x418 : S64x1.Broadcasts S64x418
  inb_S64x57408_S64x418_0_43757 : ∀ a, (![0, 43757] : Fin 2 → Nat) a + S64x418.size a ≤ S64x57408.size a
  h_S64x418 : 0 < S64x418.numel
  slices_S64x512_o0_95_S64x1 : S64x512.Slices ![0, 95] S64x1
  slices_S64x512_o0_95_S64x417 : S64x512.Slices ![0, 95] S64x417
  broadcasts_S64x1_S64x417 : S64x1.Broadcasts S64x417
  inb_S64x57408_S64x417_0_44175 : ∀ a, (![0, 44175] : Fin 2 → Nat) a + S64x417.size a ≤ S64x57408.size a
  h_S64x417 : 0 < S64x417.numel
  slices_S64x512_o0_96_S64x1 : S64x512.Slices ![0, 96] S64x1
  slices_S64x512_o0_96_S64x416 : S64x512.Slices ![0, 96] S64x416
  broadcasts_S64x1_S64x416 : S64x1.Broadcasts S64x416
  inb_S64x57408_S64x416_0_44592 : ∀ a, (![0, 44592] : Fin 2 → Nat) a + S64x416.size a ≤ S64x57408.size a
  h_S64x416 : 0 < S64x416.numel
  slices_S64x512_o0_97_S64x1 : S64x512.Slices ![0, 97] S64x1
  slices_S64x512_o0_97_S64x415 : S64x512.Slices ![0, 97] S64x415
  broadcasts_S64x1_S64x415 : S64x1.Broadcasts S64x415
  inb_S64x57408_S64x415_0_45008 : ∀ a, (![0, 45008] : Fin 2 → Nat) a + S64x415.size a ≤ S64x57408.size a
  h_S64x415 : 0 < S64x415.numel
  slices_S64x512_o0_98_S64x1 : S64x512.Slices ![0, 98] S64x1
  slices_S64x512_o0_98_S64x414 : S64x512.Slices ![0, 98] S64x414
  broadcasts_S64x1_S64x414 : S64x1.Broadcasts S64x414
  inb_S64x57408_S64x414_0_45423 : ∀ a, (![0, 45423] : Fin 2 → Nat) a + S64x414.size a ≤ S64x57408.size a
  h_S64x414 : 0 < S64x414.numel
  slices_S64x512_o0_99_S64x1 : S64x512.Slices ![0, 99] S64x1
  slices_S64x512_o0_99_S64x413 : S64x512.Slices ![0, 99] S64x413
  broadcasts_S64x1_S64x413 : S64x1.Broadcasts S64x413
  inb_S64x57408_S64x413_0_45837 : ∀ a, (![0, 45837] : Fin 2 → Nat) a + S64x413.size a ≤ S64x57408.size a
  h_S64x413 : 0 < S64x413.numel
  slices_S64x512_o0_100_S64x1 : S64x512.Slices ![0, 100] S64x1
  slices_S64x512_o0_100_S64x412 : S64x512.Slices ![0, 100] S64x412
  broadcasts_S64x1_S64x412 : S64x1.Broadcasts S64x412
  inb_S64x57408_S64x412_0_46250 : ∀ a, (![0, 46250] : Fin 2 → Nat) a + S64x412.size a ≤ S64x57408.size a
  h_S64x412 : 0 < S64x412.numel
  slices_S64x512_o0_101_S64x1 : S64x512.Slices ![0, 101] S64x1
  slices_S64x512_o0_101_S64x411 : S64x512.Slices ![0, 101] S64x411
  broadcasts_S64x1_S64x411 : S64x1.Broadcasts S64x411
  inb_S64x57408_S64x411_0_46662 : ∀ a, (![0, 46662] : Fin 2 → Nat) a + S64x411.size a ≤ S64x57408.size a
  h_S64x411 : 0 < S64x411.numel
  slices_S64x512_o0_102_S64x1 : S64x512.Slices ![0, 102] S64x1
  slices_S64x512_o0_102_S64x410 : S64x512.Slices ![0, 102] S64x410
  broadcasts_S64x1_S64x410 : S64x1.Broadcasts S64x410
  inb_S64x57408_S64x410_0_47073 : ∀ a, (![0, 47073] : Fin 2 → Nat) a + S64x410.size a ≤ S64x57408.size a
  h_S64x410 : 0 < S64x410.numel
  slices_S64x512_o0_103_S64x1 : S64x512.Slices ![0, 103] S64x1
  slices_S64x512_o0_103_S64x409 : S64x512.Slices ![0, 103] S64x409
  broadcasts_S64x1_S64x409 : S64x1.Broadcasts S64x409
  inb_S64x57408_S64x409_0_47483 : ∀ a, (![0, 47483] : Fin 2 → Nat) a + S64x409.size a ≤ S64x57408.size a
  h_S64x409 : 0 < S64x409.numel
  slices_S64x512_o0_104_S64x1 : S64x512.Slices ![0, 104] S64x1
  slices_S64x512_o0_104_S64x408 : S64x512.Slices ![0, 104] S64x408
  broadcasts_S64x1_S64x408 : S64x1.Broadcasts S64x408
  inb_S64x57408_S64x408_0_47892 : ∀ a, (![0, 47892] : Fin 2 → Nat) a + S64x408.size a ≤ S64x57408.size a
  h_S64x408 : 0 < S64x408.numel
  slices_S64x512_o0_105_S64x1 : S64x512.Slices ![0, 105] S64x1
  slices_S64x512_o0_105_S64x407 : S64x512.Slices ![0, 105] S64x407
  broadcasts_S64x1_S64x407 : S64x1.Broadcasts S64x407
  inb_S64x57408_S64x407_0_48300 : ∀ a, (![0, 48300] : Fin 2 → Nat) a + S64x407.size a ≤ S64x57408.size a
  h_S64x407 : 0 < S64x407.numel
  slices_S64x512_o0_106_S64x1 : S64x512.Slices ![0, 106] S64x1
  slices_S64x512_o0_106_S64x406 : S64x512.Slices ![0, 106] S64x406
  broadcasts_S64x1_S64x406 : S64x1.Broadcasts S64x406
  inb_S64x57408_S64x406_0_48707 : ∀ a, (![0, 48707] : Fin 2 → Nat) a + S64x406.size a ≤ S64x57408.size a
  h_S64x406 : 0 < S64x406.numel
  slices_S64x512_o0_107_S64x1 : S64x512.Slices ![0, 107] S64x1
  slices_S64x512_o0_107_S64x405 : S64x512.Slices ![0, 107] S64x405
  broadcasts_S64x1_S64x405 : S64x1.Broadcasts S64x405
  inb_S64x57408_S64x405_0_49113 : ∀ a, (![0, 49113] : Fin 2 → Nat) a + S64x405.size a ≤ S64x57408.size a
  h_S64x405 : 0 < S64x405.numel
  slices_S64x512_o0_108_S64x1 : S64x512.Slices ![0, 108] S64x1
  slices_S64x512_o0_108_S64x404 : S64x512.Slices ![0, 108] S64x404
  broadcasts_S64x1_S64x404 : S64x1.Broadcasts S64x404
  inb_S64x57408_S64x404_0_49518 : ∀ a, (![0, 49518] : Fin 2 → Nat) a + S64x404.size a ≤ S64x57408.size a
  h_S64x404 : 0 < S64x404.numel
  slices_S64x512_o0_109_S64x1 : S64x512.Slices ![0, 109] S64x1
  slices_S64x512_o0_109_S64x403 : S64x512.Slices ![0, 109] S64x403
  broadcasts_S64x1_S64x403 : S64x1.Broadcasts S64x403
  inb_S64x57408_S64x403_0_49922 : ∀ a, (![0, 49922] : Fin 2 → Nat) a + S64x403.size a ≤ S64x57408.size a
  h_S64x403 : 0 < S64x403.numel
  slices_S64x512_o0_110_S64x1 : S64x512.Slices ![0, 110] S64x1
  slices_S64x512_o0_110_S64x402 : S64x512.Slices ![0, 110] S64x402
  broadcasts_S64x1_S64x402 : S64x1.Broadcasts S64x402
  inb_S64x57408_S64x402_0_50325 : ∀ a, (![0, 50325] : Fin 2 → Nat) a + S64x402.size a ≤ S64x57408.size a
  h_S64x402 : 0 < S64x402.numel
  slices_S64x512_o0_111_S64x1 : S64x512.Slices ![0, 111] S64x1
  slices_S64x512_o0_111_S64x401 : S64x512.Slices ![0, 111] S64x401
  broadcasts_S64x1_S64x401 : S64x1.Broadcasts S64x401
  inb_S64x57408_S64x401_0_50727 : ∀ a, (![0, 50727] : Fin 2 → Nat) a + S64x401.size a ≤ S64x57408.size a
  h_S64x401 : 0 < S64x401.numel
  slices_S64x512_o0_112_S64x1 : S64x512.Slices ![0, 112] S64x1
  slices_S64x512_o0_112_S64x400 : S64x512.Slices ![0, 112] S64x400
  broadcasts_S64x1_S64x400 : S64x1.Broadcasts S64x400
  inb_S64x57408_S64x400_0_51128 : ∀ a, (![0, 51128] : Fin 2 → Nat) a + S64x400.size a ≤ S64x57408.size a
  h_S64x400 : 0 < S64x400.numel
  slices_S64x512_o0_113_S64x1 : S64x512.Slices ![0, 113] S64x1
  slices_S64x512_o0_113_S64x399 : S64x512.Slices ![0, 113] S64x399
  broadcasts_S64x1_S64x399 : S64x1.Broadcasts S64x399
  inb_S64x57408_S64x399_0_51528 : ∀ a, (![0, 51528] : Fin 2 → Nat) a + S64x399.size a ≤ S64x57408.size a
  h_S64x399 : 0 < S64x399.numel
  slices_S64x512_o0_114_S64x1 : S64x512.Slices ![0, 114] S64x1
  slices_S64x512_o0_114_S64x398 : S64x512.Slices ![0, 114] S64x398
  broadcasts_S64x1_S64x398 : S64x1.Broadcasts S64x398
  inb_S64x57408_S64x398_0_51927 : ∀ a, (![0, 51927] : Fin 2 → Nat) a + S64x398.size a ≤ S64x57408.size a
  h_S64x398 : 0 < S64x398.numel
  slices_S64x512_o0_115_S64x1 : S64x512.Slices ![0, 115] S64x1
  slices_S64x512_o0_115_S64x397 : S64x512.Slices ![0, 115] S64x397
  broadcasts_S64x1_S64x397 : S64x1.Broadcasts S64x397
  inb_S64x57408_S64x397_0_52325 : ∀ a, (![0, 52325] : Fin 2 → Nat) a + S64x397.size a ≤ S64x57408.size a
  h_S64x397 : 0 < S64x397.numel
  slices_S64x512_o0_116_S64x1 : S64x512.Slices ![0, 116] S64x1
  slices_S64x512_o0_116_S64x396 : S64x512.Slices ![0, 116] S64x396
  broadcasts_S64x1_S64x396 : S64x1.Broadcasts S64x396
  inb_S64x57408_S64x396_0_52722 : ∀ a, (![0, 52722] : Fin 2 → Nat) a + S64x396.size a ≤ S64x57408.size a
  h_S64x396 : 0 < S64x396.numel
  slices_S64x512_o0_117_S64x1 : S64x512.Slices ![0, 117] S64x1
  slices_S64x512_o0_117_S64x395 : S64x512.Slices ![0, 117] S64x395
  broadcasts_S64x1_S64x395 : S64x1.Broadcasts S64x395
  inb_S64x57408_S64x395_0_53118 : ∀ a, (![0, 53118] : Fin 2 → Nat) a + S64x395.size a ≤ S64x57408.size a
  h_S64x395 : 0 < S64x395.numel
  slices_S64x512_o0_118_S64x1 : S64x512.Slices ![0, 118] S64x1
  slices_S64x512_o0_118_S64x394 : S64x512.Slices ![0, 118] S64x394
  broadcasts_S64x1_S64x394 : S64x1.Broadcasts S64x394
  inb_S64x57408_S64x394_0_53513 : ∀ a, (![0, 53513] : Fin 2 → Nat) a + S64x394.size a ≤ S64x57408.size a
  h_S64x394 : 0 < S64x394.numel
  slices_S64x512_o0_119_S64x1 : S64x512.Slices ![0, 119] S64x1
  slices_S64x512_o0_119_S64x393 : S64x512.Slices ![0, 119] S64x393
  broadcasts_S64x1_S64x393 : S64x1.Broadcasts S64x393
  inb_S64x57408_S64x393_0_53907 : ∀ a, (![0, 53907] : Fin 2 → Nat) a + S64x393.size a ≤ S64x57408.size a
  h_S64x393 : 0 < S64x393.numel
  slices_S64x512_o0_120_S64x1 : S64x512.Slices ![0, 120] S64x1
  slices_S64x512_o0_120_S64x392 : S64x512.Slices ![0, 120] S64x392
  broadcasts_S64x1_S64x392 : S64x1.Broadcasts S64x392
  inb_S64x57408_S64x392_0_54300 : ∀ a, (![0, 54300] : Fin 2 → Nat) a + S64x392.size a ≤ S64x57408.size a
  h_S64x392 : 0 < S64x392.numel
  slices_S64x512_o0_121_S64x1 : S64x512.Slices ![0, 121] S64x1
  slices_S64x512_o0_121_S64x391 : S64x512.Slices ![0, 121] S64x391
  broadcasts_S64x1_S64x391 : S64x1.Broadcasts S64x391
  inb_S64x57408_S64x391_0_54692 : ∀ a, (![0, 54692] : Fin 2 → Nat) a + S64x391.size a ≤ S64x57408.size a
  h_S64x391 : 0 < S64x391.numel
  slices_S64x512_o0_122_S64x1 : S64x512.Slices ![0, 122] S64x1
  slices_S64x512_o0_122_S64x390 : S64x512.Slices ![0, 122] S64x390
  broadcasts_S64x1_S64x390 : S64x1.Broadcasts S64x390
  inb_S64x57408_S64x390_0_55083 : ∀ a, (![0, 55083] : Fin 2 → Nat) a + S64x390.size a ≤ S64x57408.size a
  h_S64x390 : 0 < S64x390.numel
  slices_S64x512_o0_123_S64x1 : S64x512.Slices ![0, 123] S64x1
  slices_S64x512_o0_123_S64x389 : S64x512.Slices ![0, 123] S64x389
  broadcasts_S64x1_S64x389 : S64x1.Broadcasts S64x389
  inb_S64x57408_S64x389_0_55473 : ∀ a, (![0, 55473] : Fin 2 → Nat) a + S64x389.size a ≤ S64x57408.size a
  h_S64x389 : 0 < S64x389.numel
  slices_S64x512_o0_124_S64x1 : S64x512.Slices ![0, 124] S64x1
  slices_S64x512_o0_124_S64x388 : S64x512.Slices ![0, 124] S64x388
  broadcasts_S64x1_S64x388 : S64x1.Broadcasts S64x388
  inb_S64x57408_S64x388_0_55862 : ∀ a, (![0, 55862] : Fin 2 → Nat) a + S64x388.size a ≤ S64x57408.size a
  h_S64x388 : 0 < S64x388.numel
  slices_S64x512_o0_125_S64x1 : S64x512.Slices ![0, 125] S64x1
  slices_S64x512_o0_125_S64x387 : S64x512.Slices ![0, 125] S64x387
  broadcasts_S64x1_S64x387 : S64x1.Broadcasts S64x387
  inb_S64x57408_S64x387_0_56250 : ∀ a, (![0, 56250] : Fin 2 → Nat) a + S64x387.size a ≤ S64x57408.size a
  h_S64x387 : 0 < S64x387.numel
  slices_S64x512_o0_126_S64x1 : S64x512.Slices ![0, 126] S64x1
  slices_S64x512_o0_126_S64x386 : S64x512.Slices ![0, 126] S64x386
  broadcasts_S64x1_S64x386 : S64x1.Broadcasts S64x386
  inb_S64x57408_S64x386_0_56637 : ∀ a, (![0, 56637] : Fin 2 → Nat) a + S64x386.size a ≤ S64x57408.size a
  h_S64x386 : 0 < S64x386.numel
  slices_S64x512_o0_127_S64x1 : S64x512.Slices ![0, 127] S64x1
  slices_S64x512_o0_127_S64x385 : S64x512.Slices ![0, 127] S64x385
  broadcasts_S64x1_S64x385 : S64x1.Broadcasts S64x385
  inb_S64x57408_S64x385_0_57023 : ∀ a, (![0, 57023] : Fin 2 → Nat) a + S64x385.size a ≤ S64x57408.size a
  h_S64x385 : 0 < S64x385.numel
  slices_S1024x512_S1024x384_0_128 : S1024x512.Slices ![0, 128] S1024x384
  inb_S64x384_S64x384_0_0 : ∀ a, (![0, 0] : Fin 2 → Nat) a + S64x384.size a ≤ S64x384.size a
  h_S64x384 : 0 < S64x384.numel
  shapeCasts_S64x384_S64x384 : S64x384.ShapeCasts S64x384
  slices_S64x384_o0_0_S64x1 : S64x384.Slices ![0, 0] S64x1
  broadcasts_S64x1_S64x384 : S64x1.Broadcasts S64x384
  inb_S64x41024_S64x384_0_0 : ∀ a, (![0, 0] : Fin 2 → Nat) a + S64x384.size a ≤ S64x41024.size a
  slices_S64x384_o0_1_S64x1 : S64x384.Slices ![0, 1] S64x1
  slices_S64x384_o0_1_S64x383 : S64x384.Slices ![0, 1] S64x383
  broadcasts_S64x1_S64x383 : S64x1.Broadcasts S64x383
  inb_S64x41024_S64x383_0_384 : ∀ a, (![0, 384] : Fin 2 → Nat) a + S64x383.size a ≤ S64x41024.size a
  h_S64x383 : 0 < S64x383.numel
  slices_S64x384_o0_2_S64x1 : S64x384.Slices ![0, 2] S64x1
  slices_S64x384_o0_2_S64x382 : S64x384.Slices ![0, 2] S64x382
  broadcasts_S64x1_S64x382 : S64x1.Broadcasts S64x382
  inb_S64x41024_S64x382_0_767 : ∀ a, (![0, 767] : Fin 2 → Nat) a + S64x382.size a ≤ S64x41024.size a
  h_S64x382 : 0 < S64x382.numel
  slices_S64x384_o0_3_S64x1 : S64x384.Slices ![0, 3] S64x1
  slices_S64x384_o0_3_S64x381 : S64x384.Slices ![0, 3] S64x381
  broadcasts_S64x1_S64x381 : S64x1.Broadcasts S64x381
  inb_S64x41024_S64x381_0_1149 : ∀ a, (![0, 1149] : Fin 2 → Nat) a + S64x381.size a ≤ S64x41024.size a
  h_S64x381 : 0 < S64x381.numel
  slices_S64x384_o0_4_S64x1 : S64x384.Slices ![0, 4] S64x1
  slices_S64x384_o0_4_S64x380 : S64x384.Slices ![0, 4] S64x380
  broadcasts_S64x1_S64x380 : S64x1.Broadcasts S64x380
  inb_S64x41024_S64x380_0_1530 : ∀ a, (![0, 1530] : Fin 2 → Nat) a + S64x380.size a ≤ S64x41024.size a
  h_S64x380 : 0 < S64x380.numel
  slices_S64x384_o0_5_S64x1 : S64x384.Slices ![0, 5] S64x1
  slices_S64x384_o0_5_S64x379 : S64x384.Slices ![0, 5] S64x379
  broadcasts_S64x1_S64x379 : S64x1.Broadcasts S64x379
  inb_S64x41024_S64x379_0_1910 : ∀ a, (![0, 1910] : Fin 2 → Nat) a + S64x379.size a ≤ S64x41024.size a
  h_S64x379 : 0 < S64x379.numel
  slices_S64x384_o0_6_S64x1 : S64x384.Slices ![0, 6] S64x1
  slices_S64x384_o0_6_S64x378 : S64x384.Slices ![0, 6] S64x378
  broadcasts_S64x1_S64x378 : S64x1.Broadcasts S64x378
  inb_S64x41024_S64x378_0_2289 : ∀ a, (![0, 2289] : Fin 2 → Nat) a + S64x378.size a ≤ S64x41024.size a
  h_S64x378 : 0 < S64x378.numel
  slices_S64x384_o0_7_S64x1 : S64x384.Slices ![0, 7] S64x1
  slices_S64x384_o0_7_S64x377 : S64x384.Slices ![0, 7] S64x377
  broadcasts_S64x1_S64x377 : S64x1.Broadcasts S64x377
  inb_S64x41024_S64x377_0_2667 : ∀ a, (![0, 2667] : Fin 2 → Nat) a + S64x377.size a ≤ S64x41024.size a
  h_S64x377 : 0 < S64x377.numel
  slices_S64x384_o0_8_S64x1 : S64x384.Slices ![0, 8] S64x1
  slices_S64x384_o0_8_S64x376 : S64x384.Slices ![0, 8] S64x376
  broadcasts_S64x1_S64x376 : S64x1.Broadcasts S64x376
  inb_S64x41024_S64x376_0_3044 : ∀ a, (![0, 3044] : Fin 2 → Nat) a + S64x376.size a ≤ S64x41024.size a
  h_S64x376 : 0 < S64x376.numel
  slices_S64x384_o0_9_S64x1 : S64x384.Slices ![0, 9] S64x1
  slices_S64x384_o0_9_S64x375 : S64x384.Slices ![0, 9] S64x375
  broadcasts_S64x1_S64x375 : S64x1.Broadcasts S64x375
  inb_S64x41024_S64x375_0_3420 : ∀ a, (![0, 3420] : Fin 2 → Nat) a + S64x375.size a ≤ S64x41024.size a
  h_S64x375 : 0 < S64x375.numel
  slices_S64x384_o0_10_S64x1 : S64x384.Slices ![0, 10] S64x1
  slices_S64x384_o0_10_S64x374 : S64x384.Slices ![0, 10] S64x374
  broadcasts_S64x1_S64x374 : S64x1.Broadcasts S64x374
  inb_S64x41024_S64x374_0_3795 : ∀ a, (![0, 3795] : Fin 2 → Nat) a + S64x374.size a ≤ S64x41024.size a
  h_S64x374 : 0 < S64x374.numel
  slices_S64x384_o0_11_S64x1 : S64x384.Slices ![0, 11] S64x1
  slices_S64x384_o0_11_S64x373 : S64x384.Slices ![0, 11] S64x373
  broadcasts_S64x1_S64x373 : S64x1.Broadcasts S64x373
  inb_S64x41024_S64x373_0_4169 : ∀ a, (![0, 4169] : Fin 2 → Nat) a + S64x373.size a ≤ S64x41024.size a
  h_S64x373 : 0 < S64x373.numel
  slices_S64x384_o0_12_S64x1 : S64x384.Slices ![0, 12] S64x1
  slices_S64x384_o0_12_S64x372 : S64x384.Slices ![0, 12] S64x372
  broadcasts_S64x1_S64x372 : S64x1.Broadcasts S64x372
  inb_S64x41024_S64x372_0_4542 : ∀ a, (![0, 4542] : Fin 2 → Nat) a + S64x372.size a ≤ S64x41024.size a
  h_S64x372 : 0 < S64x372.numel
  slices_S64x384_o0_13_S64x1 : S64x384.Slices ![0, 13] S64x1
  slices_S64x384_o0_13_S64x371 : S64x384.Slices ![0, 13] S64x371
  broadcasts_S64x1_S64x371 : S64x1.Broadcasts S64x371
  inb_S64x41024_S64x371_0_4914 : ∀ a, (![0, 4914] : Fin 2 → Nat) a + S64x371.size a ≤ S64x41024.size a
  h_S64x371 : 0 < S64x371.numel
  slices_S64x384_o0_14_S64x1 : S64x384.Slices ![0, 14] S64x1
  slices_S64x384_o0_14_S64x370 : S64x384.Slices ![0, 14] S64x370
  broadcasts_S64x1_S64x370 : S64x1.Broadcasts S64x370
  inb_S64x41024_S64x370_0_5285 : ∀ a, (![0, 5285] : Fin 2 → Nat) a + S64x370.size a ≤ S64x41024.size a
  h_S64x370 : 0 < S64x370.numel
  slices_S64x384_o0_15_S64x1 : S64x384.Slices ![0, 15] S64x1
  slices_S64x384_o0_15_S64x369 : S64x384.Slices ![0, 15] S64x369
  broadcasts_S64x1_S64x369 : S64x1.Broadcasts S64x369
  inb_S64x41024_S64x369_0_5655 : ∀ a, (![0, 5655] : Fin 2 → Nat) a + S64x369.size a ≤ S64x41024.size a
  h_S64x369 : 0 < S64x369.numel
  slices_S64x384_o0_16_S64x1 : S64x384.Slices ![0, 16] S64x1
  slices_S64x384_o0_16_S64x368 : S64x384.Slices ![0, 16] S64x368
  broadcasts_S64x1_S64x368 : S64x1.Broadcasts S64x368
  inb_S64x41024_S64x368_0_6024 : ∀ a, (![0, 6024] : Fin 2 → Nat) a + S64x368.size a ≤ S64x41024.size a
  h_S64x368 : 0 < S64x368.numel
  slices_S64x384_o0_17_S64x1 : S64x384.Slices ![0, 17] S64x1
  slices_S64x384_o0_17_S64x367 : S64x384.Slices ![0, 17] S64x367
  broadcasts_S64x1_S64x367 : S64x1.Broadcasts S64x367
  inb_S64x41024_S64x367_0_6392 : ∀ a, (![0, 6392] : Fin 2 → Nat) a + S64x367.size a ≤ S64x41024.size a
  h_S64x367 : 0 < S64x367.numel
  slices_S64x384_o0_18_S64x1 : S64x384.Slices ![0, 18] S64x1
  slices_S64x384_o0_18_S64x366 : S64x384.Slices ![0, 18] S64x366
  broadcasts_S64x1_S64x366 : S64x1.Broadcasts S64x366
  inb_S64x41024_S64x366_0_6759 : ∀ a, (![0, 6759] : Fin 2 → Nat) a + S64x366.size a ≤ S64x41024.size a
  h_S64x366 : 0 < S64x366.numel
  slices_S64x384_o0_19_S64x1 : S64x384.Slices ![0, 19] S64x1
  slices_S64x384_o0_19_S64x365 : S64x384.Slices ![0, 19] S64x365
  broadcasts_S64x1_S64x365 : S64x1.Broadcasts S64x365
  inb_S64x41024_S64x365_0_7125 : ∀ a, (![0, 7125] : Fin 2 → Nat) a + S64x365.size a ≤ S64x41024.size a
  h_S64x365 : 0 < S64x365.numel
  slices_S64x384_o0_20_S64x1 : S64x384.Slices ![0, 20] S64x1
  slices_S64x384_o0_20_S64x364 : S64x384.Slices ![0, 20] S64x364
  broadcasts_S64x1_S64x364 : S64x1.Broadcasts S64x364
  inb_S64x41024_S64x364_0_7490 : ∀ a, (![0, 7490] : Fin 2 → Nat) a + S64x364.size a ≤ S64x41024.size a
  h_S64x364 : 0 < S64x364.numel
  slices_S64x384_o0_21_S64x1 : S64x384.Slices ![0, 21] S64x1
  slices_S64x384_o0_21_S64x363 : S64x384.Slices ![0, 21] S64x363
  broadcasts_S64x1_S64x363 : S64x1.Broadcasts S64x363
  inb_S64x41024_S64x363_0_7854 : ∀ a, (![0, 7854] : Fin 2 → Nat) a + S64x363.size a ≤ S64x41024.size a
  h_S64x363 : 0 < S64x363.numel
  slices_S64x384_o0_22_S64x1 : S64x384.Slices ![0, 22] S64x1
  slices_S64x384_o0_22_S64x362 : S64x384.Slices ![0, 22] S64x362
  broadcasts_S64x1_S64x362 : S64x1.Broadcasts S64x362
  inb_S64x41024_S64x362_0_8217 : ∀ a, (![0, 8217] : Fin 2 → Nat) a + S64x362.size a ≤ S64x41024.size a
  h_S64x362 : 0 < S64x362.numel
  slices_S64x384_o0_23_S64x1 : S64x384.Slices ![0, 23] S64x1
  slices_S64x384_o0_23_S64x361 : S64x384.Slices ![0, 23] S64x361
  broadcasts_S64x1_S64x361 : S64x1.Broadcasts S64x361
  inb_S64x41024_S64x361_0_8579 : ∀ a, (![0, 8579] : Fin 2 → Nat) a + S64x361.size a ≤ S64x41024.size a
  h_S64x361 : 0 < S64x361.numel
  slices_S64x384_o0_24_S64x1 : S64x384.Slices ![0, 24] S64x1
  slices_S64x384_o0_24_S64x360 : S64x384.Slices ![0, 24] S64x360
  broadcasts_S64x1_S64x360 : S64x1.Broadcasts S64x360
  inb_S64x41024_S64x360_0_8940 : ∀ a, (![0, 8940] : Fin 2 → Nat) a + S64x360.size a ≤ S64x41024.size a
  h_S64x360 : 0 < S64x360.numel
  slices_S64x384_o0_25_S64x1 : S64x384.Slices ![0, 25] S64x1
  slices_S64x384_o0_25_S64x359 : S64x384.Slices ![0, 25] S64x359
  broadcasts_S64x1_S64x359 : S64x1.Broadcasts S64x359
  inb_S64x41024_S64x359_0_9300 : ∀ a, (![0, 9300] : Fin 2 → Nat) a + S64x359.size a ≤ S64x41024.size a
  h_S64x359 : 0 < S64x359.numel
  slices_S64x384_o0_26_S64x1 : S64x384.Slices ![0, 26] S64x1
  slices_S64x384_o0_26_S64x358 : S64x384.Slices ![0, 26] S64x358
  broadcasts_S64x1_S64x358 : S64x1.Broadcasts S64x358
  inb_S64x41024_S64x358_0_9659 : ∀ a, (![0, 9659] : Fin 2 → Nat) a + S64x358.size a ≤ S64x41024.size a
  h_S64x358 : 0 < S64x358.numel
  slices_S64x384_o0_27_S64x1 : S64x384.Slices ![0, 27] S64x1
  slices_S64x384_o0_27_S64x357 : S64x384.Slices ![0, 27] S64x357
  broadcasts_S64x1_S64x357 : S64x1.Broadcasts S64x357
  inb_S64x41024_S64x357_0_10017 : ∀ a, (![0, 10017] : Fin 2 → Nat) a + S64x357.size a ≤ S64x41024.size a
  h_S64x357 : 0 < S64x357.numel
  slices_S64x384_o0_28_S64x1 : S64x384.Slices ![0, 28] S64x1
  slices_S64x384_o0_28_S64x356 : S64x384.Slices ![0, 28] S64x356
  broadcasts_S64x1_S64x356 : S64x1.Broadcasts S64x356
  inb_S64x41024_S64x356_0_10374 : ∀ a, (![0, 10374] : Fin 2 → Nat) a + S64x356.size a ≤ S64x41024.size a
  h_S64x356 : 0 < S64x356.numel
  slices_S64x384_o0_29_S64x1 : S64x384.Slices ![0, 29] S64x1
  slices_S64x384_o0_29_S64x355 : S64x384.Slices ![0, 29] S64x355
  broadcasts_S64x1_S64x355 : S64x1.Broadcasts S64x355
  inb_S64x41024_S64x355_0_10730 : ∀ a, (![0, 10730] : Fin 2 → Nat) a + S64x355.size a ≤ S64x41024.size a
  h_S64x355 : 0 < S64x355.numel
  slices_S64x384_o0_30_S64x1 : S64x384.Slices ![0, 30] S64x1
  slices_S64x384_o0_30_S64x354 : S64x384.Slices ![0, 30] S64x354
  broadcasts_S64x1_S64x354 : S64x1.Broadcasts S64x354
  inb_S64x41024_S64x354_0_11085 : ∀ a, (![0, 11085] : Fin 2 → Nat) a + S64x354.size a ≤ S64x41024.size a
  h_S64x354 : 0 < S64x354.numel
  slices_S64x384_o0_31_S64x1 : S64x384.Slices ![0, 31] S64x1
  slices_S64x384_o0_31_S64x353 : S64x384.Slices ![0, 31] S64x353
  broadcasts_S64x1_S64x353 : S64x1.Broadcasts S64x353
  inb_S64x41024_S64x353_0_11439 : ∀ a, (![0, 11439] : Fin 2 → Nat) a + S64x353.size a ≤ S64x41024.size a
  h_S64x353 : 0 < S64x353.numel
  slices_S64x384_o0_32_S64x1 : S64x384.Slices ![0, 32] S64x1
  slices_S64x384_o0_32_S64x352 : S64x384.Slices ![0, 32] S64x352
  broadcasts_S64x1_S64x352 : S64x1.Broadcasts S64x352
  inb_S64x41024_S64x352_0_11792 : ∀ a, (![0, 11792] : Fin 2 → Nat) a + S64x352.size a ≤ S64x41024.size a
  h_S64x352 : 0 < S64x352.numel
  slices_S64x384_o0_33_S64x1 : S64x384.Slices ![0, 33] S64x1
  slices_S64x384_o0_33_S64x351 : S64x384.Slices ![0, 33] S64x351
  broadcasts_S64x1_S64x351 : S64x1.Broadcasts S64x351
  inb_S64x41024_S64x351_0_12144 : ∀ a, (![0, 12144] : Fin 2 → Nat) a + S64x351.size a ≤ S64x41024.size a
  h_S64x351 : 0 < S64x351.numel
  slices_S64x384_o0_34_S64x1 : S64x384.Slices ![0, 34] S64x1
  slices_S64x384_o0_34_S64x350 : S64x384.Slices ![0, 34] S64x350
  broadcasts_S64x1_S64x350 : S64x1.Broadcasts S64x350
  inb_S64x41024_S64x350_0_12495 : ∀ a, (![0, 12495] : Fin 2 → Nat) a + S64x350.size a ≤ S64x41024.size a
  h_S64x350 : 0 < S64x350.numel
  slices_S64x384_o0_35_S64x1 : S64x384.Slices ![0, 35] S64x1
  slices_S64x384_o0_35_S64x349 : S64x384.Slices ![0, 35] S64x349
  broadcasts_S64x1_S64x349 : S64x1.Broadcasts S64x349
  inb_S64x41024_S64x349_0_12845 : ∀ a, (![0, 12845] : Fin 2 → Nat) a + S64x349.size a ≤ S64x41024.size a
  h_S64x349 : 0 < S64x349.numel
  slices_S64x384_o0_36_S64x1 : S64x384.Slices ![0, 36] S64x1
  slices_S64x384_o0_36_S64x348 : S64x384.Slices ![0, 36] S64x348
  broadcasts_S64x1_S64x348 : S64x1.Broadcasts S64x348
  inb_S64x41024_S64x348_0_13194 : ∀ a, (![0, 13194] : Fin 2 → Nat) a + S64x348.size a ≤ S64x41024.size a
  h_S64x348 : 0 < S64x348.numel
  slices_S64x384_o0_37_S64x1 : S64x384.Slices ![0, 37] S64x1
  slices_S64x384_o0_37_S64x347 : S64x384.Slices ![0, 37] S64x347
  broadcasts_S64x1_S64x347 : S64x1.Broadcasts S64x347
  inb_S64x41024_S64x347_0_13542 : ∀ a, (![0, 13542] : Fin 2 → Nat) a + S64x347.size a ≤ S64x41024.size a
  h_S64x347 : 0 < S64x347.numel
  slices_S64x384_o0_38_S64x1 : S64x384.Slices ![0, 38] S64x1
  slices_S64x384_o0_38_S64x346 : S64x384.Slices ![0, 38] S64x346
  broadcasts_S64x1_S64x346 : S64x1.Broadcasts S64x346
  inb_S64x41024_S64x346_0_13889 : ∀ a, (![0, 13889] : Fin 2 → Nat) a + S64x346.size a ≤ S64x41024.size a
  h_S64x346 : 0 < S64x346.numel
  slices_S64x384_o0_39_S64x1 : S64x384.Slices ![0, 39] S64x1
  slices_S64x384_o0_39_S64x345 : S64x384.Slices ![0, 39] S64x345
  broadcasts_S64x1_S64x345 : S64x1.Broadcasts S64x345
  inb_S64x41024_S64x345_0_14235 : ∀ a, (![0, 14235] : Fin 2 → Nat) a + S64x345.size a ≤ S64x41024.size a
  h_S64x345 : 0 < S64x345.numel
  slices_S64x384_o0_40_S64x1 : S64x384.Slices ![0, 40] S64x1
  slices_S64x384_o0_40_S64x344 : S64x384.Slices ![0, 40] S64x344
  broadcasts_S64x1_S64x344 : S64x1.Broadcasts S64x344
  inb_S64x41024_S64x344_0_14580 : ∀ a, (![0, 14580] : Fin 2 → Nat) a + S64x344.size a ≤ S64x41024.size a
  h_S64x344 : 0 < S64x344.numel
  slices_S64x384_o0_41_S64x1 : S64x384.Slices ![0, 41] S64x1
  slices_S64x384_o0_41_S64x343 : S64x384.Slices ![0, 41] S64x343
  broadcasts_S64x1_S64x343 : S64x1.Broadcasts S64x343
  inb_S64x41024_S64x343_0_14924 : ∀ a, (![0, 14924] : Fin 2 → Nat) a + S64x343.size a ≤ S64x41024.size a
  h_S64x343 : 0 < S64x343.numel
  slices_S64x384_o0_42_S64x1 : S64x384.Slices ![0, 42] S64x1
  slices_S64x384_o0_42_S64x342 : S64x384.Slices ![0, 42] S64x342
  broadcasts_S64x1_S64x342 : S64x1.Broadcasts S64x342
  inb_S64x41024_S64x342_0_15267 : ∀ a, (![0, 15267] : Fin 2 → Nat) a + S64x342.size a ≤ S64x41024.size a
  h_S64x342 : 0 < S64x342.numel
  slices_S64x384_o0_43_S64x1 : S64x384.Slices ![0, 43] S64x1
  slices_S64x384_o0_43_S64x341 : S64x384.Slices ![0, 43] S64x341
  broadcasts_S64x1_S64x341 : S64x1.Broadcasts S64x341
  inb_S64x41024_S64x341_0_15609 : ∀ a, (![0, 15609] : Fin 2 → Nat) a + S64x341.size a ≤ S64x41024.size a
  h_S64x341 : 0 < S64x341.numel
  slices_S64x384_o0_44_S64x1 : S64x384.Slices ![0, 44] S64x1
  slices_S64x384_o0_44_S64x340 : S64x384.Slices ![0, 44] S64x340
  broadcasts_S64x1_S64x340 : S64x1.Broadcasts S64x340
  inb_S64x41024_S64x340_0_15950 : ∀ a, (![0, 15950] : Fin 2 → Nat) a + S64x340.size a ≤ S64x41024.size a
  h_S64x340 : 0 < S64x340.numel
  slices_S64x384_o0_45_S64x1 : S64x384.Slices ![0, 45] S64x1
  slices_S64x384_o0_45_S64x339 : S64x384.Slices ![0, 45] S64x339
  broadcasts_S64x1_S64x339 : S64x1.Broadcasts S64x339
  inb_S64x41024_S64x339_0_16290 : ∀ a, (![0, 16290] : Fin 2 → Nat) a + S64x339.size a ≤ S64x41024.size a
  h_S64x339 : 0 < S64x339.numel
  slices_S64x384_o0_46_S64x1 : S64x384.Slices ![0, 46] S64x1
  slices_S64x384_o0_46_S64x338 : S64x384.Slices ![0, 46] S64x338
  broadcasts_S64x1_S64x338 : S64x1.Broadcasts S64x338
  inb_S64x41024_S64x338_0_16629 : ∀ a, (![0, 16629] : Fin 2 → Nat) a + S64x338.size a ≤ S64x41024.size a
  h_S64x338 : 0 < S64x338.numel
  slices_S64x384_o0_47_S64x1 : S64x384.Slices ![0, 47] S64x1
  slices_S64x384_o0_47_S64x337 : S64x384.Slices ![0, 47] S64x337
  broadcasts_S64x1_S64x337 : S64x1.Broadcasts S64x337
  inb_S64x41024_S64x337_0_16967 : ∀ a, (![0, 16967] : Fin 2 → Nat) a + S64x337.size a ≤ S64x41024.size a
  h_S64x337 : 0 < S64x337.numel
  slices_S64x384_o0_48_S64x1 : S64x384.Slices ![0, 48] S64x1
  slices_S64x384_o0_48_S64x336 : S64x384.Slices ![0, 48] S64x336
  broadcasts_S64x1_S64x336 : S64x1.Broadcasts S64x336
  inb_S64x41024_S64x336_0_17304 : ∀ a, (![0, 17304] : Fin 2 → Nat) a + S64x336.size a ≤ S64x41024.size a
  h_S64x336 : 0 < S64x336.numel
  slices_S64x384_o0_49_S64x1 : S64x384.Slices ![0, 49] S64x1
  slices_S64x384_o0_49_S64x335 : S64x384.Slices ![0, 49] S64x335
  broadcasts_S64x1_S64x335 : S64x1.Broadcasts S64x335
  inb_S64x41024_S64x335_0_17640 : ∀ a, (![0, 17640] : Fin 2 → Nat) a + S64x335.size a ≤ S64x41024.size a
  h_S64x335 : 0 < S64x335.numel
  slices_S64x384_o0_50_S64x1 : S64x384.Slices ![0, 50] S64x1
  slices_S64x384_o0_50_S64x334 : S64x384.Slices ![0, 50] S64x334
  broadcasts_S64x1_S64x334 : S64x1.Broadcasts S64x334
  inb_S64x41024_S64x334_0_17975 : ∀ a, (![0, 17975] : Fin 2 → Nat) a + S64x334.size a ≤ S64x41024.size a
  h_S64x334 : 0 < S64x334.numel
  slices_S64x384_o0_51_S64x1 : S64x384.Slices ![0, 51] S64x1
  slices_S64x384_o0_51_S64x333 : S64x384.Slices ![0, 51] S64x333
  broadcasts_S64x1_S64x333 : S64x1.Broadcasts S64x333
  inb_S64x41024_S64x333_0_18309 : ∀ a, (![0, 18309] : Fin 2 → Nat) a + S64x333.size a ≤ S64x41024.size a
  h_S64x333 : 0 < S64x333.numel
  slices_S64x384_o0_52_S64x1 : S64x384.Slices ![0, 52] S64x1
  slices_S64x384_o0_52_S64x332 : S64x384.Slices ![0, 52] S64x332
  broadcasts_S64x1_S64x332 : S64x1.Broadcasts S64x332
  inb_S64x41024_S64x332_0_18642 : ∀ a, (![0, 18642] : Fin 2 → Nat) a + S64x332.size a ≤ S64x41024.size a
  h_S64x332 : 0 < S64x332.numel
  slices_S64x384_o0_53_S64x1 : S64x384.Slices ![0, 53] S64x1
  slices_S64x384_o0_53_S64x331 : S64x384.Slices ![0, 53] S64x331
  broadcasts_S64x1_S64x331 : S64x1.Broadcasts S64x331
  inb_S64x41024_S64x331_0_18974 : ∀ a, (![0, 18974] : Fin 2 → Nat) a + S64x331.size a ≤ S64x41024.size a
  h_S64x331 : 0 < S64x331.numel
  slices_S64x384_o0_54_S64x1 : S64x384.Slices ![0, 54] S64x1
  slices_S64x384_o0_54_S64x330 : S64x384.Slices ![0, 54] S64x330
  broadcasts_S64x1_S64x330 : S64x1.Broadcasts S64x330
  inb_S64x41024_S64x330_0_19305 : ∀ a, (![0, 19305] : Fin 2 → Nat) a + S64x330.size a ≤ S64x41024.size a
  h_S64x330 : 0 < S64x330.numel
  slices_S64x384_o0_55_S64x1 : S64x384.Slices ![0, 55] S64x1
  slices_S64x384_o0_55_S64x329 : S64x384.Slices ![0, 55] S64x329
  broadcasts_S64x1_S64x329 : S64x1.Broadcasts S64x329
  inb_S64x41024_S64x329_0_19635 : ∀ a, (![0, 19635] : Fin 2 → Nat) a + S64x329.size a ≤ S64x41024.size a
  h_S64x329 : 0 < S64x329.numel
  slices_S64x384_o0_56_S64x1 : S64x384.Slices ![0, 56] S64x1
  slices_S64x384_o0_56_S64x328 : S64x384.Slices ![0, 56] S64x328
  broadcasts_S64x1_S64x328 : S64x1.Broadcasts S64x328
  inb_S64x41024_S64x328_0_19964 : ∀ a, (![0, 19964] : Fin 2 → Nat) a + S64x328.size a ≤ S64x41024.size a
  h_S64x328 : 0 < S64x328.numel
  slices_S64x384_o0_57_S64x1 : S64x384.Slices ![0, 57] S64x1
  slices_S64x384_o0_57_S64x327 : S64x384.Slices ![0, 57] S64x327
  broadcasts_S64x1_S64x327 : S64x1.Broadcasts S64x327
  inb_S64x41024_S64x327_0_20292 : ∀ a, (![0, 20292] : Fin 2 → Nat) a + S64x327.size a ≤ S64x41024.size a
  h_S64x327 : 0 < S64x327.numel
  slices_S64x384_o0_58_S64x1 : S64x384.Slices ![0, 58] S64x1
  slices_S64x384_o0_58_S64x326 : S64x384.Slices ![0, 58] S64x326
  broadcasts_S64x1_S64x326 : S64x1.Broadcasts S64x326
  inb_S64x41024_S64x326_0_20619 : ∀ a, (![0, 20619] : Fin 2 → Nat) a + S64x326.size a ≤ S64x41024.size a
  h_S64x326 : 0 < S64x326.numel
  slices_S64x384_o0_59_S64x1 : S64x384.Slices ![0, 59] S64x1
  slices_S64x384_o0_59_S64x325 : S64x384.Slices ![0, 59] S64x325
  broadcasts_S64x1_S64x325 : S64x1.Broadcasts S64x325
  inb_S64x41024_S64x325_0_20945 : ∀ a, (![0, 20945] : Fin 2 → Nat) a + S64x325.size a ≤ S64x41024.size a
  h_S64x325 : 0 < S64x325.numel
  slices_S64x384_o0_60_S64x1 : S64x384.Slices ![0, 60] S64x1
  slices_S64x384_o0_60_S64x324 : S64x384.Slices ![0, 60] S64x324
  broadcasts_S64x1_S64x324 : S64x1.Broadcasts S64x324
  inb_S64x41024_S64x324_0_21270 : ∀ a, (![0, 21270] : Fin 2 → Nat) a + S64x324.size a ≤ S64x41024.size a
  h_S64x324 : 0 < S64x324.numel
  slices_S64x384_o0_61_S64x1 : S64x384.Slices ![0, 61] S64x1
  slices_S64x384_o0_61_S64x323 : S64x384.Slices ![0, 61] S64x323
  broadcasts_S64x1_S64x323 : S64x1.Broadcasts S64x323
  inb_S64x41024_S64x323_0_21594 : ∀ a, (![0, 21594] : Fin 2 → Nat) a + S64x323.size a ≤ S64x41024.size a
  h_S64x323 : 0 < S64x323.numel
  slices_S64x384_o0_62_S64x1 : S64x384.Slices ![0, 62] S64x1
  slices_S64x384_o0_62_S64x322 : S64x384.Slices ![0, 62] S64x322
  broadcasts_S64x1_S64x322 : S64x1.Broadcasts S64x322
  inb_S64x41024_S64x322_0_21917 : ∀ a, (![0, 21917] : Fin 2 → Nat) a + S64x322.size a ≤ S64x41024.size a
  h_S64x322 : 0 < S64x322.numel
  slices_S64x384_o0_63_S64x1 : S64x384.Slices ![0, 63] S64x1
  slices_S64x384_o0_63_S64x321 : S64x384.Slices ![0, 63] S64x321
  broadcasts_S64x1_S64x321 : S64x1.Broadcasts S64x321
  inb_S64x41024_S64x321_0_22239 : ∀ a, (![0, 22239] : Fin 2 → Nat) a + S64x321.size a ≤ S64x41024.size a
  h_S64x321 : 0 < S64x321.numel
  slices_S64x384_o0_64_S64x1 : S64x384.Slices ![0, 64] S64x1
  slices_S64x384_o0_64_S64x320 : S64x384.Slices ![0, 64] S64x320
  broadcasts_S64x1_S64x320 : S64x1.Broadcasts S64x320
  inb_S64x41024_S64x320_0_22560 : ∀ a, (![0, 22560] : Fin 2 → Nat) a + S64x320.size a ≤ S64x41024.size a
  h_S64x320 : 0 < S64x320.numel
  slices_S64x384_o0_65_S64x1 : S64x384.Slices ![0, 65] S64x1
  slices_S64x384_o0_65_S64x319 : S64x384.Slices ![0, 65] S64x319
  broadcasts_S64x1_S64x319 : S64x1.Broadcasts S64x319
  inb_S64x41024_S64x319_0_22880 : ∀ a, (![0, 22880] : Fin 2 → Nat) a + S64x319.size a ≤ S64x41024.size a
  h_S64x319 : 0 < S64x319.numel
  slices_S64x384_o0_66_S64x1 : S64x384.Slices ![0, 66] S64x1
  slices_S64x384_o0_66_S64x318 : S64x384.Slices ![0, 66] S64x318
  broadcasts_S64x1_S64x318 : S64x1.Broadcasts S64x318
  inb_S64x41024_S64x318_0_23199 : ∀ a, (![0, 23199] : Fin 2 → Nat) a + S64x318.size a ≤ S64x41024.size a
  h_S64x318 : 0 < S64x318.numel
  slices_S64x384_o0_67_S64x1 : S64x384.Slices ![0, 67] S64x1
  slices_S64x384_o0_67_S64x317 : S64x384.Slices ![0, 67] S64x317
  broadcasts_S64x1_S64x317 : S64x1.Broadcasts S64x317
  inb_S64x41024_S64x317_0_23517 : ∀ a, (![0, 23517] : Fin 2 → Nat) a + S64x317.size a ≤ S64x41024.size a
  h_S64x317 : 0 < S64x317.numel
  slices_S64x384_o0_68_S64x1 : S64x384.Slices ![0, 68] S64x1
  slices_S64x384_o0_68_S64x316 : S64x384.Slices ![0, 68] S64x316
  broadcasts_S64x1_S64x316 : S64x1.Broadcasts S64x316
  inb_S64x41024_S64x316_0_23834 : ∀ a, (![0, 23834] : Fin 2 → Nat) a + S64x316.size a ≤ S64x41024.size a
  h_S64x316 : 0 < S64x316.numel
  slices_S64x384_o0_69_S64x1 : S64x384.Slices ![0, 69] S64x1
  slices_S64x384_o0_69_S64x315 : S64x384.Slices ![0, 69] S64x315
  broadcasts_S64x1_S64x315 : S64x1.Broadcasts S64x315
  inb_S64x41024_S64x315_0_24150 : ∀ a, (![0, 24150] : Fin 2 → Nat) a + S64x315.size a ≤ S64x41024.size a
  h_S64x315 : 0 < S64x315.numel
  slices_S64x384_o0_70_S64x1 : S64x384.Slices ![0, 70] S64x1
  slices_S64x384_o0_70_S64x314 : S64x384.Slices ![0, 70] S64x314
  broadcasts_S64x1_S64x314 : S64x1.Broadcasts S64x314
  inb_S64x41024_S64x314_0_24465 : ∀ a, (![0, 24465] : Fin 2 → Nat) a + S64x314.size a ≤ S64x41024.size a
  h_S64x314 : 0 < S64x314.numel
  slices_S64x384_o0_71_S64x1 : S64x384.Slices ![0, 71] S64x1

class Shapes2.Facts₀ : Prop where
  slices_S64x384_o0_71_S64x313 : S64x384.Slices ![0, 71] S64x313
  broadcasts_S64x1_S64x313 : S64x1.Broadcasts S64x313
  inb_S64x41024_S64x313_0_24779 : ∀ a, (![0, 24779] : Fin 2 → Nat) a + S64x313.size a ≤ S64x41024.size a
  h_S64x313 : 0 < S64x313.numel
  slices_S64x384_o0_72_S64x1 : S64x384.Slices ![0, 72] S64x1
  slices_S64x384_o0_72_S64x312 : S64x384.Slices ![0, 72] S64x312
  broadcasts_S64x1_S64x312 : S64x1.Broadcasts S64x312
  inb_S64x41024_S64x312_0_25092 : ∀ a, (![0, 25092] : Fin 2 → Nat) a + S64x312.size a ≤ S64x41024.size a
  h_S64x312 : 0 < S64x312.numel
  slices_S64x384_o0_73_S64x1 : S64x384.Slices ![0, 73] S64x1
  slices_S64x384_o0_73_S64x311 : S64x384.Slices ![0, 73] S64x311
  broadcasts_S64x1_S64x311 : S64x1.Broadcasts S64x311
  inb_S64x41024_S64x311_0_25404 : ∀ a, (![0, 25404] : Fin 2 → Nat) a + S64x311.size a ≤ S64x41024.size a
  h_S64x311 : 0 < S64x311.numel
  slices_S64x384_o0_74_S64x1 : S64x384.Slices ![0, 74] S64x1
  slices_S64x384_o0_74_S64x310 : S64x384.Slices ![0, 74] S64x310
  broadcasts_S64x1_S64x310 : S64x1.Broadcasts S64x310
  inb_S64x41024_S64x310_0_25715 : ∀ a, (![0, 25715] : Fin 2 → Nat) a + S64x310.size a ≤ S64x41024.size a
  h_S64x310 : 0 < S64x310.numel
  slices_S64x384_o0_75_S64x1 : S64x384.Slices ![0, 75] S64x1
  slices_S64x384_o0_75_S64x309 : S64x384.Slices ![0, 75] S64x309
  broadcasts_S64x1_S64x309 : S64x1.Broadcasts S64x309
  inb_S64x41024_S64x309_0_26025 : ∀ a, (![0, 26025] : Fin 2 → Nat) a + S64x309.size a ≤ S64x41024.size a
  h_S64x309 : 0 < S64x309.numel
  slices_S64x384_o0_76_S64x1 : S64x384.Slices ![0, 76] S64x1
  slices_S64x384_o0_76_S64x308 : S64x384.Slices ![0, 76] S64x308
  broadcasts_S64x1_S64x308 : S64x1.Broadcasts S64x308
  inb_S64x41024_S64x308_0_26334 : ∀ a, (![0, 26334] : Fin 2 → Nat) a + S64x308.size a ≤ S64x41024.size a
  h_S64x308 : 0 < S64x308.numel
  slices_S64x384_o0_77_S64x1 : S64x384.Slices ![0, 77] S64x1
  slices_S64x384_o0_77_S64x307 : S64x384.Slices ![0, 77] S64x307
  broadcasts_S64x1_S64x307 : S64x1.Broadcasts S64x307
  inb_S64x41024_S64x307_0_26642 : ∀ a, (![0, 26642] : Fin 2 → Nat) a + S64x307.size a ≤ S64x41024.size a
  h_S64x307 : 0 < S64x307.numel
  slices_S64x384_o0_78_S64x1 : S64x384.Slices ![0, 78] S64x1
  slices_S64x384_o0_78_S64x306 : S64x384.Slices ![0, 78] S64x306
  broadcasts_S64x1_S64x306 : S64x1.Broadcasts S64x306
  inb_S64x41024_S64x306_0_26949 : ∀ a, (![0, 26949] : Fin 2 → Nat) a + S64x306.size a ≤ S64x41024.size a
  h_S64x306 : 0 < S64x306.numel
  slices_S64x384_o0_79_S64x1 : S64x384.Slices ![0, 79] S64x1
  slices_S64x384_o0_79_S64x305 : S64x384.Slices ![0, 79] S64x305
  broadcasts_S64x1_S64x305 : S64x1.Broadcasts S64x305
  inb_S64x41024_S64x305_0_27255 : ∀ a, (![0, 27255] : Fin 2 → Nat) a + S64x305.size a ≤ S64x41024.size a
  h_S64x305 : 0 < S64x305.numel
  slices_S64x384_o0_80_S64x1 : S64x384.Slices ![0, 80] S64x1
  slices_S64x384_o0_80_S64x304 : S64x384.Slices ![0, 80] S64x304
  broadcasts_S64x1_S64x304 : S64x1.Broadcasts S64x304
  inb_S64x41024_S64x304_0_27560 : ∀ a, (![0, 27560] : Fin 2 → Nat) a + S64x304.size a ≤ S64x41024.size a
  h_S64x304 : 0 < S64x304.numel
  slices_S64x384_o0_81_S64x1 : S64x384.Slices ![0, 81] S64x1
  slices_S64x384_o0_81_S64x303 : S64x384.Slices ![0, 81] S64x303
  broadcasts_S64x1_S64x303 : S64x1.Broadcasts S64x303
  inb_S64x41024_S64x303_0_27864 : ∀ a, (![0, 27864] : Fin 2 → Nat) a + S64x303.size a ≤ S64x41024.size a
  h_S64x303 : 0 < S64x303.numel
  slices_S64x384_o0_82_S64x1 : S64x384.Slices ![0, 82] S64x1
  slices_S64x384_o0_82_S64x302 : S64x384.Slices ![0, 82] S64x302
  broadcasts_S64x1_S64x302 : S64x1.Broadcasts S64x302
  inb_S64x41024_S64x302_0_28167 : ∀ a, (![0, 28167] : Fin 2 → Nat) a + S64x302.size a ≤ S64x41024.size a
  h_S64x302 : 0 < S64x302.numel
  slices_S64x384_o0_83_S64x1 : S64x384.Slices ![0, 83] S64x1
  slices_S64x384_o0_83_S64x301 : S64x384.Slices ![0, 83] S64x301
  broadcasts_S64x1_S64x301 : S64x1.Broadcasts S64x301
  inb_S64x41024_S64x301_0_28469 : ∀ a, (![0, 28469] : Fin 2 → Nat) a + S64x301.size a ≤ S64x41024.size a
  h_S64x301 : 0 < S64x301.numel
  slices_S64x384_o0_84_S64x1 : S64x384.Slices ![0, 84] S64x1
  slices_S64x384_o0_84_S64x300 : S64x384.Slices ![0, 84] S64x300
  broadcasts_S64x1_S64x300 : S64x1.Broadcasts S64x300
  inb_S64x41024_S64x300_0_28770 : ∀ a, (![0, 28770] : Fin 2 → Nat) a + S64x300.size a ≤ S64x41024.size a
  h_S64x300 : 0 < S64x300.numel
  slices_S64x384_o0_85_S64x1 : S64x384.Slices ![0, 85] S64x1
  slices_S64x384_o0_85_S64x299 : S64x384.Slices ![0, 85] S64x299
  broadcasts_S64x1_S64x299 : S64x1.Broadcasts S64x299
  inb_S64x41024_S64x299_0_29070 : ∀ a, (![0, 29070] : Fin 2 → Nat) a + S64x299.size a ≤ S64x41024.size a
  h_S64x299 : 0 < S64x299.numel
  slices_S64x384_o0_86_S64x1 : S64x384.Slices ![0, 86] S64x1
  slices_S64x384_o0_86_S64x298 : S64x384.Slices ![0, 86] S64x298
  broadcasts_S64x1_S64x298 : S64x1.Broadcasts S64x298
  inb_S64x41024_S64x298_0_29369 : ∀ a, (![0, 29369] : Fin 2 → Nat) a + S64x298.size a ≤ S64x41024.size a
  h_S64x298 : 0 < S64x298.numel
  slices_S64x384_o0_87_S64x1 : S64x384.Slices ![0, 87] S64x1
  slices_S64x384_o0_87_S64x297 : S64x384.Slices ![0, 87] S64x297
  broadcasts_S64x1_S64x297 : S64x1.Broadcasts S64x297
  inb_S64x41024_S64x297_0_29667 : ∀ a, (![0, 29667] : Fin 2 → Nat) a + S64x297.size a ≤ S64x41024.size a
  h_S64x297 : 0 < S64x297.numel
  slices_S64x384_o0_88_S64x1 : S64x384.Slices ![0, 88] S64x1
  slices_S64x384_o0_88_S64x296 : S64x384.Slices ![0, 88] S64x296
  broadcasts_S64x1_S64x296 : S64x1.Broadcasts S64x296
  inb_S64x41024_S64x296_0_29964 : ∀ a, (![0, 29964] : Fin 2 → Nat) a + S64x296.size a ≤ S64x41024.size a
  h_S64x296 : 0 < S64x296.numel
  slices_S64x384_o0_89_S64x1 : S64x384.Slices ![0, 89] S64x1
  slices_S64x384_o0_89_S64x295 : S64x384.Slices ![0, 89] S64x295
  broadcasts_S64x1_S64x295 : S64x1.Broadcasts S64x295
  inb_S64x41024_S64x295_0_30260 : ∀ a, (![0, 30260] : Fin 2 → Nat) a + S64x295.size a ≤ S64x41024.size a
  h_S64x295 : 0 < S64x295.numel
  slices_S64x384_o0_90_S64x1 : S64x384.Slices ![0, 90] S64x1
  slices_S64x384_o0_90_S64x294 : S64x384.Slices ![0, 90] S64x294
  broadcasts_S64x1_S64x294 : S64x1.Broadcasts S64x294
  inb_S64x41024_S64x294_0_30555 : ∀ a, (![0, 30555] : Fin 2 → Nat) a + S64x294.size a ≤ S64x41024.size a
  h_S64x294 : 0 < S64x294.numel
  slices_S64x384_o0_91_S64x1 : S64x384.Slices ![0, 91] S64x1
  slices_S64x384_o0_91_S64x293 : S64x384.Slices ![0, 91] S64x293
  broadcasts_S64x1_S64x293 : S64x1.Broadcasts S64x293
  inb_S64x41024_S64x293_0_30849 : ∀ a, (![0, 30849] : Fin 2 → Nat) a + S64x293.size a ≤ S64x41024.size a
  h_S64x293 : 0 < S64x293.numel
  slices_S64x384_o0_92_S64x1 : S64x384.Slices ![0, 92] S64x1
  slices_S64x384_o0_92_S64x292 : S64x384.Slices ![0, 92] S64x292
  broadcasts_S64x1_S64x292 : S64x1.Broadcasts S64x292
  inb_S64x41024_S64x292_0_31142 : ∀ a, (![0, 31142] : Fin 2 → Nat) a + S64x292.size a ≤ S64x41024.size a
  h_S64x292 : 0 < S64x292.numel
  slices_S64x384_o0_93_S64x1 : S64x384.Slices ![0, 93] S64x1
  slices_S64x384_o0_93_S64x291 : S64x384.Slices ![0, 93] S64x291
  broadcasts_S64x1_S64x291 : S64x1.Broadcasts S64x291
  inb_S64x41024_S64x291_0_31434 : ∀ a, (![0, 31434] : Fin 2 → Nat) a + S64x291.size a ≤ S64x41024.size a
  h_S64x291 : 0 < S64x291.numel
  slices_S64x384_o0_94_S64x1 : S64x384.Slices ![0, 94] S64x1
  slices_S64x384_o0_94_S64x290 : S64x384.Slices ![0, 94] S64x290
  broadcasts_S64x1_S64x290 : S64x1.Broadcasts S64x290
  inb_S64x41024_S64x290_0_31725 : ∀ a, (![0, 31725] : Fin 2 → Nat) a + S64x290.size a ≤ S64x41024.size a
  h_S64x290 : 0 < S64x290.numel
  slices_S64x384_o0_95_S64x1 : S64x384.Slices ![0, 95] S64x1
  slices_S64x384_o0_95_S64x289 : S64x384.Slices ![0, 95] S64x289
  broadcasts_S64x1_S64x289 : S64x1.Broadcasts S64x289
  inb_S64x41024_S64x289_0_32015 : ∀ a, (![0, 32015] : Fin 2 → Nat) a + S64x289.size a ≤ S64x41024.size a
  h_S64x289 : 0 < S64x289.numel
  slices_S64x384_o0_96_S64x1 : S64x384.Slices ![0, 96] S64x1
  slices_S64x384_o0_96_S64x288 : S64x384.Slices ![0, 96] S64x288
  broadcasts_S64x1_S64x288 : S64x1.Broadcasts S64x288
  inb_S64x41024_S64x288_0_32304 : ∀ a, (![0, 32304] : Fin 2 → Nat) a + S64x288.size a ≤ S64x41024.size a
  h_S64x288 : 0 < S64x288.numel
  slices_S64x384_o0_97_S64x1 : S64x384.Slices ![0, 97] S64x1
  slices_S64x384_o0_97_S64x287 : S64x384.Slices ![0, 97] S64x287
  broadcasts_S64x1_S64x287 : S64x1.Broadcasts S64x287
  inb_S64x41024_S64x287_0_32592 : ∀ a, (![0, 32592] : Fin 2 → Nat) a + S64x287.size a ≤ S64x41024.size a
  h_S64x287 : 0 < S64x287.numel
  slices_S64x384_o0_98_S64x1 : S64x384.Slices ![0, 98] S64x1
  slices_S64x384_o0_98_S64x286 : S64x384.Slices ![0, 98] S64x286
  broadcasts_S64x1_S64x286 : S64x1.Broadcasts S64x286
  inb_S64x41024_S64x286_0_32879 : ∀ a, (![0, 32879] : Fin 2 → Nat) a + S64x286.size a ≤ S64x41024.size a
  h_S64x286 : 0 < S64x286.numel
  slices_S64x384_o0_99_S64x1 : S64x384.Slices ![0, 99] S64x1
  slices_S64x384_o0_99_S64x285 : S64x384.Slices ![0, 99] S64x285
  broadcasts_S64x1_S64x285 : S64x1.Broadcasts S64x285
  inb_S64x41024_S64x285_0_33165 : ∀ a, (![0, 33165] : Fin 2 → Nat) a + S64x285.size a ≤ S64x41024.size a
  h_S64x285 : 0 < S64x285.numel
  slices_S64x384_o0_100_S64x1 : S64x384.Slices ![0, 100] S64x1
  slices_S64x384_o0_100_S64x284 : S64x384.Slices ![0, 100] S64x284
  broadcasts_S64x1_S64x284 : S64x1.Broadcasts S64x284
  inb_S64x41024_S64x284_0_33450 : ∀ a, (![0, 33450] : Fin 2 → Nat) a + S64x284.size a ≤ S64x41024.size a
  h_S64x284 : 0 < S64x284.numel
  slices_S64x384_o0_101_S64x1 : S64x384.Slices ![0, 101] S64x1
  slices_S64x384_o0_101_S64x283 : S64x384.Slices ![0, 101] S64x283
  broadcasts_S64x1_S64x283 : S64x1.Broadcasts S64x283
  inb_S64x41024_S64x283_0_33734 : ∀ a, (![0, 33734] : Fin 2 → Nat) a + S64x283.size a ≤ S64x41024.size a
  h_S64x283 : 0 < S64x283.numel
  slices_S64x384_o0_102_S64x1 : S64x384.Slices ![0, 102] S64x1
  slices_S64x384_o0_102_S64x282 : S64x384.Slices ![0, 102] S64x282
  broadcasts_S64x1_S64x282 : S64x1.Broadcasts S64x282
  inb_S64x41024_S64x282_0_34017 : ∀ a, (![0, 34017] : Fin 2 → Nat) a + S64x282.size a ≤ S64x41024.size a
  h_S64x282 : 0 < S64x282.numel
  slices_S64x384_o0_103_S64x1 : S64x384.Slices ![0, 103] S64x1
  slices_S64x384_o0_103_S64x281 : S64x384.Slices ![0, 103] S64x281
  broadcasts_S64x1_S64x281 : S64x1.Broadcasts S64x281
  inb_S64x41024_S64x281_0_34299 : ∀ a, (![0, 34299] : Fin 2 → Nat) a + S64x281.size a ≤ S64x41024.size a
  h_S64x281 : 0 < S64x281.numel
  slices_S64x384_o0_104_S64x1 : S64x384.Slices ![0, 104] S64x1
  slices_S64x384_o0_104_S64x280 : S64x384.Slices ![0, 104] S64x280
  broadcasts_S64x1_S64x280 : S64x1.Broadcasts S64x280
  inb_S64x41024_S64x280_0_34580 : ∀ a, (![0, 34580] : Fin 2 → Nat) a + S64x280.size a ≤ S64x41024.size a
  h_S64x280 : 0 < S64x280.numel
  slices_S64x384_o0_105_S64x1 : S64x384.Slices ![0, 105] S64x1
  slices_S64x384_o0_105_S64x279 : S64x384.Slices ![0, 105] S64x279
  broadcasts_S64x1_S64x279 : S64x1.Broadcasts S64x279
  inb_S64x41024_S64x279_0_34860 : ∀ a, (![0, 34860] : Fin 2 → Nat) a + S64x279.size a ≤ S64x41024.size a
  h_S64x279 : 0 < S64x279.numel
  slices_S64x384_o0_106_S64x1 : S64x384.Slices ![0, 106] S64x1
  slices_S64x384_o0_106_S64x278 : S64x384.Slices ![0, 106] S64x278
  broadcasts_S64x1_S64x278 : S64x1.Broadcasts S64x278
  inb_S64x41024_S64x278_0_35139 : ∀ a, (![0, 35139] : Fin 2 → Nat) a + S64x278.size a ≤ S64x41024.size a
  h_S64x278 : 0 < S64x278.numel
  slices_S64x384_o0_107_S64x1 : S64x384.Slices ![0, 107] S64x1
  slices_S64x384_o0_107_S64x277 : S64x384.Slices ![0, 107] S64x277
  broadcasts_S64x1_S64x277 : S64x1.Broadcasts S64x277
  inb_S64x41024_S64x277_0_35417 : ∀ a, (![0, 35417] : Fin 2 → Nat) a + S64x277.size a ≤ S64x41024.size a
  h_S64x277 : 0 < S64x277.numel
  slices_S64x384_o0_108_S64x1 : S64x384.Slices ![0, 108] S64x1
  slices_S64x384_o0_108_S64x276 : S64x384.Slices ![0, 108] S64x276
  broadcasts_S64x1_S64x276 : S64x1.Broadcasts S64x276
  inb_S64x41024_S64x276_0_35694 : ∀ a, (![0, 35694] : Fin 2 → Nat) a + S64x276.size a ≤ S64x41024.size a
  h_S64x276 : 0 < S64x276.numel
  slices_S64x384_o0_109_S64x1 : S64x384.Slices ![0, 109] S64x1
  slices_S64x384_o0_109_S64x275 : S64x384.Slices ![0, 109] S64x275
  broadcasts_S64x1_S64x275 : S64x1.Broadcasts S64x275
  inb_S64x41024_S64x275_0_35970 : ∀ a, (![0, 35970] : Fin 2 → Nat) a + S64x275.size a ≤ S64x41024.size a
  h_S64x275 : 0 < S64x275.numel
  slices_S64x384_o0_110_S64x1 : S64x384.Slices ![0, 110] S64x1
  slices_S64x384_o0_110_S64x274 : S64x384.Slices ![0, 110] S64x274
  broadcasts_S64x1_S64x274 : S64x1.Broadcasts S64x274
  inb_S64x41024_S64x274_0_36245 : ∀ a, (![0, 36245] : Fin 2 → Nat) a + S64x274.size a ≤ S64x41024.size a
  h_S64x274 : 0 < S64x274.numel
  slices_S64x384_o0_111_S64x1 : S64x384.Slices ![0, 111] S64x1
  slices_S64x384_o0_111_S64x273 : S64x384.Slices ![0, 111] S64x273
  broadcasts_S64x1_S64x273 : S64x1.Broadcasts S64x273
  inb_S64x41024_S64x273_0_36519 : ∀ a, (![0, 36519] : Fin 2 → Nat) a + S64x273.size a ≤ S64x41024.size a
  h_S64x273 : 0 < S64x273.numel
  slices_S64x384_o0_112_S64x1 : S64x384.Slices ![0, 112] S64x1
  slices_S64x384_o0_112_S64x272 : S64x384.Slices ![0, 112] S64x272
  broadcasts_S64x1_S64x272 : S64x1.Broadcasts S64x272
  inb_S64x41024_S64x272_0_36792 : ∀ a, (![0, 36792] : Fin 2 → Nat) a + S64x272.size a ≤ S64x41024.size a
  h_S64x272 : 0 < S64x272.numel
  slices_S64x384_o0_113_S64x1 : S64x384.Slices ![0, 113] S64x1
  slices_S64x384_o0_113_S64x271 : S64x384.Slices ![0, 113] S64x271
  broadcasts_S64x1_S64x271 : S64x1.Broadcasts S64x271
  inb_S64x41024_S64x271_0_37064 : ∀ a, (![0, 37064] : Fin 2 → Nat) a + S64x271.size a ≤ S64x41024.size a
  h_S64x271 : 0 < S64x271.numel
  slices_S64x384_o0_114_S64x1 : S64x384.Slices ![0, 114] S64x1
  slices_S64x384_o0_114_S64x270 : S64x384.Slices ![0, 114] S64x270
  broadcasts_S64x1_S64x270 : S64x1.Broadcasts S64x270
  inb_S64x41024_S64x270_0_37335 : ∀ a, (![0, 37335] : Fin 2 → Nat) a + S64x270.size a ≤ S64x41024.size a
  h_S64x270 : 0 < S64x270.numel
  slices_S64x384_o0_115_S64x1 : S64x384.Slices ![0, 115] S64x1
  slices_S64x384_o0_115_S64x269 : S64x384.Slices ![0, 115] S64x269
  broadcasts_S64x1_S64x269 : S64x1.Broadcasts S64x269
  inb_S64x41024_S64x269_0_37605 : ∀ a, (![0, 37605] : Fin 2 → Nat) a + S64x269.size a ≤ S64x41024.size a
  h_S64x269 : 0 < S64x269.numel
  slices_S64x384_o0_116_S64x1 : S64x384.Slices ![0, 116] S64x1
  slices_S64x384_o0_116_S64x268 : S64x384.Slices ![0, 116] S64x268
  broadcasts_S64x1_S64x268 : S64x1.Broadcasts S64x268
  inb_S64x41024_S64x268_0_37874 : ∀ a, (![0, 37874] : Fin 2 → Nat) a + S64x268.size a ≤ S64x41024.size a
  h_S64x268 : 0 < S64x268.numel
  slices_S64x384_o0_117_S64x1 : S64x384.Slices ![0, 117] S64x1
  slices_S64x384_o0_117_S64x267 : S64x384.Slices ![0, 117] S64x267
  broadcasts_S64x1_S64x267 : S64x1.Broadcasts S64x267
  inb_S64x41024_S64x267_0_38142 : ∀ a, (![0, 38142] : Fin 2 → Nat) a + S64x267.size a ≤ S64x41024.size a
  h_S64x267 : 0 < S64x267.numel
  slices_S64x384_o0_118_S64x1 : S64x384.Slices ![0, 118] S64x1
  slices_S64x384_o0_118_S64x266 : S64x384.Slices ![0, 118] S64x266
  broadcasts_S64x1_S64x266 : S64x1.Broadcasts S64x266
  inb_S64x41024_S64x266_0_38409 : ∀ a, (![0, 38409] : Fin 2 → Nat) a + S64x266.size a ≤ S64x41024.size a
  h_S64x266 : 0 < S64x266.numel
  slices_S64x384_o0_119_S64x1 : S64x384.Slices ![0, 119] S64x1
  slices_S64x384_o0_119_S64x265 : S64x384.Slices ![0, 119] S64x265
  broadcasts_S64x1_S64x265 : S64x1.Broadcasts S64x265
  inb_S64x41024_S64x265_0_38675 : ∀ a, (![0, 38675] : Fin 2 → Nat) a + S64x265.size a ≤ S64x41024.size a
  h_S64x265 : 0 < S64x265.numel
  slices_S64x384_o0_120_S64x1 : S64x384.Slices ![0, 120] S64x1
  slices_S64x384_o0_120_S64x264 : S64x384.Slices ![0, 120] S64x264
  broadcasts_S64x1_S64x264 : S64x1.Broadcasts S64x264
  inb_S64x41024_S64x264_0_38940 : ∀ a, (![0, 38940] : Fin 2 → Nat) a + S64x264.size a ≤ S64x41024.size a
  h_S64x264 : 0 < S64x264.numel
  slices_S64x384_o0_121_S64x1 : S64x384.Slices ![0, 121] S64x1
  slices_S64x384_o0_121_S64x263 : S64x384.Slices ![0, 121] S64x263
  broadcasts_S64x1_S64x263 : S64x1.Broadcasts S64x263
  inb_S64x41024_S64x263_0_39204 : ∀ a, (![0, 39204] : Fin 2 → Nat) a + S64x263.size a ≤ S64x41024.size a
  h_S64x263 : 0 < S64x263.numel
  slices_S64x384_o0_122_S64x1 : S64x384.Slices ![0, 122] S64x1
  slices_S64x384_o0_122_S64x262 : S64x384.Slices ![0, 122] S64x262
  broadcasts_S64x1_S64x262 : S64x1.Broadcasts S64x262
  inb_S64x41024_S64x262_0_39467 : ∀ a, (![0, 39467] : Fin 2 → Nat) a + S64x262.size a ≤ S64x41024.size a
  h_S64x262 : 0 < S64x262.numel
  slices_S64x384_o0_123_S64x1 : S64x384.Slices ![0, 123] S64x1
  slices_S64x384_o0_123_S64x261 : S64x384.Slices ![0, 123] S64x261
  broadcasts_S64x1_S64x261 : S64x1.Broadcasts S64x261
  inb_S64x41024_S64x261_0_39729 : ∀ a, (![0, 39729] : Fin 2 → Nat) a + S64x261.size a ≤ S64x41024.size a
  h_S64x261 : 0 < S64x261.numel
  slices_S64x384_o0_124_S64x1 : S64x384.Slices ![0, 124] S64x1
  slices_S64x384_o0_124_S64x260 : S64x384.Slices ![0, 124] S64x260
  broadcasts_S64x1_S64x260 : S64x1.Broadcasts S64x260
  inb_S64x41024_S64x260_0_39990 : ∀ a, (![0, 39990] : Fin 2 → Nat) a + S64x260.size a ≤ S64x41024.size a
  h_S64x260 : 0 < S64x260.numel
  slices_S64x384_o0_125_S64x1 : S64x384.Slices ![0, 125] S64x1
  slices_S64x384_o0_125_S64x259 : S64x384.Slices ![0, 125] S64x259
  broadcasts_S64x1_S64x259 : S64x1.Broadcasts S64x259
  inb_S64x41024_S64x259_0_40250 : ∀ a, (![0, 40250] : Fin 2 → Nat) a + S64x259.size a ≤ S64x41024.size a
  h_S64x259 : 0 < S64x259.numel
  slices_S64x384_o0_126_S64x1 : S64x384.Slices ![0, 126] S64x1
  slices_S64x384_o0_126_S64x258 : S64x384.Slices ![0, 126] S64x258
  broadcasts_S64x1_S64x258 : S64x1.Broadcasts S64x258
  inb_S64x41024_S64x258_0_40509 : ∀ a, (![0, 40509] : Fin 2 → Nat) a + S64x258.size a ≤ S64x41024.size a
  h_S64x258 : 0 < S64x258.numel
  slices_S64x384_o0_127_S64x1 : S64x384.Slices ![0, 127] S64x1
  slices_S64x384_o0_127_S64x257 : S64x384.Slices ![0, 127] S64x257
  broadcasts_S64x1_S64x257 : S64x1.Broadcasts S64x257
  inb_S64x41024_S64x257_0_40767 : ∀ a, (![0, 40767] : Fin 2 → Nat) a + S64x257.size a ≤ S64x41024.size a
  h_S64x257 : 0 < S64x257.numel
  slices_S1024x512_S1024x256_0_256 : S1024x512.Slices ![0, 256] S1024x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  slices_S64x256_o0_0_S64x1 : S64x256.Slices ![0, 0] S64x1
  broadcasts_S64x1_S64x256 : S64x1.Broadcasts S64x256
  inb_S64x24640_S64x256_0_0 : ∀ a, (![0, 0] : Fin 2 → Nat) a + S64x256.size a ≤ S64x24640.size a
  slices_S64x256_o0_1_S64x1 : S64x256.Slices ![0, 1] S64x1
  slices_S64x256_o0_1_S64x255 : S64x256.Slices ![0, 1] S64x255
  broadcasts_S64x1_S64x255 : S64x1.Broadcasts S64x255
  inb_S64x24640_S64x255_0_256 : ∀ a, (![0, 256] : Fin 2 → Nat) a + S64x255.size a ≤ S64x24640.size a
  h_S64x255 : 0 < S64x255.numel
  slices_S64x256_o0_2_S64x1 : S64x256.Slices ![0, 2] S64x1
  slices_S64x256_o0_2_S64x254 : S64x256.Slices ![0, 2] S64x254
  broadcasts_S64x1_S64x254 : S64x1.Broadcasts S64x254
  inb_S64x24640_S64x254_0_511 : ∀ a, (![0, 511] : Fin 2 → Nat) a + S64x254.size a ≤ S64x24640.size a
  h_S64x254 : 0 < S64x254.numel
  slices_S64x256_o0_3_S64x1 : S64x256.Slices ![0, 3] S64x1
  slices_S64x256_o0_3_S64x253 : S64x256.Slices ![0, 3] S64x253
  broadcasts_S64x1_S64x253 : S64x1.Broadcasts S64x253
  inb_S64x24640_S64x253_0_765 : ∀ a, (![0, 765] : Fin 2 → Nat) a + S64x253.size a ≤ S64x24640.size a
  h_S64x253 : 0 < S64x253.numel
  slices_S64x256_o0_4_S64x1 : S64x256.Slices ![0, 4] S64x1
  slices_S64x256_o0_4_S64x252 : S64x256.Slices ![0, 4] S64x252
  broadcasts_S64x1_S64x252 : S64x1.Broadcasts S64x252
  inb_S64x24640_S64x252_0_1018 : ∀ a, (![0, 1018] : Fin 2 → Nat) a + S64x252.size a ≤ S64x24640.size a
  h_S64x252 : 0 < S64x252.numel
  slices_S64x256_o0_5_S64x1 : S64x256.Slices ![0, 5] S64x1
  slices_S64x256_o0_5_S64x251 : S64x256.Slices ![0, 5] S64x251
  broadcasts_S64x1_S64x251 : S64x1.Broadcasts S64x251
  inb_S64x24640_S64x251_0_1270 : ∀ a, (![0, 1270] : Fin 2 → Nat) a + S64x251.size a ≤ S64x24640.size a
  h_S64x251 : 0 < S64x251.numel
  slices_S64x256_o0_6_S64x1 : S64x256.Slices ![0, 6] S64x1
  slices_S64x256_o0_6_S64x250 : S64x256.Slices ![0, 6] S64x250
  broadcasts_S64x1_S64x250 : S64x1.Broadcasts S64x250
  inb_S64x24640_S64x250_0_1521 : ∀ a, (![0, 1521] : Fin 2 → Nat) a + S64x250.size a ≤ S64x24640.size a
  h_S64x250 : 0 < S64x250.numel
  slices_S64x256_o0_7_S64x1 : S64x256.Slices ![0, 7] S64x1
  slices_S64x256_o0_7_S64x249 : S64x256.Slices ![0, 7] S64x249
  broadcasts_S64x1_S64x249 : S64x1.Broadcasts S64x249
  inb_S64x24640_S64x249_0_1771 : ∀ a, (![0, 1771] : Fin 2 → Nat) a + S64x249.size a ≤ S64x24640.size a
  h_S64x249 : 0 < S64x249.numel
  slices_S64x256_o0_8_S64x1 : S64x256.Slices ![0, 8] S64x1
  slices_S64x256_o0_8_S64x248 : S64x256.Slices ![0, 8] S64x248
  broadcasts_S64x1_S64x248 : S64x1.Broadcasts S64x248
  inb_S64x24640_S64x248_0_2020 : ∀ a, (![0, 2020] : Fin 2 → Nat) a + S64x248.size a ≤ S64x24640.size a
  h_S64x248 : 0 < S64x248.numel
  slices_S64x256_o0_9_S64x1 : S64x256.Slices ![0, 9] S64x1
  slices_S64x256_o0_9_S64x247 : S64x256.Slices ![0, 9] S64x247
  broadcasts_S64x1_S64x247 : S64x1.Broadcasts S64x247
  inb_S64x24640_S64x247_0_2268 : ∀ a, (![0, 2268] : Fin 2 → Nat) a + S64x247.size a ≤ S64x24640.size a
  h_S64x247 : 0 < S64x247.numel
  slices_S64x256_o0_10_S64x1 : S64x256.Slices ![0, 10] S64x1
  slices_S64x256_o0_10_S64x246 : S64x256.Slices ![0, 10] S64x246
  broadcasts_S64x1_S64x246 : S64x1.Broadcasts S64x246
  inb_S64x24640_S64x246_0_2515 : ∀ a, (![0, 2515] : Fin 2 → Nat) a + S64x246.size a ≤ S64x24640.size a
  h_S64x246 : 0 < S64x246.numel
  slices_S64x256_o0_11_S64x1 : S64x256.Slices ![0, 11] S64x1
  slices_S64x256_o0_11_S64x245 : S64x256.Slices ![0, 11] S64x245
  broadcasts_S64x1_S64x245 : S64x1.Broadcasts S64x245
  inb_S64x24640_S64x245_0_2761 : ∀ a, (![0, 2761] : Fin 2 → Nat) a + S64x245.size a ≤ S64x24640.size a
  h_S64x245 : 0 < S64x245.numel
  slices_S64x256_o0_12_S64x1 : S64x256.Slices ![0, 12] S64x1
  slices_S64x256_o0_12_S64x244 : S64x256.Slices ![0, 12] S64x244
  broadcasts_S64x1_S64x244 : S64x1.Broadcasts S64x244
  inb_S64x24640_S64x244_0_3006 : ∀ a, (![0, 3006] : Fin 2 → Nat) a + S64x244.size a ≤ S64x24640.size a
  h_S64x244 : 0 < S64x244.numel
  slices_S64x256_o0_13_S64x1 : S64x256.Slices ![0, 13] S64x1
  slices_S64x256_o0_13_S64x243 : S64x256.Slices ![0, 13] S64x243
  broadcasts_S64x1_S64x243 : S64x1.Broadcasts S64x243
  inb_S64x24640_S64x243_0_3250 : ∀ a, (![0, 3250] : Fin 2 → Nat) a + S64x243.size a ≤ S64x24640.size a
  h_S64x243 : 0 < S64x243.numel
  slices_S64x256_o0_14_S64x1 : S64x256.Slices ![0, 14] S64x1
  slices_S64x256_o0_14_S64x242 : S64x256.Slices ![0, 14] S64x242
  broadcasts_S64x1_S64x242 : S64x1.Broadcasts S64x242
  inb_S64x24640_S64x242_0_3493 : ∀ a, (![0, 3493] : Fin 2 → Nat) a + S64x242.size a ≤ S64x24640.size a
  h_S64x242 : 0 < S64x242.numel
  slices_S64x256_o0_15_S64x1 : S64x256.Slices ![0, 15] S64x1
  slices_S64x256_o0_15_S64x241 : S64x256.Slices ![0, 15] S64x241
  broadcasts_S64x1_S64x241 : S64x1.Broadcasts S64x241
  inb_S64x24640_S64x241_0_3735 : ∀ a, (![0, 3735] : Fin 2 → Nat) a + S64x241.size a ≤ S64x24640.size a
  h_S64x241 : 0 < S64x241.numel
  slices_S64x256_o0_16_S64x1 : S64x256.Slices ![0, 16] S64x1
  slices_S64x256_o0_16_S64x240 : S64x256.Slices ![0, 16] S64x240
  broadcasts_S64x1_S64x240 : S64x1.Broadcasts S64x240
  inb_S64x24640_S64x240_0_3976 : ∀ a, (![0, 3976] : Fin 2 → Nat) a + S64x240.size a ≤ S64x24640.size a
  h_S64x240 : 0 < S64x240.numel
  slices_S64x256_o0_17_S64x1 : S64x256.Slices ![0, 17] S64x1
  slices_S64x256_o0_17_S64x239 : S64x256.Slices ![0, 17] S64x239
  broadcasts_S64x1_S64x239 : S64x1.Broadcasts S64x239
  inb_S64x24640_S64x239_0_4216 : ∀ a, (![0, 4216] : Fin 2 → Nat) a + S64x239.size a ≤ S64x24640.size a
  h_S64x239 : 0 < S64x239.numel
  slices_S64x256_o0_18_S64x1 : S64x256.Slices ![0, 18] S64x1
  slices_S64x256_o0_18_S64x238 : S64x256.Slices ![0, 18] S64x238
  broadcasts_S64x1_S64x238 : S64x1.Broadcasts S64x238
  inb_S64x24640_S64x238_0_4455 : ∀ a, (![0, 4455] : Fin 2 → Nat) a + S64x238.size a ≤ S64x24640.size a
  h_S64x238 : 0 < S64x238.numel
  slices_S64x256_o0_19_S64x1 : S64x256.Slices ![0, 19] S64x1
  slices_S64x256_o0_19_S64x237 : S64x256.Slices ![0, 19] S64x237
  broadcasts_S64x1_S64x237 : S64x1.Broadcasts S64x237
  inb_S64x24640_S64x237_0_4693 : ∀ a, (![0, 4693] : Fin 2 → Nat) a + S64x237.size a ≤ S64x24640.size a
  h_S64x237 : 0 < S64x237.numel
  slices_S64x256_o0_20_S64x1 : S64x256.Slices ![0, 20] S64x1
  slices_S64x256_o0_20_S64x236 : S64x256.Slices ![0, 20] S64x236
  broadcasts_S64x1_S64x236 : S64x1.Broadcasts S64x236
  inb_S64x24640_S64x236_0_4930 : ∀ a, (![0, 4930] : Fin 2 → Nat) a + S64x236.size a ≤ S64x24640.size a
  h_S64x236 : 0 < S64x236.numel
  slices_S64x256_o0_21_S64x1 : S64x256.Slices ![0, 21] S64x1
  slices_S64x256_o0_21_S64x235 : S64x256.Slices ![0, 21] S64x235
  broadcasts_S64x1_S64x235 : S64x1.Broadcasts S64x235
  inb_S64x24640_S64x235_0_5166 : ∀ a, (![0, 5166] : Fin 2 → Nat) a + S64x235.size a ≤ S64x24640.size a
  h_S64x235 : 0 < S64x235.numel
  slices_S64x256_o0_22_S64x1 : S64x256.Slices ![0, 22] S64x1
  slices_S64x256_o0_22_S64x234 : S64x256.Slices ![0, 22] S64x234
  broadcasts_S64x1_S64x234 : S64x1.Broadcasts S64x234
  inb_S64x24640_S64x234_0_5401 : ∀ a, (![0, 5401] : Fin 2 → Nat) a + S64x234.size a ≤ S64x24640.size a
  h_S64x234 : 0 < S64x234.numel
  slices_S64x256_o0_23_S64x1 : S64x256.Slices ![0, 23] S64x1
  slices_S64x256_o0_23_S64x233 : S64x256.Slices ![0, 23] S64x233
  broadcasts_S64x1_S64x233 : S64x1.Broadcasts S64x233
  inb_S64x24640_S64x233_0_5635 : ∀ a, (![0, 5635] : Fin 2 → Nat) a + S64x233.size a ≤ S64x24640.size a
  h_S64x233 : 0 < S64x233.numel
  slices_S64x256_o0_24_S64x1 : S64x256.Slices ![0, 24] S64x1
  slices_S64x256_o0_24_S64x232 : S64x256.Slices ![0, 24] S64x232
  broadcasts_S64x1_S64x232 : S64x1.Broadcasts S64x232
  inb_S64x24640_S64x232_0_5868 : ∀ a, (![0, 5868] : Fin 2 → Nat) a + S64x232.size a ≤ S64x24640.size a
  h_S64x232 : 0 < S64x232.numel
  slices_S64x256_o0_25_S64x1 : S64x256.Slices ![0, 25] S64x1
  slices_S64x256_o0_25_S64x231 : S64x256.Slices ![0, 25] S64x231
  broadcasts_S64x1_S64x231 : S64x1.Broadcasts S64x231
  inb_S64x24640_S64x231_0_6100 : ∀ a, (![0, 6100] : Fin 2 → Nat) a + S64x231.size a ≤ S64x24640.size a
  h_S64x231 : 0 < S64x231.numel
  slices_S64x256_o0_26_S64x1 : S64x256.Slices ![0, 26] S64x1
  slices_S64x256_o0_26_S64x230 : S64x256.Slices ![0, 26] S64x230
  broadcasts_S64x1_S64x230 : S64x1.Broadcasts S64x230
  inb_S64x24640_S64x230_0_6331 : ∀ a, (![0, 6331] : Fin 2 → Nat) a + S64x230.size a ≤ S64x24640.size a
  h_S64x230 : 0 < S64x230.numel
  slices_S64x256_o0_27_S64x1 : S64x256.Slices ![0, 27] S64x1
  slices_S64x256_o0_27_S64x229 : S64x256.Slices ![0, 27] S64x229
  broadcasts_S64x1_S64x229 : S64x1.Broadcasts S64x229
  inb_S64x24640_S64x229_0_6561 : ∀ a, (![0, 6561] : Fin 2 → Nat) a + S64x229.size a ≤ S64x24640.size a
  h_S64x229 : 0 < S64x229.numel
  slices_S64x256_o0_28_S64x1 : S64x256.Slices ![0, 28] S64x1
  slices_S64x256_o0_28_S64x228 : S64x256.Slices ![0, 28] S64x228
  broadcasts_S64x1_S64x228 : S64x1.Broadcasts S64x228
  inb_S64x24640_S64x228_0_6790 : ∀ a, (![0, 6790] : Fin 2 → Nat) a + S64x228.size a ≤ S64x24640.size a
  h_S64x228 : 0 < S64x228.numel
  slices_S64x256_o0_29_S64x1 : S64x256.Slices ![0, 29] S64x1
  slices_S64x256_o0_29_S64x227 : S64x256.Slices ![0, 29] S64x227
  broadcasts_S64x1_S64x227 : S64x1.Broadcasts S64x227
  inb_S64x24640_S64x227_0_7018 : ∀ a, (![0, 7018] : Fin 2 → Nat) a + S64x227.size a ≤ S64x24640.size a
  h_S64x227 : 0 < S64x227.numel
  slices_S64x256_o0_30_S64x1 : S64x256.Slices ![0, 30] S64x1
  slices_S64x256_o0_30_S64x226 : S64x256.Slices ![0, 30] S64x226
  broadcasts_S64x1_S64x226 : S64x1.Broadcasts S64x226
  inb_S64x24640_S64x226_0_7245 : ∀ a, (![0, 7245] : Fin 2 → Nat) a + S64x226.size a ≤ S64x24640.size a
  h_S64x226 : 0 < S64x226.numel
  slices_S64x256_o0_31_S64x1 : S64x256.Slices ![0, 31] S64x1
  slices_S64x256_o0_31_S64x225 : S64x256.Slices ![0, 31] S64x225
  broadcasts_S64x1_S64x225 : S64x1.Broadcasts S64x225
  inb_S64x24640_S64x225_0_7471 : ∀ a, (![0, 7471] : Fin 2 → Nat) a + S64x225.size a ≤ S64x24640.size a
  h_S64x225 : 0 < S64x225.numel
  slices_S64x256_o0_32_S64x1 : S64x256.Slices ![0, 32] S64x1
  slices_S64x256_o0_32_S64x224 : S64x256.Slices ![0, 32] S64x224
  broadcasts_S64x1_S64x224 : S64x1.Broadcasts S64x224
  inb_S64x24640_S64x224_0_7696 : ∀ a, (![0, 7696] : Fin 2 → Nat) a + S64x224.size a ≤ S64x24640.size a
  h_S64x224 : 0 < S64x224.numel
  slices_S64x256_o0_33_S64x1 : S64x256.Slices ![0, 33] S64x1
  slices_S64x256_o0_33_S64x223 : S64x256.Slices ![0, 33] S64x223
  broadcasts_S64x1_S64x223 : S64x1.Broadcasts S64x223
  inb_S64x24640_S64x223_0_7920 : ∀ a, (![0, 7920] : Fin 2 → Nat) a + S64x223.size a ≤ S64x24640.size a
  h_S64x223 : 0 < S64x223.numel
  slices_S64x256_o0_34_S64x1 : S64x256.Slices ![0, 34] S64x1
  slices_S64x256_o0_34_S64x222 : S64x256.Slices ![0, 34] S64x222
  broadcasts_S64x1_S64x222 : S64x1.Broadcasts S64x222
  inb_S64x24640_S64x222_0_8143 : ∀ a, (![0, 8143] : Fin 2 → Nat) a + S64x222.size a ≤ S64x24640.size a
  h_S64x222 : 0 < S64x222.numel
  slices_S64x256_o0_35_S64x1 : S64x256.Slices ![0, 35] S64x1
  slices_S64x256_o0_35_S64x221 : S64x256.Slices ![0, 35] S64x221
  broadcasts_S64x1_S64x221 : S64x1.Broadcasts S64x221
  inb_S64x24640_S64x221_0_8365 : ∀ a, (![0, 8365] : Fin 2 → Nat) a + S64x221.size a ≤ S64x24640.size a
  h_S64x221 : 0 < S64x221.numel
  slices_S64x256_o0_36_S64x1 : S64x256.Slices ![0, 36] S64x1
  slices_S64x256_o0_36_S64x220 : S64x256.Slices ![0, 36] S64x220
  broadcasts_S64x1_S64x220 : S64x1.Broadcasts S64x220
  inb_S64x24640_S64x220_0_8586 : ∀ a, (![0, 8586] : Fin 2 → Nat) a + S64x220.size a ≤ S64x24640.size a
  h_S64x220 : 0 < S64x220.numel
  slices_S64x256_o0_37_S64x1 : S64x256.Slices ![0, 37] S64x1
  slices_S64x256_o0_37_S64x219 : S64x256.Slices ![0, 37] S64x219
  broadcasts_S64x1_S64x219 : S64x1.Broadcasts S64x219
  inb_S64x24640_S64x219_0_8806 : ∀ a, (![0, 8806] : Fin 2 → Nat) a + S64x219.size a ≤ S64x24640.size a
  h_S64x219 : 0 < S64x219.numel
  slices_S64x256_o0_38_S64x1 : S64x256.Slices ![0, 38] S64x1
  slices_S64x256_o0_38_S64x218 : S64x256.Slices ![0, 38] S64x218
  broadcasts_S64x1_S64x218 : S64x1.Broadcasts S64x218
  inb_S64x24640_S64x218_0_9025 : ∀ a, (![0, 9025] : Fin 2 → Nat) a + S64x218.size a ≤ S64x24640.size a
  h_S64x218 : 0 < S64x218.numel
  slices_S64x256_o0_39_S64x1 : S64x256.Slices ![0, 39] S64x1
  slices_S64x256_o0_39_S64x217 : S64x256.Slices ![0, 39] S64x217
  broadcasts_S64x1_S64x217 : S64x1.Broadcasts S64x217
  inb_S64x24640_S64x217_0_9243 : ∀ a, (![0, 9243] : Fin 2 → Nat) a + S64x217.size a ≤ S64x24640.size a
  h_S64x217 : 0 < S64x217.numel
  slices_S64x256_o0_40_S64x1 : S64x256.Slices ![0, 40] S64x1
  slices_S64x256_o0_40_S64x216 : S64x256.Slices ![0, 40] S64x216
  broadcasts_S64x1_S64x216 : S64x1.Broadcasts S64x216
  inb_S64x24640_S64x216_0_9460 : ∀ a, (![0, 9460] : Fin 2 → Nat) a + S64x216.size a ≤ S64x24640.size a
  h_S64x216 : 0 < S64x216.numel
  slices_S64x256_o0_41_S64x1 : S64x256.Slices ![0, 41] S64x1
  slices_S64x256_o0_41_S64x215 : S64x256.Slices ![0, 41] S64x215
  broadcasts_S64x1_S64x215 : S64x1.Broadcasts S64x215
  inb_S64x24640_S64x215_0_9676 : ∀ a, (![0, 9676] : Fin 2 → Nat) a + S64x215.size a ≤ S64x24640.size a
  h_S64x215 : 0 < S64x215.numel
  slices_S64x256_o0_42_S64x1 : S64x256.Slices ![0, 42] S64x1
  slices_S64x256_o0_42_S64x214 : S64x256.Slices ![0, 42] S64x214
  broadcasts_S64x1_S64x214 : S64x1.Broadcasts S64x214
  inb_S64x24640_S64x214_0_9891 : ∀ a, (![0, 9891] : Fin 2 → Nat) a + S64x214.size a ≤ S64x24640.size a
  h_S64x214 : 0 < S64x214.numel
  slices_S64x256_o0_43_S64x1 : S64x256.Slices ![0, 43] S64x1
  slices_S64x256_o0_43_S64x213 : S64x256.Slices ![0, 43] S64x213
  broadcasts_S64x1_S64x213 : S64x1.Broadcasts S64x213
  inb_S64x24640_S64x213_0_10105 : ∀ a, (![0, 10105] : Fin 2 → Nat) a + S64x213.size a ≤ S64x24640.size a
  h_S64x213 : 0 < S64x213.numel
  slices_S64x256_o0_44_S64x1 : S64x256.Slices ![0, 44] S64x1
  slices_S64x256_o0_44_S64x212 : S64x256.Slices ![0, 44] S64x212
  broadcasts_S64x1_S64x212 : S64x1.Broadcasts S64x212
  inb_S64x24640_S64x212_0_10318 : ∀ a, (![0, 10318] : Fin 2 → Nat) a + S64x212.size a ≤ S64x24640.size a
  h_S64x212 : 0 < S64x212.numel
  slices_S64x256_o0_45_S64x1 : S64x256.Slices ![0, 45] S64x1
  slices_S64x256_o0_45_S64x211 : S64x256.Slices ![0, 45] S64x211
  broadcasts_S64x1_S64x211 : S64x1.Broadcasts S64x211
  inb_S64x24640_S64x211_0_10530 : ∀ a, (![0, 10530] : Fin 2 → Nat) a + S64x211.size a ≤ S64x24640.size a
  h_S64x211 : 0 < S64x211.numel
  slices_S64x256_o0_46_S64x1 : S64x256.Slices ![0, 46] S64x1
  slices_S64x256_o0_46_S64x210 : S64x256.Slices ![0, 46] S64x210
  broadcasts_S64x1_S64x210 : S64x1.Broadcasts S64x210
  inb_S64x24640_S64x210_0_10741 : ∀ a, (![0, 10741] : Fin 2 → Nat) a + S64x210.size a ≤ S64x24640.size a
  h_S64x210 : 0 < S64x210.numel
  slices_S64x256_o0_47_S64x1 : S64x256.Slices ![0, 47] S64x1
  slices_S64x256_o0_47_S64x209 : S64x256.Slices ![0, 47] S64x209
  broadcasts_S64x1_S64x209 : S64x1.Broadcasts S64x209
  inb_S64x24640_S64x209_0_10951 : ∀ a, (![0, 10951] : Fin 2 → Nat) a + S64x209.size a ≤ S64x24640.size a
  h_S64x209 : 0 < S64x209.numel
  slices_S64x256_o0_48_S64x1 : S64x256.Slices ![0, 48] S64x1
  slices_S64x256_o0_48_S64x208 : S64x256.Slices ![0, 48] S64x208
  broadcasts_S64x1_S64x208 : S64x1.Broadcasts S64x208
  inb_S64x24640_S64x208_0_11160 : ∀ a, (![0, 11160] : Fin 2 → Nat) a + S64x208.size a ≤ S64x24640.size a
  h_S64x208 : 0 < S64x208.numel
  slices_S64x256_o0_49_S64x1 : S64x256.Slices ![0, 49] S64x1
  slices_S64x256_o0_49_S64x207 : S64x256.Slices ![0, 49] S64x207
  broadcasts_S64x1_S64x207 : S64x1.Broadcasts S64x207
  inb_S64x24640_S64x207_0_11368 : ∀ a, (![0, 11368] : Fin 2 → Nat) a + S64x207.size a ≤ S64x24640.size a
  h_S64x207 : 0 < S64x207.numel
  slices_S64x256_o0_50_S64x1 : S64x256.Slices ![0, 50] S64x1
  slices_S64x256_o0_50_S64x206 : S64x256.Slices ![0, 50] S64x206
  broadcasts_S64x1_S64x206 : S64x1.Broadcasts S64x206
  inb_S64x24640_S64x206_0_11575 : ∀ a, (![0, 11575] : Fin 2 → Nat) a + S64x206.size a ≤ S64x24640.size a
  h_S64x206 : 0 < S64x206.numel
  slices_S64x256_o0_51_S64x1 : S64x256.Slices ![0, 51] S64x1
  slices_S64x256_o0_51_S64x205 : S64x256.Slices ![0, 51] S64x205
  broadcasts_S64x1_S64x205 : S64x1.Broadcasts S64x205
  inb_S64x24640_S64x205_0_11781 : ∀ a, (![0, 11781] : Fin 2 → Nat) a + S64x205.size a ≤ S64x24640.size a
  h_S64x205 : 0 < S64x205.numel
  slices_S64x256_o0_52_S64x1 : S64x256.Slices ![0, 52] S64x1
  slices_S64x256_o0_52_S64x204 : S64x256.Slices ![0, 52] S64x204
  broadcasts_S64x1_S64x204 : S64x1.Broadcasts S64x204
  inb_S64x24640_S64x204_0_11986 : ∀ a, (![0, 11986] : Fin 2 → Nat) a + S64x204.size a ≤ S64x24640.size a
  h_S64x204 : 0 < S64x204.numel
  slices_S64x256_o0_53_S64x1 : S64x256.Slices ![0, 53] S64x1
  slices_S64x256_o0_53_S64x203 : S64x256.Slices ![0, 53] S64x203
  broadcasts_S64x1_S64x203 : S64x1.Broadcasts S64x203
  inb_S64x24640_S64x203_0_12190 : ∀ a, (![0, 12190] : Fin 2 → Nat) a + S64x203.size a ≤ S64x24640.size a
  h_S64x203 : 0 < S64x203.numel
  slices_S64x256_o0_54_S64x1 : S64x256.Slices ![0, 54] S64x1
  slices_S64x256_o0_54_S64x202 : S64x256.Slices ![0, 54] S64x202
  broadcasts_S64x1_S64x202 : S64x1.Broadcasts S64x202
  inb_S64x24640_S64x202_0_12393 : ∀ a, (![0, 12393] : Fin 2 → Nat) a + S64x202.size a ≤ S64x24640.size a
  h_S64x202 : 0 < S64x202.numel
  slices_S64x256_o0_55_S64x1 : S64x256.Slices ![0, 55] S64x1
  slices_S64x256_o0_55_S64x201 : S64x256.Slices ![0, 55] S64x201
  broadcasts_S64x1_S64x201 : S64x1.Broadcasts S64x201
  inb_S64x24640_S64x201_0_12595 : ∀ a, (![0, 12595] : Fin 2 → Nat) a + S64x201.size a ≤ S64x24640.size a
  h_S64x201 : 0 < S64x201.numel
  slices_S64x256_o0_56_S64x1 : S64x256.Slices ![0, 56] S64x1
  slices_S64x256_o0_56_S64x200 : S64x256.Slices ![0, 56] S64x200
  broadcasts_S64x1_S64x200 : S64x1.Broadcasts S64x200
  inb_S64x24640_S64x200_0_12796 : ∀ a, (![0, 12796] : Fin 2 → Nat) a + S64x200.size a ≤ S64x24640.size a
  h_S64x200 : 0 < S64x200.numel
  slices_S64x256_o0_57_S64x1 : S64x256.Slices ![0, 57] S64x1
  slices_S64x256_o0_57_S64x199 : S64x256.Slices ![0, 57] S64x199
  broadcasts_S64x1_S64x199 : S64x1.Broadcasts S64x199
  inb_S64x24640_S64x199_0_12996 : ∀ a, (![0, 12996] : Fin 2 → Nat) a + S64x199.size a ≤ S64x24640.size a
  h_S64x199 : 0 < S64x199.numel
  slices_S64x256_o0_58_S64x1 : S64x256.Slices ![0, 58] S64x1
  slices_S64x256_o0_58_S64x198 : S64x256.Slices ![0, 58] S64x198
  broadcasts_S64x1_S64x198 : S64x1.Broadcasts S64x198
  inb_S64x24640_S64x198_0_13195 : ∀ a, (![0, 13195] : Fin 2 → Nat) a + S64x198.size a ≤ S64x24640.size a
  h_S64x198 : 0 < S64x198.numel
  slices_S64x256_o0_59_S64x1 : S64x256.Slices ![0, 59] S64x1
  slices_S64x256_o0_59_S64x197 : S64x256.Slices ![0, 59] S64x197
  broadcasts_S64x1_S64x197 : S64x1.Broadcasts S64x197
  inb_S64x24640_S64x197_0_13393 : ∀ a, (![0, 13393] : Fin 2 → Nat) a + S64x197.size a ≤ S64x24640.size a
  h_S64x197 : 0 < S64x197.numel
  slices_S64x256_o0_60_S64x1 : S64x256.Slices ![0, 60] S64x1
  slices_S64x256_o0_60_S64x196 : S64x256.Slices ![0, 60] S64x196
  broadcasts_S64x1_S64x196 : S64x1.Broadcasts S64x196
  inb_S64x24640_S64x196_0_13590 : ∀ a, (![0, 13590] : Fin 2 → Nat) a + S64x196.size a ≤ S64x24640.size a
  h_S64x196 : 0 < S64x196.numel
  slices_S64x256_o0_61_S64x1 : S64x256.Slices ![0, 61] S64x1
  slices_S64x256_o0_61_S64x195 : S64x256.Slices ![0, 61] S64x195
  broadcasts_S64x1_S64x195 : S64x1.Broadcasts S64x195
  inb_S64x24640_S64x195_0_13786 : ∀ a, (![0, 13786] : Fin 2 → Nat) a + S64x195.size a ≤ S64x24640.size a
  h_S64x195 : 0 < S64x195.numel
  slices_S64x256_o0_62_S64x1 : S64x256.Slices ![0, 62] S64x1
  slices_S64x256_o0_62_S64x194 : S64x256.Slices ![0, 62] S64x194
  broadcasts_S64x1_S64x194 : S64x1.Broadcasts S64x194
  inb_S64x24640_S64x194_0_13981 : ∀ a, (![0, 13981] : Fin 2 → Nat) a + S64x194.size a ≤ S64x24640.size a
  h_S64x194 : 0 < S64x194.numel
  slices_S64x256_o0_63_S64x1 : S64x256.Slices ![0, 63] S64x1
  slices_S64x256_o0_63_S64x193 : S64x256.Slices ![0, 63] S64x193
  broadcasts_S64x1_S64x193 : S64x1.Broadcasts S64x193
  inb_S64x24640_S64x193_0_14175 : ∀ a, (![0, 14175] : Fin 2 → Nat) a + S64x193.size a ≤ S64x24640.size a
  h_S64x193 : 0 < S64x193.numel
  slices_S64x256_o0_64_S64x1 : S64x256.Slices ![0, 64] S64x1
  slices_S64x256_o0_64_S64x192 : S64x256.Slices ![0, 64] S64x192
  broadcasts_S64x1_S64x192 : S64x1.Broadcasts S64x192
  inb_S64x24640_S64x192_0_14368 : ∀ a, (![0, 14368] : Fin 2 → Nat) a + S64x192.size a ≤ S64x24640.size a
  h_S64x192 : 0 < S64x192.numel
  slices_S64x256_o0_65_S64x1 : S64x256.Slices ![0, 65] S64x1
  slices_S64x256_o0_65_S64x191 : S64x256.Slices ![0, 65] S64x191
  broadcasts_S64x1_S64x191 : S64x1.Broadcasts S64x191
  inb_S64x24640_S64x191_0_14560 : ∀ a, (![0, 14560] : Fin 2 → Nat) a + S64x191.size a ≤ S64x24640.size a
  h_S64x191 : 0 < S64x191.numel
  slices_S64x256_o0_66_S64x1 : S64x256.Slices ![0, 66] S64x1
  slices_S64x256_o0_66_S64x190 : S64x256.Slices ![0, 66] S64x190
  broadcasts_S64x1_S64x190 : S64x1.Broadcasts S64x190
  inb_S64x24640_S64x190_0_14751 : ∀ a, (![0, 14751] : Fin 2 → Nat) a + S64x190.size a ≤ S64x24640.size a
  h_S64x190 : 0 < S64x190.numel
  slices_S64x256_o0_67_S64x1 : S64x256.Slices ![0, 67] S64x1
  slices_S64x256_o0_67_S64x189 : S64x256.Slices ![0, 67] S64x189
  broadcasts_S64x1_S64x189 : S64x1.Broadcasts S64x189
  inb_S64x24640_S64x189_0_14941 : ∀ a, (![0, 14941] : Fin 2 → Nat) a + S64x189.size a ≤ S64x24640.size a
  h_S64x189 : 0 < S64x189.numel
  slices_S64x256_o0_68_S64x1 : S64x256.Slices ![0, 68] S64x1
  slices_S64x256_o0_68_S64x188 : S64x256.Slices ![0, 68] S64x188
  broadcasts_S64x1_S64x188 : S64x1.Broadcasts S64x188
  inb_S64x24640_S64x188_0_15130 : ∀ a, (![0, 15130] : Fin 2 → Nat) a + S64x188.size a ≤ S64x24640.size a
  h_S64x188 : 0 < S64x188.numel
  slices_S64x256_o0_69_S64x1 : S64x256.Slices ![0, 69] S64x1
  slices_S64x256_o0_69_S64x187 : S64x256.Slices ![0, 69] S64x187
  broadcasts_S64x1_S64x187 : S64x1.Broadcasts S64x187
  inb_S64x24640_S64x187_0_15318 : ∀ a, (![0, 15318] : Fin 2 → Nat) a + S64x187.size a ≤ S64x24640.size a
  h_S64x187 : 0 < S64x187.numel
  slices_S64x256_o0_70_S64x1 : S64x256.Slices ![0, 70] S64x1
  slices_S64x256_o0_70_S64x186 : S64x256.Slices ![0, 70] S64x186
  broadcasts_S64x1_S64x186 : S64x1.Broadcasts S64x186
  inb_S64x24640_S64x186_0_15505 : ∀ a, (![0, 15505] : Fin 2 → Nat) a + S64x186.size a ≤ S64x24640.size a
  h_S64x186 : 0 < S64x186.numel
  slices_S64x256_o0_71_S64x1 : S64x256.Slices ![0, 71] S64x1
  slices_S64x256_o0_71_S64x185 : S64x256.Slices ![0, 71] S64x185
  broadcasts_S64x1_S64x185 : S64x1.Broadcasts S64x185
  inb_S64x24640_S64x185_0_15691 : ∀ a, (![0, 15691] : Fin 2 → Nat) a + S64x185.size a ≤ S64x24640.size a
  h_S64x185 : 0 < S64x185.numel
  slices_S64x256_o0_72_S64x1 : S64x256.Slices ![0, 72] S64x1
  slices_S64x256_o0_72_S64x184 : S64x256.Slices ![0, 72] S64x184
  broadcasts_S64x1_S64x184 : S64x1.Broadcasts S64x184
  inb_S64x24640_S64x184_0_15876 : ∀ a, (![0, 15876] : Fin 2 → Nat) a + S64x184.size a ≤ S64x24640.size a
  h_S64x184 : 0 < S64x184.numel
  slices_S64x256_o0_73_S64x1 : S64x256.Slices ![0, 73] S64x1
  slices_S64x256_o0_73_S64x183 : S64x256.Slices ![0, 73] S64x183
  broadcasts_S64x1_S64x183 : S64x1.Broadcasts S64x183
  inb_S64x24640_S64x183_0_16060 : ∀ a, (![0, 16060] : Fin 2 → Nat) a + S64x183.size a ≤ S64x24640.size a
  h_S64x183 : 0 < S64x183.numel
  slices_S64x256_o0_74_S64x1 : S64x256.Slices ![0, 74] S64x1
  slices_S64x256_o0_74_S64x182 : S64x256.Slices ![0, 74] S64x182
  broadcasts_S64x1_S64x182 : S64x1.Broadcasts S64x182
  inb_S64x24640_S64x182_0_16243 : ∀ a, (![0, 16243] : Fin 2 → Nat) a + S64x182.size a ≤ S64x24640.size a
  h_S64x182 : 0 < S64x182.numel
  slices_S64x256_o0_75_S64x1 : S64x256.Slices ![0, 75] S64x1
  slices_S64x256_o0_75_S64x181 : S64x256.Slices ![0, 75] S64x181
  broadcasts_S64x1_S64x181 : S64x1.Broadcasts S64x181
  inb_S64x24640_S64x181_0_16425 : ∀ a, (![0, 16425] : Fin 2 → Nat) a + S64x181.size a ≤ S64x24640.size a
  h_S64x181 : 0 < S64x181.numel
  slices_S64x256_o0_76_S64x1 : S64x256.Slices ![0, 76] S64x1
  slices_S64x256_o0_76_S64x180 : S64x256.Slices ![0, 76] S64x180
  broadcasts_S64x1_S64x180 : S64x1.Broadcasts S64x180
  inb_S64x24640_S64x180_0_16606 : ∀ a, (![0, 16606] : Fin 2 → Nat) a + S64x180.size a ≤ S64x24640.size a
  h_S64x180 : 0 < S64x180.numel
  slices_S64x256_o0_77_S64x1 : S64x256.Slices ![0, 77] S64x1
  slices_S64x256_o0_77_S64x179 : S64x256.Slices ![0, 77] S64x179
  broadcasts_S64x1_S64x179 : S64x1.Broadcasts S64x179
  inb_S64x24640_S64x179_0_16786 : ∀ a, (![0, 16786] : Fin 2 → Nat) a + S64x179.size a ≤ S64x24640.size a
  h_S64x179 : 0 < S64x179.numel
  slices_S64x256_o0_78_S64x1 : S64x256.Slices ![0, 78] S64x1
  slices_S64x256_o0_78_S64x178 : S64x256.Slices ![0, 78] S64x178
  broadcasts_S64x1_S64x178 : S64x1.Broadcasts S64x178
  inb_S64x24640_S64x178_0_16965 : ∀ a, (![0, 16965] : Fin 2 → Nat) a + S64x178.size a ≤ S64x24640.size a
  h_S64x178 : 0 < S64x178.numel
  slices_S64x256_o0_79_S64x1 : S64x256.Slices ![0, 79] S64x1
  slices_S64x256_o0_79_S64x177 : S64x256.Slices ![0, 79] S64x177
  broadcasts_S64x1_S64x177 : S64x1.Broadcasts S64x177
  inb_S64x24640_S64x177_0_17143 : ∀ a, (![0, 17143] : Fin 2 → Nat) a + S64x177.size a ≤ S64x24640.size a
  h_S64x177 : 0 < S64x177.numel
  slices_S64x256_o0_80_S64x1 : S64x256.Slices ![0, 80] S64x1
  slices_S64x256_o0_80_S64x176 : S64x256.Slices ![0, 80] S64x176
  broadcasts_S64x1_S64x176 : S64x1.Broadcasts S64x176
  inb_S64x24640_S64x176_0_17320 : ∀ a, (![0, 17320] : Fin 2 → Nat) a + S64x176.size a ≤ S64x24640.size a
  h_S64x176 : 0 < S64x176.numel
  slices_S64x256_o0_81_S64x1 : S64x256.Slices ![0, 81] S64x1
  slices_S64x256_o0_81_S64x175 : S64x256.Slices ![0, 81] S64x175
  broadcasts_S64x1_S64x175 : S64x1.Broadcasts S64x175
  inb_S64x24640_S64x175_0_17496 : ∀ a, (![0, 17496] : Fin 2 → Nat) a + S64x175.size a ≤ S64x24640.size a
  h_S64x175 : 0 < S64x175.numel
  slices_S64x256_o0_82_S64x1 : S64x256.Slices ![0, 82] S64x1
  slices_S64x256_o0_82_S64x174 : S64x256.Slices ![0, 82] S64x174
  broadcasts_S64x1_S64x174 : S64x1.Broadcasts S64x174
  inb_S64x24640_S64x174_0_17671 : ∀ a, (![0, 17671] : Fin 2 → Nat) a + S64x174.size a ≤ S64x24640.size a
  h_S64x174 : 0 < S64x174.numel
  slices_S64x256_o0_83_S64x1 : S64x256.Slices ![0, 83] S64x1
  slices_S64x256_o0_83_S64x173 : S64x256.Slices ![0, 83] S64x173
  broadcasts_S64x1_S64x173 : S64x1.Broadcasts S64x173
  inb_S64x24640_S64x173_0_17845 : ∀ a, (![0, 17845] : Fin 2 → Nat) a + S64x173.size a ≤ S64x24640.size a
  h_S64x173 : 0 < S64x173.numel
  slices_S64x256_o0_84_S64x1 : S64x256.Slices ![0, 84] S64x1
  slices_S64x256_o0_84_S64x172 : S64x256.Slices ![0, 84] S64x172
  broadcasts_S64x1_S64x172 : S64x1.Broadcasts S64x172
  inb_S64x24640_S64x172_0_18018 : ∀ a, (![0, 18018] : Fin 2 → Nat) a + S64x172.size a ≤ S64x24640.size a
  h_S64x172 : 0 < S64x172.numel
  slices_S64x256_o0_85_S64x1 : S64x256.Slices ![0, 85] S64x1
  slices_S64x256_o0_85_S64x171 : S64x256.Slices ![0, 85] S64x171
  broadcasts_S64x1_S64x171 : S64x1.Broadcasts S64x171
  inb_S64x24640_S64x171_0_18190 : ∀ a, (![0, 18190] : Fin 2 → Nat) a + S64x171.size a ≤ S64x24640.size a
  h_S64x171 : 0 < S64x171.numel
  slices_S64x256_o0_86_S64x1 : S64x256.Slices ![0, 86] S64x1
  slices_S64x256_o0_86_S64x170 : S64x256.Slices ![0, 86] S64x170
  broadcasts_S64x1_S64x170 : S64x1.Broadcasts S64x170
  inb_S64x24640_S64x170_0_18361 : ∀ a, (![0, 18361] : Fin 2 → Nat) a + S64x170.size a ≤ S64x24640.size a
  h_S64x170 : 0 < S64x170.numel
  slices_S64x256_o0_87_S64x1 : S64x256.Slices ![0, 87] S64x1
  slices_S64x256_o0_87_S64x169 : S64x256.Slices ![0, 87] S64x169
  broadcasts_S64x1_S64x169 : S64x1.Broadcasts S64x169
  inb_S64x24640_S64x169_0_18531 : ∀ a, (![0, 18531] : Fin 2 → Nat) a + S64x169.size a ≤ S64x24640.size a
  h_S64x169 : 0 < S64x169.numel
  slices_S64x256_o0_88_S64x1 : S64x256.Slices ![0, 88] S64x1
  slices_S64x256_o0_88_S64x168 : S64x256.Slices ![0, 88] S64x168
  broadcasts_S64x1_S64x168 : S64x1.Broadcasts S64x168
  inb_S64x24640_S64x168_0_18700 : ∀ a, (![0, 18700] : Fin 2 → Nat) a + S64x168.size a ≤ S64x24640.size a
  h_S64x168 : 0 < S64x168.numel
  slices_S64x256_o0_89_S64x1 : S64x256.Slices ![0, 89] S64x1
  slices_S64x256_o0_89_S64x167 : S64x256.Slices ![0, 89] S64x167
  broadcasts_S64x1_S64x167 : S64x1.Broadcasts S64x167
  inb_S64x24640_S64x167_0_18868 : ∀ a, (![0, 18868] : Fin 2 → Nat) a + S64x167.size a ≤ S64x24640.size a
  h_S64x167 : 0 < S64x167.numel
  slices_S64x256_o0_90_S64x1 : S64x256.Slices ![0, 90] S64x1
  slices_S64x256_o0_90_S64x166 : S64x256.Slices ![0, 90] S64x166
  broadcasts_S64x1_S64x166 : S64x1.Broadcasts S64x166
  inb_S64x24640_S64x166_0_19035 : ∀ a, (![0, 19035] : Fin 2 → Nat) a + S64x166.size a ≤ S64x24640.size a
  h_S64x166 : 0 < S64x166.numel
  slices_S64x256_o0_91_S64x1 : S64x256.Slices ![0, 91] S64x1
  slices_S64x256_o0_91_S64x165 : S64x256.Slices ![0, 91] S64x165
  broadcasts_S64x1_S64x165 : S64x1.Broadcasts S64x165
  inb_S64x24640_S64x165_0_19201 : ∀ a, (![0, 19201] : Fin 2 → Nat) a + S64x165.size a ≤ S64x24640.size a
  h_S64x165 : 0 < S64x165.numel
  slices_S64x256_o0_92_S64x1 : S64x256.Slices ![0, 92] S64x1
  slices_S64x256_o0_92_S64x164 : S64x256.Slices ![0, 92] S64x164
  broadcasts_S64x1_S64x164 : S64x1.Broadcasts S64x164
  inb_S64x24640_S64x164_0_19366 : ∀ a, (![0, 19366] : Fin 2 → Nat) a + S64x164.size a ≤ S64x24640.size a
  h_S64x164 : 0 < S64x164.numel
  slices_S64x256_o0_93_S64x1 : S64x256.Slices ![0, 93] S64x1
  slices_S64x256_o0_93_S64x163 : S64x256.Slices ![0, 93] S64x163
  broadcasts_S64x1_S64x163 : S64x1.Broadcasts S64x163
  inb_S64x24640_S64x163_0_19530 : ∀ a, (![0, 19530] : Fin 2 → Nat) a + S64x163.size a ≤ S64x24640.size a
  h_S64x163 : 0 < S64x163.numel
  slices_S64x256_o0_94_S64x1 : S64x256.Slices ![0, 94] S64x1
  slices_S64x256_o0_94_S64x162 : S64x256.Slices ![0, 94] S64x162
  broadcasts_S64x1_S64x162 : S64x1.Broadcasts S64x162
  inb_S64x24640_S64x162_0_19693 : ∀ a, (![0, 19693] : Fin 2 → Nat) a + S64x162.size a ≤ S64x24640.size a
  h_S64x162 : 0 < S64x162.numel
  slices_S64x256_o0_95_S64x1 : S64x256.Slices ![0, 95] S64x1
  slices_S64x256_o0_95_S64x161 : S64x256.Slices ![0, 95] S64x161
  broadcasts_S64x1_S64x161 : S64x1.Broadcasts S64x161
  inb_S64x24640_S64x161_0_19855 : ∀ a, (![0, 19855] : Fin 2 → Nat) a + S64x161.size a ≤ S64x24640.size a
  h_S64x161 : 0 < S64x161.numel
  slices_S64x256_o0_96_S64x1 : S64x256.Slices ![0, 96] S64x1
  slices_S64x256_o0_96_S64x160 : S64x256.Slices ![0, 96] S64x160
  broadcasts_S64x1_S64x160 : S64x1.Broadcasts S64x160
  inb_S64x24640_S64x160_0_20016 : ∀ a, (![0, 20016] : Fin 2 → Nat) a + S64x160.size a ≤ S64x24640.size a
  h_S64x160 : 0 < S64x160.numel
  slices_S64x256_o0_97_S64x1 : S64x256.Slices ![0, 97] S64x1
  slices_S64x256_o0_97_S64x159 : S64x256.Slices ![0, 97] S64x159
  broadcasts_S64x1_S64x159 : S64x1.Broadcasts S64x159
  inb_S64x24640_S64x159_0_20176 : ∀ a, (![0, 20176] : Fin 2 → Nat) a + S64x159.size a ≤ S64x24640.size a
  h_S64x159 : 0 < S64x159.numel
  slices_S64x256_o0_98_S64x1 : S64x256.Slices ![0, 98] S64x1
  slices_S64x256_o0_98_S64x158 : S64x256.Slices ![0, 98] S64x158
  broadcasts_S64x1_S64x158 : S64x1.Broadcasts S64x158
  inb_S64x24640_S64x158_0_20335 : ∀ a, (![0, 20335] : Fin 2 → Nat) a + S64x158.size a ≤ S64x24640.size a
  h_S64x158 : 0 < S64x158.numel
  slices_S64x256_o0_99_S64x1 : S64x256.Slices ![0, 99] S64x1
  slices_S64x256_o0_99_S64x157 : S64x256.Slices ![0, 99] S64x157
  broadcasts_S64x1_S64x157 : S64x1.Broadcasts S64x157
  inb_S64x24640_S64x157_0_20493 : ∀ a, (![0, 20493] : Fin 2 → Nat) a + S64x157.size a ≤ S64x24640.size a
  h_S64x157 : 0 < S64x157.numel
  slices_S64x256_o0_100_S64x1 : S64x256.Slices ![0, 100] S64x1
  slices_S64x256_o0_100_S64x156 : S64x256.Slices ![0, 100] S64x156
  broadcasts_S64x1_S64x156 : S64x1.Broadcasts S64x156
  inb_S64x24640_S64x156_0_20650 : ∀ a, (![0, 20650] : Fin 2 → Nat) a + S64x156.size a ≤ S64x24640.size a
  h_S64x156 : 0 < S64x156.numel
  slices_S64x256_o0_101_S64x1 : S64x256.Slices ![0, 101] S64x1
  slices_S64x256_o0_101_S64x155 : S64x256.Slices ![0, 101] S64x155
  broadcasts_S64x1_S64x155 : S64x1.Broadcasts S64x155
  inb_S64x24640_S64x155_0_20806 : ∀ a, (![0, 20806] : Fin 2 → Nat) a + S64x155.size a ≤ S64x24640.size a
  h_S64x155 : 0 < S64x155.numel
  slices_S64x256_o0_102_S64x1 : S64x256.Slices ![0, 102] S64x1
  slices_S64x256_o0_102_S64x154 : S64x256.Slices ![0, 102] S64x154
  broadcasts_S64x1_S64x154 : S64x1.Broadcasts S64x154
  inb_S64x24640_S64x154_0_20961 : ∀ a, (![0, 20961] : Fin 2 → Nat) a + S64x154.size a ≤ S64x24640.size a
  h_S64x154 : 0 < S64x154.numel
  slices_S64x256_o0_103_S64x1 : S64x256.Slices ![0, 103] S64x1
  slices_S64x256_o0_103_S64x153 : S64x256.Slices ![0, 103] S64x153
  broadcasts_S64x1_S64x153 : S64x1.Broadcasts S64x153
  inb_S64x24640_S64x153_0_21115 : ∀ a, (![0, 21115] : Fin 2 → Nat) a + S64x153.size a ≤ S64x24640.size a
  h_S64x153 : 0 < S64x153.numel
  slices_S64x256_o0_104_S64x1 : S64x256.Slices ![0, 104] S64x1
  slices_S64x256_o0_104_S64x152 : S64x256.Slices ![0, 104] S64x152
  broadcasts_S64x1_S64x152 : S64x1.Broadcasts S64x152
  inb_S64x24640_S64x152_0_21268 : ∀ a, (![0, 21268] : Fin 2 → Nat) a + S64x152.size a ≤ S64x24640.size a
  h_S64x152 : 0 < S64x152.numel
  slices_S64x256_o0_105_S64x1 : S64x256.Slices ![0, 105] S64x1
  slices_S64x256_o0_105_S64x151 : S64x256.Slices ![0, 105] S64x151
  broadcasts_S64x1_S64x151 : S64x1.Broadcasts S64x151
  inb_S64x24640_S64x151_0_21420 : ∀ a, (![0, 21420] : Fin 2 → Nat) a + S64x151.size a ≤ S64x24640.size a
  h_S64x151 : 0 < S64x151.numel
  slices_S64x256_o0_106_S64x1 : S64x256.Slices ![0, 106] S64x1
  slices_S64x256_o0_106_S64x150 : S64x256.Slices ![0, 106] S64x150
  broadcasts_S64x1_S64x150 : S64x1.Broadcasts S64x150
  inb_S64x24640_S64x150_0_21571 : ∀ a, (![0, 21571] : Fin 2 → Nat) a + S64x150.size a ≤ S64x24640.size a
  h_S64x150 : 0 < S64x150.numel
  slices_S64x256_o0_107_S64x1 : S64x256.Slices ![0, 107] S64x1
  slices_S64x256_o0_107_S64x149 : S64x256.Slices ![0, 107] S64x149
  broadcasts_S64x1_S64x149 : S64x1.Broadcasts S64x149
  inb_S64x24640_S64x149_0_21721 : ∀ a, (![0, 21721] : Fin 2 → Nat) a + S64x149.size a ≤ S64x24640.size a
  h_S64x149 : 0 < S64x149.numel
  slices_S64x256_o0_108_S64x1 : S64x256.Slices ![0, 108] S64x1
  slices_S64x256_o0_108_S64x148 : S64x256.Slices ![0, 108] S64x148
  broadcasts_S64x1_S64x148 : S64x1.Broadcasts S64x148
  inb_S64x24640_S64x148_0_21870 : ∀ a, (![0, 21870] : Fin 2 → Nat) a + S64x148.size a ≤ S64x24640.size a
  h_S64x148 : 0 < S64x148.numel
  slices_S64x256_o0_109_S64x1 : S64x256.Slices ![0, 109] S64x1
  slices_S64x256_o0_109_S64x147 : S64x256.Slices ![0, 109] S64x147
  broadcasts_S64x1_S64x147 : S64x1.Broadcasts S64x147
  inb_S64x24640_S64x147_0_22018 : ∀ a, (![0, 22018] : Fin 2 → Nat) a + S64x147.size a ≤ S64x24640.size a
  h_S64x147 : 0 < S64x147.numel
  slices_S64x256_o0_110_S64x1 : S64x256.Slices ![0, 110] S64x1
  slices_S64x256_o0_110_S64x146 : S64x256.Slices ![0, 110] S64x146
  broadcasts_S64x1_S64x146 : S64x1.Broadcasts S64x146
  inb_S64x24640_S64x146_0_22165 : ∀ a, (![0, 22165] : Fin 2 → Nat) a + S64x146.size a ≤ S64x24640.size a
  h_S64x146 : 0 < S64x146.numel
  slices_S64x256_o0_111_S64x1 : S64x256.Slices ![0, 111] S64x1
  slices_S64x256_o0_111_S64x145 : S64x256.Slices ![0, 111] S64x145
  broadcasts_S64x1_S64x145 : S64x1.Broadcasts S64x145
  inb_S64x24640_S64x145_0_22311 : ∀ a, (![0, 22311] : Fin 2 → Nat) a + S64x145.size a ≤ S64x24640.size a
  h_S64x145 : 0 < S64x145.numel
  slices_S64x256_o0_112_S64x1 : S64x256.Slices ![0, 112] S64x1
  slices_S64x256_o0_112_S64x144 : S64x256.Slices ![0, 112] S64x144
  broadcasts_S64x1_S64x144 : S64x1.Broadcasts S64x144
  inb_S64x24640_S64x144_0_22456 : ∀ a, (![0, 22456] : Fin 2 → Nat) a + S64x144.size a ≤ S64x24640.size a
  h_S64x144 : 0 < S64x144.numel
  slices_S64x256_o0_113_S64x1 : S64x256.Slices ![0, 113] S64x1
  slices_S64x256_o0_113_S64x143 : S64x256.Slices ![0, 113] S64x143
  broadcasts_S64x1_S64x143 : S64x1.Broadcasts S64x143
  inb_S64x24640_S64x143_0_22600 : ∀ a, (![0, 22600] : Fin 2 → Nat) a + S64x143.size a ≤ S64x24640.size a
  h_S64x143 : 0 < S64x143.numel
  slices_S64x256_o0_114_S64x1 : S64x256.Slices ![0, 114] S64x1
  slices_S64x256_o0_114_S64x142 : S64x256.Slices ![0, 114] S64x142
  broadcasts_S64x1_S64x142 : S64x1.Broadcasts S64x142
  inb_S64x24640_S64x142_0_22743 : ∀ a, (![0, 22743] : Fin 2 → Nat) a + S64x142.size a ≤ S64x24640.size a
  h_S64x142 : 0 < S64x142.numel
  slices_S64x256_o0_115_S64x1 : S64x256.Slices ![0, 115] S64x1
  slices_S64x256_o0_115_S64x141 : S64x256.Slices ![0, 115] S64x141
  broadcasts_S64x1_S64x141 : S64x1.Broadcasts S64x141
  inb_S64x24640_S64x141_0_22885 : ∀ a, (![0, 22885] : Fin 2 → Nat) a + S64x141.size a ≤ S64x24640.size a
  h_S64x141 : 0 < S64x141.numel
  slices_S64x256_o0_116_S64x1 : S64x256.Slices ![0, 116] S64x1
  slices_S64x256_o0_116_S64x140 : S64x256.Slices ![0, 116] S64x140
  broadcasts_S64x1_S64x140 : S64x1.Broadcasts S64x140
  inb_S64x24640_S64x140_0_23026 : ∀ a, (![0, 23026] : Fin 2 → Nat) a + S64x140.size a ≤ S64x24640.size a
  h_S64x140 : 0 < S64x140.numel
  slices_S64x256_o0_117_S64x1 : S64x256.Slices ![0, 117] S64x1
  slices_S64x256_o0_117_S64x139 : S64x256.Slices ![0, 117] S64x139
  broadcasts_S64x1_S64x139 : S64x1.Broadcasts S64x139
  inb_S64x24640_S64x139_0_23166 : ∀ a, (![0, 23166] : Fin 2 → Nat) a + S64x139.size a ≤ S64x24640.size a
  h_S64x139 : 0 < S64x139.numel
  slices_S64x256_o0_118_S64x1 : S64x256.Slices ![0, 118] S64x1
  slices_S64x256_o0_118_S64x138 : S64x256.Slices ![0, 118] S64x138
  broadcasts_S64x1_S64x138 : S64x1.Broadcasts S64x138
  inb_S64x24640_S64x138_0_23305 : ∀ a, (![0, 23305] : Fin 2 → Nat) a + S64x138.size a ≤ S64x24640.size a
  h_S64x138 : 0 < S64x138.numel
  slices_S64x256_o0_119_S64x1 : S64x256.Slices ![0, 119] S64x1
  slices_S64x256_o0_119_S64x137 : S64x256.Slices ![0, 119] S64x137
  broadcasts_S64x1_S64x137 : S64x1.Broadcasts S64x137
  inb_S64x24640_S64x137_0_23443 : ∀ a, (![0, 23443] : Fin 2 → Nat) a + S64x137.size a ≤ S64x24640.size a
  h_S64x137 : 0 < S64x137.numel
  slices_S64x256_o0_120_S64x1 : S64x256.Slices ![0, 120] S64x1
  slices_S64x256_o0_120_S64x136 : S64x256.Slices ![0, 120] S64x136
  broadcasts_S64x1_S64x136 : S64x1.Broadcasts S64x136
  inb_S64x24640_S64x136_0_23580 : ∀ a, (![0, 23580] : Fin 2 → Nat) a + S64x136.size a ≤ S64x24640.size a
  h_S64x136 : 0 < S64x136.numel
  slices_S64x256_o0_121_S64x1 : S64x256.Slices ![0, 121] S64x1
  slices_S64x256_o0_121_S64x135 : S64x256.Slices ![0, 121] S64x135
  broadcasts_S64x1_S64x135 : S64x1.Broadcasts S64x135
  inb_S64x24640_S64x135_0_23716 : ∀ a, (![0, 23716] : Fin 2 → Nat) a + S64x135.size a ≤ S64x24640.size a
  h_S64x135 : 0 < S64x135.numel
  slices_S64x256_o0_122_S64x1 : S64x256.Slices ![0, 122] S64x1
  slices_S64x256_o0_122_S64x134 : S64x256.Slices ![0, 122] S64x134
  broadcasts_S64x1_S64x134 : S64x1.Broadcasts S64x134
  inb_S64x24640_S64x134_0_23851 : ∀ a, (![0, 23851] : Fin 2 → Nat) a + S64x134.size a ≤ S64x24640.size a
  h_S64x134 : 0 < S64x134.numel
  slices_S64x256_o0_123_S64x1 : S64x256.Slices ![0, 123] S64x1
  slices_S64x256_o0_123_S64x133 : S64x256.Slices ![0, 123] S64x133
  broadcasts_S64x1_S64x133 : S64x1.Broadcasts S64x133
  inb_S64x24640_S64x133_0_23985 : ∀ a, (![0, 23985] : Fin 2 → Nat) a + S64x133.size a ≤ S64x24640.size a
  h_S64x133 : 0 < S64x133.numel
  slices_S64x256_o0_124_S64x1 : S64x256.Slices ![0, 124] S64x1
  slices_S64x256_o0_124_S64x132 : S64x256.Slices ![0, 124] S64x132
  broadcasts_S64x1_S64x132 : S64x1.Broadcasts S64x132
  inb_S64x24640_S64x132_0_24118 : ∀ a, (![0, 24118] : Fin 2 → Nat) a + S64x132.size a ≤ S64x24640.size a
  h_S64x132 : 0 < S64x132.numel
  slices_S64x256_o0_125_S64x1 : S64x256.Slices ![0, 125] S64x1
  slices_S64x256_o0_125_S64x131 : S64x256.Slices ![0, 125] S64x131
  broadcasts_S64x1_S64x131 : S64x1.Broadcasts S64x131
  inb_S64x24640_S64x131_0_24250 : ∀ a, (![0, 24250] : Fin 2 → Nat) a + S64x131.size a ≤ S64x24640.size a
  h_S64x131 : 0 < S64x131.numel
  slices_S64x256_o0_126_S64x1 : S64x256.Slices ![0, 126] S64x1
  slices_S64x256_o0_126_S64x130 : S64x256.Slices ![0, 126] S64x130
  broadcasts_S64x1_S64x130 : S64x1.Broadcasts S64x130
  inb_S64x24640_S64x130_0_24381 : ∀ a, (![0, 24381] : Fin 2 → Nat) a + S64x130.size a ≤ S64x24640.size a
  h_S64x130 : 0 < S64x130.numel
  slices_S64x256_o0_127_S64x1 : S64x256.Slices ![0, 127] S64x1
  slices_S64x256_o0_127_S64x129 : S64x256.Slices ![0, 127] S64x129
  broadcasts_S64x1_S64x129 : S64x1.Broadcasts S64x129
  inb_S64x24640_S64x129_0_24511 : ∀ a, (![0, 24511] : Fin 2 → Nat) a + S64x129.size a ≤ S64x24640.size a
  h_S64x129 : 0 < S64x129.numel
  slices_S1024x512_S1024x128_0_384 : S1024x512.Slices ![0, 384] S1024x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S64x128_o0_0_S64x1 : S64x128.Slices ![0, 0] S64x1
  broadcasts_S64x1_S64x128 : S64x1.Broadcasts S64x128
  inb_S64x8256_S64x128_0_0 : ∀ a, (![0, 0] : Fin 2 → Nat) a + S64x128.size a ≤ S64x8256.size a
  slices_S64x128_o0_1_S64x1 : S64x128.Slices ![0, 1] S64x1
  slices_S64x128_o0_1_S64x127 : S64x128.Slices ![0, 1] S64x127
  broadcasts_S64x1_S64x127 : S64x1.Broadcasts S64x127
  inb_S64x8256_S64x127_0_128 : ∀ a, (![0, 128] : Fin 2 → Nat) a + S64x127.size a ≤ S64x8256.size a
  h_S64x127 : 0 < S64x127.numel
  slices_S64x128_o0_2_S64x1 : S64x128.Slices ![0, 2] S64x1
  slices_S64x128_o0_2_S64x126 : S64x128.Slices ![0, 2] S64x126
  broadcasts_S64x1_S64x126 : S64x1.Broadcasts S64x126
  inb_S64x8256_S64x126_0_255 : ∀ a, (![0, 255] : Fin 2 → Nat) a + S64x126.size a ≤ S64x8256.size a
  h_S64x126 : 0 < S64x126.numel
  slices_S64x128_o0_3_S64x1 : S64x128.Slices ![0, 3] S64x1
  slices_S64x128_o0_3_S64x125 : S64x128.Slices ![0, 3] S64x125
  broadcasts_S64x1_S64x125 : S64x1.Broadcasts S64x125
  inb_S64x8256_S64x125_0_381 : ∀ a, (![0, 381] : Fin 2 → Nat) a + S64x125.size a ≤ S64x8256.size a
  h_S64x125 : 0 < S64x125.numel
  slices_S64x128_o0_4_S64x1 : S64x128.Slices ![0, 4] S64x1
  slices_S64x128_o0_4_S64x124 : S64x128.Slices ![0, 4] S64x124
  broadcasts_S64x1_S64x124 : S64x1.Broadcasts S64x124
  inb_S64x8256_S64x124_0_506 : ∀ a, (![0, 506] : Fin 2 → Nat) a + S64x124.size a ≤ S64x8256.size a
  h_S64x124 : 0 < S64x124.numel
  slices_S64x128_o0_5_S64x1 : S64x128.Slices ![0, 5] S64x1
  slices_S64x128_o0_5_S64x123 : S64x128.Slices ![0, 5] S64x123
  broadcasts_S64x1_S64x123 : S64x1.Broadcasts S64x123
  inb_S64x8256_S64x123_0_630 : ∀ a, (![0, 630] : Fin 2 → Nat) a + S64x123.size a ≤ S64x8256.size a
  h_S64x123 : 0 < S64x123.numel
  slices_S64x128_o0_6_S64x1 : S64x128.Slices ![0, 6] S64x1
  slices_S64x128_o0_6_S64x122 : S64x128.Slices ![0, 6] S64x122
  broadcasts_S64x1_S64x122 : S64x1.Broadcasts S64x122
  inb_S64x8256_S64x122_0_753 : ∀ a, (![0, 753] : Fin 2 → Nat) a + S64x122.size a ≤ S64x8256.size a
  h_S64x122 : 0 < S64x122.numel
  slices_S64x128_o0_7_S64x1 : S64x128.Slices ![0, 7] S64x1
  slices_S64x128_o0_7_S64x121 : S64x128.Slices ![0, 7] S64x121
  broadcasts_S64x1_S64x121 : S64x1.Broadcasts S64x121
  inb_S64x8256_S64x121_0_875 : ∀ a, (![0, 875] : Fin 2 → Nat) a + S64x121.size a ≤ S64x8256.size a
  h_S64x121 : 0 < S64x121.numel
  slices_S64x128_o0_8_S64x1 : S64x128.Slices ![0, 8] S64x1
  slices_S64x128_o0_8_S64x120 : S64x128.Slices ![0, 8] S64x120
  broadcasts_S64x1_S64x120 : S64x1.Broadcasts S64x120
  inb_S64x8256_S64x120_0_996 : ∀ a, (![0, 996] : Fin 2 → Nat) a + S64x120.size a ≤ S64x8256.size a
  h_S64x120 : 0 < S64x120.numel
  slices_S64x128_o0_9_S64x1 : S64x128.Slices ![0, 9] S64x1
  slices_S64x128_o0_9_S64x119 : S64x128.Slices ![0, 9] S64x119
  broadcasts_S64x1_S64x119 : S64x1.Broadcasts S64x119
  inb_S64x8256_S64x119_0_1116 : ∀ a, (![0, 1116] : Fin 2 → Nat) a + S64x119.size a ≤ S64x8256.size a
  h_S64x119 : 0 < S64x119.numel
  slices_S64x128_o0_10_S64x1 : S64x128.Slices ![0, 10] S64x1
  slices_S64x128_o0_10_S64x118 : S64x128.Slices ![0, 10] S64x118
  broadcasts_S64x1_S64x118 : S64x1.Broadcasts S64x118
  inb_S64x8256_S64x118_0_1235 : ∀ a, (![0, 1235] : Fin 2 → Nat) a + S64x118.size a ≤ S64x8256.size a
  h_S64x118 : 0 < S64x118.numel
  slices_S64x128_o0_11_S64x1 : S64x128.Slices ![0, 11] S64x1
  slices_S64x128_o0_11_S64x117 : S64x128.Slices ![0, 11] S64x117
  broadcasts_S64x1_S64x117 : S64x1.Broadcasts S64x117
  inb_S64x8256_S64x117_0_1353 : ∀ a, (![0, 1353] : Fin 2 → Nat) a + S64x117.size a ≤ S64x8256.size a
  h_S64x117 : 0 < S64x117.numel
  slices_S64x128_o0_12_S64x1 : S64x128.Slices ![0, 12] S64x1
  slices_S64x128_o0_12_S64x116 : S64x128.Slices ![0, 12] S64x116
  broadcasts_S64x1_S64x116 : S64x1.Broadcasts S64x116
  inb_S64x8256_S64x116_0_1470 : ∀ a, (![0, 1470] : Fin 2 → Nat) a + S64x116.size a ≤ S64x8256.size a
  h_S64x116 : 0 < S64x116.numel
  slices_S64x128_o0_13_S64x1 : S64x128.Slices ![0, 13] S64x1
  slices_S64x128_o0_13_S64x115 : S64x128.Slices ![0, 13] S64x115
  broadcasts_S64x1_S64x115 : S64x1.Broadcasts S64x115
  inb_S64x8256_S64x115_0_1586 : ∀ a, (![0, 1586] : Fin 2 → Nat) a + S64x115.size a ≤ S64x8256.size a
  h_S64x115 : 0 < S64x115.numel
  slices_S64x128_o0_14_S64x1 : S64x128.Slices ![0, 14] S64x1
  slices_S64x128_o0_14_S64x114 : S64x128.Slices ![0, 14] S64x114

class Shapes3.Facts₀ : Prop where
  broadcasts_S64x1_S64x114 : S64x1.Broadcasts S64x114
  inb_S64x8256_S64x114_0_1701 : ∀ a, (![0, 1701] : Fin 2 → Nat) a + S64x114.size a ≤ S64x8256.size a
  h_S64x114 : 0 < S64x114.numel
  slices_S64x128_o0_15_S64x1 : S64x128.Slices ![0, 15] S64x1
  slices_S64x128_o0_15_S64x113 : S64x128.Slices ![0, 15] S64x113
  broadcasts_S64x1_S64x113 : S64x1.Broadcasts S64x113
  inb_S64x8256_S64x113_0_1815 : ∀ a, (![0, 1815] : Fin 2 → Nat) a + S64x113.size a ≤ S64x8256.size a
  h_S64x113 : 0 < S64x113.numel
  slices_S64x128_o0_16_S64x1 : S64x128.Slices ![0, 16] S64x1
  slices_S64x128_o0_16_S64x112 : S64x128.Slices ![0, 16] S64x112
  broadcasts_S64x1_S64x112 : S64x1.Broadcasts S64x112
  inb_S64x8256_S64x112_0_1928 : ∀ a, (![0, 1928] : Fin 2 → Nat) a + S64x112.size a ≤ S64x8256.size a
  h_S64x112 : 0 < S64x112.numel
  slices_S64x128_o0_17_S64x1 : S64x128.Slices ![0, 17] S64x1
  slices_S64x128_o0_17_S64x111 : S64x128.Slices ![0, 17] S64x111
  broadcasts_S64x1_S64x111 : S64x1.Broadcasts S64x111
  inb_S64x8256_S64x111_0_2040 : ∀ a, (![0, 2040] : Fin 2 → Nat) a + S64x111.size a ≤ S64x8256.size a
  h_S64x111 : 0 < S64x111.numel
  slices_S64x128_o0_18_S64x1 : S64x128.Slices ![0, 18] S64x1
  slices_S64x128_o0_18_S64x110 : S64x128.Slices ![0, 18] S64x110
  broadcasts_S64x1_S64x110 : S64x1.Broadcasts S64x110
  inb_S64x8256_S64x110_0_2151 : ∀ a, (![0, 2151] : Fin 2 → Nat) a + S64x110.size a ≤ S64x8256.size a
  h_S64x110 : 0 < S64x110.numel
  slices_S64x128_o0_19_S64x1 : S64x128.Slices ![0, 19] S64x1
  slices_S64x128_o0_19_S64x109 : S64x128.Slices ![0, 19] S64x109
  broadcasts_S64x1_S64x109 : S64x1.Broadcasts S64x109
  inb_S64x8256_S64x109_0_2261 : ∀ a, (![0, 2261] : Fin 2 → Nat) a + S64x109.size a ≤ S64x8256.size a
  h_S64x109 : 0 < S64x109.numel
  slices_S64x128_o0_20_S64x1 : S64x128.Slices ![0, 20] S64x1
  slices_S64x128_o0_20_S64x108 : S64x128.Slices ![0, 20] S64x108
  broadcasts_S64x1_S64x108 : S64x1.Broadcasts S64x108
  inb_S64x8256_S64x108_0_2370 : ∀ a, (![0, 2370] : Fin 2 → Nat) a + S64x108.size a ≤ S64x8256.size a
  h_S64x108 : 0 < S64x108.numel
  slices_S64x128_o0_21_S64x1 : S64x128.Slices ![0, 21] S64x1
  slices_S64x128_o0_21_S64x107 : S64x128.Slices ![0, 21] S64x107
  broadcasts_S64x1_S64x107 : S64x1.Broadcasts S64x107
  inb_S64x8256_S64x107_0_2478 : ∀ a, (![0, 2478] : Fin 2 → Nat) a + S64x107.size a ≤ S64x8256.size a
  h_S64x107 : 0 < S64x107.numel
  slices_S64x128_o0_22_S64x1 : S64x128.Slices ![0, 22] S64x1
  slices_S64x128_o0_22_S64x106 : S64x128.Slices ![0, 22] S64x106
  broadcasts_S64x1_S64x106 : S64x1.Broadcasts S64x106
  inb_S64x8256_S64x106_0_2585 : ∀ a, (![0, 2585] : Fin 2 → Nat) a + S64x106.size a ≤ S64x8256.size a
  h_S64x106 : 0 < S64x106.numel
  slices_S64x128_o0_23_S64x1 : S64x128.Slices ![0, 23] S64x1
  slices_S64x128_o0_23_S64x105 : S64x128.Slices ![0, 23] S64x105
  broadcasts_S64x1_S64x105 : S64x1.Broadcasts S64x105
  inb_S64x8256_S64x105_0_2691 : ∀ a, (![0, 2691] : Fin 2 → Nat) a + S64x105.size a ≤ S64x8256.size a
  h_S64x105 : 0 < S64x105.numel
  slices_S64x128_o0_24_S64x1 : S64x128.Slices ![0, 24] S64x1
  slices_S64x128_o0_24_S64x104 : S64x128.Slices ![0, 24] S64x104
  broadcasts_S64x1_S64x104 : S64x1.Broadcasts S64x104
  inb_S64x8256_S64x104_0_2796 : ∀ a, (![0, 2796] : Fin 2 → Nat) a + S64x104.size a ≤ S64x8256.size a
  h_S64x104 : 0 < S64x104.numel
  slices_S64x128_o0_25_S64x1 : S64x128.Slices ![0, 25] S64x1
  slices_S64x128_o0_25_S64x103 : S64x128.Slices ![0, 25] S64x103
  broadcasts_S64x1_S64x103 : S64x1.Broadcasts S64x103
  inb_S64x8256_S64x103_0_2900 : ∀ a, (![0, 2900] : Fin 2 → Nat) a + S64x103.size a ≤ S64x8256.size a
  h_S64x103 : 0 < S64x103.numel
  slices_S64x128_o0_26_S64x1 : S64x128.Slices ![0, 26] S64x1
  slices_S64x128_o0_26_S64x102 : S64x128.Slices ![0, 26] S64x102
  broadcasts_S64x1_S64x102 : S64x1.Broadcasts S64x102
  inb_S64x8256_S64x102_0_3003 : ∀ a, (![0, 3003] : Fin 2 → Nat) a + S64x102.size a ≤ S64x8256.size a
  h_S64x102 : 0 < S64x102.numel
  slices_S64x128_o0_27_S64x1 : S64x128.Slices ![0, 27] S64x1
  slices_S64x128_o0_27_S64x101 : S64x128.Slices ![0, 27] S64x101
  broadcasts_S64x1_S64x101 : S64x1.Broadcasts S64x101
  inb_S64x8256_S64x101_0_3105 : ∀ a, (![0, 3105] : Fin 2 → Nat) a + S64x101.size a ≤ S64x8256.size a
  h_S64x101 : 0 < S64x101.numel
  slices_S64x128_o0_28_S64x1 : S64x128.Slices ![0, 28] S64x1
  slices_S64x128_o0_28_S64x100 : S64x128.Slices ![0, 28] S64x100
  broadcasts_S64x1_S64x100 : S64x1.Broadcasts S64x100
  inb_S64x8256_S64x100_0_3206 : ∀ a, (![0, 3206] : Fin 2 → Nat) a + S64x100.size a ≤ S64x8256.size a
  h_S64x100 : 0 < S64x100.numel
  slices_S64x128_o0_29_S64x1 : S64x128.Slices ![0, 29] S64x1
  slices_S64x128_o0_29_S64x99 : S64x128.Slices ![0, 29] S64x99
  broadcasts_S64x1_S64x99 : S64x1.Broadcasts S64x99
  inb_S64x8256_S64x99_0_3306 : ∀ a, (![0, 3306] : Fin 2 → Nat) a + S64x99.size a ≤ S64x8256.size a
  h_S64x99 : 0 < S64x99.numel
  slices_S64x128_o0_30_S64x1 : S64x128.Slices ![0, 30] S64x1
  slices_S64x128_o0_30_S64x98 : S64x128.Slices ![0, 30] S64x98
  broadcasts_S64x1_S64x98 : S64x1.Broadcasts S64x98
  inb_S64x8256_S64x98_0_3405 : ∀ a, (![0, 3405] : Fin 2 → Nat) a + S64x98.size a ≤ S64x8256.size a
  h_S64x98 : 0 < S64x98.numel
  slices_S64x128_o0_31_S64x1 : S64x128.Slices ![0, 31] S64x1
  slices_S64x128_o0_31_S64x97 : S64x128.Slices ![0, 31] S64x97
  broadcasts_S64x1_S64x97 : S64x1.Broadcasts S64x97
  inb_S64x8256_S64x97_0_3503 : ∀ a, (![0, 3503] : Fin 2 → Nat) a + S64x97.size a ≤ S64x8256.size a
  h_S64x97 : 0 < S64x97.numel
  slices_S64x128_o0_32_S64x1 : S64x128.Slices ![0, 32] S64x1
  slices_S64x128_o0_32_S64x96 : S64x128.Slices ![0, 32] S64x96
  broadcasts_S64x1_S64x96 : S64x1.Broadcasts S64x96
  inb_S64x8256_S64x96_0_3600 : ∀ a, (![0, 3600] : Fin 2 → Nat) a + S64x96.size a ≤ S64x8256.size a
  h_S64x96 : 0 < S64x96.numel
  slices_S64x128_o0_33_S64x1 : S64x128.Slices ![0, 33] S64x1
  slices_S64x128_o0_33_S64x95 : S64x128.Slices ![0, 33] S64x95
  broadcasts_S64x1_S64x95 : S64x1.Broadcasts S64x95
  inb_S64x8256_S64x95_0_3696 : ∀ a, (![0, 3696] : Fin 2 → Nat) a + S64x95.size a ≤ S64x8256.size a
  h_S64x95 : 0 < S64x95.numel
  slices_S64x128_o0_34_S64x1 : S64x128.Slices ![0, 34] S64x1
  slices_S64x128_o0_34_S64x94 : S64x128.Slices ![0, 34] S64x94
  broadcasts_S64x1_S64x94 : S64x1.Broadcasts S64x94
  inb_S64x8256_S64x94_0_3791 : ∀ a, (![0, 3791] : Fin 2 → Nat) a + S64x94.size a ≤ S64x8256.size a
  h_S64x94 : 0 < S64x94.numel
  slices_S64x128_o0_35_S64x1 : S64x128.Slices ![0, 35] S64x1
  slices_S64x128_o0_35_S64x93 : S64x128.Slices ![0, 35] S64x93
  broadcasts_S64x1_S64x93 : S64x1.Broadcasts S64x93
  inb_S64x8256_S64x93_0_3885 : ∀ a, (![0, 3885] : Fin 2 → Nat) a + S64x93.size a ≤ S64x8256.size a
  h_S64x93 : 0 < S64x93.numel
  slices_S64x128_o0_36_S64x1 : S64x128.Slices ![0, 36] S64x1
  slices_S64x128_o0_36_S64x92 : S64x128.Slices ![0, 36] S64x92
  broadcasts_S64x1_S64x92 : S64x1.Broadcasts S64x92
  inb_S64x8256_S64x92_0_3978 : ∀ a, (![0, 3978] : Fin 2 → Nat) a + S64x92.size a ≤ S64x8256.size a
  h_S64x92 : 0 < S64x92.numel
  slices_S64x128_o0_37_S64x1 : S64x128.Slices ![0, 37] S64x1
  slices_S64x128_o0_37_S64x91 : S64x128.Slices ![0, 37] S64x91
  broadcasts_S64x1_S64x91 : S64x1.Broadcasts S64x91
  inb_S64x8256_S64x91_0_4070 : ∀ a, (![0, 4070] : Fin 2 → Nat) a + S64x91.size a ≤ S64x8256.size a
  h_S64x91 : 0 < S64x91.numel
  slices_S64x128_o0_38_S64x1 : S64x128.Slices ![0, 38] S64x1
  slices_S64x128_o0_38_S64x90 : S64x128.Slices ![0, 38] S64x90
  broadcasts_S64x1_S64x90 : S64x1.Broadcasts S64x90
  inb_S64x8256_S64x90_0_4161 : ∀ a, (![0, 4161] : Fin 2 → Nat) a + S64x90.size a ≤ S64x8256.size a
  h_S64x90 : 0 < S64x90.numel
  slices_S64x128_o0_39_S64x1 : S64x128.Slices ![0, 39] S64x1
  slices_S64x128_o0_39_S64x89 : S64x128.Slices ![0, 39] S64x89
  broadcasts_S64x1_S64x89 : S64x1.Broadcasts S64x89
  inb_S64x8256_S64x89_0_4251 : ∀ a, (![0, 4251] : Fin 2 → Nat) a + S64x89.size a ≤ S64x8256.size a
  h_S64x89 : 0 < S64x89.numel
  slices_S64x128_o0_40_S64x1 : S64x128.Slices ![0, 40] S64x1
  slices_S64x128_o0_40_S64x88 : S64x128.Slices ![0, 40] S64x88
  broadcasts_S64x1_S64x88 : S64x1.Broadcasts S64x88
  inb_S64x8256_S64x88_0_4340 : ∀ a, (![0, 4340] : Fin 2 → Nat) a + S64x88.size a ≤ S64x8256.size a
  h_S64x88 : 0 < S64x88.numel
  slices_S64x128_o0_41_S64x1 : S64x128.Slices ![0, 41] S64x1
  slices_S64x128_o0_41_S64x87 : S64x128.Slices ![0, 41] S64x87
  broadcasts_S64x1_S64x87 : S64x1.Broadcasts S64x87
  inb_S64x8256_S64x87_0_4428 : ∀ a, (![0, 4428] : Fin 2 → Nat) a + S64x87.size a ≤ S64x8256.size a
  h_S64x87 : 0 < S64x87.numel
  slices_S64x128_o0_42_S64x1 : S64x128.Slices ![0, 42] S64x1
  slices_S64x128_o0_42_S64x86 : S64x128.Slices ![0, 42] S64x86
  broadcasts_S64x1_S64x86 : S64x1.Broadcasts S64x86
  inb_S64x8256_S64x86_0_4515 : ∀ a, (![0, 4515] : Fin 2 → Nat) a + S64x86.size a ≤ S64x8256.size a
  h_S64x86 : 0 < S64x86.numel
  slices_S64x128_o0_43_S64x1 : S64x128.Slices ![0, 43] S64x1
  slices_S64x128_o0_43_S64x85 : S64x128.Slices ![0, 43] S64x85
  broadcasts_S64x1_S64x85 : S64x1.Broadcasts S64x85
  inb_S64x8256_S64x85_0_4601 : ∀ a, (![0, 4601] : Fin 2 → Nat) a + S64x85.size a ≤ S64x8256.size a
  h_S64x85 : 0 < S64x85.numel
  slices_S64x128_o0_44_S64x1 : S64x128.Slices ![0, 44] S64x1
  slices_S64x128_o0_44_S64x84 : S64x128.Slices ![0, 44] S64x84
  broadcasts_S64x1_S64x84 : S64x1.Broadcasts S64x84
  inb_S64x8256_S64x84_0_4686 : ∀ a, (![0, 4686] : Fin 2 → Nat) a + S64x84.size a ≤ S64x8256.size a
  h_S64x84 : 0 < S64x84.numel
  slices_S64x128_o0_45_S64x1 : S64x128.Slices ![0, 45] S64x1
  slices_S64x128_o0_45_S64x83 : S64x128.Slices ![0, 45] S64x83
  broadcasts_S64x1_S64x83 : S64x1.Broadcasts S64x83
  inb_S64x8256_S64x83_0_4770 : ∀ a, (![0, 4770] : Fin 2 → Nat) a + S64x83.size a ≤ S64x8256.size a
  h_S64x83 : 0 < S64x83.numel
  slices_S64x128_o0_46_S64x1 : S64x128.Slices ![0, 46] S64x1
  slices_S64x128_o0_46_S64x82 : S64x128.Slices ![0, 46] S64x82
  broadcasts_S64x1_S64x82 : S64x1.Broadcasts S64x82
  inb_S64x8256_S64x82_0_4853 : ∀ a, (![0, 4853] : Fin 2 → Nat) a + S64x82.size a ≤ S64x8256.size a
  h_S64x82 : 0 < S64x82.numel
  slices_S64x128_o0_47_S64x1 : S64x128.Slices ![0, 47] S64x1
  slices_S64x128_o0_47_S64x81 : S64x128.Slices ![0, 47] S64x81
  broadcasts_S64x1_S64x81 : S64x1.Broadcasts S64x81
  inb_S64x8256_S64x81_0_4935 : ∀ a, (![0, 4935] : Fin 2 → Nat) a + S64x81.size a ≤ S64x8256.size a
  h_S64x81 : 0 < S64x81.numel
  slices_S64x128_o0_48_S64x1 : S64x128.Slices ![0, 48] S64x1
  slices_S64x128_o0_48_S64x80 : S64x128.Slices ![0, 48] S64x80
  broadcasts_S64x1_S64x80 : S64x1.Broadcasts S64x80
  inb_S64x8256_S64x80_0_5016 : ∀ a, (![0, 5016] : Fin 2 → Nat) a + S64x80.size a ≤ S64x8256.size a
  h_S64x80 : 0 < S64x80.numel
  slices_S64x128_o0_49_S64x1 : S64x128.Slices ![0, 49] S64x1
  slices_S64x128_o0_49_S64x79 : S64x128.Slices ![0, 49] S64x79
  broadcasts_S64x1_S64x79 : S64x1.Broadcasts S64x79
  inb_S64x8256_S64x79_0_5096 : ∀ a, (![0, 5096] : Fin 2 → Nat) a + S64x79.size a ≤ S64x8256.size a
  h_S64x79 : 0 < S64x79.numel
  slices_S64x128_o0_50_S64x1 : S64x128.Slices ![0, 50] S64x1
  slices_S64x128_o0_50_S64x78 : S64x128.Slices ![0, 50] S64x78
  broadcasts_S64x1_S64x78 : S64x1.Broadcasts S64x78
  inb_S64x8256_S64x78_0_5175 : ∀ a, (![0, 5175] : Fin 2 → Nat) a + S64x78.size a ≤ S64x8256.size a
  h_S64x78 : 0 < S64x78.numel
  slices_S64x128_o0_51_S64x1 : S64x128.Slices ![0, 51] S64x1
  slices_S64x128_o0_51_S64x77 : S64x128.Slices ![0, 51] S64x77
  broadcasts_S64x1_S64x77 : S64x1.Broadcasts S64x77
  inb_S64x8256_S64x77_0_5253 : ∀ a, (![0, 5253] : Fin 2 → Nat) a + S64x77.size a ≤ S64x8256.size a
  h_S64x77 : 0 < S64x77.numel
  slices_S64x128_o0_52_S64x1 : S64x128.Slices ![0, 52] S64x1
  slices_S64x128_o0_52_S64x76 : S64x128.Slices ![0, 52] S64x76
  broadcasts_S64x1_S64x76 : S64x1.Broadcasts S64x76
  inb_S64x8256_S64x76_0_5330 : ∀ a, (![0, 5330] : Fin 2 → Nat) a + S64x76.size a ≤ S64x8256.size a
  h_S64x76 : 0 < S64x76.numel
  slices_S64x128_o0_53_S64x1 : S64x128.Slices ![0, 53] S64x1
  slices_S64x128_o0_53_S64x75 : S64x128.Slices ![0, 53] S64x75
  broadcasts_S64x1_S64x75 : S64x1.Broadcasts S64x75
  inb_S64x8256_S64x75_0_5406 : ∀ a, (![0, 5406] : Fin 2 → Nat) a + S64x75.size a ≤ S64x8256.size a
  h_S64x75 : 0 < S64x75.numel
  slices_S64x128_o0_54_S64x1 : S64x128.Slices ![0, 54] S64x1
  slices_S64x128_o0_54_S64x74 : S64x128.Slices ![0, 54] S64x74
  broadcasts_S64x1_S64x74 : S64x1.Broadcasts S64x74
  inb_S64x8256_S64x74_0_5481 : ∀ a, (![0, 5481] : Fin 2 → Nat) a + S64x74.size a ≤ S64x8256.size a
  h_S64x74 : 0 < S64x74.numel
  slices_S64x128_o0_55_S64x1 : S64x128.Slices ![0, 55] S64x1
  slices_S64x128_o0_55_S64x73 : S64x128.Slices ![0, 55] S64x73
  broadcasts_S64x1_S64x73 : S64x1.Broadcasts S64x73
  inb_S64x8256_S64x73_0_5555 : ∀ a, (![0, 5555] : Fin 2 → Nat) a + S64x73.size a ≤ S64x8256.size a
  h_S64x73 : 0 < S64x73.numel
  slices_S64x128_o0_56_S64x1 : S64x128.Slices ![0, 56] S64x1
  slices_S64x128_o0_56_S64x72 : S64x128.Slices ![0, 56] S64x72
  broadcasts_S64x1_S64x72 : S64x1.Broadcasts S64x72
  inb_S64x8256_S64x72_0_5628 : ∀ a, (![0, 5628] : Fin 2 → Nat) a + S64x72.size a ≤ S64x8256.size a
  h_S64x72 : 0 < S64x72.numel
  slices_S64x128_o0_57_S64x1 : S64x128.Slices ![0, 57] S64x1
  slices_S64x128_o0_57_S64x71 : S64x128.Slices ![0, 57] S64x71
  broadcasts_S64x1_S64x71 : S64x1.Broadcasts S64x71
  inb_S64x8256_S64x71_0_5700 : ∀ a, (![0, 5700] : Fin 2 → Nat) a + S64x71.size a ≤ S64x8256.size a
  h_S64x71 : 0 < S64x71.numel
  slices_S64x128_o0_58_S64x1 : S64x128.Slices ![0, 58] S64x1
  slices_S64x128_o0_58_S64x70 : S64x128.Slices ![0, 58] S64x70
  broadcasts_S64x1_S64x70 : S64x1.Broadcasts S64x70
  inb_S64x8256_S64x70_0_5771 : ∀ a, (![0, 5771] : Fin 2 → Nat) a + S64x70.size a ≤ S64x8256.size a
  h_S64x70 : 0 < S64x70.numel
  slices_S64x128_o0_59_S64x1 : S64x128.Slices ![0, 59] S64x1
  slices_S64x128_o0_59_S64x69 : S64x128.Slices ![0, 59] S64x69
  broadcasts_S64x1_S64x69 : S64x1.Broadcasts S64x69
  inb_S64x8256_S64x69_0_5841 : ∀ a, (![0, 5841] : Fin 2 → Nat) a + S64x69.size a ≤ S64x8256.size a
  h_S64x69 : 0 < S64x69.numel
  slices_S64x128_o0_60_S64x1 : S64x128.Slices ![0, 60] S64x1
  slices_S64x128_o0_60_S64x68 : S64x128.Slices ![0, 60] S64x68
  broadcasts_S64x1_S64x68 : S64x1.Broadcasts S64x68
  inb_S64x8256_S64x68_0_5910 : ∀ a, (![0, 5910] : Fin 2 → Nat) a + S64x68.size a ≤ S64x8256.size a
  h_S64x68 : 0 < S64x68.numel
  slices_S64x128_o0_61_S64x1 : S64x128.Slices ![0, 61] S64x1
  slices_S64x128_o0_61_S64x67 : S64x128.Slices ![0, 61] S64x67
  broadcasts_S64x1_S64x67 : S64x1.Broadcasts S64x67
  inb_S64x8256_S64x67_0_5978 : ∀ a, (![0, 5978] : Fin 2 → Nat) a + S64x67.size a ≤ S64x8256.size a
  h_S64x67 : 0 < S64x67.numel
  slices_S64x128_o0_62_S64x1 : S64x128.Slices ![0, 62] S64x1
  slices_S64x128_o0_62_S64x66 : S64x128.Slices ![0, 62] S64x66
  broadcasts_S64x1_S64x66 : S64x1.Broadcasts S64x66
  inb_S64x8256_S64x66_0_6045 : ∀ a, (![0, 6045] : Fin 2 → Nat) a + S64x66.size a ≤ S64x8256.size a
  h_S64x66 : 0 < S64x66.numel
  slices_S64x128_o0_63_S64x1 : S64x128.Slices ![0, 63] S64x1
  slices_S64x128_o0_63_S64x65 : S64x128.Slices ![0, 63] S64x65
  broadcasts_S64x1_S64x65 : S64x1.Broadcasts S64x65
  inb_S64x8256_S64x65_0_6111 : ∀ a, (![0, 6111] : Fin 2 → Nat) a + S64x65.size a ≤ S64x8256.size a
  h_S64x65 : 0 < S64x65.numel
  slices_S64x128_o0_64_S64x1 : S64x128.Slices ![0, 64] S64x1
  slices_S64x128_o0_64_S64x64 : S64x128.Slices ![0, 64] S64x64
  broadcasts_S64x1_S64x64 : S64x1.Broadcasts S64x64
  inb_S64x8256_S64x64_0_6176 : ∀ a, (![0, 6176] : Fin 2 → Nat) a + S64x64.size a ≤ S64x8256.size a
  h_S64x64 : 0 < S64x64.numel
  slices_S64x128_o0_65_S64x1 : S64x128.Slices ![0, 65] S64x1
  slices_S64x128_o0_65_S64x63 : S64x128.Slices ![0, 65] S64x63
  broadcasts_S64x1_S64x63 : S64x1.Broadcasts S64x63
  inb_S64x8256_S64x63_0_6240 : ∀ a, (![0, 6240] : Fin 2 → Nat) a + S64x63.size a ≤ S64x8256.size a
  h_S64x63 : 0 < S64x63.numel
  slices_S64x128_o0_66_S64x1 : S64x128.Slices ![0, 66] S64x1
  slices_S64x128_o0_66_S64x62 : S64x128.Slices ![0, 66] S64x62
  broadcasts_S64x1_S64x62 : S64x1.Broadcasts S64x62
  inb_S64x8256_S64x62_0_6303 : ∀ a, (![0, 6303] : Fin 2 → Nat) a + S64x62.size a ≤ S64x8256.size a
  h_S64x62 : 0 < S64x62.numel
  slices_S64x128_o0_67_S64x1 : S64x128.Slices ![0, 67] S64x1
  slices_S64x128_o0_67_S64x61 : S64x128.Slices ![0, 67] S64x61
  broadcasts_S64x1_S64x61 : S64x1.Broadcasts S64x61
  inb_S64x8256_S64x61_0_6365 : ∀ a, (![0, 6365] : Fin 2 → Nat) a + S64x61.size a ≤ S64x8256.size a
  h_S64x61 : 0 < S64x61.numel
  slices_S64x128_o0_68_S64x1 : S64x128.Slices ![0, 68] S64x1
  slices_S64x128_o0_68_S64x60 : S64x128.Slices ![0, 68] S64x60
  broadcasts_S64x1_S64x60 : S64x1.Broadcasts S64x60
  inb_S64x8256_S64x60_0_6426 : ∀ a, (![0, 6426] : Fin 2 → Nat) a + S64x60.size a ≤ S64x8256.size a
  h_S64x60 : 0 < S64x60.numel
  slices_S64x128_o0_69_S64x1 : S64x128.Slices ![0, 69] S64x1
  slices_S64x128_o0_69_S64x59 : S64x128.Slices ![0, 69] S64x59
  broadcasts_S64x1_S64x59 : S64x1.Broadcasts S64x59
  inb_S64x8256_S64x59_0_6486 : ∀ a, (![0, 6486] : Fin 2 → Nat) a + S64x59.size a ≤ S64x8256.size a
  h_S64x59 : 0 < S64x59.numel
  slices_S64x128_o0_70_S64x1 : S64x128.Slices ![0, 70] S64x1
  slices_S64x128_o0_70_S64x58 : S64x128.Slices ![0, 70] S64x58
  broadcasts_S64x1_S64x58 : S64x1.Broadcasts S64x58
  inb_S64x8256_S64x58_0_6545 : ∀ a, (![0, 6545] : Fin 2 → Nat) a + S64x58.size a ≤ S64x8256.size a
  h_S64x58 : 0 < S64x58.numel
  slices_S64x128_o0_71_S64x1 : S64x128.Slices ![0, 71] S64x1
  slices_S64x128_o0_71_S64x57 : S64x128.Slices ![0, 71] S64x57
  broadcasts_S64x1_S64x57 : S64x1.Broadcasts S64x57
  inb_S64x8256_S64x57_0_6603 : ∀ a, (![0, 6603] : Fin 2 → Nat) a + S64x57.size a ≤ S64x8256.size a
  h_S64x57 : 0 < S64x57.numel
  slices_S64x128_o0_72_S64x1 : S64x128.Slices ![0, 72] S64x1
  slices_S64x128_o0_72_S64x56 : S64x128.Slices ![0, 72] S64x56
  broadcasts_S64x1_S64x56 : S64x1.Broadcasts S64x56
  inb_S64x8256_S64x56_0_6660 : ∀ a, (![0, 6660] : Fin 2 → Nat) a + S64x56.size a ≤ S64x8256.size a
  h_S64x56 : 0 < S64x56.numel
  slices_S64x128_o0_73_S64x1 : S64x128.Slices ![0, 73] S64x1
  slices_S64x128_o0_73_S64x55 : S64x128.Slices ![0, 73] S64x55
  broadcasts_S64x1_S64x55 : S64x1.Broadcasts S64x55
  inb_S64x8256_S64x55_0_6716 : ∀ a, (![0, 6716] : Fin 2 → Nat) a + S64x55.size a ≤ S64x8256.size a
  h_S64x55 : 0 < S64x55.numel
  slices_S64x128_o0_74_S64x1 : S64x128.Slices ![0, 74] S64x1
  slices_S64x128_o0_74_S64x54 : S64x128.Slices ![0, 74] S64x54
  broadcasts_S64x1_S64x54 : S64x1.Broadcasts S64x54
  inb_S64x8256_S64x54_0_6771 : ∀ a, (![0, 6771] : Fin 2 → Nat) a + S64x54.size a ≤ S64x8256.size a
  h_S64x54 : 0 < S64x54.numel
  slices_S64x128_o0_75_S64x1 : S64x128.Slices ![0, 75] S64x1
  slices_S64x128_o0_75_S64x53 : S64x128.Slices ![0, 75] S64x53
  broadcasts_S64x1_S64x53 : S64x1.Broadcasts S64x53
  inb_S64x8256_S64x53_0_6825 : ∀ a, (![0, 6825] : Fin 2 → Nat) a + S64x53.size a ≤ S64x8256.size a
  h_S64x53 : 0 < S64x53.numel
  slices_S64x128_o0_76_S64x1 : S64x128.Slices ![0, 76] S64x1
  slices_S64x128_o0_76_S64x52 : S64x128.Slices ![0, 76] S64x52
  broadcasts_S64x1_S64x52 : S64x1.Broadcasts S64x52
  inb_S64x8256_S64x52_0_6878 : ∀ a, (![0, 6878] : Fin 2 → Nat) a + S64x52.size a ≤ S64x8256.size a
  h_S64x52 : 0 < S64x52.numel
  slices_S64x128_o0_77_S64x1 : S64x128.Slices ![0, 77] S64x1
  slices_S64x128_o0_77_S64x51 : S64x128.Slices ![0, 77] S64x51
  broadcasts_S64x1_S64x51 : S64x1.Broadcasts S64x51
  inb_S64x8256_S64x51_0_6930 : ∀ a, (![0, 6930] : Fin 2 → Nat) a + S64x51.size a ≤ S64x8256.size a
  h_S64x51 : 0 < S64x51.numel
  slices_S64x128_o0_78_S64x1 : S64x128.Slices ![0, 78] S64x1
  slices_S64x128_o0_78_S64x50 : S64x128.Slices ![0, 78] S64x50
  broadcasts_S64x1_S64x50 : S64x1.Broadcasts S64x50
  inb_S64x8256_S64x50_0_6981 : ∀ a, (![0, 6981] : Fin 2 → Nat) a + S64x50.size a ≤ S64x8256.size a
  h_S64x50 : 0 < S64x50.numel
  slices_S64x128_o0_79_S64x1 : S64x128.Slices ![0, 79] S64x1
  slices_S64x128_o0_79_S64x49 : S64x128.Slices ![0, 79] S64x49
  broadcasts_S64x1_S64x49 : S64x1.Broadcasts S64x49
  inb_S64x8256_S64x49_0_7031 : ∀ a, (![0, 7031] : Fin 2 → Nat) a + S64x49.size a ≤ S64x8256.size a
  h_S64x49 : 0 < S64x49.numel
  slices_S64x128_o0_80_S64x1 : S64x128.Slices ![0, 80] S64x1
  slices_S64x128_o0_80_S64x48 : S64x128.Slices ![0, 80] S64x48
  broadcasts_S64x1_S64x48 : S64x1.Broadcasts S64x48
  inb_S64x8256_S64x48_0_7080 : ∀ a, (![0, 7080] : Fin 2 → Nat) a + S64x48.size a ≤ S64x8256.size a
  h_S64x48 : 0 < S64x48.numel
  slices_S64x128_o0_81_S64x1 : S64x128.Slices ![0, 81] S64x1
  slices_S64x128_o0_81_S64x47 : S64x128.Slices ![0, 81] S64x47
  broadcasts_S64x1_S64x47 : S64x1.Broadcasts S64x47
  inb_S64x8256_S64x47_0_7128 : ∀ a, (![0, 7128] : Fin 2 → Nat) a + S64x47.size a ≤ S64x8256.size a
  h_S64x47 : 0 < S64x47.numel
  slices_S64x128_o0_82_S64x1 : S64x128.Slices ![0, 82] S64x1
  slices_S64x128_o0_82_S64x46 : S64x128.Slices ![0, 82] S64x46
  broadcasts_S64x1_S64x46 : S64x1.Broadcasts S64x46
  inb_S64x8256_S64x46_0_7175 : ∀ a, (![0, 7175] : Fin 2 → Nat) a + S64x46.size a ≤ S64x8256.size a
  h_S64x46 : 0 < S64x46.numel
  slices_S64x128_o0_83_S64x1 : S64x128.Slices ![0, 83] S64x1
  slices_S64x128_o0_83_S64x45 : S64x128.Slices ![0, 83] S64x45
  broadcasts_S64x1_S64x45 : S64x1.Broadcasts S64x45
  inb_S64x8256_S64x45_0_7221 : ∀ a, (![0, 7221] : Fin 2 → Nat) a + S64x45.size a ≤ S64x8256.size a
  h_S64x45 : 0 < S64x45.numel
  slices_S64x128_o0_84_S64x1 : S64x128.Slices ![0, 84] S64x1
  slices_S64x128_o0_84_S64x44 : S64x128.Slices ![0, 84] S64x44
  broadcasts_S64x1_S64x44 : S64x1.Broadcasts S64x44
  inb_S64x8256_S64x44_0_7266 : ∀ a, (![0, 7266] : Fin 2 → Nat) a + S64x44.size a ≤ S64x8256.size a
  h_S64x44 : 0 < S64x44.numel
  slices_S64x128_o0_85_S64x1 : S64x128.Slices ![0, 85] S64x1
  slices_S64x128_o0_85_S64x43 : S64x128.Slices ![0, 85] S64x43
  broadcasts_S64x1_S64x43 : S64x1.Broadcasts S64x43
  inb_S64x8256_S64x43_0_7310 : ∀ a, (![0, 7310] : Fin 2 → Nat) a + S64x43.size a ≤ S64x8256.size a
  h_S64x43 : 0 < S64x43.numel
  slices_S64x128_o0_86_S64x1 : S64x128.Slices ![0, 86] S64x1
  slices_S64x128_o0_86_S64x42 : S64x128.Slices ![0, 86] S64x42
  broadcasts_S64x1_S64x42 : S64x1.Broadcasts S64x42
  inb_S64x8256_S64x42_0_7353 : ∀ a, (![0, 7353] : Fin 2 → Nat) a + S64x42.size a ≤ S64x8256.size a
  h_S64x42 : 0 < S64x42.numel
  slices_S64x128_o0_87_S64x1 : S64x128.Slices ![0, 87] S64x1
  slices_S64x128_o0_87_S64x41 : S64x128.Slices ![0, 87] S64x41
  broadcasts_S64x1_S64x41 : S64x1.Broadcasts S64x41
  inb_S64x8256_S64x41_0_7395 : ∀ a, (![0, 7395] : Fin 2 → Nat) a + S64x41.size a ≤ S64x8256.size a
  h_S64x41 : 0 < S64x41.numel
  slices_S64x128_o0_88_S64x1 : S64x128.Slices ![0, 88] S64x1
  slices_S64x128_o0_88_S64x40 : S64x128.Slices ![0, 88] S64x40
  broadcasts_S64x1_S64x40 : S64x1.Broadcasts S64x40
  inb_S64x8256_S64x40_0_7436 : ∀ a, (![0, 7436] : Fin 2 → Nat) a + S64x40.size a ≤ S64x8256.size a
  h_S64x40 : 0 < S64x40.numel
  slices_S64x128_o0_89_S64x1 : S64x128.Slices ![0, 89] S64x1
  slices_S64x128_o0_89_S64x39 : S64x128.Slices ![0, 89] S64x39
  broadcasts_S64x1_S64x39 : S64x1.Broadcasts S64x39
  inb_S64x8256_S64x39_0_7476 : ∀ a, (![0, 7476] : Fin 2 → Nat) a + S64x39.size a ≤ S64x8256.size a
  h_S64x39 : 0 < S64x39.numel
  slices_S64x128_o0_90_S64x1 : S64x128.Slices ![0, 90] S64x1
  slices_S64x128_o0_90_S64x38 : S64x128.Slices ![0, 90] S64x38
  broadcasts_S64x1_S64x38 : S64x1.Broadcasts S64x38
  inb_S64x8256_S64x38_0_7515 : ∀ a, (![0, 7515] : Fin 2 → Nat) a + S64x38.size a ≤ S64x8256.size a
  h_S64x38 : 0 < S64x38.numel
  slices_S64x128_o0_91_S64x1 : S64x128.Slices ![0, 91] S64x1
  slices_S64x128_o0_91_S64x37 : S64x128.Slices ![0, 91] S64x37
  broadcasts_S64x1_S64x37 : S64x1.Broadcasts S64x37
  inb_S64x8256_S64x37_0_7553 : ∀ a, (![0, 7553] : Fin 2 → Nat) a + S64x37.size a ≤ S64x8256.size a
  h_S64x37 : 0 < S64x37.numel
  slices_S64x128_o0_92_S64x1 : S64x128.Slices ![0, 92] S64x1
  slices_S64x128_o0_92_S64x36 : S64x128.Slices ![0, 92] S64x36
  broadcasts_S64x1_S64x36 : S64x1.Broadcasts S64x36
  inb_S64x8256_S64x36_0_7590 : ∀ a, (![0, 7590] : Fin 2 → Nat) a + S64x36.size a ≤ S64x8256.size a
  h_S64x36 : 0 < S64x36.numel
  slices_S64x128_o0_93_S64x1 : S64x128.Slices ![0, 93] S64x1
  slices_S64x128_o0_93_S64x35 : S64x128.Slices ![0, 93] S64x35
  broadcasts_S64x1_S64x35 : S64x1.Broadcasts S64x35
  inb_S64x8256_S64x35_0_7626 : ∀ a, (![0, 7626] : Fin 2 → Nat) a + S64x35.size a ≤ S64x8256.size a
  h_S64x35 : 0 < S64x35.numel
  slices_S64x128_o0_94_S64x1 : S64x128.Slices ![0, 94] S64x1
  slices_S64x128_o0_94_S64x34 : S64x128.Slices ![0, 94] S64x34
  broadcasts_S64x1_S64x34 : S64x1.Broadcasts S64x34
  inb_S64x8256_S64x34_0_7661 : ∀ a, (![0, 7661] : Fin 2 → Nat) a + S64x34.size a ≤ S64x8256.size a
  h_S64x34 : 0 < S64x34.numel
  slices_S64x128_o0_95_S64x1 : S64x128.Slices ![0, 95] S64x1
  slices_S64x128_o0_95_S64x33 : S64x128.Slices ![0, 95] S64x33
  broadcasts_S64x1_S64x33 : S64x1.Broadcasts S64x33
  inb_S64x8256_S64x33_0_7695 : ∀ a, (![0, 7695] : Fin 2 → Nat) a + S64x33.size a ≤ S64x8256.size a
  h_S64x33 : 0 < S64x33.numel
  slices_S64x128_o0_96_S64x1 : S64x128.Slices ![0, 96] S64x1
  slices_S64x128_o0_96_S64x32 : S64x128.Slices ![0, 96] S64x32
  broadcasts_S64x1_S64x32 : S64x1.Broadcasts S64x32
  inb_S64x8256_S64x32_0_7728 : ∀ a, (![0, 7728] : Fin 2 → Nat) a + S64x32.size a ≤ S64x8256.size a
  h_S64x32 : 0 < S64x32.numel
  slices_S64x128_o0_97_S64x1 : S64x128.Slices ![0, 97] S64x1
  slices_S64x128_o0_97_S64x31 : S64x128.Slices ![0, 97] S64x31
  broadcasts_S64x1_S64x31 : S64x1.Broadcasts S64x31
  inb_S64x8256_S64x31_0_7760 : ∀ a, (![0, 7760] : Fin 2 → Nat) a + S64x31.size a ≤ S64x8256.size a
  h_S64x31 : 0 < S64x31.numel
  slices_S64x128_o0_98_S64x1 : S64x128.Slices ![0, 98] S64x1
  slices_S64x128_o0_98_S64x30 : S64x128.Slices ![0, 98] S64x30
  broadcasts_S64x1_S64x30 : S64x1.Broadcasts S64x30
  inb_S64x8256_S64x30_0_7791 : ∀ a, (![0, 7791] : Fin 2 → Nat) a + S64x30.size a ≤ S64x8256.size a
  h_S64x30 : 0 < S64x30.numel
  slices_S64x128_o0_99_S64x1 : S64x128.Slices ![0, 99] S64x1
  slices_S64x128_o0_99_S64x29 : S64x128.Slices ![0, 99] S64x29
  broadcasts_S64x1_S64x29 : S64x1.Broadcasts S64x29
  inb_S64x8256_S64x29_0_7821 : ∀ a, (![0, 7821] : Fin 2 → Nat) a + S64x29.size a ≤ S64x8256.size a
  h_S64x29 : 0 < S64x29.numel
  slices_S64x128_o0_100_S64x1 : S64x128.Slices ![0, 100] S64x1
  slices_S64x128_o0_100_S64x28 : S64x128.Slices ![0, 100] S64x28
  broadcasts_S64x1_S64x28 : S64x1.Broadcasts S64x28
  inb_S64x8256_S64x28_0_7850 : ∀ a, (![0, 7850] : Fin 2 → Nat) a + S64x28.size a ≤ S64x8256.size a
  h_S64x28 : 0 < S64x28.numel
  slices_S64x128_o0_101_S64x1 : S64x128.Slices ![0, 101] S64x1
  slices_S64x128_o0_101_S64x27 : S64x128.Slices ![0, 101] S64x27
  broadcasts_S64x1_S64x27 : S64x1.Broadcasts S64x27
  inb_S64x8256_S64x27_0_7878 : ∀ a, (![0, 7878] : Fin 2 → Nat) a + S64x27.size a ≤ S64x8256.size a
  h_S64x27 : 0 < S64x27.numel
  slices_S64x128_o0_102_S64x1 : S64x128.Slices ![0, 102] S64x1
  slices_S64x128_o0_102_S64x26 : S64x128.Slices ![0, 102] S64x26
  broadcasts_S64x1_S64x26 : S64x1.Broadcasts S64x26
  inb_S64x8256_S64x26_0_7905 : ∀ a, (![0, 7905] : Fin 2 → Nat) a + S64x26.size a ≤ S64x8256.size a
  h_S64x26 : 0 < S64x26.numel
  slices_S64x128_o0_103_S64x1 : S64x128.Slices ![0, 103] S64x1
  slices_S64x128_o0_103_S64x25 : S64x128.Slices ![0, 103] S64x25
  broadcasts_S64x1_S64x25 : S64x1.Broadcasts S64x25
  inb_S64x8256_S64x25_0_7931 : ∀ a, (![0, 7931] : Fin 2 → Nat) a + S64x25.size a ≤ S64x8256.size a
  h_S64x25 : 0 < S64x25.numel
  slices_S64x128_o0_104_S64x1 : S64x128.Slices ![0, 104] S64x1
  slices_S64x128_o0_104_S64x24 : S64x128.Slices ![0, 104] S64x24
  broadcasts_S64x1_S64x24 : S64x1.Broadcasts S64x24
  inb_S64x8256_S64x24_0_7956 : ∀ a, (![0, 7956] : Fin 2 → Nat) a + S64x24.size a ≤ S64x8256.size a
  h_S64x24 : 0 < S64x24.numel
  slices_S64x128_o0_105_S64x1 : S64x128.Slices ![0, 105] S64x1
  slices_S64x128_o0_105_S64x23 : S64x128.Slices ![0, 105] S64x23
  broadcasts_S64x1_S64x23 : S64x1.Broadcasts S64x23
  inb_S64x8256_S64x23_0_7980 : ∀ a, (![0, 7980] : Fin 2 → Nat) a + S64x23.size a ≤ S64x8256.size a
  h_S64x23 : 0 < S64x23.numel
  slices_S64x128_o0_106_S64x1 : S64x128.Slices ![0, 106] S64x1
  slices_S64x128_o0_106_S64x22 : S64x128.Slices ![0, 106] S64x22
  broadcasts_S64x1_S64x22 : S64x1.Broadcasts S64x22
  inb_S64x8256_S64x22_0_8003 : ∀ a, (![0, 8003] : Fin 2 → Nat) a + S64x22.size a ≤ S64x8256.size a
  h_S64x22 : 0 < S64x22.numel
  slices_S64x128_o0_107_S64x1 : S64x128.Slices ![0, 107] S64x1
  slices_S64x128_o0_107_S64x21 : S64x128.Slices ![0, 107] S64x21
  broadcasts_S64x1_S64x21 : S64x1.Broadcasts S64x21
  inb_S64x8256_S64x21_0_8025 : ∀ a, (![0, 8025] : Fin 2 → Nat) a + S64x21.size a ≤ S64x8256.size a
  h_S64x21 : 0 < S64x21.numel
  slices_S64x128_o0_108_S64x1 : S64x128.Slices ![0, 108] S64x1
  slices_S64x128_o0_108_S64x20 : S64x128.Slices ![0, 108] S64x20
  broadcasts_S64x1_S64x20 : S64x1.Broadcasts S64x20
  inb_S64x8256_S64x20_0_8046 : ∀ a, (![0, 8046] : Fin 2 → Nat) a + S64x20.size a ≤ S64x8256.size a
  h_S64x20 : 0 < S64x20.numel
  slices_S64x128_o0_109_S64x1 : S64x128.Slices ![0, 109] S64x1
  slices_S64x128_o0_109_S64x19 : S64x128.Slices ![0, 109] S64x19
  broadcasts_S64x1_S64x19 : S64x1.Broadcasts S64x19
  inb_S64x8256_S64x19_0_8066 : ∀ a, (![0, 8066] : Fin 2 → Nat) a + S64x19.size a ≤ S64x8256.size a
  h_S64x19 : 0 < S64x19.numel
  slices_S64x128_o0_110_S64x1 : S64x128.Slices ![0, 110] S64x1
  slices_S64x128_o0_110_S64x18 : S64x128.Slices ![0, 110] S64x18
  broadcasts_S64x1_S64x18 : S64x1.Broadcasts S64x18
  inb_S64x8256_S64x18_0_8085 : ∀ a, (![0, 8085] : Fin 2 → Nat) a + S64x18.size a ≤ S64x8256.size a
  h_S64x18 : 0 < S64x18.numel
  slices_S64x128_o0_111_S64x1 : S64x128.Slices ![0, 111] S64x1
  slices_S64x128_o0_111_S64x17 : S64x128.Slices ![0, 111] S64x17
  broadcasts_S64x1_S64x17 : S64x1.Broadcasts S64x17
  inb_S64x8256_S64x17_0_8103 : ∀ a, (![0, 8103] : Fin 2 → Nat) a + S64x17.size a ≤ S64x8256.size a
  h_S64x17 : 0 < S64x17.numel
  slices_S64x128_o0_112_S64x1 : S64x128.Slices ![0, 112] S64x1
  slices_S64x128_o0_112_S64x16 : S64x128.Slices ![0, 112] S64x16
  broadcasts_S64x1_S64x16 : S64x1.Broadcasts S64x16
  inb_S64x8256_S64x16_0_8120 : ∀ a, (![0, 8120] : Fin 2 → Nat) a + S64x16.size a ≤ S64x8256.size a
  h_S64x16 : 0 < S64x16.numel
  slices_S64x128_o0_113_S64x1 : S64x128.Slices ![0, 113] S64x1
  slices_S64x128_o0_113_S64x15 : S64x128.Slices ![0, 113] S64x15
  broadcasts_S64x1_S64x15 : S64x1.Broadcasts S64x15
  inb_S64x8256_S64x15_0_8136 : ∀ a, (![0, 8136] : Fin 2 → Nat) a + S64x15.size a ≤ S64x8256.size a
  h_S64x15 : 0 < S64x15.numel
  slices_S64x128_o0_114_S64x1 : S64x128.Slices ![0, 114] S64x1
  slices_S64x128_o0_114_S64x14 : S64x128.Slices ![0, 114] S64x14
  broadcasts_S64x1_S64x14 : S64x1.Broadcasts S64x14
  inb_S64x8256_S64x14_0_8151 : ∀ a, (![0, 8151] : Fin 2 → Nat) a + S64x14.size a ≤ S64x8256.size a
  h_S64x14 : 0 < S64x14.numel
  slices_S64x128_o0_115_S64x1 : S64x128.Slices ![0, 115] S64x1
  slices_S64x128_o0_115_S64x13 : S64x128.Slices ![0, 115] S64x13
  broadcasts_S64x1_S64x13 : S64x1.Broadcasts S64x13
  inb_S64x8256_S64x13_0_8165 : ∀ a, (![0, 8165] : Fin 2 → Nat) a + S64x13.size a ≤ S64x8256.size a
  h_S64x13 : 0 < S64x13.numel
  slices_S64x128_o0_116_S64x1 : S64x128.Slices ![0, 116] S64x1
  slices_S64x128_o0_116_S64x12 : S64x128.Slices ![0, 116] S64x12
  broadcasts_S64x1_S64x12 : S64x1.Broadcasts S64x12
  inb_S64x8256_S64x12_0_8178 : ∀ a, (![0, 8178] : Fin 2 → Nat) a + S64x12.size a ≤ S64x8256.size a
  h_S64x12 : 0 < S64x12.numel
  slices_S64x128_o0_117_S64x1 : S64x128.Slices ![0, 117] S64x1
  slices_S64x128_o0_117_S64x11 : S64x128.Slices ![0, 117] S64x11
  broadcasts_S64x1_S64x11 : S64x1.Broadcasts S64x11
  inb_S64x8256_S64x11_0_8190 : ∀ a, (![0, 8190] : Fin 2 → Nat) a + S64x11.size a ≤ S64x8256.size a
  h_S64x11 : 0 < S64x11.numel
  slices_S64x128_o0_118_S64x1 : S64x128.Slices ![0, 118] S64x1
  slices_S64x128_o0_118_S64x10 : S64x128.Slices ![0, 118] S64x10
  broadcasts_S64x1_S64x10 : S64x1.Broadcasts S64x10
  inb_S64x8256_S64x10_0_8201 : ∀ a, (![0, 8201] : Fin 2 → Nat) a + S64x10.size a ≤ S64x8256.size a
  h_S64x10 : 0 < S64x10.numel
  slices_S64x128_o0_119_S64x1 : S64x128.Slices ![0, 119] S64x1
  slices_S64x128_o0_119_S64x9 : S64x128.Slices ![0, 119] S64x9
  broadcasts_S64x1_S64x9 : S64x1.Broadcasts S64x9
  inb_S64x8256_S64x9_0_8211 : ∀ a, (![0, 8211] : Fin 2 → Nat) a + S64x9.size a ≤ S64x8256.size a
  h_S64x9 : 0 < S64x9.numel
  slices_S64x128_o0_120_S64x1 : S64x128.Slices ![0, 120] S64x1
  slices_S64x128_o0_120_S64x8 : S64x128.Slices ![0, 120] S64x8
  broadcasts_S64x1_S64x8 : S64x1.Broadcasts S64x8
  inb_S64x8256_S64x8_0_8220 : ∀ a, (![0, 8220] : Fin 2 → Nat) a + S64x8.size a ≤ S64x8256.size a
  h_S64x8 : 0 < S64x8.numel
  slices_S64x128_o0_121_S64x1 : S64x128.Slices ![0, 121] S64x1
  slices_S64x128_o0_121_S64x7 : S64x128.Slices ![0, 121] S64x7
  broadcasts_S64x1_S64x7 : S64x1.Broadcasts S64x7
  inb_S64x8256_S64x7_0_8228 : ∀ a, (![0, 8228] : Fin 2 → Nat) a + S64x7.size a ≤ S64x8256.size a
  h_S64x7 : 0 < S64x7.numel
  slices_S64x128_o0_122_S64x1 : S64x128.Slices ![0, 122] S64x1
  slices_S64x128_o0_122_S64x6 : S64x128.Slices ![0, 122] S64x6
  broadcasts_S64x1_S64x6 : S64x1.Broadcasts S64x6
  inb_S64x8256_S64x6_0_8235 : ∀ a, (![0, 8235] : Fin 2 → Nat) a + S64x6.size a ≤ S64x8256.size a
  h_S64x6 : 0 < S64x6.numel
  slices_S64x128_o0_123_S64x1 : S64x128.Slices ![0, 123] S64x1
  slices_S64x128_o0_123_S64x5 : S64x128.Slices ![0, 123] S64x5
  broadcasts_S64x1_S64x5 : S64x1.Broadcasts S64x5
  inb_S64x8256_S64x5_0_8241 : ∀ a, (![0, 8241] : Fin 2 → Nat) a + S64x5.size a ≤ S64x8256.size a
  h_S64x5 : 0 < S64x5.numel
  slices_S64x128_o0_124_S64x1 : S64x128.Slices ![0, 124] S64x1
  slices_S64x128_o0_124_S64x4 : S64x128.Slices ![0, 124] S64x4
  broadcasts_S64x1_S64x4 : S64x1.Broadcasts S64x4
  inb_S64x8256_S64x4_0_8246 : ∀ a, (![0, 8246] : Fin 2 → Nat) a + S64x4.size a ≤ S64x8256.size a
  h_S64x4 : 0 < S64x4.numel
  slices_S64x128_o0_125_S64x1 : S64x128.Slices ![0, 125] S64x1
  slices_S64x128_o0_125_S64x3 : S64x128.Slices ![0, 125] S64x3
  broadcasts_S64x1_S64x3 : S64x1.Broadcasts S64x3
  inb_S64x8256_S64x3_0_8250 : ∀ a, (![0, 8250] : Fin 2 → Nat) a + S64x3.size a ≤ S64x8256.size a
  h_S64x3 : 0 < S64x3.numel
  slices_S64x128_o0_126_S64x1 : S64x128.Slices ![0, 126] S64x1
  slices_S64x128_o0_126_S64x2 : S64x128.Slices ![0, 126] S64x2
  broadcasts_S64x1_S64x2 : S64x1.Broadcasts S64x2
  inb_S64x8256_S64x2_0_8253 : ∀ a, (![0, 8253] : Fin 2 → Nat) a + S64x2.size a ≤ S64x8256.size a
  h_S64x2 : 0 < S64x2.numel
  slices_S64x128_o0_127_S64x1 : S64x128.Slices ![0, 127] S64x1
  inb_S64x8256_S64x1_0_8255 : ∀ a, (![0, 8255] : Fin 2 → Nat) a + S64x1.size a ≤ S64x8256.size a
  h_S64x1 : 0 < S64x1.numel
  concatenates_S1024x57408_S1024x41024_S1024x24640_S1024x8256_S1024x131328_d1 : Shape.Concatenates [S1024x57408, S1024x41024, S1024x24640, S1024x8256] S1024x131328 1
  bcast_S1024x131328_S1024x131328x1_0_1 : S1024x131328.BroadcastsInDim S1024x131328x1 (![0, 1] : Fin 2 → Fin S1024x131328x1.rank)

class Facts₀ : Prop where
  k0 : K0.Facts₀
  k1 : K1.Facts₀
  k2 : K2.Facts₀
  k3 : K3.Facts₀
  shapes1 : Shapes1.Facts₀
  shapes2 : Shapes2.Facts₀
  shapes3 : Shapes3.Facts₀
attribute [instance] Facts₀.k0 Facts₀.k1 Facts₀.k2 Facts₀.k3 Facts₀.shapes1 Facts₀.shapes2 Facts₀.shapes3

variable [Facts₀]

abbrev win0_0 : Pipeline.Window sig grid0 :=
  Pipeline.Window.ofSpec (Memref.whole main_v0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x57408.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S64x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x41024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S64x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S64x24640.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v6) S64x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S64x8256.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S1024x32x16 : Shape := ⟨3, ![1024, 32, 16]⟩
abbrev S1024x512 : Shape := ⟨2, ![1024, 512]⟩
abbrev S_ : Shape := ⟨0, ![]⟩
abbrev S512x512 : Shape := ⟨2, ![512, 512]⟩
abbrev S262144 : Shape := ⟨1, ![262144]⟩
abbrev S131328 : Shape := ⟨1, ![131328]⟩
abbrev S262144x1 : Shape := ⟨2, ![262144, 1]⟩
abbrev S131328x1 : Shape := ⟨2, ![131328, 1]⟩
abbrev S1024x131328 : Shape := ⟨2, ![1024, 131328]⟩
abbrev S1024x131328x1 : Shape := ⟨3, ![1024, 131328, 1]⟩

abbrev nBuf : Space → Nat
  | .hbm => 139
  | .vmem => 0
  | .smem => 0
  | _ => 0

abbrev hbmTy0_0 (i : Nat) : BufTy := match i % 128 with
  | 0 => ⟨S1024x32x16, .f32⟩
  | 1 => ⟨S1024x512, .f32⟩
  | 2 => ⟨S_, .f32⟩
  | 3 => ⟨S512x512, .f32⟩
  | 4 => ⟨S512x512, .i32⟩
  | 5 => ⟨S_, .i32⟩
  | 6 => ⟨S512x512, .i32⟩
  | 7 => ⟨S512x512, .i32⟩
  | 8 => ⟨S512x512, .i32⟩
  | 9 => ⟨S512x512, .i1⟩
  | 10 => ⟨S_, .f32⟩
  | 11 => ⟨S512x512, .f32⟩
  | 12 => ⟨S512x512, .f32⟩
  | 13 => ⟨S_, .f32⟩
  | 14 => ⟨S512x512, .f32⟩
  | 15 => ⟨S512x512, .i1⟩
  | 16 => ⟨S262144, .i1⟩
  | 17 => ⟨S262144, .i32⟩
  | 18 => ⟨S_, .i32⟩
  | 19 => ⟨S_, .i32⟩
  | 20 => ⟨S262144, .i32⟩
  | 21 => ⟨S_, .i32⟩
  | 22 => ⟨S131328, .i32⟩
  | 23 => ⟨S_, .i32⟩
  | 24 => ⟨S_, .i32⟩
  | 25 => ⟨S262144, .i32⟩
  | 26 => ⟨S262144, .i32⟩
  | 27 => ⟨S_, .i32⟩
  | 28 => ⟨S262144, .i32⟩
  | 29 => ⟨S262144, .i1⟩
  | 30 => ⟨S_, .i32⟩
  | 31 => ⟨S262144, .i32⟩
  | 32 => ⟨S262144, .i32⟩
  | 33 => ⟨S262144, .i32⟩
  | 34 => ⟨S262144x1, .i32⟩
  | 35 => ⟨S_, .i32⟩
  | 36 => ⟨S262144, .i32⟩
  | 37 => ⟨S131328, .i32⟩
  | 38 => ⟨S_, .i32⟩
  | 39 => ⟨S_, .i32⟩
  | 40 => ⟨S131328, .i32⟩
  | 41 => ⟨S_, .i32⟩
  | 42 => ⟨S131328, .i32⟩
  | 43 => ⟨S131328, .i32⟩
  | 44 => ⟨S131328, .i32⟩
  | 45 => ⟨S_, .i32⟩
  | 46 => ⟨S131328, .i32⟩
  | 47 => ⟨S131328, .i1⟩
  | 48 => ⟨S131328, .i32⟩
  | 49 => ⟨S131328, .i32⟩
  | 50 => ⟨S_, .i32⟩
  | 51 => ⟨S131328, .i32⟩
  | 52 => ⟨S131328, .i1⟩
  | 53 => ⟨S131328, .i1⟩
  | 54 => ⟨S_, .i32⟩
  | 55 => ⟨S131328, .i32⟩
  | 56 => ⟨S131328, .i32⟩
  | 57 => ⟨S131328, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S131328, .i32⟩
  | 65 => ⟨S131328, .i32⟩
  | 66 => ⟨S_, .i32⟩
  | 67 => ⟨S131328, .i32⟩
  | 68 => ⟨S131328, .i1⟩
  | 69 => ⟨S_, .i32⟩
  | 70 => ⟨S131328, .i32⟩
  | 71 => ⟨S131328, .i1⟩
  | 72 => ⟨S_, .i32⟩
  | 73 => ⟨S_, .i1⟩
  | 74 => ⟨S131328, .i1⟩
  | 75 => ⟨S131328, .i1⟩
  | 76 => ⟨S131328, .i1⟩
  | 77 => ⟨S131328, .i32⟩
  | 78 => ⟨S131328, .i32⟩
  | 79 => ⟨S131328, .i32⟩
  | 80 => ⟨S_, .i32⟩
  | 81 => ⟨S131328, .i32⟩
  | 82 => ⟨S131328, .i32⟩
  | 83 => ⟨S131328, .i32⟩
  | 84 => ⟨S_, .i32⟩
  | 85 => ⟨S131328, .i32⟩
  | 86 => ⟨S131328, .i1⟩
  | 87 => ⟨S131328, .i32⟩
  | 88 => ⟨S131328, .i32⟩
  | 89 => ⟨S_, .i32⟩
  | 90 => ⟨S131328, .i32⟩
  | 91 => ⟨S131328, .i1⟩
  | 92 => ⟨S131328, .i1⟩
  | 93 => ⟨S_, .i32⟩
  | 94 => ⟨S131328, .i32⟩
  | 95 => ⟨S131328, .i32⟩
  | 96 => ⟨S131328, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S131328, .i32⟩
  | 104 => ⟨S131328, .i32⟩
  | 105 => ⟨S_, .i32⟩
  | 106 => ⟨S131328, .i32⟩
  | 107 => ⟨S131328, .i1⟩
  | 108 => ⟨S_, .i32⟩
  | 109 => ⟨S131328, .i32⟩
  | 110 => ⟨S131328, .i1⟩
  | 111 => ⟨S_, .i32⟩
  | 112 => ⟨S_, .i1⟩
  | 113 => ⟨S131328, .i1⟩
  | 114 => ⟨S131328, .i1⟩
  | 115 => ⟨S131328, .i1⟩
  | 116 => ⟨S131328, .i32⟩
  | 117 => ⟨S131328, .i32⟩
  | 118 => ⟨S131328, .i32⟩
  | 119 => ⟨S_, .i32⟩
  | 120 => ⟨S131328, .i32⟩
  | 121 => ⟨S131328, .i1⟩
  | 122 => ⟨S_, .i32⟩
  | 123 => ⟨S131328, .i32⟩
  | 124 => ⟨S131328, .i32⟩
  | 125 => ⟨S131328, .i32⟩
  | 126 => ⟨S131328x1, .i32⟩
  | 127 => ⟨S1024x131328, .f32⟩
  | _ => ⟨S1024x32x16, .f32⟩

abbrev hbmTy0_1 (i : Nat) : BufTy := match i % 128 with
  | 0 => ⟨S_, .i32⟩
  | 1 => ⟨S131328, .i32⟩
  | 2 => ⟨S131328, .i1⟩
  | 3 => ⟨S_, .i32⟩
  | 4 => ⟨S131328, .i32⟩
  | 5 => ⟨S131328, .i32⟩
  | 6 => ⟨S131328, .i32⟩
  | 7 => ⟨S131328x1, .i32⟩
  | 8 => ⟨S1024x131328, .f32⟩
  | 9 => ⟨S1024x131328, .f32⟩
  | 10 => ⟨S1024x131328x1, .f32⟩
  | _ => ⟨S1024x32x16, .f32⟩

abbrev hbmTy (i : Nat) : BufTy := match i / 128 with
  | 0 => hbmTy0_0 i
  | 1 => hbmTy0_1 i
  | _ => ⟨S1024x32x16, .f32⟩

abbrev bufTy : (tb : Table) → Fin (tcTables nBuf tb) → BufTy
  | .hbm, ⟨i, _⟩ => hbmTy i
  | _, _ => ⟨S1024x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_c_11 : Ref sig .tc := ⟨.hbm, 128, rfl⟩
abbrev main_v28 : Ref sig .tc := ⟨.hbm, 129, rfl⟩
abbrev main_v29 : Ref sig .tc := ⟨.hbm, 130, rfl⟩
abbrev main_c_12 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩

abbrev nD : Nat := 1
abbrev τ : Topo := Topo.v7x

variable {F : FTy → Type} [FloatOps F]

class Facts₀ : Prop where
  shapeCasts_S1024x32x16_S1024x512 : S1024x32x16.ShapeCasts S1024x512
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S131328 : S_.BroadcastsInDim S131328 (![] : Fin 0 → Fin S131328.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S131328_S131328_w131328s1p131327_0 : S131328.ReduceWindows (![131328] : Fin 1 → Nat) ![1] ![131327] ![0] S131328
  bcast_S131328_S131328x1_0 : S131328.BroadcastsInDim S131328x1 (![0] : Fin 1 → Fin S131328x1.rank)
  bcast_S1024x131328_S1024x131328x1_0_1 : S1024x131328.BroadcastsInDim S1024x131328x1 (![0, 1] : Fin 2 → Fin S1024x131328x1.rank)
  scatter_S131328_S262144x1_S262144_n_0_0_1_wf : ScatterDims.WF S131328 S262144x1 S262144 [] [0] [0] 1
  gather_S1024x512_S131328x1_S1024x131328_0_1_n_n_1_1_10241_wf : GatherDims.WF S1024x512 S131328x1 S1024x131328 [0] [1] [] [1] [] 1 ![1024, 1]

variable [Facts₀]

def scatter_S131328_S262144x1_S262144_n_0_0_1 : ScatterDims S131328 S262144x1 S262144 where
  updateWindowDims := []
  insertedWindowDims := [0]
  scatterDimsToOperandDims := [0]
  indexVectorDim := 1
  wf := scatter_S131328_S262144x1_S262144_n_0_0_1_wf
def gather_S1024x512_S131328x1_S1024x131328_0_1_n_n_1_1_10241 : GatherDims S1024x512 S131328x1 S1024x131328 where
  offsetDims := [0]
  collapsedSliceDims := [1]
  operandBatchingDims := []
  startIndicesBatchingDims := []
  startIndexMap := [1]
  indexVectorDim := 1
  sliceSizes := ![1024, 1]
  wf := gather_S1024x512_S131328x1_S1024x131328_0_1_n_n_1_1_10241_wf

class Facts : Prop extends Facts₀ where

variable [Facts]
-- ==== Proof.LibBands.lean ====
/-
  Bands of whole columns. Stores into a buffer of two axes, read from the last store back: if each is a unit-stride
  rectangle over every row, the first read ends at the buffer's last column, each later one ends at the column where
  the one read before it begins, and the last read begins at column 0, then every element lies in one of them.
-/
import Idealize.ShloMosaic.Lib.Writes

namespace Cert.Bands

open Idealize.ShloMosaic

variable {Val : EltTy → Type} {d : Fin 2 → ℕ} {e : EltTy}

/-- Whether the pieces, from the head of the list on, are bands of whole columns, the head's ending at column `hi`,
    each next one's ending where the one before begins, the last beginning at column 0. Decided on the rectangles
    alone, one comparison of numerals per field and piece. -/
def bands : List (View.Piece Val ⟨2, d⟩ e) → ℕ → Bool
  | [], hi => hi == 0
  | p :: L, hi =>
    (p.1.stride (0 : Fin 2) == 1 && p.1.stride (1 : Fin 2) == 1 && p.1.off (0 : Fin 2) == 0
        && p.1.size (0 : Fin 2) == d 0 && p.1.off (1 : Fin 2) + p.1.size (1 : Fin 2) == hi)
      && bands L (p.1.off (1 : Fin 2))

/-- Bands of whole columns down to column 0 hold every element whose column is below the head's end: the element is
    in the head's band, or its column is below the head's first and the rest of the list holds it. -/
theorem cover_of_bands : ∀ (L : List (View.Piece Val ⟨2, d⟩ e)) (hi : ℕ), bands L hi = true →
    ∀ y : (⟨2, d⟩ : Shape).Idx, ((y (1 : Fin 2) : Fin _) : ℕ) < hi → ∃ p ∈ L, y ∈ p.1.set
  | [], hi, h, y, hy => by
    simp only [bands, beq_iff_eq] at h
    omega
  | p :: L, hi, h, y, hy => by
    simp only [bands, Bool.and_eq_true, beq_iff_eq] at h
    obtain ⟨⟨⟨⟨⟨hs0, hs1⟩, ho0⟩, hz0⟩, hend⟩, hL⟩ := h
    by_cases hlo : ((y (1 : Fin 2) : Fin _) : ℕ) < p.1.off (1 : Fin 2)
    · obtain ⟨q, hq, hyq⟩ := cover_of_bands L _ hL y hlo
      exact ⟨q, List.mem_cons_of_mem _ hq, hyq⟩
    · refine ⟨p, List.mem_cons_self, p.1.mem_set.mpr (Fin.forall_fin_two.mpr ⟨?_, ?_⟩)⟩
      · refine ⟨(y (0 : Fin 2) : Fin _), ?_, ?_⟩
        · rw [hz0]; exact (y (0 : Fin 2)).isLt
        · rw [ho0, hs0]; omega
      · refine ⟨((y (1 : Fin 2) : Fin _) : ℕ) - p.1.off (1 : Fin 2), ?_, ?_⟩
        · omega
        · rw [hs1]; omega

end Cert.Bands
-- ==== Proof.BKBody0.lean ====
/-
  Region 0 of the kernel: the body of the first call on one block of 64 rows, at any float model.

  The body reads its input block once and, for each of its 128 leading columns a, stores the product of column a
  (spread along the row) with the columns a … 511 into the output block, the bands laid end to end along the row.
  Run once over symbolic staging memrefs, the body leaves the output buffer at 128 listed stores; they are bands of
  whole columns, each ending where the next begins, from column 0 to the last, so they cover the buffer, and what
  the buffer holds afterwards is a function of the input block alone. The pipeline's proof data for the region are
  stated at a parameter: the buffers' contents when the region is entered.
-/
import proofs.«427551_j57200374448374_3_alg».proof.Proof.Gen.Kernel.Launch
import proofs.«427551_j57200374448374_3_alg».proof.Proof.Gen.Kernel.Skeleton
import proofs.«427551_j57200374448374_3_alg».proof.Proof.Gen.Kernel.Points
import proofs.«427551_j57200374448374_3_alg».proof.Proof.LibBands
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffers' contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place: the window is fetched at every point and never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs -/

/-- One staging buffer of the output window, through which its contents are stated (a covering list of stores reads
    the same through any). -/
abbrev VO0_1 : View sig .tc .vmem S64x57408 .f32 := (Memref.whole cc0_stg1_0 : Memref sig .tc .vmem S64x57408 .f32).view
/-- Each window's current staging memref at point t, as the pipeline passes it to the body, and its wholeness. -/
abbrev ms0_0 (t : Fin cfg0.N) : Memref sig .tc .vmem S64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x57408 .f32 := win0_1.stage (cfg0.slots t 1)
abbrev hs0_1 (t : Fin cfg0.N) : (ms0_1 t).IsWhole := hstage0_1 ((cfg0.slots t 1).cast nbuf0_1)

/-! ## The body on any staging memrefs -/

set_option maxHeartbeats 4000000 in
/-- What the body's stores leave in the output's staging memref, as pieces (last first), with the proof that on whole
    staging memrefs — the input's at its contents, the output's at anything — the body runs to the continuation
    holding the input's as it was and the output's buffer with those pieces written. The loads of the output buffer
    before each store read values nothing uses. -/
noncomputable def kernelRun0 (c : Dev nD) (i : grid0.Coords) (arg1 : Memref sig .tc .vmem S64x512 .f32) (harg1 : arg1.IsWhole) (arg2 : Memref sig .tc .vmem S64x57408 .f32) (harg2 : arg2.IsWhole)
    (x0 : Vec F S64x512 .f32) :
    { L1 : List (View.Piece (Elt F) S64x57408 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_kernel i arg1 harg1 arg2 harg2) K } := by
  refine ⟨?_, fun E K => ?run⟩
  case run =>
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

/-- The run's pieces are bands of whole columns from the last column down to column 0 (the rectangles are literals:
    decided by evaluation), so they cover the output block. -/
theorem cover0_1 (c : Dev nD) (i : grid0.Coords) (arg1 : Memref sig .tc .vmem S64x512 .f32) (harg1 : arg1.IsWhole) (arg2 : Memref sig .tc .vmem S64x57408 .f32) (harg2 : arg2.IsWhole)
    (x0 : Vec F S64x512 .f32) (y : S64x57408.Idx) :
    ∃ pc ∈ (kernelRun0 c i arg1 harg1 arg2 harg2 x0).1, y ∈ pc.1.set :=
  Cert.Bands.cover_of_bands (kernelRun0 c i arg1 harg1 arg2 harg2 x0).1 57408 (by sl_kernel_rfl) y (y (1 : Fin 2)).isLt

/-- What the run leaves in the output's staging buffer: its pieces read back over junk. -/
def out0_1 (c : Dev nD) (i : grid0.Coords) (arg1 : Memref sig .tc .vmem S64x512 .f32) (harg1 : arg1.IsWhole) (arg2 : Memref sig .tc .vmem S64x57408 .f32) (harg2 : arg2.IsWhole)
    (x0 : Vec F S64x512 .f32) : Vec F S64x57408 .f32 :=
  VO0_1.read (Elt F) (VO0_1.writes (Elt F) VO0_1.junk (kernelRun0 c i arg1 harg1 arg2 harg2 x0).1)

/-! ## The pipeline's proof data -/

/-- The proof data of the region's pipeline on core c: the arrays as the region finds them; after the body at point t
    the input's buffer at its block and the output's at what the run leaves from that block; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 c (grid0.coords t) (ms0_0 t) (hs0_0 t) (ms0_1 t) (hs0_1 t) (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) :
    (dat0 V c).after 1 t = out0_1 c (grid0.coords t) (ms0_0 t) (hs0_0 t) (ms0_1 t) (hs0_1 t) (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the input's memref holds its block, so the run applies; the invariant passes through
    unread and the core owes nothing throughout; the output's buffer, its covering pieces written over whatever it
    held, reads as the same pieces written over junk. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold out0_1
  iintro ⟨HΦ, Ho, ⟨%d0, H0⟩, ⟨%d1, H1⟩⟩
  iapply ((kernelRun0 c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BKBody1.lean ====
/-
  Region 1 of the kernel: the body of the second call on one block of 64 rows, at any float model.

  The body reads its input block once and, for each of its 128 leading columns a, stores the product of column a
  (spread along the row) with the columns a … 383 into the output block, the bands laid end to end along the row.
  Run once over symbolic staging memrefs, the body leaves the output buffer at 128 listed stores; they are bands of
  whole columns, each ending where the next begins, from column 0 to the last, so they cover the buffer, and what
  the buffer holds afterwards is a function of the input block alone. The pipeline's proof data for the region are
  stated at a parameter: the buffers' contents when the region is entered.
-/
import proofs.«427551_j57200374448374_3_alg».proof.Proof.Gen.Kernel.Launch
import proofs.«427551_j57200374448374_3_alg».proof.Proof.Gen.Kernel.Skeleton
import proofs.«427551_j57200374448374_3_alg».proof.Proof.Gen.Kernel.Points
import proofs.«427551_j57200374448374_3_alg».proof.Proof.LibBands
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffers' contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place: the window is fetched at every point and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs -/

/-- One staging buffer of the output window, through which its contents are stated (a covering list of stores reads
    the same through any). -/
abbrev VO1_1 : View sig .tc .vmem S64x41024 .f32 := (Memref.whole cc1_stg1_0 : Memref sig .tc .vmem S64x41024 .f32).view
/-- Each window's current staging memref at point t, as the pipeline passes it to the body, and its wholeness. -/
abbrev ms1_0 (t : Fin cfg1.N) : Memref sig .tc .vmem S64x384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x41024 .f32 := win1_1.stage (cfg1.slots t 1)
abbrev hs1_1 (t : Fin cfg1.N) : (ms1_1 t).IsWhole := hstage1_1 ((cfg1.slots t 1).cast nbuf1_1)

/-! ## The body on any staging memrefs -/

set_option maxHeartbeats 4000000 in
/-- What the body's stores leave in the output's staging memref, as pieces (last first), with the proof that on whole
    staging memrefs — the input's at its contents, the output's at anything — the body runs to the continuation
    holding the input's as it was and the output's buffer with those pieces written. The loads of the output buffer
    before each store read values nothing uses. -/
noncomputable def kernelRun1 (c : Dev nD) (i : grid1.Coords) (arg1 : Memref sig .tc .vmem S64x384 .f32) (harg1 : arg1.IsWhole) (arg2 : Memref sig .tc .vmem S64x41024 .f32) (harg2 : arg2.IsWhole)
    (x0 : Vec F S64x384 .f32) :
    { L1 : List (View.Piece (Elt F) S64x41024 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc1_kernel i arg1 harg1 arg2 harg2) K } := by
  refine ⟨?_, fun E K => ?run⟩
  case run =>
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

/-- The run's pieces are bands of whole columns from the last column down to column 0 (the rectangles are literals:
    decided by evaluation), so they cover the output block. -/
theorem cover1_1 (c : Dev nD) (i : grid1.Coords) (arg1 : Memref sig .tc .vmem S64x384 .f32) (harg1 : arg1.IsWhole) (arg2 : Memref sig .tc .vmem S64x41024 .f32) (harg2 : arg2.IsWhole)
    (x0 : Vec F S64x384 .f32) (y : S64x41024.Idx) :
    ∃ pc ∈ (kernelRun1 c i arg1 harg1 arg2 harg2 x0).1, y ∈ pc.1.set :=
  Cert.Bands.cover_of_bands (kernelRun1 c i arg1 harg1 arg2 harg2 x0).1 41024 (by sl_kernel_rfl) y (y (1 : Fin 2)).isLt

/-- What the run leaves in the output's staging buffer: its pieces read back over junk. -/
def out1_1 (c : Dev nD) (i : grid1.Coords) (arg1 : Memref sig .tc .vmem S64x384 .f32) (harg1 : arg1.IsWhole) (arg2 : Memref sig .tc .vmem S64x41024 .f32) (harg2 : arg2.IsWhole)
    (x0 : Vec F S64x384 .f32) : Vec F S64x41024 .f32 :=
  VO1_1.read (Elt F) (VO1_1.writes (Elt F) VO1_1.junk (kernelRun1 c i arg1 harg1 arg2 harg2 x0).1)

/-! ## The pipeline's proof data -/

/-- The proof data of the region's pipeline on core c: the arrays as the region finds them; after the body at point t
    the input's buffer at its block and the output's at what the run leaves from that block; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 c (grid1.coords t) (ms1_0 t) (hs1_0 t) (ms1_1 t) (hs1_1 t) (iblk1 V c 0 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) :
    (dat1 V c).after 1 t = out1_1 c (grid1.coords t) (ms1_0 t) (hs1_0 t) (ms1_1 t) (hs1_1 t) (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

/-- The body at any point: the input's memref holds its block, so the run applies; the invariant passes through
    unread and the core owes nothing throughout; the output's buffer, its covering pieces written over whatever it
    held, reads as the same pieces written over junk. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  unfold out1_1
  iintro ⟨HΦ, Ho, ⟨%d0, H0⟩, ⟨%d1, H1⟩⟩
  iapply ((kernelRun1 c (grid1.coords t) _ _ _ _ (iblk1 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover1_1 c _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BKBody2.lean ====
/-
  Region 2 of the kernel: the body of the third call on one block of 64 rows, at any float model.

  The body reads its input block once and, for each of its 128 leading columns a, stores the product of column a
  (spread along the row) with the columns a … 255 into the output block, the bands laid end to end along the row.
  Run once over symbolic staging memrefs, the body leaves the output buffer at 128 listed stores; they are bands of
  whole columns, each ending where the next begins, from column 0 to the last, so they cover the buffer, and what
  the buffer holds afterwards is a function of the input block alone. The pipeline's proof data for the region are
  stated at a parameter: the buffers' contents when the region is entered.
-/
import proofs.«427551_j57200374448374_3_alg».proof.Proof.Gen.Kernel.Launch
import proofs.«427551_j57200374448374_3_alg».proof.Proof.Gen.Kernel.Skeleton
import proofs.«427551_j57200374448374_3_alg».proof.Proof.Gen.Kernel.Points
import proofs.«427551_j57200374448374_3_alg».proof.Proof.LibBands
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffers' contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is the
    entry contents and whose body leaves the block in place: the window is fetched at every point and never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs -/

/-- One staging buffer of the output window, through which its contents are stated (a covering list of stores reads
    the same through any). -/
abbrev VO2_1 : View sig .tc .vmem S64x24640 .f32 := (Memref.whole cc2_stg1_0 : Memref sig .tc .vmem S64x24640 .f32).view
/-- Each window's current staging memref at point t, as the pipeline passes it to the body, and its wholeness. -/
abbrev ms2_0 (t : Fin cfg2.N) : Memref sig .tc .vmem S64x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x24640 .f32 := win2_1.stage (cfg2.slots t 1)
abbrev hs2_1 (t : Fin cfg2.N) : (ms2_1 t).IsWhole := hstage2_1 ((cfg2.slots t 1).cast nbuf2_1)

/-! ## The body on any staging memrefs -/

set_option maxHeartbeats 4000000 in
/-- What the body's stores leave in the output's staging memref, as pieces (last first), with the proof that on whole
    staging memrefs — the input's at its contents, the output's at anything — the body runs to the continuation
    holding the input's as it was and the output's buffer with those pieces written. The loads of the output buffer
    before each store read values nothing uses. -/
noncomputable def kernelRun2 (c : Dev nD) (i : grid2.Coords) (arg1 : Memref sig .tc .vmem S64x256 .f32) (harg1 : arg1.IsWhole) (arg2 : Memref sig .tc .vmem S64x24640 .f32) (harg2 : arg2.IsWhole)
    (x0 : Vec F S64x256 .f32) :
    { L1 : List (View.Piece (Elt F) S64x24640 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2_kernel i arg1 harg1 arg2 harg2) K } := by
  refine ⟨?_, fun E K => ?run⟩
  case run =>
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

/-- The run's pieces are bands of whole columns from the last column down to column 0 (the rectangles are literals:
    decided by evaluation), so they cover the output block. -/
theorem cover2_1 (c : Dev nD) (i : grid2.Coords) (arg1 : Memref sig .tc .vmem S64x256 .f32) (harg1 : arg1.IsWhole) (arg2 : Memref sig .tc .vmem S64x24640 .f32) (harg2 : arg2.IsWhole)
    (x0 : Vec F S64x256 .f32) (y : S64x24640.Idx) :
    ∃ pc ∈ (kernelRun2 c i arg1 harg1 arg2 harg2 x0).1, y ∈ pc.1.set :=
  Cert.Bands.cover_of_bands (kernelRun2 c i arg1 harg1 arg2 harg2 x0).1 24640 (by sl_kernel_rfl) y (y (1 : Fin 2)).isLt

/-- What the run leaves in the output's staging buffer: its pieces read back over junk. -/
def out2_1 (c : Dev nD) (i : grid2.Coords) (arg1 : Memref sig .tc .vmem S64x256 .f32) (harg1 : arg1.IsWhole) (arg2 : Memref sig .tc .vmem S64x24640 .f32) (harg2 : arg2.IsWhole)
    (x0 : Vec F S64x256 .f32) : Vec F S64x24640 .f32 :=
  VO2_1.read (Elt F) (VO2_1.writes (Elt F) VO2_1.junk (kernelRun2 c i arg1 harg1 arg2 harg2 x0).1)

/-! ## The pipeline's proof data -/

/-- The proof data of the region's pipeline on core c: the arrays as the region finds them; after the body at point t
    the input's buffer at its block and the output's at what the run leaves from that block; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 c (grid2.coords t) (ms2_0 t) (hs2_0 t) (ms2_1 t) (hs2_1 t) (iblk2 V c 0 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) :
    (dat2 V c).after 1 t = out2_1 c (grid2.coords t) (ms2_0 t) (hs2_0 t) (ms2_1 t) (hs2_1 t) (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

/-- The body at any point: the input's memref holds its block, so the run applies; the invariant passes through
    unread and the core owes nothing throughout; the output's buffer, its covering pieces written over whatever it
    held, reads as the same pieces written over junk. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  unfold out2_1
  iintro ⟨HΦ, Ho, ⟨%d0, H0⟩, ⟨%d1, H1⟩⟩
  iapply ((kernelRun2 c (grid2.coords t) _ _ _ _ (iblk2 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover2_1 c _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.BKBody3.lean ====
/-
  Region 3 of the kernel: the body of the fourth call on one block of 64 rows, at any float model.

  The body reads its input block once and, for each of its 128 leading columns a, stores the product of column a
  (spread along the row) with the columns a … 127 into the output block, the bands laid end to end along the row.
  Run once over symbolic staging memrefs, the body leaves the output buffer at 128 listed stores; they are bands of
  whole columns, each ending where the next begins, from column 0 to the last, so they cover the buffer, and what
  the buffer holds afterwards is a function of the input block alone. The pipeline's proof data for the region are
  stated at a parameter: the buffers' contents when the region is entered.
-/
import proofs.«427551_j57200374448374_3_alg».proof.Proof.Gen.Kernel.Launch
import proofs.«427551_j57200374448374_3_alg».proof.Proof.Gen.Kernel.Skeleton
import proofs.«427551_j57200374448374_3_alg».proof.Proof.Gen.Kernel.Points
import proofs.«427551_j57200374448374_3_alg».proof.Proof.LibBands
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the buffers' contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is the
    entry contents and whose body leaves the block in place: the window is fetched at every point and never cut. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The staging memrefs -/

/-- One staging buffer of the output window, through which its contents are stated (a covering list of stores reads
    the same through any). -/
abbrev VO3_1 : View sig .tc .vmem S64x8256 .f32 := (Memref.whole cc3_stg1_0 : Memref sig .tc .vmem S64x8256 .f32).view
/-- Each window's current staging memref at point t, as the pipeline passes it to the body, and its wholeness. -/
abbrev ms3_0 (t : Fin cfg3.N) : Memref sig .tc .vmem S64x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x8256 .f32 := win3_1.stage (cfg3.slots t 1)
abbrev hs3_1 (t : Fin cfg3.N) : (ms3_1 t).IsWhole := hstage3_1 ((cfg3.slots t 1).cast nbuf3_1)

/-! ## The body on any staging memrefs -/

set_option maxHeartbeats 4000000 in
/-- What the body's stores leave in the output's staging memref, as pieces (last first), with the proof that on whole
    staging memrefs — the input's at its contents, the output's at anything — the body runs to the continuation
    holding the input's as it was and the output's buffer with those pieces written. The loads of the output buffer
    before each store read values nothing uses. -/
noncomputable def kernelRun3 (c : Dev nD) (i : grid3.Coords) (arg1 : Memref sig .tc .vmem S64x128 .f32) (harg1 : arg1.IsWhole) (arg2 : Memref sig .tc .vmem S64x8256 .f32) (harg2 : arg2.IsWhole)
    (x0 : Vec F S64x128 .f32) :
    { L1 : List (View.Piece (Elt F) S64x8256 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc3_kernel i arg1 harg1 arg2 harg2) K } := by
  refine ⟨?_, fun E K => ?run⟩
  case run =>
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

/-- The run's pieces are bands of whole columns from the last column down to column 0 (the rectangles are literals:
    decided by evaluation), so they cover the output block. -/
theorem cover3_1 (c : Dev nD) (i : grid3.Coords) (arg1 : Memref sig .tc .vmem S64x128 .f32) (harg1 : arg1.IsWhole) (arg2 : Memref sig .tc .vmem S64x8256 .f32) (harg2 : arg2.IsWhole)
    (x0 : Vec F S64x128 .f32) (y : S64x8256.Idx) :
    ∃ pc ∈ (kernelRun3 c i arg1 harg1 arg2 harg2 x0).1, y ∈ pc.1.set :=
  Cert.Bands.cover_of_bands (kernelRun3 c i arg1 harg1 arg2 harg2 x0).1 8256 (by sl_kernel_rfl) y (y (1 : Fin 2)).isLt

/-- What the run leaves in the output's staging buffer: its pieces read back over junk. -/
def out3_1 (c : Dev nD) (i : grid3.Coords) (arg1 : Memref sig .tc .vmem S64x128 .f32) (harg1 : arg1.IsWhole) (arg2 : Memref sig .tc .vmem S64x8256 .f32) (harg2 : arg2.IsWhole)
    (x0 : Vec F S64x128 .f32) : Vec F S64x8256 .f32 :=
  VO3_1.read (Elt F) (VO3_1.writes (Elt F) VO3_1.junk (kernelRun3 c i arg1 harg1 arg2 harg2 x0).1)

/-! ## The pipeline's proof data -/

/-- The proof data of the region's pipeline on core c: the arrays as the region finds them; after the body at point t
    the input's buffer at its block and the output's at what the run leaves from that block; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 c (grid3.coords t) (ms3_0 t) (hs3_0 t) (ms3_1 t) (hs3_1 t) (iblk3 V c 0 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) :
    (dat3 V c).after 1 t = out3_1 c (grid3.coords t) (ms3_0 t) (hs3_0 t) (ms3_1 t) (hs3_1 t) (iblk3 V c 0 t) := by dsimp only [dat3]

/-- The input's current staging buffer holds its block at every point. -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t))

/-- The body at any point: the input's memref holds its block, so the run applies; the invariant passes through
    unread and the core owes nothing throughout; the output's buffer, its covering pieces written over whatever it
    held, reads as the same pieces written over junk. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  unfold out3_1
  iintro ⟨HΦ, Ho, ⟨%d0, H0⟩, ⟨%d1, H1⟩⟩
  iapply ((kernelRun3 c (grid3.coords t) _ _ _ _ (iblk3 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover3_1 c _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.BKRun.lean ====
/-
  The kernel's run from the launch to the return, at any float model.

  The program is nine items in a row: a reshape of the argument to 1024 x 512; the first kernel on all 512 columns;
  then three times a column slice of the reshaped argument (from column 128, 256, 384) followed by the kernel on
  that slice; at the end the concatenation of the four kernels' results along the columns and a trailing axis of
  extent 1. The contents of the TensorCore's buffers are followed item by item as a fold from the launch memory: a
  host stretch leaves what its operations compute, a kernel region leaves its two arrays at what its pipeline's
  write-backs make of them and every other buffer as it found it. Each kernel region is entered from every unscoped
  buffer held whole at the fold's contents there and left the same way one step on, so the nine items chain, and
  every final memory holds every unscoped buffer at the fold's last contents. The argument is written by no host
  operation and is no region's array, so it ends as launched.
-/
import proofs.«427551_j57200374448374_3_alg».proof.Proof.BKBody0
import proofs.«427551_j57200374448374_3_alg».proof.Proof.BKBody1
import proofs.«427551_j57200374448374_3_alg».proof.Proof.BKBody2
import proofs.«427551_j57200374448374_3_alg».proof.Proof.BKBody3
import proofs.«427551_j57200374448374_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items: a fold from the launch memory -/

/-- Core c's buffers at launch. -/
abbrev W0 : Dev nD → Valuation τ sig (Elt F) := fun c b => (s₀ m ρ).mem ((c : Dev nD), b)

/-! ## Through the reshape and the first kernel -/

/-- After the reshape: the contents region 0 is entered from. -/
abbrev W1 : Dev nD → Valuation τ sig (Elt F) := fun c => StableHlo.after hostOps0 (W0 m ρ c)
/-- The same, read at the TensorCore's references (what region 0's proof data take). -/
abbrev V1 : (c : Dev nD) → (b : Ref sig .tc) → Buf (Elt F) ((c : Thread nD τ).loc b) := fun c b => W1 m ρ c b
/-- A reference the reshape does not write keeps its contents. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- At region 0's exit: its two arrays at what the pipeline leaves (the input as entered, the output's write-backs
    folded over the grid's points), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ## Through the slice from column 128 and the second kernel -/

/-- After the slice from column 128: the contents region 1 is entered from. -/
abbrev W3 : Dev nD → Valuation τ sig (Elt F) := fun c => StableHlo.after hostOps1 (W2 m ρ c)
/-- The same, read at the TensorCore's references (what region 1's proof data take). -/
abbrev V3 : (c : Dev nD) → (b : Ref sig .tc) → Buf (Elt F) ((c : Thread nD τ).loc b) := fun c b => W3 m ρ c b
/-- A reference the slice does not write keeps its contents. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- At region 1's exit: its two arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Through the slice from column 256 and the third kernel -/

/-- After the slice from column 256: the contents region 2 is entered from. -/
abbrev W5 : Dev nD → Valuation τ sig (Elt F) := fun c => StableHlo.after hostOps2 (W4 m ρ c)
/-- The same, read at the TensorCore's references (what region 2's proof data take). -/
abbrev V5 : (c : Dev nD) → (b : Ref sig .tc) → Buf (Elt F) ((c : Thread nD τ).loc b) := fun c b => W5 m ρ c b
/-- A reference the slice does not write keeps its contents. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- At region 2's exit: its two arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## Through the slice from column 384 and the fourth kernel -/

/-- After the slice from column 384: the contents region 3 is entered from. -/
abbrev W7 : Dev nD → Valuation τ sig (Elt F) := fun c => StableHlo.after hostOps3 (W6 m ρ c)
/-- The same, read at the TensorCore's references (what region 3's proof data take). -/
abbrev V7 : (c : Dev nD) → (b : Ref sig .tc) → Buf (Elt F) ((c : Thread nD τ).loc b) := fun c b => W7 m ρ c b
/-- A reference the slice does not write keeps its contents. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
/-- At region 3's exit: its two arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## Through the concatenation and the trailing axis -/

/-- After the last host stretch: the contents the program ends at. -/
abbrev W9 : Dev nD → Valuation τ sig (Elt F) := fun c => StableHlo.after hostOps4 (W8 m ρ c)
/-- A reference the last host stretch does not write keeps its contents. -/
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h

/-- The argument ends as launched: no host operation writes it and it is no region's array, so the fold at its
    buffer walks back to the launch memory. -/
theorem W9_main_arg0 (c : Dev nD) : W9 m ρ c (Proc.devRef .tc main_arg0) = m ((c : Thread nD τ).loc main_arg0) :=
  (W9_of m ρ c main_arg0 (by decide)).trans <| (W8_of_ne m ρ c main_arg0 (by decide)).trans <|
  (W7_of m ρ c main_arg0 (by decide)).trans <| (W6_of_ne m ρ c main_arg0 (by decide)).trans <|
  (W5_of m ρ c main_arg0 (by decide)).trans <| (W4_of_ne m ρ c main_arg0 (by decide)).trans <|
  (W3_of m ρ c main_arg0 (by decide)).trans <| (W2_of_ne m ρ c main_arg0 (by decide)).trans <|
  (W1_of m ρ c main_arg0 (by decide)).trans rfl

/-! # The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from given contents, the rest riding along: it ends with
    those references at what the stretch's operations compute from them, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! # The regions as segments -/

set_option backward.isDefEq.respectTransparency.types false in
/-- REGION 0 over the thread state: entered from every unscoped buffer at W1, left at W2. Its two arrays are split out
    of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W3, left at W4, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at W5, left at W6, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at W7, left at W8, in the same way. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The program's nine items in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- The program IS the run of the segments: it is the chain of its items, and so is the segments' run. -/
theorem main_run (c : Dev nD) : main (F := F) c = Pipeline.Seg.run (segs m ρ) := (main_chain c).trans (by chain_rfl)

set_option backward.isDefEq.respectTransparency.types false in
/-- THE RUN, at any postcondition that follows from the final memory holding every unscoped buffer at the last
    boundary's contents W9: from any memory with zero counters, every weakly fair execution of the program on the
    TensorCores terminates, nothing faulting, in such a memory. The segments chain (each is entered from what the one
    before it left; after the last host stretch the generator register is regrouped beside the buffers), the launch
    deals the first thread state, and the last thread state is read against the final state. -/
theorem run_post {Q : PUnit × MemSt nD τ sig (Elt F) → Prop}
    (hQ : ∀ s : MemSt nD τ sig (Elt F),
      (∀ c : Dev nD, ∀ b ∈ Pipeline.ucRefs τ sig, s.mem ((c : Thread nD τ).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- Every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  run_post m ρ fun _ h => h

/-- THE FRAME, at any float model: every final memory holds the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  run_post m ρ fun _ h c => (h c _ (mem_uc main_arg0 (by decide))).trans (W9_main_arg0 m ρ c)

/-- info: 'Cert.Kernel.Hand.run_all' depends on axioms: [propext, Classical.choice, Quot.sound] -/
#guard_msgs in #print axioms run_all
/-- info: 'Cert.Kernel.Hand.frame' depends on axioms: [propext, Classical.choice, Quot.sound] -/
#guard_msgs in #print axioms frame

end Cert.Kernel.Hand

end
-- ==== Proof.Spec.lean ====
/-
  The mathematics shared by both programs: the row-major enumeration of the pairs (i, j), i ≤ j < W.

  Rows of lengths W, W − 1, …, 1 are laid end to end. Row a starts at position offW W a = a·W − a(a−1)/2 and holds
  the pairs (a, a), (a, a+1), …, (a, W−1); position offW W a + k of the enumeration is the pair (a, a + k).
  rowW W q and colW W q read the pair off a position q, peeling one row at a time. The result of both programs is
  pairsW: entry (b, q) of the result is x(b, rowW q) · x(b, colW q).
-/
import Idealize.ShloMosaic.PureOps.Ideal
import Idealize.ShloMosaic.Lib.ValueIdx

noncomputable section

namespace Cert.Spec

open Idealize.ShloMosaic Idealize.ShloMosaic.ValueIdx

/-- Where row a of the triangle of width W starts: a·W − a(a−1)/2. -/
def offW (W a : ℕ) : ℕ := a * W - a * (a - 1) / 2

/-- The row of position q in the triangle of width W: the first row has W entries, the rest is the triangle of
    width W − 1. -/
def rowW : ℕ → ℕ → ℕ
  | 0, _ => 0
  | W + 1, q => if q < W + 1 then 0 else rowW W (q - (W + 1)) + 1

/-- The column of position q in the triangle of width W (columns counted from the first row's start, so the pair at
    row a, k places in, has column a + k). -/
def colW : ℕ → ℕ → ℕ
  | 0, q => q
  | W + 1, q => if q < W + 1 then q else colW W (q - (W + 1)) + 1

/-- The flat position i·512 + j in the 512 × 512 square of the pair enumerated at p. -/
def pos (p : ℕ) : ℕ := 512 * rowW 512 p + colW 512 p

/-- Every pair product of the rows of x: entry (b, q) is x(b, i) · x(b, j), (i, j) the pair at position q of the
    triangle of width W. (The reductions mod W only make the coordinates typecheck: below offW W W they change nothing.) -/
def pairsW (B W N : ℕ) (hW : 0 < W) (x : FVec Ideal ⟨2, ![B, W]⟩ .f32) : FVec Ideal ⟨2, ![B, N]⟩ .f32 :=
  fun j => x (ix2 (n0 := B) (n1 := W) (j 0) ⟨rowW W (j 1).val % W, Nat.mod_lt _ hW⟩)
         * x (ix2 (n0 := B) (n1 := W) (j 0) ⟨colW W (j 1).val % W, Nat.mod_lt _ hW⟩)

/-- The whole result from the argument array: the rows flattened to 512 features, every pair product, a trailing axis of
    extent one. The two proofs are the shape facts the flattening and the trailing axis need; any two proofs give the
    same function. -/
def result (hc : (⟨3, ![1024, 32, 16]⟩ : Shape).ShapeCasts ⟨2, ![1024, 512]⟩)
    (hb : (⟨2, ![1024, 131328]⟩ : Shape).BroadcastsInDim ⟨3, ![1024, 131328, 1]⟩ (![0, 1] : Fin 2 → Fin 3))
    (X : FVec Ideal ⟨3, ![1024, 32, 16]⟩ .f32) : FVec Ideal ⟨3, ![1024, 131328, 1]⟩ .f32 :=
  broadcastInDim ⟨3, ![1024, 131328, 1]⟩ ![0, 1] hb
    (pairsW 1024 512 131328 (by decide) (shapeCast ⟨2, ![1024, 512]⟩ X hc))

/-- Row 0 starts at position 0. -/
theorem offW_zero (W : ℕ) : offW W 0 = 0 := by simp [offW]

/-- The triangular numbers step by a: (a+1)·a/2 = a(a−1)/2 + a (the product of two consecutive numbers is even). -/
theorem tri_succ (a : ℕ) : (a + 1) * (a + 1 - 1) / 2 = a * (a - 1) / 2 + a := by
  cases a with
  | zero => simp
  | succ b =>
    have h : (b + 1 + 1) * (b + 1 + 1 - 1) = (b + 1) * (b + 1 - 1) + 2 * (b + 1) := by
      simp only [Nat.add_sub_cancel]
      rw [Nat.add_mul, Nat.one_mul, Nat.mul_comm 2, Nat.mul_two, Nat.mul_add, Nat.mul_one]
      omega
    rw [h, Nat.add_mul_div_left _ _ (by decide : 0 < 2)]

/-- Row a + 1 of the triangle of width W + 1 starts one full row (W + 1 entries) after row a of the triangle of
    width W starts: (a+1)(W+1) − (a+1)a/2 = (W+1) + aW − a(a−1)/2. (For a ≤ W the subtraction is a true one.) -/
theorem offW_succ_succ (W a : ℕ) (h : a ≤ W) : offW (W + 1) (a + 1) = (W + 1) + offW W a := by
  unfold offW
  rw [tri_succ]
  have h1 : a * (a - 1) / 2 ≤ a * W :=
    le_trans (Nat.div_le_self _ _) (Nat.mul_le_mul_left _ (by omega))
  have h2 : (a + 1) * (W + 1) = a * W + a + W + 1 := by
    rw [Nat.add_mul, Nat.one_mul, Nat.mul_add, Nat.mul_one]; omega
  omega

/-- Position offW W a + k, k < W − a, lies in row a. -/
theorem rowW_off (W a k : ℕ) (ha : a < W) (hk : k < W - a) : rowW W (offW W a + k) = a := by
  induction W generalizing a k with
  | zero => omega
  | succ W ih =>
    cases a with
    | zero =>
      rw [offW_zero, Nat.zero_add, rowW, if_pos (by omega)]
    | succ a =>
      have e : offW (W + 1) (a + 1) + k - (W + 1) = offW W a + k := by
        rw [offW_succ_succ W a (by omega)]; omega
      have n : ¬ offW (W + 1) (a + 1) + k < W + 1 := by
        rw [offW_succ_succ W a (by omega)]; omega
      rw [rowW, if_neg n, e, ih a k (by omega) (by omega)]

/-- … at column a + k. -/
theorem colW_off (W a k : ℕ) (ha : a < W) (hk : k < W - a) : colW W (offW W a + k) = a + k := by
  induction W generalizing a k with
  | zero => omega
  | succ W ih =>
    cases a with
    | zero =>
      rw [offW_zero, Nat.zero_add, colW, if_pos (by omega)]
    | succ a =>
      have e : offW (W + 1) (a + 1) + k - (W + 1) = offW W a + k := by
        rw [offW_succ_succ W a (by omega)]; omega
      have n : ¬ offW (W + 1) (a + 1) + k < W + 1 := by
        rw [offW_succ_succ W a (by omega)]; omega
      rw [colW, if_neg n, e, ih a k (by omega) (by omega)]
      omega

/-- The triangle of width W has offW W W = W(W+1)/2 positions; the rows and columns of its positions are below W. -/
theorem rowW_lt (W q : ℕ) (hq : q < offW W W) : rowW W q < W := by
  induction W generalizing q with
  | zero => simp [offW] at hq
  | succ W ih =>
    rw [rowW]
    split
    · omega
    · have := ih (q - (W + 1)) (by rw [offW_succ_succ W W (le_refl _)] at hq; omega)
      omega
theorem colW_lt (W q : ℕ) (hq : q < offW W W) : colW W q < W := by
  induction W generalizing q with
  | zero => simp [offW] at hq
  | succ W ih =>
    rw [colW]
    split
    · omega
    · have := ih (q - (W + 1)) (by rw [offW_succ_succ W W (le_refl _)] at hq; omega)
      omega

/-- Cutting the first a rows off the triangle of width W leaves the triangle of width W − a, its rows and columns
    shifted by a. -/
theorem rowW_split (W a q : ℕ) (ha : a ≤ W) (hq : q < offW (W - a) (W - a)) :
    rowW W (offW W a + q) = a + rowW (W - a) q := by
  induction a generalizing W with
  | zero => rw [offW_zero, Nat.zero_add, Nat.zero_add, Nat.sub_zero]
  | succ a ih =>
    cases W with
    | zero => omega
    | succ W =>
      have e : offW (W + 1) (a + 1) + q - (W + 1) = offW W a + q := by
        rw [offW_succ_succ W a (by omega)]; omega
      have n : ¬ offW (W + 1) (a + 1) + q < W + 1 := by
        rw [offW_succ_succ W a (by omega)]; omega
      rw [Nat.succ_sub_succ] at hq ⊢
      rw [rowW, if_neg n, e, ih W (by omega) hq]
      omega
theorem colW_split (W a q : ℕ) (ha : a ≤ W) (hq : q < offW (W - a) (W - a)) :
    colW W (offW W a + q) = a + colW (W - a) q := by
  induction a generalizing W with
  | zero => rw [offW_zero, Nat.zero_add, Nat.zero_add, Nat.sub_zero]
  | succ a ih =>
    cases W with
    | zero => omega
    | succ W =>
      have e : offW (W + 1) (a + 1) + q - (W + 1) = offW W a + q := by
        rw [offW_succ_succ W a (by omega)]; omega
      have n : ¬ offW (W + 1) (a + 1) + q < W + 1 := by
        rw [offW_succ_succ W a (by omega)]; omega
      rw [Nat.succ_sub_succ] at hq ⊢
      rw [colW, if_neg n, e, ih W (by omega) hq]
      omega

/-- The literal numbers of this problem: the four row blocks of 128 rows start at these positions. -/
theorem offW_512_128 : offW 512 128 = 57408 := by decide
theorem offW_512_256 : offW 512 256 = 98432 := by decide
theorem offW_512_384 : offW 512 384 = 123072 := by decide
theorem offW_512_512 : offW 512 512 = 131328 := by decide

end Cert.Spec

end
-- ==== Proof.KBody0.lean ====
/-
  Region 0 of the kernel: the body of the first call on one block of 64 rows, at any float model.

  The body reads its input block once and, for each of its 128 leading columns a, stores the product of column a
  (spread along the row) with the columns a … 511 into the output block, the bands laid end to end along the row.
  Run once over symbolic staging memrefs, the body leaves the output buffer at 128 listed stores; they are bands of
  whole columns, each ending where the next begins, from column 0 to the last, so they cover the buffer, and what
  the buffer holds afterwards is a function of the input block alone. The pipeline's proof data for the region are
  stated at a parameter: the buffers' contents when the region is entered.
-/
import proofs.«427551_j57200374448374_3_alg».proof.Proof.Gen.KernelIdeal.Launch
import proofs.«427551_j57200374448374_3_alg».proof.Proof.Gen.KernelIdeal.Skeleton
import proofs.«427551_j57200374448374_3_alg».proof.Proof.Gen.KernelIdeal.Points
import proofs.«427551_j57200374448374_3_alg».proof.Proof.LibBands
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffers' contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place: the window is fetched at every point and never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs -/

/-- One staging buffer of the output window, through which its contents are stated (a covering list of stores reads
    the same through any). -/
abbrev VO0_1 : View sig .tc .vmem S64x57408 .f32 := (Memref.whole cc0_stg1_0 : Memref sig .tc .vmem S64x57408 .f32).view
/-- Each window's current staging memref at point t, as the pipeline passes it to the body, and its wholeness. -/
abbrev ms0_0 (t : Fin cfg0.N) : Memref sig .tc .vmem S64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x57408 .f32 := win0_1.stage (cfg0.slots t 1)
abbrev hs0_1 (t : Fin cfg0.N) : (ms0_1 t).IsWhole := hstage0_1 ((cfg0.slots t 1).cast nbuf0_1)

/-! ## The body on any staging memrefs -/

set_option maxHeartbeats 4000000 in
/-- What the body's stores leave in the output's staging memref, as pieces (last first), with the proof that on whole
    staging memrefs — the input's at its contents, the output's at anything — the body runs to the continuation
    holding the input's as it was and the output's buffer with those pieces written. The loads of the output buffer
    before each store read values nothing uses. -/
noncomputable def kernelRun0 (c : Dev nD) (i : grid0.Coords) (arg1 : Memref sig .tc .vmem S64x512 .f32) (harg1 : arg1.IsWhole) (arg2 : Memref sig .tc .vmem S64x57408 .f32) (harg2 : arg2.IsWhole)
    (x0 : Vec F S64x512 .f32) :
    { L1 : List (View.Piece (Elt F) S64x57408 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_kernel i arg1 harg1 arg2 harg2) K } := by
  refine ⟨?_, fun E K => ?run⟩
  case run =>
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

/-- The run's pieces are bands of whole columns from the last column down to column 0 (the rectangles are literals:
    decided by evaluation), so they cover the output block. -/
theorem cover0_1 (c : Dev nD) (i : grid0.Coords) (arg1 : Memref sig .tc .vmem S64x512 .f32) (harg1 : arg1.IsWhole) (arg2 : Memref sig .tc .vmem S64x57408 .f32) (harg2 : arg2.IsWhole)
    (x0 : Vec F S64x512 .f32) (y : S64x57408.Idx) :
    ∃ pc ∈ (kernelRun0 c i arg1 harg1 arg2 harg2 x0).1, y ∈ pc.1.set :=
  Cert.Bands.cover_of_bands (kernelRun0 c i arg1 harg1 arg2 harg2 x0).1 57408 (by sl_kernel_rfl) y (y (1 : Fin 2)).isLt

/-- What the run leaves in the output's staging buffer: its pieces read back over junk. -/
def out0_1 (c : Dev nD) (i : grid0.Coords) (arg1 : Memref sig .tc .vmem S64x512 .f32) (harg1 : arg1.IsWhole) (arg2 : Memref sig .tc .vmem S64x57408 .f32) (harg2 : arg2.IsWhole)
    (x0 : Vec F S64x512 .f32) : Vec F S64x57408 .f32 :=
  VO0_1.read (Elt F) (VO0_1.writes (Elt F) VO0_1.junk (kernelRun0 c i arg1 harg1 arg2 harg2 x0).1)

/-! ## The pipeline's proof data -/

/-- The proof data of the region's pipeline on core c: the arrays as the region finds them; after the body at point t
    the input's buffer at its block and the output's at what the run leaves from that block; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 c (grid0.coords t) (ms0_0 t) (hs0_0 t) (ms0_1 t) (hs0_1 t) (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) :
    (dat0 V c).after 1 t = out0_1 c (grid0.coords t) (ms0_0 t) (hs0_0 t) (ms0_1 t) (hs0_1 t) (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point: the input's memref holds its block, so the run applies; the invariant passes through
    unread and the core owes nothing throughout; the output's buffer, its covering pieces written over whatever it
    held, reads as the same pieces written over junk. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold out0_1
  iintro ⟨HΦ, Ho, ⟨%d0, H0⟩, ⟨%d1, H1⟩⟩
  iapply ((kernelRun0 c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KBody1.lean ====
/-
  Region 1 of the kernel: the body of the second call on one block of 64 rows, at any float model.

  The body reads its input block once and, for each of its 128 leading columns a, stores the product of column a
  (spread along the row) with the columns a … 383 into the output block, the bands laid end to end along the row.
  Run once over symbolic staging memrefs, the body leaves the output buffer at 128 listed stores; they are bands of
  whole columns, each ending where the next begins, from column 0 to the last, so they cover the buffer, and what
  the buffer holds afterwards is a function of the input block alone. The pipeline's proof data for the region are
  stated at a parameter: the buffers' contents when the region is entered.
-/
import proofs.«427551_j57200374448374_3_alg».proof.Proof.Gen.KernelIdeal.Launch
import proofs.«427551_j57200374448374_3_alg».proof.Proof.Gen.KernelIdeal.Skeleton
import proofs.«427551_j57200374448374_3_alg».proof.Proof.Gen.KernelIdeal.Points
import proofs.«427551_j57200374448374_3_alg».proof.Proof.LibBands
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffers' contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place: the window is fetched at every point and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs -/

/-- One staging buffer of the output window, through which its contents are stated (a covering list of stores reads
    the same through any). -/
abbrev VO1_1 : View sig .tc .vmem S64x41024 .f32 := (Memref.whole cc1_stg1_0 : Memref sig .tc .vmem S64x41024 .f32).view
/-- Each window's current staging memref at point t, as the pipeline passes it to the body, and its wholeness. -/
abbrev ms1_0 (t : Fin cfg1.N) : Memref sig .tc .vmem S64x384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x41024 .f32 := win1_1.stage (cfg1.slots t 1)
abbrev hs1_1 (t : Fin cfg1.N) : (ms1_1 t).IsWhole := hstage1_1 ((cfg1.slots t 1).cast nbuf1_1)

/-! ## The body on any staging memrefs -/

set_option maxHeartbeats 4000000 in
/-- What the body's stores leave in the output's staging memref, as pieces (last first), with the proof that on whole
    staging memrefs — the input's at its contents, the output's at anything — the body runs to the continuation
    holding the input's as it was and the output's buffer with those pieces written. The loads of the output buffer
    before each store read values nothing uses. -/
noncomputable def kernelRun1 (c : Dev nD) (i : grid1.Coords) (arg1 : Memref sig .tc .vmem S64x384 .f32) (harg1 : arg1.IsWhole) (arg2 : Memref sig .tc .vmem S64x41024 .f32) (harg2 : arg2.IsWhole)
    (x0 : Vec F S64x384 .f32) :
    { L1 : List (View.Piece (Elt F) S64x41024 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc1_kernel i arg1 harg1 arg2 harg2) K } := by
  refine ⟨?_, fun E K => ?run⟩
  case run =>
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

/-- The run's pieces are bands of whole columns from the last column down to column 0 (the rectangles are literals:
    decided by evaluation), so they cover the output block. -/
theorem cover1_1 (c : Dev nD) (i : grid1.Coords) (arg1 : Memref sig .tc .vmem S64x384 .f32) (harg1 : arg1.IsWhole) (arg2 : Memref sig .tc .vmem S64x41024 .f32) (harg2 : arg2.IsWhole)
    (x0 : Vec F S64x384 .f32) (y : S64x41024.Idx) :
    ∃ pc ∈ (kernelRun1 c i arg1 harg1 arg2 harg2 x0).1, y ∈ pc.1.set :=
  Cert.Bands.cover_of_bands (kernelRun1 c i arg1 harg1 arg2 harg2 x0).1 41024 (by sl_kernel_rfl) y (y (1 : Fin 2)).isLt

/-- What the run leaves in the output's staging buffer: its pieces read back over junk. -/
def out1_1 (c : Dev nD) (i : grid1.Coords) (arg1 : Memref sig .tc .vmem S64x384 .f32) (harg1 : arg1.IsWhole) (arg2 : Memref sig .tc .vmem S64x41024 .f32) (harg2 : arg2.IsWhole)
    (x0 : Vec F S64x384 .f32) : Vec F S64x41024 .f32 :=
  VO1_1.read (Elt F) (VO1_1.writes (Elt F) VO1_1.junk (kernelRun1 c i arg1 harg1 arg2 harg2 x0).1)

/-! ## The pipeline's proof data -/

/-- The proof data of the region's pipeline on core c: the arrays as the region finds them; after the body at point t
    the input's buffer at its block and the output's at what the run leaves from that block; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 c (grid1.coords t) (ms1_0 t) (hs1_0 t) (ms1_1 t) (hs1_1 t) (iblk1 V c 0 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) :
    (dat1 V c).after 1 t = out1_1 c (grid1.coords t) (ms1_0 t) (hs1_0 t) (ms1_1 t) (hs1_1 t) (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

/-- The body at any point: the input's memref holds its block, so the run applies; the invariant passes through
    unread and the core owes nothing throughout; the output's buffer, its covering pieces written over whatever it
    held, reads as the same pieces written over junk. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  unfold out1_1
  iintro ⟨HΦ, Ho, ⟨%d0, H0⟩, ⟨%d1, H1⟩⟩
  iapply ((kernelRun1 c (grid1.coords t) _ _ _ _ (iblk1 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover1_1 c _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KBody2.lean ====
/-
  Region 2 of the kernel: the body of the third call on one block of 64 rows, at any float model.

  The body reads its input block once and, for each of its 128 leading columns a, stores the product of column a
  (spread along the row) with the columns a … 255 into the output block, the bands laid end to end along the row.
  Run once over symbolic staging memrefs, the body leaves the output buffer at 128 listed stores; they are bands of
  whole columns, each ending where the next begins, from column 0 to the last, so they cover the buffer, and what
  the buffer holds afterwards is a function of the input block alone. The pipeline's proof data for the region are
  stated at a parameter: the buffers' contents when the region is entered.
-/
import proofs.«427551_j57200374448374_3_alg».proof.Proof.Gen.KernelIdeal.Launch
import proofs.«427551_j57200374448374_3_alg».proof.Proof.Gen.KernelIdeal.Skeleton
import proofs.«427551_j57200374448374_3_alg».proof.Proof.Gen.KernelIdeal.Points
import proofs.«427551_j57200374448374_3_alg».proof.Proof.LibBands
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffers' contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is the
    entry contents and whose body leaves the block in place: the window is fetched at every point and never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs -/

/-- One staging buffer of the output window, through which its contents are stated (a covering list of stores reads
    the same through any). -/
abbrev VO2_1 : View sig .tc .vmem S64x24640 .f32 := (Memref.whole cc2_stg1_0 : Memref sig .tc .vmem S64x24640 .f32).view
/-- Each window's current staging memref at point t, as the pipeline passes it to the body, and its wholeness. -/
abbrev ms2_0 (t : Fin cfg2.N) : Memref sig .tc .vmem S64x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x24640 .f32 := win2_1.stage (cfg2.slots t 1)
abbrev hs2_1 (t : Fin cfg2.N) : (ms2_1 t).IsWhole := hstage2_1 ((cfg2.slots t 1).cast nbuf2_1)

/-! ## The body on any staging memrefs -/

set_option maxHeartbeats 4000000 in
/-- What the body's stores leave in the output's staging memref, as pieces (last first), with the proof that on whole
    staging memrefs — the input's at its contents, the output's at anything — the body runs to the continuation
    holding the input's as it was and the output's buffer with those pieces written. The loads of the output buffer
    before each store read values nothing uses. -/
noncomputable def kernelRun2 (c : Dev nD) (i : grid2.Coords) (arg1 : Memref sig .tc .vmem S64x256 .f32) (harg1 : arg1.IsWhole) (arg2 : Memref sig .tc .vmem S64x24640 .f32) (harg2 : arg2.IsWhole)
    (x0 : Vec F S64x256 .f32) :
    { L1 : List (View.Piece (Elt F) S64x24640 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2_kernel i arg1 harg1 arg2 harg2) K } := by
  refine ⟨?_, fun E K => ?run⟩
  case run =>
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

/-- The run's pieces are bands of whole columns from the last column down to column 0 (the rectangles are literals:
    decided by evaluation), so they cover the output block. -/
theorem cover2_1 (c : Dev nD) (i : grid2.Coords) (arg1 : Memref sig .tc .vmem S64x256 .f32) (harg1 : arg1.IsWhole) (arg2 : Memref sig .tc .vmem S64x24640 .f32) (harg2 : arg2.IsWhole)
    (x0 : Vec F S64x256 .f32) (y : S64x24640.Idx) :
    ∃ pc ∈ (kernelRun2 c i arg1 harg1 arg2 harg2 x0).1, y ∈ pc.1.set :=
  Cert.Bands.cover_of_bands (kernelRun2 c i arg1 harg1 arg2 harg2 x0).1 24640 (by sl_kernel_rfl) y (y (1 : Fin 2)).isLt

/-- What the run leaves in the output's staging buffer: its pieces read back over junk. -/
def out2_1 (c : Dev nD) (i : grid2.Coords) (arg1 : Memref sig .tc .vmem S64x256 .f32) (harg1 : arg1.IsWhole) (arg2 : Memref sig .tc .vmem S64x24640 .f32) (harg2 : arg2.IsWhole)
    (x0 : Vec F S64x256 .f32) : Vec F S64x24640 .f32 :=
  VO2_1.read (Elt F) (VO2_1.writes (Elt F) VO2_1.junk (kernelRun2 c i arg1 harg1 arg2 harg2 x0).1)

/-! ## The pipeline's proof data -/

/-- The proof data of the region's pipeline on core c: the arrays as the region finds them; after the body at point t
    the input's buffer at its block and the output's at what the run leaves from that block; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 c (grid2.coords t) (ms2_0 t) (hs2_0 t) (ms2_1 t) (hs2_1 t) (iblk2 V c 0 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) :
    (dat2 V c).after 1 t = out2_1 c (grid2.coords t) (ms2_0 t) (hs2_0 t) (ms2_1 t) (hs2_1 t) (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

/-- The body at any point: the input's memref holds its block, so the run applies; the invariant passes through
    unread and the core owes nothing throughout; the output's buffer, its covering pieces written over whatever it
    held, reads as the same pieces written over junk. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  unfold out2_1
  iintro ⟨HΦ, Ho, ⟨%d0, H0⟩, ⟨%d1, H1⟩⟩
  iapply ((kernelRun2 c (grid2.coords t) _ _ _ _ (iblk2 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover2_1 c _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KBody3.lean ====
/-
  Region 3 of the kernel: the body of the fourth call on one block of 64 rows, at any float model.

  The body reads its input block once and, for each of its 128 leading columns a, stores the product of column a
  (spread along the row) with the columns a … 127 into the output block, the bands laid end to end along the row.
  Run once over symbolic staging memrefs, the body leaves the output buffer at 128 listed stores; they are bands of
  whole columns, each ending where the next begins, from column 0 to the last, so they cover the buffer, and what
  the buffer holds afterwards is a function of the input block alone. The pipeline's proof data for the region are
  stated at a parameter: the buffers' contents when the region is entered.
-/
import proofs.«427551_j57200374448374_3_alg».proof.Proof.Gen.KernelIdeal.Launch
import proofs.«427551_j57200374448374_3_alg».proof.Proof.Gen.KernelIdeal.Skeleton
import proofs.«427551_j57200374448374_3_alg».proof.Proof.Gen.KernelIdeal.Points
import proofs.«427551_j57200374448374_3_alg».proof.Proof.LibBands
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the buffers' contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is the
    entry contents and whose body leaves the block in place: the window is fetched at every point and never cut. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The staging memrefs -/

/-- One staging buffer of the output window, through which its contents are stated (a covering list of stores reads
    the same through any). -/
abbrev VO3_1 : View sig .tc .vmem S64x8256 .f32 := (Memref.whole cc3_stg1_0 : Memref sig .tc .vmem S64x8256 .f32).view
/-- Each window's current staging memref at point t, as the pipeline passes it to the body, and its wholeness. -/
abbrev ms3_0 (t : Fin cfg3.N) : Memref sig .tc .vmem S64x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x8256 .f32 := win3_1.stage (cfg3.slots t 1)
abbrev hs3_1 (t : Fin cfg3.N) : (ms3_1 t).IsWhole := hstage3_1 ((cfg3.slots t 1).cast nbuf3_1)

/-! ## The body on any staging memrefs -/

set_option maxHeartbeats 4000000 in
/-- What the body's stores leave in the output's staging memref, as pieces (last first), with the proof that on whole
    staging memrefs — the input's at its contents, the output's at anything — the body runs to the continuation
    holding the input's as it was and the output's buffer with those pieces written. The loads of the output buffer
    before each store read values nothing uses. -/
noncomputable def kernelRun3 (c : Dev nD) (i : grid3.Coords) (arg1 : Memref sig .tc .vmem S64x128 .f32) (harg1 : arg1.IsWhole) (arg2 : Memref sig .tc .vmem S64x8256 .f32) (harg2 : arg2.IsWhole)
    (x0 : Vec F S64x128 .f32) :
    { L1 : List (View.Piece (Elt F) S64x8256 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc3_kernel i arg1 harg1 arg2 harg2) K } := by
  refine ⟨?_, fun E K => ?run⟩
  case run =>
    unfold owns
    iintro ⟨⟨%f0, %hf0, H0⟩, ⟨%d1, %f1, -, H1⟩, Hk⟩
    obtain rfl := harg1.eq_unread hf0
    sl_exec_parts
    sl_step
    iapply Hk
    isplitl [H0]
    · iexists _; isplitr; · ipureintro; exact harg1.read_unread _
      iexact H0
    iexists _; iexact H1

/-- The run's pieces are bands of whole columns from the last column down to column 0 (the rectangles are literals:
    decided by evaluation), so they cover the output block. -/
theorem cover3_1 (c : Dev nD) (i : grid3.Coords) (arg1 : Memref sig .tc .vmem S64x128 .f32) (harg1 : arg1.IsWhole) (arg2 : Memref sig .tc .vmem S64x8256 .f32) (harg2 : arg2.IsWhole)
    (x0 : Vec F S64x128 .f32) (y : S64x8256.Idx) :
    ∃ pc ∈ (kernelRun3 c i arg1 harg1 arg2 harg2 x0).1, y ∈ pc.1.set :=
  Cert.Bands.cover_of_bands (kernelRun3 c i arg1 harg1 arg2 harg2 x0).1 8256 (by sl_kernel_rfl) y (y (1 : Fin 2)).isLt

/-- What the run leaves in the output's staging buffer: its pieces read back over junk. -/
def out3_1 (c : Dev nD) (i : grid3.Coords) (arg1 : Memref sig .tc .vmem S64x128 .f32) (harg1 : arg1.IsWhole) (arg2 : Memref sig .tc .vmem S64x8256 .f32) (harg2 : arg2.IsWhole)
    (x0 : Vec F S64x128 .f32) : Vec F S64x8256 .f32 :=
  VO3_1.read (Elt F) (VO3_1.writes (Elt F) VO3_1.junk (kernelRun3 c i arg1 harg1 arg2 harg2 x0).1)

/-! ## The pipeline's proof data -/

/-- The proof data of the region's pipeline on core c: the arrays as the region finds them; after the body at point t
    the input's buffer at its block and the output's at what the run leaves from that block; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 c (grid3.coords t) (ms3_0 t) (hs3_0 t) (ms3_1 t) (hs3_1 t) (iblk3 V c 0 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) :
    (dat3 V c).after 1 t = out3_1 c (grid3.coords t) (ms3_0 t) (hs3_0 t) (ms3_1 t) (hs3_1 t) (iblk3 V c 0 t) := by dsimp only [dat3]

/-- The input's current staging buffer holds its block at every point. -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t))

/-- The body at any point: the input's memref holds its block, so the run applies; the invariant passes through
    unread and the core owes nothing throughout; the output's buffer, its covering pieces written over whatever it
    held, reads as the same pieces written over junk. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  unfold out3_1
  iintro ⟨HΦ, Ho, ⟨%d0, H0⟩, ⟨%d1, H1⟩⟩
  iapply ((kernelRun3 c (grid3.coords t) _ _ _ _ (iblk3 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover3_1 c _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KRun.lean ====
/-
  The kernel's run from the launch to the return, at any float model.

  The program is nine items in a row: a reshape of the argument to 1024 x 512; the first kernel on all 512 columns;
  then three times a column slice of the reshaped argument (from column 128, 256, 384) followed by the kernel on
  that slice; at the end the concatenation of the four kernels' results along the columns and a trailing axis of
  extent 1. The contents of the TensorCore's buffers are followed item by item as a fold from the launch memory: a
  host stretch leaves what its operations compute, a kernel region leaves its two arrays at what its pipeline's
  write-backs make of them and every other buffer as it found it. Each kernel region is entered from every unscoped
  buffer held whole at the fold's contents there and left the same way one step on, so the nine items chain, and
  every final memory holds every unscoped buffer at the fold's last contents. The argument is written by no host
  operation and is no region's array, so it ends as launched.
-/
import proofs.«427551_j57200374448374_3_alg».proof.Proof.KBody0
import proofs.«427551_j57200374448374_3_alg».proof.Proof.KBody1
import proofs.«427551_j57200374448374_3_alg».proof.Proof.KBody2
import proofs.«427551_j57200374448374_3_alg».proof.Proof.KBody3
import proofs.«427551_j57200374448374_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items: a fold from the launch memory -/

/-- Core c's buffers at launch. -/
abbrev W0 : Dev nD → Valuation τ sig (Elt F) := fun c b => (s₀ m ρ).mem ((c : Dev nD), b)

/-! ## Through the reshape and the first kernel -/

/-- After the reshape: the contents region 0 is entered from. -/
abbrev W1 : Dev nD → Valuation τ sig (Elt F) := fun c => StableHlo.after hostOps0 (W0 m ρ c)
/-- The same, read at the TensorCore's references (what region 0's proof data take). -/
abbrev V1 : (c : Dev nD) → (b : Ref sig .tc) → Buf (Elt F) ((c : Thread nD τ).loc b) := fun c b => W1 m ρ c b
/-- A reference the reshape does not write keeps its contents. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- At region 0's exit: its two arrays at what the pipeline leaves (the input as entered, the output's write-backs
    folded over the grid's points), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-! ## Through the slice from column 128 and the second kernel -/

/-- After the slice from column 128: the contents region 1 is entered from. -/
abbrev W3 : Dev nD → Valuation τ sig (Elt F) := fun c => StableHlo.after hostOps1 (W2 m ρ c)
/-- The same, read at the TensorCore's references (what region 1's proof data take). -/
abbrev V3 : (c : Dev nD) → (b : Ref sig .tc) → Buf (Elt F) ((c : Thread nD τ).loc b) := fun c b => W3 m ρ c b
/-- A reference the slice does not write keeps its contents. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- At region 1's exit: its two arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## Through the slice from column 256 and the third kernel -/

/-- After the slice from column 256: the contents region 2 is entered from. -/
abbrev W5 : Dev nD → Valuation τ sig (Elt F) := fun c => StableHlo.after hostOps2 (W4 m ρ c)
/-- The same, read at the TensorCore's references (what region 2's proof data take). -/
abbrev V5 : (c : Dev nD) → (b : Ref sig .tc) → Buf (Elt F) ((c : Thread nD τ).loc b) := fun c b => W5 m ρ c b
/-- A reference the slice does not write keeps its contents. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- At region 2's exit: its two arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## Through the slice from column 384 and the fourth kernel -/

/-- After the slice from column 384: the contents region 3 is entered from. -/
abbrev W7 : Dev nD → Valuation τ sig (Elt F) := fun c => StableHlo.after hostOps3 (W6 m ρ c)
/-- The same, read at the TensorCore's references (what region 3's proof data take). -/
abbrev V7 : (c : Dev nD) → (b : Ref sig .tc) → Buf (Elt F) ((c : Thread nD τ).loc b) := fun c b => W7 m ρ c b
/-- A reference the slice does not write keeps its contents. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
/-- At region 3's exit: its two arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## Through the concatenation and the trailing axis -/

/-- After the last host stretch: the contents the program ends at. -/
abbrev W9 : Dev nD → Valuation τ sig (Elt F) := fun c => StableHlo.after hostOps4 (W8 m ρ c)
/-- A reference the last host stretch does not write keeps its contents. -/
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h

/-- The argument ends as launched: no host operation writes it and it is no region's array, so the fold at its
    buffer walks back to the launch memory. -/
theorem W9_main_arg0 (c : Dev nD) : W9 m ρ c (Proc.devRef .tc main_arg0) = m ((c : Thread nD τ).loc main_arg0) :=
  (W9_of m ρ c main_arg0 (by decide)).trans <| (W8_of_ne m ρ c main_arg0 (by decide)).trans <|
  (W7_of m ρ c main_arg0 (by decide)).trans <| (W6_of_ne m ρ c main_arg0 (by decide)).trans <|
  (W5_of m ρ c main_arg0 (by decide)).trans <| (W4_of_ne m ρ c main_arg0 (by decide)).trans <|
  (W3_of m ρ c main_arg0 (by decide)).trans <| (W2_of_ne m ρ c main_arg0 (by decide)).trans <|
  (W1_of m ρ c main_arg0 (by decide)).trans rfl

/-! # The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from given contents, the rest riding along: it ends with
    those references at what the stretch's operations compute from them, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! # The regions as segments -/

set_option backward.isDefEq.respectTransparency.types false in
/-- REGION 0 over the thread state: entered from every unscoped buffer at W1, left at W2. Its two arrays are split out
    of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W3, left at W4, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at W5, left at W6, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at W7, left at W8, in the same way. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The program as segments, and the launch -/

/-- The program's nine items in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- The program IS the run of the segments: it is the chain of its items, and so is the segments' run. -/
theorem main_run (c : Dev nD) : main (F := F) c = Pipeline.Seg.run (segs m ρ) := (main_chain c).trans (by chain_rfl)

set_option backward.isDefEq.respectTransparency.types false in
/-- THE RUN, at any postcondition that follows from the final memory holding every unscoped buffer at the last
    boundary's contents W9: from any memory with zero counters, every weakly fair execution of the program on the
    TensorCores terminates, nothing faulting, in such a memory. The segments chain (each is entered from what the one
    before it left; after the last host stretch the generator register is regrouped beside the buffers), the launch
    deals the first thread state, and the last thread state is read against the final state. -/
theorem run_post {Q : PUnit × MemSt nD τ sig (Elt F) → Prop}
    (hQ : ∀ s : MemSt nD τ sig (Elt F),
      (∀ c : Dev nD, ∀ b ∈ Pipeline.ucRefs τ sig, s.mem ((c : Thread nD τ).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- Every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  run_post m ρ fun _ h => h

/-- THE FRAME, at any float model: every final memory holds the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  run_post m ρ fun _ h c => (h c _ (mem_uc main_arg0 (by decide))).trans (W9_main_arg0 m ρ c)

/-- info: 'Cert.KernelIdeal.Hand.run_all' depends on axioms: [propext, Classical.choice, Quot.sound] -/
#guard_msgs in #print axioms run_all
/-- info: 'Cert.KernelIdeal.Hand.frame' depends on axioms: [propext, Classical.choice, Quot.sound] -/
#guard_msgs in #print axioms frame

end Cert.KernelIdeal.Hand

end
-- ==== Proof.KBlock.lean ====
/-
  What one call's body leaves in its output block, read as the triangle's pair products.

  The body of call K stores, for each of the 128 leading columns ri of its input block of width W, the product of
  column ri (spread along the row) with the block's columns ri … W − 1, at column offW W ri of the output block:
  the ri-th row of the triangle of width W, laid where the enumeration of the pairs puts it. Read at a local index,
  such a store is x(r, ri) · x(r, ri + k), the pair product at position offW W ri + k. The 128 stores cover the
  output block, so the block the run leaves is the pair products of the input block, whatever it held before.
-/
import proofs.«427551_j57200374448374_3_alg».proof.Proof.KBody0
import proofs.«427551_j57200374448374_3_alg».proof.Proof.KBody1
import proofs.«427551_j57200374448374_3_alg».proof.Proof.KBody2
import proofs.«427551_j57200374448374_3_alg».proof.Proof.KBody3
import proofs.«427551_j57200374448374_3_alg».proof.Proof.Spec
import Idealize.ShloMosaic.Lib.Pipeline.Value
import Idealize.ShloMosaic.Lib.Writes

set_option maxRecDepth 16384

noncomputable section

namespace Cert.KernelIdeal.Hand

open Cert.KernelIdeal Cert.KernelIdeal.Gen
open Idealize.ShloMosaic Idealize.ShloMosaic.ValueIdx Idealize.ShloMosaic.Tactic

/-! ## One store at an index -/

/-- Column ri of a block of width W, broadcast along the row to n entries, times the n entries of the block from
    column ri on: at (r, k) it is x(r, ri) · x(r, ri + k). -/
theorem colTimesTail_apply (W ri n : ℕ) (x : FVec Ideal ⟨2, ![64, W]⟩ .f32)
    (hs1 : (⟨2, ![64, W]⟩ : Shape).Slices ![0, ri] ⟨2, ![64, 1]⟩)
    (hsn : (⟨2, ![64, W]⟩ : Shape).Slices ![0, ri] ⟨2, ![64, n]⟩)
    (hb : (⟨2, ![64, 1]⟩ : Shape).Broadcasts ⟨2, ![64, n]⟩)
    (j : (⟨2, ![64, n]⟩ : Shape).Idx) (h0 : ri < W) (hk : ri + (j 1).val < W) :
    mulf (broadcastTo ⟨2, ![64, n]⟩ (extractStridedSlice ⟨2, ![64, 1]⟩ ![0, ri] x hs1) hb)
        (extractStridedSlice ⟨2, ![64, n]⟩ ![0, ri] x hsn) j
      = x (ix2 (n0 := 64) (n1 := W) (j 0) ⟨ri, h0⟩) * x (ix2 (n0 := 64) (n1 := W) (j 0) ⟨ri + (j 1).val, hk⟩) := by
  rw [mulf_apply]
  congr 1
  · unfold broadcastTo extractStridedSlice
    refine congrArg x (funext fun a => Fin.ext ?_)
    match a with
    | ⟨0, _⟩ => simp
    | ⟨1, _⟩ => simp
  · unfold extractStridedSlice
    refine congrArg x (funext fun a => Fin.ext ?_)
    match a with
    | ⟨0, _⟩ => simp
    | ⟨1, _⟩ => simp

/-- Position offW W ri + k of the triangle of width W, k < W − ri, is the pair (ri, ri + k): the coordinates pairsW reads
    there, reduced mod W, are ri and ri + k. -/
theorem pairsW_off (B W N ri k : ℕ) (hW : 0 < W) (x : FVec Ideal ⟨2, ![B, W]⟩ .f32) (hri : ri < W) (hk : k < W - ri)
    (b : Fin B) (q : Fin N) (hq : q.val = Cert.Spec.offW W ri + k) :
    Cert.Spec.pairsW B W N hW x (ix2 (n0 := B) (n1 := N) b q)
      = x (ix2 (n0 := B) (n1 := W) b ⟨ri, hri⟩) * x (ix2 (n0 := B) (n1 := W) b ⟨ri + k, by omega⟩) := by
  unfold Cert.Spec.pairsW
  have e1 : Cert.Spec.rowW W (q.val) % W = ri := by
    rw [hq, Cert.Spec.rowW_off W ri k hri hk]; exact Nat.mod_eq_of_lt hri
  have e2 : Cert.Spec.colW W (q.val) % W = ri + k := by
    rw [hq, Cert.Spec.colW_off W ri k hri hk]; exact Nat.mod_eq_of_lt (by omega)
  congr 1
  · exact congrArg x (funext fun a => match a with | ⟨0, _⟩ => rfl | ⟨1, _⟩ => Fin.ext e1)
  · exact congrArg x (funext fun a => match a with | ⟨0, _⟩ => rfl | ⟨1, _⟩ => Fin.ext e2)

/-- One store of the block's run: the product of column ri with the block's tail from column ri, n = W − ri entries a
    row, written at column offW W ri of the output block, is the output's pair products under its rectangle. (The
    block is read through a copy x' of itself.) -/
theorem piece_pairs (W N ri n off : ℕ) (hW : 0 < W) (x x' : FVec Ideal ⟨2, ![64, W]⟩ .f32) (hx : x' = x)
    (hs1 : (⟨2, ![64, W]⟩ : Shape).Slices ![0, ri] ⟨2, ![64, 1]⟩)
    (hsn : (⟨2, ![64, W]⟩ : Shape).Slices ![0, ri] ⟨2, ![64, n]⟩)
    (hb : (⟨2, ![64, 1]⟩ : Shape).Broadcasts ⟨2, ![64, n]⟩)
    (inb : ∀ a, (![0, off] : Fin 2 → ℕ) a + (⟨2, ![64, n]⟩ : Shape).size a ≤ (⟨2, ![64, N]⟩ : Shape).size a)
    (hri : ri < W) (hn : n = W - ri) (hoff : off = Cert.Spec.offW W ri)
    (j : (Rect.unit (s := ⟨2, ![64, N]⟩) ![0, off] (⟨2, ![64, n]⟩ : Shape).size inb).shape.Idx) :
    mulf (broadcastTo ⟨2, ![64, n]⟩ (extractStridedSlice ⟨2, ![64, 1]⟩ ![0, ri] x' hs1) hb)
        (extractStridedSlice ⟨2, ![64, n]⟩ ![0, ri] x' hsn) j
      = Cert.Spec.pairsW 64 W N hW x ((Rect.unit (s := ⟨2, ![64, N]⟩) ![0, off] (⟨2, ![64, n]⟩ : Shape).size inb).emb j) := by
  rw [hx]
  have hj1 : (j 1).val < n := (j 1).isLt
  refine (colTimesTail_apply W ri n x hs1 hsn hb j hri (by omega)).trans ?_
  refine Eq.trans ?_ (congrArg (Cert.Spec.pairsW 64 W N hW x) (eq_ix2 _)).symm
  refine Eq.trans ?_ (pairsW_off 64 W N ri (j 1).val hW x hri (by omega) _ _ (by
      rw [Rect.emb_apply, Rect.off_unit, Rect.stride_unit, Nat.one_mul]
      exact congrArg (fun o => o + (j 1).val) hoff)).symm
  congr 1
  · exact congrArg x (funext fun a => match a with
      | ⟨0, _⟩ => Fin.ext (by rw [Rect.emb_apply, Rect.off_unit, Rect.stride_unit, Nat.one_mul]; exact (Nat.zero_add _).symm)
      | ⟨1, _⟩ => rfl)
  · exact congrArg x (funext fun a => match a with
      | ⟨0, _⟩ => Fin.ext (by rw [Rect.emb_apply, Rect.off_unit, Rect.stride_unit, Nat.one_mul]; exact (Nat.zero_add _).symm)
      | ⟨1, _⟩ => rfl)

/-- The first store of the run: column 0, broadcast along the row, times the whole block, written at column 0. -/
theorem piece_pairs_first (W N : ℕ) (hW : 0 < W) (x x' : FVec Ideal ⟨2, ![64, W]⟩ .f32) (hx : x' = x)
    (hs1 : (⟨2, ![64, W]⟩ : Shape).Slices ![0, 0] ⟨2, ![64, 1]⟩)
    (hb : (⟨2, ![64, 1]⟩ : Shape).Broadcasts ⟨2, ![64, W]⟩)
    (inb : ∀ a, (![0, 0] : Fin 2 → ℕ) a + (⟨2, ![64, W]⟩ : Shape).size a ≤ (⟨2, ![64, N]⟩ : Shape).size a)
    (j : (Rect.unit (s := ⟨2, ![64, N]⟩) ![0, 0] (⟨2, ![64, W]⟩ : Shape).size inb).shape.Idx) :
    mulf (broadcastTo ⟨2, ![64, W]⟩ (extractStridedSlice ⟨2, ![64, 1]⟩ ![0, 0] x' hs1) hb) x' j
      = Cert.Spec.pairsW 64 W N hW x ((Rect.unit (s := ⟨2, ![64, N]⟩) ![0, 0] (⟨2, ![64, W]⟩ : Shape).size inb).emb j) := by
  rw [hx]
  have hj1 : (j 1).val < W := (j 1).isLt
  have hoff : Cert.Spec.offW W 0 = 0 := by simp [Cert.Spec.offW]
  refine Eq.trans ?_ (congrArg (Cert.Spec.pairsW 64 W N hW x) (eq_ix2 _)).symm
  refine Eq.trans ?_ (pairsW_off 64 W N 0 (j 1).val hW x hW (by omega) _ _ (by
      rw [Rect.emb_apply, Rect.off_unit, Rect.stride_unit, Nat.one_mul, hoff]; rfl)).symm
  rw [mulf_apply]
  congr 1
  · unfold broadcastTo extractStridedSlice
    refine congrArg x (funext fun a => Fin.ext ?_)
    match a with
    | ⟨0, _⟩ => simp
    | ⟨1, _⟩ => simp
  · exact congrArg x (funext fun a => match a with
      | ⟨0, _⟩ => Fin.ext (by rw [Rect.emb_apply, Rect.off_unit, Rect.stride_unit, Nat.one_mul]; exact (Nat.zero_add _).symm)
      | ⟨1, _⟩ => Fin.ext (Nat.zero_add _).symm)

/-- The last store of a run that reaches the triangle's last row: the block's last column times itself, one entry a row. -/
theorem piece_pairs_last (W N ri off : ℕ) (hW : 0 < W) (x x' : FVec Ideal ⟨2, ![64, W]⟩ .f32) (hx : x' = x)
    (hs1 : (⟨2, ![64, W]⟩ : Shape).Slices ![0, ri] ⟨2, ![64, 1]⟩)
    (inb : ∀ a, (![0, off] : Fin 2 → ℕ) a + (⟨2, ![64, 1]⟩ : Shape).size a ≤ (⟨2, ![64, N]⟩ : Shape).size a)
    (hri : ri + 1 = W) (hoff : off = Cert.Spec.offW W ri)
    (j : (Rect.unit (s := ⟨2, ![64, N]⟩) ![0, off] (⟨2, ![64, 1]⟩ : Shape).size inb).shape.Idx) :
    mulf (extractStridedSlice ⟨2, ![64, 1]⟩ ![0, ri] x' hs1) (extractStridedSlice ⟨2, ![64, 1]⟩ ![0, ri] x' hs1) j
      = Cert.Spec.pairsW 64 W N hW x ((Rect.unit (s := ⟨2, ![64, N]⟩) ![0, off] (⟨2, ![64, 1]⟩ : Shape).size inb).emb j) := by
  rw [hx]
  have hj1 : (j 1).val < 1 := (j 1).isLt
  have hj0 : (j 1).val = 0 := by omega
  refine Eq.trans ?_ (congrArg (Cert.Spec.pairsW 64 W N hW x) (eq_ix2 _)).symm
  refine Eq.trans ?_ (pairsW_off 64 W N ri 0 hW x (by omega) (by omega) _ _ (by
      rw [Rect.emb_apply, Rect.off_unit, Rect.stride_unit, Nat.one_mul, hj0]
      exact congrArg (fun o => o + 0) hoff)).symm
  rw [mulf_apply]
  congr 1
  · unfold extractStridedSlice
    refine congrArg x (funext fun a => Fin.ext ?_)
    match a with
    | ⟨0, _⟩ => simp
    | ⟨1, _⟩ => simp [hj0]
  · unfold extractStridedSlice
    refine congrArg x (funext fun a => Fin.ext ?_)
    match a with
    | ⟨0, _⟩ => simp
    | ⟨1, _⟩ => simp [hj0]

/-- The offsets of a rectangle that starts at the block's corner. -/
theorem off00 : (![0, 0] : Fin 2 → ℕ) = fun _ => 0 := funext fun a => match a with | ⟨0, _⟩ => rfl | ⟨1, _⟩ => rfl

/-! ## The four calls

Each run's list of stores is opened to its 128 literal pieces; every piece but the first (and, where the run reaches
the triangle's last row, the last) is the general store at its own column, the numbers of each read off the piece. -/

/-- The copy of the block each body makes is the block. -/
theorem k0_pay2_eq (x : Vec Ideal S64x512 .f32) : k0_pay2 x = x := shapeCast_self x _
theorem k1_pay2_eq (x : Vec Ideal S64x384 .f32) : k1_pay2 x = x := shapeCast_self x _
theorem k2_pay2_eq (x : Vec Ideal S64x256 .f32) : k2_pay2 x = x := shapeCast_self x _
theorem k3_pay2_eq (x : Vec Ideal S64x128 .f32) : k3_pay2 x = x := shapeCast_self x _

/-- The first call's body leaves the pair products of its block of width 512 in its output block. -/
theorem out0_1_eq (c : Dev nD) (i : grid0.Coords) (arg1 : Memref sig .tc .vmem S64x512 .f32) (harg1 : arg1.IsWhole)
    (arg2 : Memref sig .tc .vmem S64x57408 .f32) (harg2 : arg2.IsWhole) (x0 : Vec Ideal S64x512 .f32) :
    out0_1 (F := Ideal) c i arg1 harg1 arg2 harg2 x0 = Cert.Spec.pairsW 64 512 57408 (by decide) x0 := by
  funext y
  unfold out0_1
  refine View.read_writes_apply_of_pieces VO0_1 _ (Cert.Spec.pairsW 64 512 57408 (by decide) x0) _ ?_ y
    (cover0_1 c i arg1 harg1 arg2 harg2 x0 y)
  unfold kernelRun0
  dsimp only
  sl_unfold_words
  simp only [View.readAt_eq_ld, harg1.read_unread, View.ld_unit_zero (S := S64x512) off00]
  repeat' (first | exact List.forall_mem_nil _ | refine List.forall_mem_cons.2 ⟨?_, ?_⟩)
  on_goal -1 => exact fun j => piece_pairs_first _ _ (by decide) x0 (k0_pay2 x0) (k0_pay2_eq x0) _ _ (by decide) j
  all_goals exact fun j => piece_pairs _ _ _ _ _ (by decide) x0 (k0_pay2 x0) (k0_pay2_eq x0) _ _ _ (by decide) (by decide) (by decide) (by decide) j

/-- The second call's body leaves the pair products of its block of width 384. -/
theorem out1_1_eq (c : Dev nD) (i : grid1.Coords) (arg1 : Memref sig .tc .vmem S64x384 .f32) (harg1 : arg1.IsWhole)
    (arg2 : Memref sig .tc .vmem S64x41024 .f32) (harg2 : arg2.IsWhole) (x0 : Vec Ideal S64x384 .f32) :
    out1_1 (F := Ideal) c i arg1 harg1 arg2 harg2 x0 = Cert.Spec.pairsW 64 384 41024 (by decide) x0 := by
  funext y
  unfold out1_1
  refine View.read_writes_apply_of_pieces VO1_1 _ (Cert.Spec.pairsW 64 384 41024 (by decide) x0) _ ?_ y
    (cover1_1 c i arg1 harg1 arg2 harg2 x0 y)
  unfold kernelRun1
  dsimp only
  sl_unfold_words
  simp only [View.readAt_eq_ld, harg1.read_unread, View.ld_unit_zero (S := S64x384) off00]
  repeat' (first | exact List.forall_mem_nil _ | refine List.forall_mem_cons.2 ⟨?_, ?_⟩)
  on_goal -1 => exact fun j => piece_pairs_first _ _ (by decide) x0 (k1_pay2 x0) (k1_pay2_eq x0) _ _ (by decide) j
  all_goals exact fun j => piece_pairs _ _ _ _ _ (by decide) x0 (k1_pay2 x0) (k1_pay2_eq x0) _ _ _ (by decide) (by decide) (by decide) (by decide) j

/-- The third call's body leaves the pair products of its block of width 256. -/
theorem out2_1_eq (c : Dev nD) (i : grid2.Coords) (arg1 : Memref sig .tc .vmem S64x256 .f32) (harg1 : arg1.IsWhole)
    (arg2 : Memref sig .tc .vmem S64x24640 .f32) (harg2 : arg2.IsWhole) (x0 : Vec Ideal S64x256 .f32) :
    out2_1 (F := Ideal) c i arg1 harg1 arg2 harg2 x0 = Cert.Spec.pairsW 64 256 24640 (by decide) x0 := by
  funext y
  unfold out2_1
  refine View.read_writes_apply_of_pieces VO2_1 _ (Cert.Spec.pairsW 64 256 24640 (by decide) x0) _ ?_ y
    (cover2_1 c i arg1 harg1 arg2 harg2 x0 y)
  unfold kernelRun2
  dsimp only
  sl_unfold_words
  simp only [View.readAt_eq_ld, harg1.read_unread, View.ld_unit_zero (S := S64x256) off00]
  repeat' (first | exact List.forall_mem_nil _ | refine List.forall_mem_cons.2 ⟨?_, ?_⟩)
  on_goal -1 => exact fun j => piece_pairs_first _ _ (by decide) x0 (k2_pay2 x0) (k2_pay2_eq x0) _ _ (by decide) j
  all_goals exact fun j => piece_pairs _ _ _ _ _ (by decide) x0 (k2_pay2 x0) (k2_pay2_eq x0) _ _ _ (by decide) (by decide) (by decide) (by decide) j

/-- The fourth call's body leaves the pair products of its block of width 128: its run reaches the triangle's last
    row, whose one pair its last store writes without a broadcast. -/
theorem out3_1_eq (c : Dev nD) (i : grid3.Coords) (arg1 : Memref sig .tc .vmem S64x128 .f32) (harg1 : arg1.IsWhole)
    (arg2 : Memref sig .tc .vmem S64x8256 .f32) (harg2 : arg2.IsWhole) (x0 : Vec Ideal S64x128 .f32) :
    out3_1 (F := Ideal) c i arg1 harg1 arg2 harg2 x0 = Cert.Spec.pairsW 64 128 8256 (by decide) x0 := by
  funext y
  unfold out3_1
  refine View.read_writes_apply_of_pieces VO3_1 _ (Cert.Spec.pairsW 64 128 8256 (by decide) x0) _ ?_ y
    (cover3_1 c i arg1 harg1 arg2 harg2 x0 y)
  unfold kernelRun3
  dsimp only
  sl_unfold_words
  simp only [View.readAt_eq_ld, harg1.read_unread, View.ld_unit_zero (S := S64x128) off00]
  repeat' (first | exact List.forall_mem_nil _ | refine List.forall_mem_cons.2 ⟨?_, ?_⟩)
  on_goal -1 => exact fun j => piece_pairs_first _ _ (by decide) x0 (k3_pay2 x0) (k3_pay2_eq x0) _ _ (by decide) j
  on_goal 1 => exact fun j => piece_pairs_last _ _ _ _ (by decide) x0 (k3_pay2 x0) (k3_pay2_eq x0) _ (by decide) (by decide) (by decide) j
  all_goals exact fun j => piece_pairs _ _ _ _ _ (by decide) x0 (k3_pay2 x0) (k3_pay2_eq x0) _ _ _ (by decide) (by decide) (by decide) (by decide) j

end Cert.KernelIdeal.Hand

end
-- ==== Proof.KConcat.lean ====
/-
  The pairs function of the whole triangle, cut along the two axes of the result.

  Along the columns: the triangle of width W without its first a rows is the triangle of width W − a on the columns
  a, a + 1, …, W − 1. So the pair products of x at position offW W a + q are the pair products, at position q, of x
  restricted to the columns from a on. For W = 512 the four blocks of 128 rows start at positions 0, 57408, 98432,
  123072 and have 57408, 41024, 24640, 8256 positions: the first 128 rows of the triangles of widths 512, 384, 256, 128.

  Along the batch: the pair products of a block of rows of x are that block of rows of the pair products of x.
-/
import proofs.«427551_j57200374448374_3_alg».proof.Proof.Spec

noncomputable section

namespace Cert.Spec

open Idealize.ShloMosaic Idealize.ShloMosaic.ValueIdx

/-- Entry (b, q) of the pair products, once the row r and the column c of position q are known. -/
theorem pairsW_apply_of (B W N : ℕ) (hW : 0 < W) (x : FVec Ideal ⟨2, ![B, W]⟩ .f32) (b : Fin B) (q : Fin N)
    (r c : Fin W) (hr : rowW W q.val = r.val) (hc : colW W q.val = c.val) :
    pairsW B W N hW x (ix2 b q) = x (ix2 b r) * x (ix2 b c) := by
  have e1 : (⟨rowW W q.val % W, Nat.mod_lt _ hW⟩ : Fin W) = r :=
    Fin.ext (by show rowW W q.val % W = r.val; rw [hr]; exact Nat.mod_eq_of_lt r.isLt)
  have e2 : (⟨colW W q.val % W, Nat.mod_lt _ hW⟩ : Fin W) = c :=
    Fin.ext (by show colW W q.val % W = c.val; rw [hc]; exact Nat.mod_eq_of_lt c.isLt)
  show x (ix2 b ⟨rowW W q.val % W, Nat.mod_lt _ hW⟩) * x (ix2 b ⟨colW W q.val % W, Nat.mod_lt _ hW⟩) = _
  rw [e1, e2]

/-- The number of result columns does not enter an entry of the pair products. -/
theorem pairsW_narrow (B W N N' : ℕ) (hW : 0 < W) (x : FVec Ideal ⟨2, ![B, W]⟩ .f32) (b : Fin B) (q : ℕ)
    (h1 : q < N) (h2 : q < N') :
    pairsW B W N hW x (ix2 b ⟨q, h1⟩) = pairsW B W N' hW x (ix2 b ⟨q, h2⟩) := rfl

/-- Past the first a rows of the triangle of width W, the pair products of x are the pair products of the columns of x
    from a on (xs, of width Wk = W − a), at the position counted from the start of row a. -/
theorem pairsW_cols (B W Wk N N' a : ℕ) (hW : 0 < W) (hWk : 0 < Wk) (e : Wk = W - a) (ha : a < W)
    (x : FVec Ideal ⟨2, ![B, W]⟩ .f32) (xs : FVec Ideal ⟨2, ![B, Wk]⟩ .f32)
    (hxs : ∀ (b : Fin B) (j : Fin Wk), xs (ix2 b j) = x (ix2 b ⟨a + j.val, by have := j.isLt; omega⟩))
    (b : Fin B) (q : ℕ) (hq : q < offW Wk Wk) (h1 : offW W a + q < N) (h2 : q < N') :
    pairsW B W N hW x (ix2 b ⟨offW W a + q, h1⟩) = pairsW B Wk N' hWk xs (ix2 b ⟨q, h2⟩) := by
  subst e
  have hr := rowW_lt (W - a) q hq
  have hc := colW_lt (W - a) q hq
  rw [pairsW_apply_of B W N hW x b ⟨offW W a + q, h1⟩ ⟨a + rowW (W - a) q, by omega⟩ ⟨a + colW (W - a) q, by omega⟩
        (rowW_split W a q (by omega) hq) (colW_split W a q (by omega) hq),
      pairsW_apply_of B (W - a) N' hWk xs b ⟨q, h2⟩ ⟨rowW (W - a) q, hr⟩ ⟨colW (W - a) q, hc⟩ rfl rfl,
      hxs, hxs]

/-- The same with the column restriction written as a function of the index. -/
theorem pairsW_cols_fun (B W Wk N N' a : ℕ) (hW : 0 < W) (hWk : 0 < Wk) (e : Wk = W - a) (ha : a < W)
    (x : FVec Ideal ⟨2, ![B, W]⟩ .f32)
    (b : Fin B) (q : ℕ) (hq : q < offW Wk Wk) (h1 : offW W a + q < N) (h2 : q < N') :
    pairsW B W N hW x (ix2 b ⟨offW W a + q, h1⟩)
      = pairsW B Wk N' hWk
          (fun i => x (ix2 (i 0) ⟨a + (i 1).val, by have := idx2_lt1 i; omega⟩)) (ix2 b ⟨q, h2⟩) :=
  pairsW_cols B W Wk N N' a hW hWk e ha x _ (fun _ _ => rfl) b q hq h1 h2

/-- The sizes of the narrower triangles and of their first 128 rows. -/
theorem offW_384_128 : offW 384 128 = 41024 := by decide
theorem offW_256_128 : offW 256 128 = 24640 := by decide
theorem offW_128_128 : offW 128 128 = 8256 := by decide
theorem offW_384_384 : offW 384 384 = 73920 := by decide
theorem offW_256_256 : offW 256 256 = 32896 := by decide

/-- Every position of the triangle of width 512 lies in exactly one of the four blocks of 128 rows. -/
theorem block_cases (p : ℕ) (hp : p < 131328) :
    p < 57408 ∨ (57408 ≤ p ∧ p < 98432) ∨ (98432 ≤ p ∧ p < 123072) ∨ (123072 ≤ p ∧ p < 131328) := by
  omega

/-- Rows 0 … 127: positions below 57408, on all 512 columns. -/
theorem pairsW_block0 (x : FVec Ideal ⟨2, ![1024, 512]⟩ .f32) (b : Fin 1024) (p : ℕ) (h1 : p < 57408) :
    pairsW 1024 512 131328 (by decide) x (ix2 b ⟨p, by omega⟩)
      = pairsW 1024 512 57408 (by decide) x (ix2 b ⟨p, h1⟩) := rfl

/-- Rows 128 … 255: positions 57408 … 98431, on the columns from 128 on. -/
theorem pairsW_block1 (x : FVec Ideal ⟨2, ![1024, 512]⟩ .f32) (xs : FVec Ideal ⟨2, ![1024, 384]⟩ .f32)
    (hxs : ∀ (b : Fin 1024) (j : Fin 384), xs (ix2 b j) = x (ix2 b ⟨128 + j.val, by have := j.isLt; omega⟩))
    (b : Fin 1024) (p : ℕ) (h0 : 57408 ≤ p) (h1 : p < 98432) :
    pairsW 1024 512 131328 (by decide) x (ix2 b ⟨p, by omega⟩)
      = pairsW 1024 384 41024 (by decide) xs (ix2 b ⟨p - 57408, by omega⟩) := by
  have h := pairsW_cols 1024 512 384 131328 41024 128 (by decide) (by decide) (by decide) (by decide) x xs hxs b
    (p - 57408) (by rw [offW_384_384]; omega) (by rw [offW_512_128]; omega) (by omega)
  have ei : (⟨offW 512 128 + (p - 57408), by rw [offW_512_128]; omega⟩ : Fin 131328) = ⟨p, by omega⟩ :=
    Fin.ext (by show offW 512 128 + (p - 57408) = p; rw [offW_512_128]; omega)
  rw [ei] at h
  exact h

/-- Rows 256 … 383: positions 98432 … 123071, on the columns from 256 on. -/
theorem pairsW_block2 (x : FVec Ideal ⟨2, ![1024, 512]⟩ .f32) (xs : FVec Ideal ⟨2, ![1024, 256]⟩ .f32)
    (hxs : ∀ (b : Fin 1024) (j : Fin 256), xs (ix2 b j) = x (ix2 b ⟨256 + j.val, by have := j.isLt; omega⟩))
    (b : Fin 1024) (p : ℕ) (h0 : 98432 ≤ p) (h1 : p < 123072) :
    pairsW 1024 512 131328 (by decide) x (ix2 b ⟨p, by omega⟩)
      = pairsW 1024 256 24640 (by decide) xs (ix2 b ⟨p - 98432, by omega⟩) := by
  have h := pairsW_cols 1024 512 256 131328 24640 256 (by decide) (by decide) (by decide) (by decide) x xs hxs b
    (p - 98432) (by rw [offW_256_256]; omega) (by rw [offW_512_256]; omega) (by omega)
  have ei : (⟨offW 512 256 + (p - 98432), by rw [offW_512_256]; omega⟩ : Fin 131328) = ⟨p, by omega⟩ :=
    Fin.ext (by show offW 512 256 + (p - 98432) = p; rw [offW_512_256]; omega)
  rw [ei] at h
  exact h

/-- Rows 384 … 511: positions 123072 … 131327, on the columns from 384 on. -/
theorem pairsW_block3 (x : FVec Ideal ⟨2, ![1024, 512]⟩ .f32) (xs : FVec Ideal ⟨2, ![1024, 128]⟩ .f32)
    (hxs : ∀ (b : Fin 1024) (j : Fin 128), xs (ix2 b j) = x (ix2 b ⟨384 + j.val, by have := j.isLt; omega⟩))
    (b : Fin 1024) (p : ℕ) (h0 : 123072 ≤ p) (h1 : p < 131328) :
    pairsW 1024 512 131328 (by decide) x (ix2 b ⟨p, h1⟩)
      = pairsW 1024 128 8256 (by decide) xs (ix2 b ⟨p - 123072, by omega⟩) := by
  have h := pairsW_cols 1024 512 128 131328 8256 384 (by decide) (by decide) (by decide) (by decide) x xs hxs b
    (p - 123072) (by rw [offW_128_128]; omega) (by rw [offW_512_384]; omega) (by omega)
  have ei : (⟨offW 512 384 + (p - 123072), by rw [offW_512_384]; omega⟩ : Fin 131328) = ⟨p, h1⟩ :=
    Fin.ext (by show offW 512 384 + (p - 123072) = p; rw [offW_512_384]; omega)
  rw [ei] at h
  exact h

/-- The pair products of the rows o, o + 1, …, o + B' − 1 of x (xb) are those rows of the pair products of x. -/
theorem pairsW_rows (B B' W N o : ℕ) (hW : 0 < W) (ho : o + B' ≤ B)
    (x : FVec Ideal ⟨2, ![B, W]⟩ .f32) (xb : FVec Ideal ⟨2, ![B', W]⟩ .f32)
    (hxb : ∀ (r : Fin B') (j : Fin W), xb (ix2 r j) = x (ix2 ⟨o + r.val, by have := r.isLt; omega⟩ j))
    (r : Fin B') (q : Fin N) :
    pairsW B W N hW x (ix2 ⟨o + r.val, by have := r.isLt; omega⟩ q) = pairsW B' W N hW xb (ix2 r q) := by
  have h1 := hxb r ⟨rowW W q.val % W, Nat.mod_lt _ hW⟩
  have h2 := hxb r ⟨colW W q.val % W, Nat.mod_lt _ hW⟩
  show _ = xb (ix2 r ⟨rowW W q.val % W, Nat.mod_lt _ hW⟩) * xb (ix2 r ⟨colW W q.val % W, Nat.mod_lt _ hW⟩)
  rw [h1, h2]
  rfl

/-- The same with the row restriction written as a function of the index. -/
theorem pairsW_rows_fun (B B' W N o : ℕ) (hW : 0 < W) (ho : o + B' ≤ B)
    (x : FVec Ideal ⟨2, ![B, W]⟩ .f32) (r : Fin B') (q : Fin N) :
    pairsW B W N hW x (ix2 ⟨o + r.val, by have := r.isLt; omega⟩ q)
      = pairsW B' W N hW
          (fun i => x (ix2 ⟨o + (i 0).val, by have := idx2_lt0 i; omega⟩ (i 1))) (ix2 r q) := rfl

end Cert.Spec

end
-- ==== Proof.KValue.lean ====
/-
  The idealized kernel's result, named.

  Each of the four calls runs over 16 blocks of 64 rows. On a block it writes, for the first 128 rows a of the triangle
  of its input's width W, the products x(·, a) · x(·, a + k), k < W − a, at positions offW W a + k: the first
  offW W 128 positions of every pair product of the block's rows. The blocks tile the rows, so the call's output array
  is the pair products of its whole input array (one lemma per call). The inputs are the argument flattened to 512
  features and that array from column 128, 256, 384 on; the four outputs laid side by side are every pair product of
  the 512 features, because rows 128·k … 128·k + 127 of the wide triangle only read columns from 128·k on. A trailing
  axis of extent one is added last.
-/
import proofs.«427551_j57200374448374_3_alg».proof.Defs
import proofs.«427551_j57200374448374_3_alg».proof.Proof.Gen.KernelIdeal
import proofs.«427551_j57200374448374_3_alg».proof.Proof.Gen.KernelIdeal.Launch
import proofs.«427551_j57200374448374_3_alg».proof.Proof.Gen.KernelIdeal.Points
import proofs.«427551_j57200374448374_3_alg».proof.Proof.Gen.KernelIdeal.Regions
import proofs.«427551_j57200374448374_3_alg».proof.Proof.Spec
import proofs.«427551_j57200374448374_3_alg».proof.Proof.KRun
import proofs.«427551_j57200374448374_3_alg».proof.Proof.KBlock
import proofs.«427551_j57200374448374_3_alg».proof.Proof.KConcat
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

/-! # From blocks to arrays -/

/-- The pair products of a block of 64 consecutive rows are those rows of the pair products: entry (r, q) of the block
    that starts at row 64·s is entry (64·s + r, q) of the whole, because a pair product reads one row only. -/
theorem pairsW_block_rows (W N : ℕ) (hW : 0 < W) (s : ℕ)
    (x : FVec Ideal ⟨2, ![1024, W]⟩ .f32) (xb : FVec Ideal ⟨2, ![64, W]⟩ .f32)
    (hxb : ∀ (r : Fin 64) (k : Fin W) (r' : Fin 1024), r'.val = s * 64 + r.val → xb (ix2 r k) = x (ix2 r' k))
    (j : (⟨2, ![64, N]⟩ : Shape).Idx) (i : (⟨2, ![1024, N]⟩ : Shape).Idx)
    (h0 : (i 0).val = s * 64 + (j 0).val) (h1 : (i 1).val = (j 1).val) :
    Cert.Spec.pairsW 64 W N hW xb j = Cert.Spec.pairsW 1024 W N hW x i := by
  unfold Cert.Spec.pairsW
  rw [hxb (j 0) _ (i 0) h0, hxb (j 0) _ (i 0) h0]
  simp only [h1]

/-! ## Region 0: rows of width 512, 57408 products per row -/

/-- Both windows of region 0 step through the rows 64 at a time and never move along the columns: at grid point t the
    block index is (t, 0). Decided over the 16 points. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t is rows 64·t … 64·t + 63 of the region's input array. -/
theorem iblk0_apply (V : (c : Dev nD) → (b : Ref sig .tc) → Buf (Elt Ideal) ((c : Thread nD τ).loc b)) (c : Dev nD) (t : Fin cfg0.N)
    (r : Fin 64) (k : Fin 512) (r' : Fin 1024) (hr : r'.val = t.val * 64 + r.val) :
    (iblk0 V c 0 t : FVec Ideal ⟨2, ![64, 512]⟩ .f32) (ix2 r k) = (V c main_v0 : FVec Ideal ⟨2, ![1024, 512]⟩ .f32) (ix2 r' k) := by
  obtain ⟨e0, e1, -, -⟩ := idx_facts0 t
  unfold iblk0
  rw [View.read_apply]
  show V c main_v0 _ = V c main_v0 _
  congr 1
  funext a
  apply Fin.ext
  match a with
  | ⟨0, _⟩ => show win0_0.index t (0 : Fin 2) * 64 + 1 * r.val = r'.val; rw [e0, hr]; omega
  | ⟨1, _⟩ => show win0_0.index t (1 : Fin 2) * 512 + 1 * k.val = k.val; rw [e1]; omega

/-- What point t writes back is its block of rows of the pair products of the whole input array. -/
theorem flushed0_eq (V : (c : Dev nD) → (b : Ref sig .tc) → Buf (Elt Ideal) ((c : Thread nD τ).loc b)) (c : Dev nD) (t : Fin cfg0.N) :
    (dat0 V c).flushed 1 t = ((cfg0.win 1).blk t).view.read (Elt Ideal)
      (Cert.Spec.pairsW 1024 512 57408 (by decide) (V c main_v0)) := by
  show (cfg0.win 1).cut (grid0.coords t) ((dat0 V c).after 1 t) = _
  rw [after0_1, out0_1_eq]
  obtain ⟨-, -, e2, e3⟩ := idx_facts0 t
  funext j
  show Cert.Spec.pairsW 64 512 57408 (by decide) (iblk0 V c 0 t) j
      = Cert.Spec.pairsW 1024 512 57408 (by decide) (V c main_v0) (((cfg0.win 1).blk t).view.emb j)
  refine pairsW_block_rows 512 57408 (by decide) t.val (V c main_v0) (iblk0 V c 0 t) (fun r k r' hr => iblk0_apply V c t r k r' hr) j _ ?_ ?_
  · show win0_1.index t (0 : Fin 2) * 64 + 1 * (j 0).val = t.val * 64 + (j 0).val; rw [e2]; omega
  · show win0_1.index t (1 : Fin 2) * 57408 + 1 * (j 1).val = (j 1).val; rw [e3]; omega

/-- An index of the output array is in point t's block iff each coordinate is in the block's range on its axis. -/
theorem mem_blk0 (t : Fin cfg0.N) (i : S1024x57408.Idx) :
    i ∈ ((cfg0.win 1).blk t).view.set ↔ ∀ a : Fin 2, win0_1.index t a * S64x57408.size a ≤ (i a).val ∧ (i a).val < win0_1.index t a * S64x57408.size a + S64x57408.size a := by
  show i ∈ ((View.whole main_v1).slice (win0_1.rect t)).set ↔ _
  rw [View.set_slice_whole, Rect.mem_set_unit]
  exact Iff.rfl

/-- Row b of the output array lies in the block of point b / 64: the 16 blocks of 64 rows tile the 1024 rows. -/
theorem cover0 (i : S1024x57408.Idx) : ∃ t : Fin cfg0.N, (cfg0.win 1).flush t = true ∧ i ∈ ((cfg0.win 1).blk t).view.set := by
  have hi0 : (i 0).val < 1024 := (i 0).isLt
  have hi1 : (i 1).val < 57408 := (i 1).isLt
  have hN : cfg0.N = 16 := N_0
  refine ⟨⟨(i 0).val / 64, by rw [hN]; omega⟩, flush0_1 _, ?_⟩
  obtain ⟨-, -, e2, e3⟩ := idx_facts0 ⟨(i 0).val / 64, by rw [hN]; omega⟩
  rw [mem_blk0]
  intro a
  match a with
  | ⟨0, _⟩ => show win0_1.index _ (0 : Fin 2) * 64 ≤ (i 0).val ∧ (i 0).val < win0_1.index _ (0 : Fin 2) * 64 + 64; rw [e2]; show (i 0).val / 64 * 64 ≤ (i 0).val ∧ (i 0).val < (i 0).val / 64 * 64 + 64; omega
  | ⟨1, _⟩ => show win0_1.index _ (1 : Fin 2) * 57408 ≤ (i 1).val ∧ (i 1).val < win0_1.index _ (1 : Fin 2) * 57408 + 57408; rw [e3]; omega

/-- So after the run region 0's output array holds every pair product of its input array's rows. -/
theorem arr0 (V : (c : Dev nD) → (b : Ref sig .tc) → Buf (Elt Ideal) ((c : Thread nD τ).loc b)) (c : Dev nD) :
    (dat0 V c).arrAt 1 cfg0.N = Cert.Spec.pairsW 1024 512 57408 (by decide) (V c main_v0) :=
  (dat0 V c).arrAt_eq_of_cover 1 (Cert.Spec.pairsW 1024 512 57408 (by decide) (V c main_v0))
    (fun t _ => flushed0_eq V c t) cover0

/-! ## Region 1: rows of width 384, 41024 products per row -/

/-- Both windows of region 1 step through the rows 64 at a time and never move along the columns: at grid point t the
    block index is (t, 0). Decided over the 16 points. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input block at point t is rows 64·t … 64·t + 63 of the region's input array. -/
theorem iblk1_apply (V : (c : Dev nD) → (b : Ref sig .tc) → Buf (Elt Ideal) ((c : Thread nD τ).loc b)) (c : Dev nD) (t : Fin cfg1.N)
    (r : Fin 64) (k : Fin 384) (r' : Fin 1024) (hr : r'.val = t.val * 64 + r.val) :
    (iblk1 V c 0 t : FVec Ideal ⟨2, ![64, 384]⟩ .f32) (ix2 r k) = (V c main_v2 : FVec Ideal ⟨2, ![1024, 384]⟩ .f32) (ix2 r' k) := by
  obtain ⟨e0, e1, -, -⟩ := idx_facts1 t
  unfold iblk1
  rw [View.read_apply]
  show V c main_v2 _ = V c main_v2 _
  congr 1
  funext a
  apply Fin.ext
  match a with
  | ⟨0, _⟩ => show win1_0.index t (0 : Fin 2) * 64 + 1 * r.val = r'.val; rw [e0, hr]; omega
  | ⟨1, _⟩ => show win1_0.index t (1 : Fin 2) * 384 + 1 * k.val = k.val; rw [e1]; omega

/-- What point t writes back is its block of rows of the pair products of the whole input array. -/
theorem flushed1_eq (V : (c : Dev nD) → (b : Ref sig .tc) → Buf (Elt Ideal) ((c : Thread nD τ).loc b)) (c : Dev nD) (t : Fin cfg1.N) :
    (dat1 V c).flushed 1 t = ((cfg1.win 1).blk t).view.read (Elt Ideal)
      (Cert.Spec.pairsW 1024 384 41024 (by decide) (V c main_v2)) := by
  show (cfg1.win 1).cut (grid1.coords t) ((dat1 V c).after 1 t) = _
  rw [after1_1, out1_1_eq]
  obtain ⟨-, -, e2, e3⟩ := idx_facts1 t
  funext j
  show Cert.Spec.pairsW 64 384 41024 (by decide) (iblk1 V c 0 t) j
      = Cert.Spec.pairsW 1024 384 41024 (by decide) (V c main_v2) (((cfg1.win 1).blk t).view.emb j)
  refine pairsW_block_rows 384 41024 (by decide) t.val (V c main_v2) (iblk1 V c 0 t) (fun r k r' hr => iblk1_apply V c t r k r' hr) j _ ?_ ?_
  · show win1_1.index t (0 : Fin 2) * 64 + 1 * (j 0).val = t.val * 64 + (j 0).val; rw [e2]; omega
  · show win1_1.index t (1 : Fin 2) * 41024 + 1 * (j 1).val = (j 1).val; rw [e3]; omega

/-- An index of the output array is in point t's block iff each coordinate is in the block's range on its axis. -/
theorem mem_blk1 (t : Fin cfg1.N) (i : S1024x41024.Idx) :
    i ∈ ((cfg1.win 1).blk t).view.set ↔ ∀ a : Fin 2, win1_1.index t a * S64x41024.size a ≤ (i a).val ∧ (i a).val < win1_1.index t a * S64x41024.size a + S64x41024.size a := by
  show i ∈ ((View.whole main_v3).slice (win1_1.rect t)).set ↔ _
  rw [View.set_slice_whole, Rect.mem_set_unit]
  exact Iff.rfl

/-- Row b of the output array lies in the block of point b / 64: the 16 blocks of 64 rows tile the 1024 rows. -/
theorem cover1 (i : S1024x41024.Idx) : ∃ t : Fin cfg1.N, (cfg1.win 1).flush t = true ∧ i ∈ ((cfg1.win 1).blk t).view.set := by
  have hi0 : (i 0).val < 1024 := (i 0).isLt
  have hi1 : (i 1).val < 41024 := (i 1).isLt
  have hN : cfg1.N = 16 := N_1
  refine ⟨⟨(i 0).val / 64, by rw [hN]; omega⟩, flush1_1 _, ?_⟩
  obtain ⟨-, -, e2, e3⟩ := idx_facts1 ⟨(i 0).val / 64, by rw [hN]; omega⟩
  rw [mem_blk1]
  intro a
  match a with
  | ⟨0, _⟩ => show win1_1.index _ (0 : Fin 2) * 64 ≤ (i 0).val ∧ (i 0).val < win1_1.index _ (0 : Fin 2) * 64 + 64; rw [e2]; show (i 0).val / 64 * 64 ≤ (i 0).val ∧ (i 0).val < (i 0).val / 64 * 64 + 64; omega
  | ⟨1, _⟩ => show win1_1.index _ (1 : Fin 2) * 41024 ≤ (i 1).val ∧ (i 1).val < win1_1.index _ (1 : Fin 2) * 41024 + 41024; rw [e3]; omega

/-- So after the run region 1's output array holds every pair product of its input array's rows. -/
theorem arr1 (V : (c : Dev nD) → (b : Ref sig .tc) → Buf (Elt Ideal) ((c : Thread nD τ).loc b)) (c : Dev nD) :
    (dat1 V c).arrAt 1 cfg1.N = Cert.Spec.pairsW 1024 384 41024 (by decide) (V c main_v2) :=
  (dat1 V c).arrAt_eq_of_cover 1 (Cert.Spec.pairsW 1024 384 41024 (by decide) (V c main_v2))
    (fun t _ => flushed1_eq V c t) cover1

/-! ## Region 2: rows of width 256, 24640 products per row -/

/-- Both windows of region 2 step through the rows 64 at a time and never move along the columns: at grid point t the
    block index is (t, 0). Decided over the 16 points. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input block at point t is rows 64·t … 64·t + 63 of the region's input array. -/
theorem iblk2_apply (V : (c : Dev nD) → (b : Ref sig .tc) → Buf (Elt Ideal) ((c : Thread nD τ).loc b)) (c : Dev nD) (t : Fin cfg2.N)
    (r : Fin 64) (k : Fin 256) (r' : Fin 1024) (hr : r'.val = t.val * 64 + r.val) :
    (iblk2 V c 0 t : FVec Ideal ⟨2, ![64, 256]⟩ .f32) (ix2 r k) = (V c main_v4 : FVec Ideal ⟨2, ![1024, 256]⟩ .f32) (ix2 r' k) := by
  obtain ⟨e0, e1, -, -⟩ := idx_facts2 t
  unfold iblk2
  rw [View.read_apply]
  show V c main_v4 _ = V c main_v4 _
  congr 1
  funext a
  apply Fin.ext
  match a with
  | ⟨0, _⟩ => show win2_0.index t (0 : Fin 2) * 64 + 1 * r.val = r'.val; rw [e0, hr]; omega
  | ⟨1, _⟩ => show win2_0.index t (1 : Fin 2) * 256 + 1 * k.val = k.val; rw [e1]; omega

/-- What point t writes back is its block of rows of the pair products of the whole input array. -/
theorem flushed2_eq (V : (c : Dev nD) → (b : Ref sig .tc) → Buf (Elt Ideal) ((c : Thread nD τ).loc b)) (c : Dev nD) (t : Fin cfg2.N) :
    (dat2 V c).flushed 1 t = ((cfg2.win 1).blk t).view.read (Elt Ideal)
      (Cert.Spec.pairsW 1024 256 24640 (by decide) (V c main_v4)) := by
  show (cfg2.win 1).cut (grid2.coords t) ((dat2 V c).after 1 t) = _
  rw [after2_1, out2_1_eq]
  obtain ⟨-, -, e2, e3⟩ := idx_facts2 t
  funext j
  show Cert.Spec.pairsW 64 256 24640 (by decide) (iblk2 V c 0 t) j
      = Cert.Spec.pairsW 1024 256 24640 (by decide) (V c main_v4) (((cfg2.win 1).blk t).view.emb j)
  refine pairsW_block_rows 256 24640 (by decide) t.val (V c main_v4) (iblk2 V c 0 t) (fun r k r' hr => iblk2_apply V c t r k r' hr) j _ ?_ ?_
  · show win2_1.index t (0 : Fin 2) * 64 + 1 * (j 0).val = t.val * 64 + (j 0).val; rw [e2]; omega
  · show win2_1.index t (1 : Fin 2) * 24640 + 1 * (j 1).val = (j 1).val; rw [e3]; omega

/-- An index of the output array is in point t's block iff each coordinate is in the block's range on its axis. -/
theorem mem_blk2 (t : Fin cfg2.N) (i : S1024x24640.Idx) :
    i ∈ ((cfg2.win 1).blk t).view.set ↔ ∀ a : Fin 2, win2_1.index t a * S64x24640.size a ≤ (i a).val ∧ (i a).val < win2_1.index t a * S64x24640.size a + S64x24640.size a := by
  show i ∈ ((View.whole main_v5).slice (win2_1.rect t)).set ↔ _
  rw [View.set_slice_whole, Rect.mem_set_unit]
  exact Iff.rfl

/-- Row b of the output array lies in the block of point b / 64: the 16 blocks of 64 rows tile the 1024 rows. -/
theorem cover2 (i : S1024x24640.Idx) : ∃ t : Fin cfg2.N, (cfg2.win 1).flush t = true ∧ i ∈ ((cfg2.win 1).blk t).view.set := by
  have hi0 : (i 0).val < 1024 := (i 0).isLt
  have hi1 : (i 1).val < 24640 := (i 1).isLt
  have hN : cfg2.N = 16 := N_2
  refine ⟨⟨(i 0).val / 64, by rw [hN]; omega⟩, flush2_1 _, ?_⟩
  obtain ⟨-, -, e2, e3⟩ := idx_facts2 ⟨(i 0).val / 64, by rw [hN]; omega⟩
  rw [mem_blk2]
  intro a
  match a with
  | ⟨0, _⟩ => show win2_1.index _ (0 : Fin 2) * 64 ≤ (i 0).val ∧ (i 0).val < win2_1.index _ (0 : Fin 2) * 64 + 64; rw [e2]; show (i 0).val / 64 * 64 ≤ (i 0).val ∧ (i 0).val < (i 0).val / 64 * 64 + 64; omega
  | ⟨1, _⟩ => show win2_1.index _ (1 : Fin 2) * 24640 ≤ (i 1).val ∧ (i 1).val < win2_1.index _ (1 : Fin 2) * 24640 + 24640; rw [e3]; omega

/-- So after the run region 2's output array holds every pair product of its input array's rows. -/
theorem arr2 (V : (c : Dev nD) → (b : Ref sig .tc) → Buf (Elt Ideal) ((c : Thread nD τ).loc b)) (c : Dev nD) :
    (dat2 V c).arrAt 1 cfg2.N = Cert.Spec.pairsW 1024 256 24640 (by decide) (V c main_v4) :=
  (dat2 V c).arrAt_eq_of_cover 1 (Cert.Spec.pairsW 1024 256 24640 (by decide) (V c main_v4))
    (fun t _ => flushed2_eq V c t) cover2

/-! ## Region 3: rows of width 128, 8256 products per row -/

/-- Both windows of region 3 step through the rows 64 at a time and never move along the columns: at grid point t the
    block index is (t, 0). Decided over the 16 points. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The input block at point t is rows 64·t … 64·t + 63 of the region's input array. -/
theorem iblk3_apply (V : (c : Dev nD) → (b : Ref sig .tc) → Buf (Elt Ideal) ((c : Thread nD τ).loc b)) (c : Dev nD) (t : Fin cfg3.N)
    (r : Fin 64) (k : Fin 128) (r' : Fin 1024) (hr : r'.val = t.val * 64 + r.val) :
    (iblk3 V c 0 t : FVec Ideal ⟨2, ![64, 128]⟩ .f32) (ix2 r k) = (V c main_v6 : FVec Ideal ⟨2, ![1024, 128]⟩ .f32) (ix2 r' k) := by
  obtain ⟨e0, e1, -, -⟩ := idx_facts3 t
  unfold iblk3
  rw [View.read_apply]
  show V c main_v6 _ = V c main_v6 _
  congr 1
  funext a
  apply Fin.ext
  match a with
  | ⟨0, _⟩ => show win3_0.index t (0 : Fin 2) * 64 + 1 * r.val = r'.val; rw [e0, hr]; omega
  | ⟨1, _⟩ => show win3_0.index t (1 : Fin 2) * 128 + 1 * k.val = k.val; rw [e1]; omega

/-- What point t writes back is its block of rows of the pair products of the whole input array. -/
theorem flushed3_eq (V : (c : Dev nD) → (b : Ref sig .tc) → Buf (Elt Ideal) ((c : Thread nD τ).loc b)) (c : Dev nD) (t : Fin cfg3.N) :
    (dat3 V c).flushed 1 t = ((cfg3.win 1).blk t).view.read (Elt Ideal)
      (Cert.Spec.pairsW 1024 128 8256 (by decide) (V c main_v6)) := by
  show (cfg3.win 1).cut (grid3.coords t) ((dat3 V c).after 1 t) = _
  rw [after3_1, out3_1_eq]
  obtain ⟨-, -, e2, e3⟩ := idx_facts3 t
  funext j
  show Cert.Spec.pairsW 64 128 8256 (by decide) (iblk3 V c 0 t) j
      = Cert.Spec.pairsW 1024 128 8256 (by decide) (V c main_v6) (((cfg3.win 1).blk t).view.emb j)
  refine pairsW_block_rows 128 8256 (by decide) t.val (V c main_v6) (iblk3 V c 0 t) (fun r k r' hr => iblk3_apply V c t r k r' hr) j _ ?_ ?_
  · show win3_1.index t (0 : Fin 2) * 64 + 1 * (j 0).val = t.val * 64 + (j 0).val; rw [e2]; omega
  · show win3_1.index t (1 : Fin 2) * 8256 + 1 * (j 1).val = (j 1).val; rw [e3]; omega

/-- An index of the output array is in point t's block iff each coordinate is in the block's range on its axis. -/
theorem mem_blk3 (t : Fin cfg3.N) (i : S1024x8256.Idx) :
    i ∈ ((cfg3.win 1).blk t).view.set ↔ ∀ a : Fin 2, win3_1.index t a * S64x8256.size a ≤ (i a).val ∧ (i a).val < win3_1.index t a * S64x8256.size a + S64x8256.size a := by
  show i ∈ ((View.whole main_v7).slice (win3_1.rect t)).set ↔ _
  rw [View.set_slice_whole, Rect.mem_set_unit]
  exact Iff.rfl

/-- Row b of the output array lies in the block of point b / 64: the 16 blocks of 64 rows tile the 1024 rows. -/
theorem cover3 (i : S1024x8256.Idx) : ∃ t : Fin cfg3.N, (cfg3.win 1).flush t = true ∧ i ∈ ((cfg3.win 1).blk t).view.set := by
  have hi0 : (i 0).val < 1024 := (i 0).isLt
  have hi1 : (i 1).val < 8256 := (i 1).isLt
  have hN : cfg3.N = 16 := N_3
  refine ⟨⟨(i 0).val / 64, by rw [hN]; omega⟩, flush3_1 _, ?_⟩
  obtain ⟨-, -, e2, e3⟩ := idx_facts3 ⟨(i 0).val / 64, by rw [hN]; omega⟩
  rw [mem_blk3]
  intro a
  match a with
  | ⟨0, _⟩ => show win3_1.index _ (0 : Fin 2) * 64 ≤ (i 0).val ∧ (i 0).val < win3_1.index _ (0 : Fin 2) * 64 + 64; rw [e2]; show (i 0).val / 64 * 64 ≤ (i 0).val ∧ (i 0).val < (i 0).val / 64 * 64 + 64; omega
  | ⟨1, _⟩ => show win3_1.index _ (1 : Fin 2) * 8256 ≤ (i 1).val ∧ (i 1).val < win3_1.index _ (1 : Fin 2) * 8256 + 8256; rw [e3]; omega

/-- So after the run region 3's output array holds every pair product of its input array's rows. -/
theorem arr3 (V : (c : Dev nD) → (b : Ref sig .tc) → Buf (Elt Ideal) ((c : Thread nD τ).loc b)) (c : Dev nD) :
    (dat3 V c).arrAt 1 cfg3.N = Cert.Spec.pairsW 1024 128 8256 (by decide) (V c main_v6) :=
  (dat3 V c).arrAt_eq_of_cover 1 (Cert.Spec.pairsW 1024 128 8256 (by decide) (V c main_v6))
    (fun t _ => flushed3_eq V c t) cover3

/-! # The host stretches -/

section Host
variable (m : (ℓ : Loc nD τ sig) → Buf (Elt Ideal) ℓ) (ρ : Dev nD → PrngReg)

/-- The argument with each row's 32 × 16 entries flattened to 512 features. -/
abbrev xflat (c : Dev nD) : FVec Ideal S1024x512 .f32 :=
  shapeCast S1024x512 (m ((c : Thread nD τ).loc main_arg0)) shapeCasts_S1024x32x16_S1024x512

/-- The first host operation flattens the argument. -/
theorem V1_v0 (c : Dev nD) : V1 m ρ c main_v0 = xflat m c := by
  show StableHlo.after hostOps0 (W0 m ρ c) (Proc.devRef .tc main_v0) = _
  after_results
  rfl

/-- Region 0 only reads the flattened array: it still holds it afterwards. -/
theorem W2_v0 (c : Dev nD) : W2 m ρ c (Proc.devRef .tc main_v0) = xflat m c :=
  ((W2_arr m ρ c 0).trans (((dat0 (V1 m ρ) c).arrAt_in 0 rfl _).trans (A_eq0 (V1 m ρ) c 0))).trans (V1_v0 m ρ c)
/-- … and no later item before the last slice writes it. -/
theorem W4_v0 (c : Dev nD) : W4 m ρ c (Proc.devRef .tc main_v0) = xflat m c :=
    (W4_of_ne m ρ c main_v0 (by decide)).trans <|
    (StableHlo.after_of_writes_sub hostOps1 (W2 m ρ c) hostOps1_writes (by decide : main_v0 ∉ hostOps1_W)).trans <|
    W2_v0 m ρ c
theorem W6_v0 (c : Dev nD) : W6 m ρ c (Proc.devRef .tc main_v0) = xflat m c :=
    (W6_of_ne m ρ c main_v0 (by decide)).trans <|
    (StableHlo.after_of_writes_sub hostOps2 (W4 m ρ c) hostOps2_writes (by decide : main_v0 ∉ hostOps2_W)).trans <|
    W4_v0 m ρ c

/-- The three column slices: regions 1, 2, 3 read the flattened array from column 128, 256, 384 on. -/
theorem V3_v2 (c : Dev nD) : V3 m ρ c main_v2 = extractStridedSlice S1024x384 ![0, 128] (xflat m c) slices_S1024x512_S1024x384_0_128 := by
  show StableHlo.after hostOps1 (W2 m ρ c) (Proc.devRef .tc main_v2) = _
  after_results
  exact congrArg (fun x => extractStridedSlice S1024x384 ![0, 128] x slices_S1024x512_S1024x384_0_128) (W2_v0 m ρ c)
theorem V5_v4 (c : Dev nD) : V5 m ρ c main_v4 = extractStridedSlice S1024x256 ![0, 256] (xflat m c) slices_S1024x512_S1024x256_0_256 := by
  show StableHlo.after hostOps2 (W4 m ρ c) (Proc.devRef .tc main_v4) = _
  after_results
  exact congrArg (fun x => extractStridedSlice S1024x256 ![0, 256] x slices_S1024x512_S1024x256_0_256) (W4_v0 m ρ c)
theorem V7_v6 (c : Dev nD) : V7 m ρ c main_v6 = extractStridedSlice S1024x128 ![0, 384] (xflat m c) slices_S1024x512_S1024x128_0_384 := by
  show StableHlo.after hostOps3 (W6 m ρ c) (Proc.devRef .tc main_v6) = _
  after_results
  exact congrArg (fun x => extractStridedSlice S1024x128 ![0, 384] x slices_S1024x512_S1024x128_0_384) (W6_v0 m ρ c)

/-- Each region's output array, once written, is written by no later item: at the concatenation it holds the pair
    products of the region's slice of the flattened array. -/
theorem W8_v1 (c : Dev nD) : W8 m ρ c (Proc.devRef .tc main_v1) = Cert.Spec.pairsW 1024 512 57408 (by decide) (xflat m c) :=
    (W8_of_ne m ρ c main_v1 (by decide)).trans <|
    (StableHlo.after_of_writes_sub hostOps3 (W6 m ρ c) hostOps3_writes (by decide : main_v1 ∉ hostOps3_W)).trans <|
    (W6_of_ne m ρ c main_v1 (by decide)).trans <|
    (StableHlo.after_of_writes_sub hostOps2 (W4 m ρ c) hostOps2_writes (by decide : main_v1 ∉ hostOps2_W)).trans <|
    (W4_of_ne m ρ c main_v1 (by decide)).trans <|
    (StableHlo.after_of_writes_sub hostOps1 (W2 m ρ c) hostOps1_writes (by decide : main_v1 ∉ hostOps1_W)).trans <|
    ((W2_arr m ρ c 1).trans (arr0 (V1 m ρ) c)).trans (congrArg (Cert.Spec.pairsW 1024 512 57408 (by decide)) (V1_v0 m ρ c))
theorem W8_v3 (c : Dev nD) : W8 m ρ c (Proc.devRef .tc main_v3) = Cert.Spec.pairsW 1024 384 41024 (by decide) (extractStridedSlice S1024x384 ![0, 128] (xflat m c) slices_S1024x512_S1024x384_0_128) :=
    (W8_of_ne m ρ c main_v3 (by decide)).trans <|
    (StableHlo.after_of_writes_sub hostOps3 (W6 m ρ c) hostOps3_writes (by decide : main_v3 ∉ hostOps3_W)).trans <|
    (W6_of_ne m ρ c main_v3 (by decide)).trans <|
    (StableHlo.after_of_writes_sub hostOps2 (W4 m ρ c) hostOps2_writes (by decide : main_v3 ∉ hostOps2_W)).trans <|
    ((W4_arr m ρ c 1).trans (arr1 (V3 m ρ) c)).trans (congrArg (Cert.Spec.pairsW 1024 384 41024 (by decide)) (V3_v2 m ρ c))
theorem W8_v5 (c : Dev nD) : W8 m ρ c (Proc.devRef .tc main_v5) = Cert.Spec.pairsW 1024 256 24640 (by decide) (extractStridedSlice S1024x256 ![0, 256] (xflat m c) slices_S1024x512_S1024x256_0_256) :=
    (W8_of_ne m ρ c main_v5 (by decide)).trans <|
    (StableHlo.after_of_writes_sub hostOps3 (W6 m ρ c) hostOps3_writes (by decide : main_v5 ∉ hostOps3_W)).trans <|
    ((W6_arr m ρ c 1).trans (arr2 (V5 m ρ) c)).trans (congrArg (Cert.Spec.pairsW 1024 256 24640 (by decide)) (V5_v4 m ρ c))
theorem W8_v7 (c : Dev nD) : W8 m ρ c (Proc.devRef .tc main_v7) = Cert.Spec.pairsW 1024 128 8256 (by decide) (extractStridedSlice S1024x128 ![0, 384] (xflat m c) slices_S1024x512_S1024x128_0_384) :=

    ((W8_arr m ρ c 1).trans (arr3 (V7 m ρ) c)).trans (congrArg (Cert.Spec.pairsW 1024 128 8256 (by decide)) (V7_v6 m ρ c))

/-- The last stretch: the four output arrays side by side, then a trailing axis of extent one. -/
theorem W9_v9 (c : Dev nD) : W9 m ρ c (Proc.devRef .tc main_v9)
    = broadcastInDim S1024x131328x1 ![0, 1] bcast_S1024x131328_S1024x131328x1_0_1
        (concatenate S1024x131328 1 [⟨S1024x57408, W8 m ρ c (Proc.devRef .tc main_v1)⟩, ⟨S1024x41024, W8 m ρ c (Proc.devRef .tc main_v3)⟩,
          ⟨S1024x24640, W8 m ρ c (Proc.devRef .tc main_v5)⟩, ⟨S1024x8256, W8 m ρ c (Proc.devRef .tc main_v7)⟩]
          concatenates_S1024x57408_S1024x41024_S1024x24640_S1024x8256_S1024x131328_d1) := by
  show StableHlo.after hostOps4 (W8 m ρ c) (Proc.devRef .tc main_v9) = _
  after_results
  rfl

end Host

/-! # The four results side by side -/

/-- A column slice of the flattened array from column a on, read at (b, j), is the array at (b, a + j). -/
theorem slice_apply (a W' : ℕ) (x : FVec Ideal S1024x512 .f32) (hs : (S1024x512 : Shape).Slices ![0, a] ⟨2, ![1024, W']⟩)
    (b : Fin 1024) (j : Fin W') (h : a + j.val < 512) :
    extractStridedSlice ⟨2, ![1024, W']⟩ ![0, a] x hs (ix2 b j) = x (ix2 b ⟨a + j.val, h⟩) :=
  extractStridedSlice_apply ![0, a] x hs (ix2 b j) (ix2 b ⟨a + j.val, h⟩) fun d => by
    match d with
    | ⟨0, _⟩ => show b.val = 0 + b.val; omega
    | ⟨1, _⟩ => rfl

/-- Rows 0 … 127 of the triangle of width 512 hold 57408 positions, rows 128 … 255 the next 41024, rows 256 … 383 the next
    24640, rows 384 … 511 the last 8256; and a pair (i, j) with 128·k ≤ i ≤ j only reads columns from 128·k on. So the pair
    products of the first 128 rows of each column slice, laid side by side, are the pair products of all 512 columns. -/
theorem concat_pairs (x : FVec Ideal S1024x512 .f32) :
    concatenate S1024x131328 1 [⟨S1024x57408, Cert.Spec.pairsW 1024 512 57408 (by decide) x⟩,
      ⟨S1024x41024, Cert.Spec.pairsW 1024 384 41024 (by decide) (extractStridedSlice S1024x384 ![0, 128] x slices_S1024x512_S1024x384_0_128)⟩,
      ⟨S1024x24640, Cert.Spec.pairsW 1024 256 24640 (by decide) (extractStridedSlice S1024x256 ![0, 256] x slices_S1024x512_S1024x256_0_256)⟩,
      ⟨S1024x8256, Cert.Spec.pairsW 1024 128 8256 (by decide) (extractStridedSlice S1024x128 ![0, 384] x slices_S1024x512_S1024x128_0_384)⟩]
      concatenates_S1024x57408_S1024x41024_S1024x24640_S1024x8256_S1024x131328_d1
    = Cert.Spec.pairsW 1024 512 131328 (by decide) x := by
  funext j
  obtain ⟨b, ⟨p, hp⟩, rfl⟩ : ∃ (b : Fin 1024) (q : Fin 131328), j = ix2 b q := ⟨j 0, j 1, eq_ix2 j⟩
  rcases Cert.Spec.block_cases p hp with h | ⟨h0, h1⟩ | ⟨h0, h1⟩ | ⟨h0, h1⟩
  · refine Eq.trans ?_ (Cert.Spec.pairsW_block0 x b p h).symm
    exact concatenate_apply_piece (t := S1024x131328) 1 _ _ (ix2 b ⟨p, hp⟩) 0 (by simp) S1024x57408 _ rfl rfl 0 (by rfl)
      (ix2 b ⟨p, h⟩)
      (fun d hd => by match d with | ⟨0, _⟩ => rfl | ⟨1, _⟩ => exact (hd rfl).elim)
      (by show 0 + p = p; omega)
  · refine Eq.trans ?_ (Cert.Spec.pairsW_block1 x (extractStridedSlice S1024x384 ![0, 128] x slices_S1024x512_S1024x384_0_128)
      (fun b j => slice_apply 128 384 x slices_S1024x512_S1024x384_0_128 b j (by have := j.isLt; omega)) b p h0 h1).symm
    exact concatenate_apply_piece (t := S1024x131328) 1 _ _ (ix2 b ⟨p, hp⟩) 1 (by simp) S1024x41024 _ rfl rfl 57408 (by rfl)
      (ix2 b ⟨p - 57408, by omega⟩)
      (fun d hd => by match d with | ⟨0, _⟩ => rfl | ⟨1, _⟩ => exact (hd rfl).elim)
      (by show 57408 + (p - 57408) = p; omega)
  · refine Eq.trans ?_ (Cert.Spec.pairsW_block2 x (extractStridedSlice S1024x256 ![0, 256] x slices_S1024x512_S1024x256_0_256)
      (fun b j => slice_apply 256 256 x slices_S1024x512_S1024x256_0_256 b j (by have := j.isLt; omega)) b p h0 h1).symm
    exact concatenate_apply_piece (t := S1024x131328) 1 _ _ (ix2 b ⟨p, hp⟩) 2 (by simp) S1024x24640 _ rfl rfl 98432 (by show 57408 + (41024 + 0) = 98432; rfl)
      (ix2 b ⟨p - 98432, by omega⟩)
      (fun d hd => by match d with | ⟨0, _⟩ => rfl | ⟨1, _⟩ => exact (hd rfl).elim)
      (by show 98432 + (p - 98432) = p; omega)
  · refine Eq.trans ?_ (Cert.Spec.pairsW_block3 x (extractStridedSlice S1024x128 ![0, 384] x slices_S1024x512_S1024x128_0_384)
      (fun b j => slice_apply 384 128 x slices_S1024x512_S1024x128_0_384 b j (by have := j.isLt; omega)) b p h0 h1).symm
    exact concatenate_apply_piece (t := S1024x131328) 1 _ _ (ix2 b ⟨p, hp⟩) 3 (by simp) S1024x8256 _ rfl rfl 123072 (by show 57408 + (41024 + (24640 + 0)) = 123072; rfl)
      (ix2 b ⟨p - 123072, by omega⟩)
      (fun d hd => by match d with | ⟨0, _⟩ => rfl | ⟨1, _⟩ => exact (hd rfl).elim)
      (by show 123072 + (p - 123072) = p; omega)

/-! # The result -/

section Result
variable (m : (ℓ : Loc nD τ sig) → Buf (Elt Ideal) ℓ) (ρ : Dev nD → PrngReg)

/-- The result array after the run: every pair product of the flattened argument's rows, with a trailing axis. -/
theorem W9_v9_eq (c : Dev nD) : W9 m ρ c (Proc.devRef .tc main_v9)
    = Cert.Spec.result shapeCasts_S1024x32x16_S1024x512 bcast_S1024x131328_S1024x131328x1_0_1 (m ((c : Thread nD τ).loc main_arg0)) := by
  rw [W9_v9, W8_v1, W8_v3, W8_v5, W8_v7, concat_pairs]
  rfl

/-- Every weakly fair execution of the idealized kernel's @main ends with the result array at every pair product of
    the flattened rows, and the argument unchanged. -/
theorem run_value : θ_run (defs (F := Ideal)) (onTc (τ := τ) (main (F := Ideal))) ⟨m, fun _ => 0, ρ⟩ (fun r => ∀ c : Dev nD,
      r.2.mem ((c.tc : Thread nD τ).loc main_v9)
          = Cert.Spec.result shapeCasts_S1024x32x16_S1024x512 bcast_S1024x131328_S1024x131328x1_0_1
              (m ((c.tc : Thread nD τ).loc main_arg0))
      ∧ r.2.mem ((c.tc : Thread nD τ).loc main_arg0) = m ((c.tc : Thread nD τ).loc main_arg0)) :=
  (θ_run defs _ _).mono (fun r h c =>
      ⟨(h c _ (mem_uc main_v9 (by decide))).trans (W9_v9_eq m ρ c),
       (h c _ (mem_uc main_arg0 (by decide))).trans (W9_main_arg0 m ρ c)⟩)
    (run_all m ρ)

end Result

end Cert.KernelIdeal.Hand

end
-- ==== Proof.RStages.lean ====
/-
  The reference's result as a composition of pure stages, each stage the term of the operations the program prints
  for it, in the program's order.

  The index tables take no argument: the mask of the upper triangle of the 512 × 512 square, its running count over
  the flattened square, the count of flat positions per running-count value (a scatter-add of ones), the running
  sum of those counts, and the two coordinates read off it by a floor division and a remainder. The result gathers
  the columns of the flattened argument at the two coordinate tables, multiplies, and adds a trailing axis.
-/
import proofs.«427551_j57200374448374_3_alg».proof.ReferenceIdeal
import proofs.«427551_j57200374448374_3_alg».proof.Proof.Gen.ReferenceIdeal
import Idealize.ShloMosaic.PureOps.Ideal

noncomputable section

namespace Cert.ReferenceIdeal.Hand

open Idealize.ShloMosaic Idealize.SL.Sem Cert.ReferenceIdeal Cert.ReferenceIdeal.Gen

/-- The mask of the upper triangle: ones everywhere, a zero selected where row − 1 ≥ column, compared against zero. -/
def triuMask : IVec S512x512 1 :=
  cmpf .une
    (select
      (cmpi .sge
        (addi (iotaInDim S512x512 32 0) (broadcastInDim S512x512 ![] bcast_S_S512x512 (constantI S_ 32 4294967295#32)))
        (iotaInDim S512x512 32 1))
      (broadcastInDim S512x512 ![] bcast_S_S512x512 (constant (F := Ideal) S_ .f32 0x00000000#32))
      (broadcastInDim S512x512 ![] bcast_S_S512x512 (constant (F := Ideal) S_ .f32 0x3F800000#32)))
    (broadcastInDim S512x512 ![] bcast_S_S512x512 (constant (F := Ideal) S_ .f32 0x00000000#32))

/-- The running count of the mask over the flattened square: the mask flattened, widened to words, summed over the
    window of everything at or before each position. -/
def csum : IVec S262144 32 :=
  Host.reduceWindow IntOp.addi ![262144] ![1] ![262143] ![0]
    (extui 32 (shapeCast S262144 triuMask shapeCasts_S512x512_S262144) natLt_1_32)
    (broadcastInDim S_ ![] bcast_S_S_ (constantI S_ 32 0#32))
    reduceWindows_S262144_S262144_w262144s1p262143_0 h_S_

/-- The running count clipped below at zero. -/
def csumClip : IVec S262144 32 :=
  maxsi (broadcastInDim S262144 ![] bcast_S_S262144 (id (constantI S_ 32 0#32))) csum

/-- The scatter's index words: a negative word moved up by the table's length, then one index per row. -/
def idxWords : IVec S262144x1 32 :=
  broadcastInDim S262144x1 ![0] bcast_S262144_S262144x1_0
    (select
      (cmpi .slt csumClip (broadcastInDim S262144 ![] bcast_S_S262144 (constantI S_ 32 0#32)))
      (addi csumClip (broadcastInDim S262144 ![] bcast_S_S262144 (constantI S_ 32 131328#32)))
      csumClip)

/-- How many flat positions have each running-count value: ones added into zeros at the index words. -/
def counts : IVec S131328 32 :=
  Host.scatter scatter_S131328_S262144x1_S262144_n_0_0_1 IntOp.addi
    (broadcastInDim S131328 ![] bcast_S_S131328 (constantI S_ 32 0#32))
    idxWords
    (broadcastInDim S262144 ![] bcast_S_S262144 (constantI S_ 32 1#32))

/-- The running sum of the counts: entry p is the flat position of the p-th pair. -/
def flat : IVec S131328 32 :=
  Host.reduceWindow IntOp.addi ![131328] ![1] ![131327] ![0]
    counts
    (broadcastInDim S_ ![] bcast_S_S_ (constantI S_ 32 0#32))
    reduceWindows_S131328_S131328_w131328s1p131327_0 h_S_

/-- The floor division of a table of words by one word: the truncated quotient, less one where the signs differ and
    the remainder is not zero. -/
def floorDivW (a : IVec S131328 32) (d : IVec S_ 32) : IVec S131328 32 :=
  select
    (andi
      (cmpi .ne (signi a) (broadcastInDim S131328 ![] bcast_S_S131328 (signi d)))
      (cmpi .ne (Host.remsi a (broadcastInDim S131328 ![] bcast_S_S131328 d))
        (broadcastInDim S131328 ![] bcast_S_S131328 (constantI S_ 32 0#32))))
    (subi (Host.divsi a (broadcastInDim S131328 ![] bcast_S_S131328 d))
      (broadcastInDim S131328 ![] bcast_S_S131328 (constantI S_ 32 1#32)))
    (Host.divsi a (broadcastInDim S131328 ![] bcast_S_S131328 d))

/-- The divisor the remainder uses: one in place of zero. -/
def remDivisor (d : IVec S_ 32) : IVec S_ 32 :=
  select (cmpi .eq (id d) (constantI S_ 32 0#32)) (constantI S_ 32 1#32) (id d)

/-- The truncated remainder of a table of words by the divisor. -/
def remTrunc (a : IVec S131328 32) (d : IVec S_ 32) : IVec S131328 32 :=
  Host.remsi a (broadcastInDim S131328 ![] bcast_S_S131328 (remDivisor d))

/-- The floored remainder of a table of words by one word: the truncated remainder, the divisor added where it is
    not zero and its sign differs from the divisor's. -/
def remW (a : IVec S131328 32) (d : IVec S_ 32) : IVec S131328 32 :=
  select
    (andi
      (cmpi .ne
        (cmpi .slt (remTrunc a d) (broadcastInDim S131328 ![] bcast_S_S131328 (constantI S_ 32 0#32)))
        (broadcastInDim S131328 ![] bcast_S_S131328 (cmpi .slt (remDivisor d) (constantI S_ 32 0#32))))
      (cmpi .ne (remTrunc a d) (broadcastInDim S131328 ![] bcast_S_S131328 (constantI S_ 32 0#32))))
    (addi (remTrunc a d) (broadcastInDim S131328 ![] bcast_S_S131328 (remDivisor d)))
    (remTrunc a d)

/-- The row coordinate words: the flat position divided by 512, modulo 512. -/
def iiWords : IVec S131328 32 :=
  remW (floorDivW flat (constantI S_ 32 512#32)) (constantI S_ 32 512#32)

/-- The column coordinate words: the flat position divided by 1, modulo 512. -/
def jjWords : IVec S131328 32 :=
  remW (floorDivW flat (constantI S_ 32 1#32)) (constantI S_ 32 512#32)

/-- A table of coordinate words as gather indices: a negative word moved up by 512, then one index per row. -/
def asIdx (w : IVec S131328 32) : IVec S131328x1 32 :=
  broadcastInDim S131328x1 ![0] bcast_S131328_S131328x1_0
    (select
      (cmpi .slt w (broadcastInDim S131328 ![] bcast_S_S131328 (constantI S_ 32 0#32)))
      (addi w (broadcastInDim S131328 ![] bcast_S_S131328 (constantI S_ 32 512#32)))
      w)

/-- The row coordinates as gather indices. -/
def iiIdx : IVec S131328x1 32 := asIdx iiWords

/-- The column coordinates as gather indices. -/
def jjIdx : IVec S131328x1 32 := asIdx jjWords

/-- The reference's result of the argument array: the rows flattened to 512 features, the columns gathered at the
    two coordinate tables, multiplied, a trailing axis of extent one added. -/
def resTerm (X : FVec Ideal S1024x32x16 .f32) : FVec Ideal S1024x131328x1 .f32 :=
  broadcastInDim S1024x131328x1 ![0, 1] bcast_S1024x131328_S1024x131328x1_0_1
    (mulf
      (Host.gather gather_S1024x512_S131328x1_S1024x131328_0_1_n_n_1_1_10241
        (shapeCast S1024x512 X shapeCasts_S1024x32x16_S1024x512) iiIdx)
      (Host.gather gather_S1024x512_S131328x1_S1024x131328_0_1_n_n_1_1_10241
        (shapeCast S1024x512 X shapeCasts_S1024x32x16_S1024x512) jjIdx))

end Cert.ReferenceIdeal.Hand

end
-- ==== Proof.RCount.lean ====
/-
  Counting the upper triangle of the 512 × 512 square along its flattened (row-major) order.

  Position q of the flattened square is the entry (q / 512, q % 512); it belongs to the triangle when q / 512 ≤ q % 512.
  cnt q is the number of triangle positions at or before q. Rows 0 … a − 1 contribute offW 512 a positions and row a
  contributes the columns a … b, so cnt (512·a + b) = offW 512 a + (b − a + 1) when a ≤ b and offW 512 a otherwise.
  The p-th triangle position (counted from 0) sits at pos p in the square: cnt (pos p) = p + 1, and cnt is monotone, so the
  positions q of the square with cnt q ≤ p are exactly those before pos p.
-/
import proofs.«427551_j57200374448374_3_alg».proof.Proof.Spec
import Mathlib.Data.Finset.Card
import Mathlib.Data.Finset.Range

namespace Cert.Spec

/-- The number of triangle positions at or before position q of the flattened square. -/
def cnt (q : ℕ) : ℕ := ((Finset.range (q + 1)).filter (fun q' => q' / 512 ≤ q' % 512)).card

/-- Position 0 is the pair (0, 0), in the triangle. -/
theorem cnt_zero : cnt 0 = 1 := by
  simp [cnt, Finset.filter_singleton]

/-- One more position adds one exactly when it is in the triangle. -/
theorem cnt_succ (q : ℕ) : cnt (q + 1) = cnt q + (if (q + 1) / 512 ≤ (q + 1) % 512 then 1 else 0) := by
  unfold cnt
  rw [Finset.range_add_one (n := q + 1), Finset.filter_insert]
  split
  · rw [Finset.card_insert_of_notMem]
    simp
  · simp

/-- More positions, at least as many triangle positions. -/
theorem cnt_mono {q q' : ℕ} (h : q ≤ q') : cnt q ≤ cnt q' :=
  Finset.card_le_card (Finset.filter_subset_filter _ (Finset.range_mono (by omega)))

theorem cnt_pos (q : ℕ) : 1 ≤ cnt q := by
  have := cnt_mono (Nat.zero_le q)
  rwa [cnt_zero] at this

/-- Row a + 1 starts W − a positions (the length of row a) after row a. -/
theorem offW_succ (W a : ℕ) (h : a ≤ W) : offW W (a + 1) = offW W a + (W - a) := by
  unfold offW
  rw [tri_succ]
  have h1 : a * (a - 1) / 2 ≤ a * W :=
    le_trans (Nat.div_le_self _ _) (Nat.mul_le_mul_left _ (by omega))
  have h2 : (a + 1) * W = a * W + W := by rw [Nat.add_mul, Nat.one_mul]
  omega

/-- The closed form, as a function of the position. -/
theorem cnt_eq (q : ℕ) (hq : q < 262144) :
    cnt q = offW 512 (q / 512) + (if q / 512 ≤ q % 512 then q % 512 - q / 512 + 1 else 0) := by
  induction q with
  | zero => rw [cnt_zero]; decide
  | succ q ih =>
    rw [cnt_succ, ih (by omega)]
    by_cases h : q % 512 = 511
    · have e1 : (q + 1) / 512 = q / 512 + 1 := by omega
      have e2 : (q + 1) % 512 = 0 := by omega
      have ha : q / 512 ≤ 511 := by omega
      rw [e1, e2, offW_succ 512 (q / 512) (by omega), h, if_pos ha, if_neg (by omega), if_neg (by omega)]
      omega
    · have e1 : (q + 1) / 512 = q / 512 := by omega
      have e2 : (q + 1) % 512 = q % 512 + 1 := by omega
      rw [e1, e2]
      split <;> split <;> omega

/-- The closed form at row a, column b. -/
theorem cnt_closed (a b : ℕ) (ha : a < 512) (hb : b < 512) :
    cnt (512 * a + b) = offW 512 a + (if a ≤ b then b - a + 1 else 0) := by
  have e1 : (512 * a + b) / 512 = a := by omega
  have e2 : (512 * a + b) % 512 = b := by omega
  rw [cnt_eq _ (by omega), e1, e2]

/-- Position p of the triangle of width W is k = colW − rowW places into row rowW: the row is at most the column and
    p = offW W (rowW W p) + (colW W p − rowW W p). -/
theorem row_le_col_and_eq (W p : ℕ) (hp : p < offW W W) :
    rowW W p ≤ colW W p ∧ p = offW W (rowW W p) + (colW W p - rowW W p) := by
  induction W generalizing p with
  | zero => simp [offW] at hp
  | succ W ih =>
    by_cases h : p < W + 1
    · rw [rowW, colW, if_pos h, if_pos h, offW_zero]
      omega
    · have hp' : p - (W + 1) < offW W W := by
        rw [offW_succ_succ W W (le_refl _)] at hp; omega
      obtain ⟨h1, h2⟩ := ih (p - (W + 1)) hp'
      have hr := rowW_lt W _ hp'
      rw [rowW, colW, if_neg h, if_neg h, offW_succ_succ W _ (by omega)]
      omega

theorem pos_lt (p : ℕ) (hp : p < 131328) : pos p < 262144 := by
  have hp' : p < offW 512 512 := by rw [offW_512_512]; exact hp
  have ha := rowW_lt 512 p hp'
  have hb := colW_lt 512 p hp'
  unfold pos
  omega

/-- The flat position of a triangle position splits back into its row and column. -/
theorem pos_div (p : ℕ) (hp : p < 131328) : pos p / 512 % 512 = rowW 512 p := by
  have hp' : p < offW 512 512 := by rw [offW_512_512]; exact hp
  have ha := rowW_lt 512 p hp'
  have hb := colW_lt 512 p hp'
  unfold pos
  omega

theorem pos_mod (p : ℕ) (hp : p < 131328) : pos p % 512 = colW 512 p := by
  have hp' : p < offW 512 512 := by rw [offW_512_512]; exact hp
  have ha := rowW_lt 512 p hp'
  have hb := colW_lt 512 p hp'
  unfold pos
  omega

/-- The flat position of a triangle position is in the triangle. -/
theorem pos_tri (p : ℕ) (hp : p < 131328) : pos p / 512 ≤ pos p % 512 := by
  have hp' : p < offW 512 512 := by rw [offW_512_512]; exact hp
  have ha := rowW_lt 512 p hp'
  have hb := colW_lt 512 p hp'
  have h := (row_le_col_and_eq 512 p hp').1
  unfold pos
  omega

/-- The p-th triangle position (from 0) is the (p + 1)-st counted. -/
theorem cnt_pos_eq (p : ℕ) (hp : p < 131328) : cnt (pos p) = p + 1 := by
  have hp' : p < offW 512 512 := by rw [offW_512_512]; exact hp
  have ha := rowW_lt 512 p hp'
  have hb := colW_lt 512 p hp'
  obtain ⟨h1, h2⟩ := row_le_col_and_eq 512 p hp'
  unfold pos
  rw [cnt_closed _ _ ha hb, if_pos h1]
  omega

/-- The positions of the square with at most p triangle positions at or before them are exactly those before pos p. -/
theorem card_cnt_le (p : ℕ) (hp : p < 131328) :
    ((Finset.range 262144).filter (fun q => cnt q ≤ p)).card = pos p := by
  have key : (Finset.range 262144).filter (fun q => cnt q ≤ p) = Finset.range (pos p) := by
    ext q
    simp only [Finset.mem_filter, Finset.mem_range]
    constructor
    · rintro ⟨_, h⟩
      by_contra hc
      have h3 := cnt_mono (Nat.le_of_not_lt hc)
      rw [cnt_pos_eq p hp] at h3
      omega
    · intro h
      refine ⟨lt_trans h (pos_lt p hp), ?_⟩
      have h1 : cnt q ≤ cnt (pos p - 1) := cnt_mono (by omega)
      have h2 := cnt_succ (pos p - 1)
      have e : pos p - 1 + 1 = pos p := by omega
      rw [e, cnt_pos_eq p hp, if_pos (pos_tri p hp)] at h2
      omega
  rw [key, Finset.card_range]

theorem offW_512_511 : offW 512 511 = 131327 := by decide

/-- The last position of the square has all 131328 triangle positions at or before it; the one before it, one fewer. -/
theorem cnt_last : cnt 262143 = 131328 := by
  have h := cnt_closed 511 511 (by omega) (by omega)
  rw [offW_512_511, if_pos (le_refl _)] at h
  exact h

theorem cnt_last_pred : cnt 262142 = 131327 := by
  have h := cnt_closed 511 510 (by omega) (by omega)
  rw [offW_512_511, if_neg (by omega)] at h
  exact h

theorem cnt_le (q : ℕ) (hq : q < 262144) : cnt q ≤ 131328 := by
  have h := cnt_mono (q := q) (q' := 262143) (by omega)
  rwa [cnt_last] at h

theorem cnt_lt_top (q : ℕ) (hq : q < 262143) : cnt q < 131328 := by
  have h := cnt_mono (q := q) (q' := 262142) (by omega)
  rw [cnt_last_pred] at h
  omega

theorem cnt_eq_top (q : ℕ) (hq : q < 262144) : cnt q = 131328 ↔ q = 262143 := by
  constructor
  · intro h
    by_contra hc
    have := cnt_lt_top q (by omega)
    omega
  · intro h
    rw [h, cnt_last]

end Cert.Spec
-- ==== Proof.LibCumsum.lean ====
/-
  A running sum written as a windowed reduction by integer addition, read one entry at a time.

  * A left fold by addition from v over a list is v plus the list's sum (foldl_add_eq_sum), so a windowed
    reduction by addition from a zero initial value, read at a result index, is the sum over the window's
    positions of the operand where the position falls inside it and of zero where it falls in the padding
    (reduceWindow_addi_apply).
  * With a window as long as the axis, stride one and low padding one less than the axis, the window at result
    index e covers the operand's entries 0 … e: position a of the window sits at entry e + a − lo, inside the
    operand exactly when lo ≤ e + a (sum_shift). This gives the running sum down the rows of a matrix
    (cumsum_rows) and along a vector (cumsum_vec).
  * A sum of 0/1 indicator words is the count of the indices where the indicator holds (sum_indicator).
-/
import Idealize.ShloMosaic.PureOps
import Idealize.ShloMosaic.Lib.ValueIdx
import Idealize.ShloMosaic.Lib.ValueIdxRank1
import Mathlib.Data.BitVec
import Mathlib.Algebra.BigOperators.Fin

open scoped BigOperators

namespace Cert.LibCumsum

open Idealize.ShloMosaic Idealize.ShloMosaic.ValueIdx

/-- A left fold by addition from v is v plus the sum of the terms. -/
theorem foldl_add_eq_sum {M ι : Type} [AddCommMonoid M] (g : ι → M) (v : M) (L : List ι) :
    L.foldl (fun r n => r + g n) v = v + (L.map g).sum := by
  induction L generalizing v with
  | nil => simp
  | cons a L ih => rw [List.foldl_cons, ih, List.map_cons, List.sum_cons, add_assoc]

/-- Two dependent choices with equivalent conditions and equal values where both hold are equal. -/
theorem dite_congr_iff {α : Type} {P Q : Prop} [Decidable P] [Decidable Q] (hPQ : P ↔ Q) {f : P → α} {g : Q → α}
    {z : α} (hfg : ∀ hp hq, f hp = g hq) : (if h : P then f h else z) = (if h : Q then g h else z) := by
  by_cases hp : P
  · rw [dif_pos hp, dif_pos (hPQ.1 hp)]; exact hfg _ _
  · rw [dif_neg hp, dif_neg (fun hq => hp (hPQ.2 hq))]

/-- A windowed reduction by integer addition from a zero initial value, read at a result index: the sum over the
    window's positions of the operand's entry where the position is inside the operand, and of zero elsewhere. -/
theorem reduceWindow_addi_apply {s t u : Shape} {w : Nat} (window strides lo hi : Fin s.rank → Nat) (x : IVec s w)
    (init : IVec u w) (h : s.ReduceWindows window strides lo hi t) (hu : 0 < u.numel)
    (hv : init (Shape.Idx.first hu) = 0#w) (j : t.Idx) :
    Host.reduceWindow IntOp.addi window strides lo hi x init h hu j
      = ∑ i : (⟨s.rank, window⟩ : Shape).Idx,
          (if hin : ∀ a, lo a ≤ (j (a.cast h.1.symm)).val * strides a + (i a).val
                ∧ (j (a.cast h.1.symm)).val * strides a + (i a).val - lo a < s.size a
            then x (fun a => ⟨(j (a.cast h.1.symm)).val * strides a + (i a).val - lo a, (hin a).2⟩) else 0#w) := by
  unfold Host.reduceWindow
  simp only [hv]
  have key := foldl_add_eq_sum (M := BitVec w)
    (fun n : Fin (⟨s.rank, window⟩ : Shape).numel =>
      if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
        then x (fun a => ⟨(j (a.cast h.1.symm)).val * strides a + ((⟨s.rank, window⟩ : Shape).rowMajor.symm n a).val - lo a,
          (hin a).2⟩) else 0#w) (0#w) (List.finRange (⟨s.rank, window⟩ : Shape).numel)
  rw [← Fin.sum_univ_def, BitVec.zero_add] at key
  refine Eq.trans key ?_
  exact Equiv.sum_comp (⟨s.rank, window⟩ : Shape).rowMajor.symm
    (fun i : (⟨s.rank, window⟩ : Shape).Idx =>
      if hin : ∀ a, lo a ≤ (j (a.cast h.1.symm)).val * strides a + (i a).val
            ∧ (j (a.cast h.1.symm)).val * strides a + (i a).val - lo a < s.size a
        then x (fun a => ⟨(j (a.cast h.1.symm)).val * strides a + (i a).val - lo a, (hin a).2⟩) else 0#w)

/-- With low padding lo = E − 1, position a of the window at result index e sits at entry e + a − lo, inside the
    operand exactly when lo ≤ e + a: as a runs over the window these are the entries 0 … e, once each. -/
theorem sum_shift {M : Type} [AddCommMonoid M] {E : Nat} (lo : Nat) (hlo : lo + 1 = E) (F : Fin E → M) (e : Fin E) :
    (∑ a : Fin E, (if h : lo ≤ e.val + a.val ∧ e.val + a.val - lo < E then F ⟨e.val + a.val - lo, h.2⟩ else 0))
      = ∑ e' ∈ Finset.univ.filter (fun e' : Fin E => e'.val ≤ e.val), F e' := by
  have he := e.isLt
  rw [← Finset.sum_subset (Finset.filter_subset (fun a : Fin E => lo ≤ e.val + a.val) Finset.univ)
    (fun a _ ha => dif_neg (fun hc => ha (Finset.mem_filter.2 ⟨Finset.mem_univ _, hc.1⟩)))]
  refine Finset.sum_bij (fun a _ => (⟨e.val + a.val - lo, by have := a.isLt; omega⟩ : Fin E)) ?_ ?_ ?_ ?_
  · intro a ha
    have h1 := (Finset.mem_filter.1 ha).2
    have := a.isLt
    exact Finset.mem_filter.2 ⟨Finset.mem_univ _, by show e.val + a.val - lo ≤ e.val; omega⟩
  · intro a ha b hb hab
    have h1 := (Finset.mem_filter.1 ha).2
    have h2 := (Finset.mem_filter.1 hb).2
    have h3 : e.val + a.val - lo = e.val + b.val - lo := congrArg Fin.val hab
    exact Fin.ext (by omega)
  · intro b hb
    have h1 : b.val ≤ e.val := (Finset.mem_filter.1 hb).2
    exact ⟨⟨b.val + lo - e.val, by omega⟩, Finset.mem_filter.2 ⟨Finset.mem_univ _, by show lo ≤ e.val + (b.val + lo - e.val); omega⟩,
      Fin.ext (by show e.val + (b.val + lo - e.val) - lo = b.val; omega)⟩
  · intro a ha
    have h1 := (Finset.mem_filter.1 ha).2
    have := a.isLt
    exact dif_pos ⟨h1, by omega⟩

/-- The running sum down the rows of an E × C matrix, as a windowed reduction with window E × 1, stride one and low
    padding E − 1 on the rows, read at (e, t): the sum of the column's entries in rows 0 … e. -/
theorem cumsum_rows {E C : Nat} (lo : Nat) (hlo : lo + 1 = E)
    (h : (⟨2, ![E, C]⟩ : Shape).ReduceWindows (![E, 1] : Fin 2 → Nat) ![1, 1] ![lo, 0] ![0, 0] ⟨2, ![E, C]⟩)
    (hu : 0 < (⟨0, ![]⟩ : Shape).numel)
    (x : IVec ⟨2, ![E, C]⟩ 32) (v : IVec ⟨0, ![]⟩ 32) (hv : ∀ i, v i = 0#32) (e : Fin E) (t : Fin C) :
    Host.reduceWindow IntOp.addi (![E, 1] : Fin 2 → Nat) ![1, 1] ![lo, 0] ![0, 0] x v h hu (ix2 e t)
      = ∑ e' ∈ Finset.univ.filter (fun e' : Fin E => e'.val ≤ e.val), x (ix2 e' t) := by
  rw [reduceWindow_addi_apply _ _ _ _ x v h hu (hv _) (ix2 e t)]
  rw [← sum_shift lo hlo (fun e' => x (ix2 e' t)) e]
  rw [sum_idx2]
  refine Finset.sum_congr rfl fun a _ => ?_
  rw [Fin.sum_univ_one]
  have ht := t.isLt
  refine dite_congr_iff ?_ ?_
  · show (∀ a' : Fin 2, _) ↔ _
    rw [Fin.forall_fin_two]
    show (lo ≤ e.val * 1 + a.val ∧ e.val * 1 + a.val - lo < E) ∧ (0 ≤ t.val * 1 + 0 ∧ t.val * 1 + 0 - 0 < C) ↔ _
    omega
  · intro hp hq
    refine congrArg x (funext fun a' => ?_)
    revert a'
    show ∀ a' : Fin 2, _
    rw [Fin.forall_fin_two]
    exact ⟨Fin.ext (by show e.val * 1 + a.val - lo = e.val + a.val - lo; omega),
      Fin.ext (by show t.val * 1 + 0 - 0 = t.val; omega)⟩

/-- The running sum along a vector of T entries, as a windowed reduction with window T, stride one and low padding
    T − 1, read at t: the sum of the entries 0 … t. -/
theorem cumsum_vec {T : Nat} (lo : Nat) (hlo : lo + 1 = T)
    (h : (⟨1, ![T]⟩ : Shape).ReduceWindows (![T] : Fin 1 → Nat) ![1] ![lo] ![0] ⟨1, ![T]⟩)
    (hu : 0 < (⟨0, ![]⟩ : Shape).numel)
    (x : IVec ⟨1, ![T]⟩ 32) (v : IVec ⟨0, ![]⟩ 32) (hv : ∀ i, v i = 0#32) (t : Fin T) :
    Host.reduceWindow IntOp.addi (![T] : Fin 1 → Nat) ![1] ![lo] ![0] x v h hu (ix1 t)
      = ∑ t' ∈ Finset.univ.filter (fun t' : Fin T => t'.val ≤ t.val), x (ix1 t') := by
  rw [reduceWindow_addi_apply _ _ _ _ x v h hu (hv _) (ix1 t)]
  rw [← sum_shift lo hlo (fun t' => x (ix1 t')) t]
  rw [← Equiv.sum_comp (idxEquiv1 (n := T)).symm]
  refine Finset.sum_congr rfl fun a _ => ?_
  refine dite_congr_iff ?_ ?_
  · show (∀ a' : Fin 1, _) ↔ _
    rw [Fin.forall_fin_one]
    show (lo ≤ t.val * 1 + a.val ∧ t.val * 1 + a.val - lo < T) ↔ _
    omega
  · intro hp hq
    refine congrArg x (funext fun a' => ?_)
    revert a'
    show ∀ a' : Fin 1, _
    rw [Fin.forall_fin_one]
    exact Fin.ext (by show t.val * 1 + a.val - lo = t.val + a.val - lo; omega)

/-- A sum of indicator words, one where the property holds and zero elsewhere, is the number of indices where it
    holds, as a word. -/
theorem sum_indicator {ι : Type} [DecidableEq ι] (S : Finset ι) (p : ι → Prop) [DecidablePred p] :
    (∑ i ∈ S, (if p i then (1#32 : BitVec 32) else 0#32)) = BitVec.ofNat 32 (S.filter p).card := by
  induction S using Finset.induction_on with
  | empty => rfl
  | insert a S ha ih =>
    rw [Finset.sum_insert ha, ih, Finset.filter_insert]
    by_cases hp : p a
    · rw [if_pos hp, if_pos hp, Finset.card_insert_of_notMem (fun hm => ha (Finset.mem_filter.1 hm).1),
        BitVec.ofNat_add, BitVec.add_comm]
    · rw [if_neg hp, if_neg hp, BitVec.zero_add]

/-! The two lemmas at literal sizes: the statements unify with a program's literal vectors. -/

example (h : (⟨2, ![240000, 6]⟩ : Shape).ReduceWindows (![240000, 1] : Fin 2 → Nat) ![1, 1] ![239999, 0] ![0, 0] ⟨2, ![240000, 6]⟩)
    (hu : 0 < (⟨0, ![]⟩ : Shape).numel) (x : IVec ⟨2, ![240000, 6]⟩ 32) (v : IVec ⟨0, ![]⟩ 32) (hv : ∀ i, v i = 0#32)
    (e : Fin 240000) (t : Fin 6) :
    Host.reduceWindow IntOp.addi ![240000, 1] ![1, 1] ![239999, 0] ![0, 0] x v h hu (ix2 e t)
      = ∑ e' ∈ Finset.univ.filter (fun e' : Fin 240000 => e'.val ≤ e.val), x (ix2 e' t) :=
  cumsum_rows 239999 rfl h hu x v hv e t

example (h : (⟨1, ![6]⟩ : Shape).ReduceWindows (![6] : Fin 1 → Nat) ![1] ![5] ![0] ⟨1, ![6]⟩)
    (hu : 0 < (⟨0, ![]⟩ : Shape).numel) (x : IVec ⟨1, ![6]⟩ 32) (v : IVec ⟨0, ![]⟩ 32) (hv : ∀ i, v i = 0#32) (t : Fin 6) :
    Host.reduceWindow IntOp.addi ![6] ![1] ![5] ![0] x v h hu (ix1 t)
      = ∑ t' ∈ Finset.univ.filter (fun t' : Fin 6 => t'.val ≤ t.val), x (ix1 t') :=
  cumsum_vec 5 rfl h hu x v hv t

end Cert.LibCumsum
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.RFlat.lean ====
/-
  The flat index table of the reference: entry p is the flat position, in the 512 × 512 square read in row-major
  order, of the p-th pair (i, j) with i ≤ j.

  The table is built in four steps. The mask of the upper triangle is one at (a, b) exactly when a ≤ b. Its running
  sum over the flattened square is, at position q, the number cnt q of positions at or before q that lie in the
  triangle. One is then added, for every position q, into the entry numbered cnt q of a table of 131328 zeros (the
  one position with cnt q = 131328 falls outside and adds nothing), so that entry v holds the number of positions q
  with cnt q = v. The running sum of that table at p is the number of positions q with cnt q ≤ p, and, cnt being
  the running count of the triangle, that number is the position of the p-th pair.
-/
import proofs.«427551_j57200374448374_3_alg».proof.Proof.RStages
import proofs.«427551_j57200374448374_3_alg».proof.Proof.RCount
import proofs.«427551_j57200374448374_3_alg».proof.Proof.LibCumsum
import proofs.«427551_j57200374448374_3_alg».proof.Proof.LibScatterSum
import Idealize.ShloMosaic.Lib.ValueIdx
import Idealize.ShloMosaic.Lib.ValueIdxRank1
import Mathlib.Algebra.BigOperators.Fin
import Mathlib.Algebra.BigOperators.Group.Finset.Basic
import Mathlib.Data.Fin.Embedding

open scoped BigOperators

noncomputable section

namespace Cert.ReferenceIdeal.Hand

open Idealize.ShloMosaic Idealize.SL.Sem Idealize.ShloMosaic.ValueIdx Cert.ReferenceIdeal Cert.ReferenceIdeal.Gen

/-! ## General readings -/

/-- A left fold of functions whose every step adds g n at the point i (whatever it does elsewhere), read at i: the
    start's value there plus the sum of the g n. -/
theorem foldl_point {ι β M : Type} [AddCommMonoid M] (step : (β → M) → ι → (β → M)) (g : ι → M) (i : β)
    (hstep : ∀ r n, step r n i = r i + g n) (L : List ι) (r : β → M) :
    (L.foldl step r) i = r i + (L.map g).sum := by
  induction L generalizing r with
  | nil => simp
  | cons n L ih => rw [List.foldl_cons, ih, hstep, List.map_cons, List.sum_cons, add_assoc]

/-- A scatter whose body is integer addition, read at an operand index: the operand's element plus the sum of the
    updates that land on that index (addition commutes, so the order of the fold does not matter). -/
theorem scatter_addi_apply {s si u : Shape} {w v : Nat} (d : ScatterDims s si u) (x : IVec s v) (idx : IVec si w)
    (upd : IVec u v) (i : s.Idx) :
    Host.scatter d IntOp.addi x idx upd i
      = x i + ∑ j : u.Idx, (if d.resultIdx? j idx = some i then upd j else 0#v) := by
  unfold Host.scatter
  rw [foldl_point _ (fun n => if d.resultIdx? (u.rowMajor.symm n) idx = some i then upd (u.rowMajor.symm n) else 0#v) i
    ?_ (List.finRange u.numel) x, ← Fin.sum_univ_def]
  · congr 1
    exact Equiv.sum_comp u.rowMajor.symm (fun j => if d.resultIdx? j idx = some i then upd j else 0#v)
  · intro r n
    cases hres : d.resultIdx? (u.rowMajor.symm n) idx with
    | none => simp
    | some i0 =>
      by_cases hi : i = i0
      · subst hi; simp [IntOp.addi]
      · have hne : ¬ (some i0 = some i) := fun h => hi (Option.some.inj h).symm
        simp [hi, hne]

/-- The same for a scatter into a vector with one index word per update: the operand's element plus the sum of the
    updates whose index word, read signed, is the index. -/
theorem scatter_vec_addi {N E w v : Nat}
    (h : ScatterDims.WF (⟨1, ![N]⟩ : Shape) (⟨2, ![E, 1]⟩ : Shape) (⟨1, ![E]⟩ : Shape) [] [0] [0] 1)
    (x : IVec (⟨1, ![N]⟩ : Shape) v) (idx : IVec (⟨2, ![E, 1]⟩ : Shape) w) (upd : IVec (⟨1, ![E]⟩ : Shape) v) (n : Fin N) :
    Host.scatter (⟨[], [0], [0], 1, h⟩ : ScatterDims (⟨1, ![N]⟩ : Shape) (⟨2, ![E, 1]⟩ : Shape) (⟨1, ![E]⟩ : Shape))
        IntOp.addi x idx upd (ix1 n)
      = x (ix1 n) + ∑ e ∈ Finset.univ.filter (fun e : Fin E => (idx (ix2 e (0 : Fin 1))).toInt = (n.val : ℤ)), upd (ix1 e) := by
  rw [scatter_addi_apply]
  congr 1
  rw [Cert.LibScatterSum.sum_idx1, Finset.sum_filter]
  refine Finset.sum_congr rfl fun e _ => ?_
  have hiff := Cert.LibScatterSum.vec_resultIdx_iff h (ix1 e) idx n
  by_cases hp : (idx (ix2 e (0 : Fin 1))).toInt = (n.val : ℤ)
  · rw [if_pos hp, if_pos (hiff.2 hp)]
  · rw [if_neg hp, if_neg (fun hc => hp (hiff.1 hc))]; rfl

/-- Flattening a 512 × 512 square in row-major order: position q is entry (q / 512, q % 512). -/
theorem reshape_sq (h : (⟨1, ![262144]⟩ : Shape).numel = (⟨2, ![512, 512]⟩ : Shape).numel) (q : Fin 262144) :
    Shape.reshapeEquiv h (ix1 q)
      = ix2 (⟨q.val / 512, by have := q.isLt; omega⟩ : Fin 512) (⟨q.val % 512, Nat.mod_lt _ (by decide)⟩ : Fin 512) := by
  refine Shape.reshapeEquiv_eq_of_rowMajor h ?_
  rw [Shape.rowMajor_val_two, Shape.rowMajor_val_one]
  show q.val / 512 * 512 + q.val % 512 = q.val
  omega

/-- A row number below 512 less one, as a signed word. -/
theorem toInt_pred (a : ℕ) (ha : a < 512) : (BitVec.ofNat 32 a + 4294967295#32).toInt = (a : ℤ) - 1 := by
  rw [BitVec.toInt_eq_toNat_cond, BitVec.toNat_add, BitVec.toNat_ofNat]
  have h1 : a % 2 ^ 32 = a := Nat.mod_eq_of_lt (by omega)
  rw [h1]
  show (if 2 * ((a + 4294967295) % 4294967296) < 4294967296 then (((a + 4294967295) % 4294967296 : ℕ) : ℤ)
    else (((a + 4294967295) % 4294967296 : ℕ) : ℤ) - ((4294967296 : ℕ) : ℤ)) = (a : ℤ) - 1
  split_ifs <;> omega

/-- A number below 2^31 as a signed word is itself. -/
theorem toInt_small (b : ℕ) (hb : b < 2 ^ 31) : (BitVec.ofNat 32 b).toInt = (b : ℤ) := by
  rw [BitVec.toInt_eq_toNat_cond, BitVec.toNat_ofNat]
  have h1 : b % 2 ^ 32 = b := Nat.mod_eq_of_lt (by omega)
  rw [h1, if_pos (by omega)]

/-- Row a minus one is at least column b, as signed words, exactly when b < a (rows and columns below 512). -/
theorem sge_pred (a b : ℕ) (ha : a < 512) (hb : b < 512) :
    IntOp.cmpi .sge (IntOp.addi (BitVec.ofNat 32 a) 4294967295#32) (BitVec.ofNat 32 b) = if b < a then 1#1 else 0#1 := by
  show BitVec.ofBool ((BitVec.ofNat 32 b).sle (BitVec.ofNat 32 a + 4294967295#32)) = _
  have hdec : (BitVec.ofNat 32 b).sle (BitVec.ofNat 32 a + 4294967295#32) = decide (b < a) := by
    rw [BitVec.sle, toInt_pred a ha, toInt_small b (by omega)]
    by_cases h : b < a
    · rw [decide_eq_true h]; exact decide_eq_true (by omega)
    · rw [decide_eq_false h]; exact decide_eq_false (by omega)
  rw [hdec]
  by_cases h : b < a
  · rw [if_pos h, decide_eq_true h]; rfl
  · rw [if_neg h, decide_eq_false h]; rfl

/-- A vector stood up as a column: entry (q, 0) of the column is entry q of the vector. -/
theorem bcastCol_apply {α : Type} {n : ℕ} (hn : n ≠ 1)
    (h : (⟨1, ![n]⟩ : Shape).BroadcastsInDim (⟨2, ![n, 1]⟩ : Shape) (![0] : Fin 1 → Fin 2))
    (x : (⟨1, ![n]⟩ : Shape).Idx → α) (q : Fin n) (z : Fin 1) :
    broadcastInDim (⟨2, ![n, 1]⟩ : Shape) ![0] h x (ix2 q z) = x (ix1 q) := by
  unfold broadcastInDim
  refine congrArg x (funext fun a => ?_)
  match a with
  | ⟨0, h0⟩ =>
    have hne : ¬ (⟨1, ![n]⟩ : Shape).size ⟨0, h0⟩ = 1 := hn
    rw [dif_neg hne]
    rfl

/-- The indices of Fin N whose value satisfies P, as numbers: the numbers below N satisfying P. -/
theorem map_val_filter {N : ℕ} (P : ℕ → Prop) [DecidablePred P] :
    (Finset.univ.filter (fun q : Fin N => P q.val)).map Fin.valEmbedding = (Finset.range N).filter P := by
  ext x
  simp only [Finset.mem_map, Finset.mem_filter, Finset.mem_univ, true_and, Fin.valEmbedding_apply, Finset.mem_range]
  constructor
  · rintro ⟨a, ha, rfl⟩; exact ⟨a.isLt, ha⟩
  · rintro ⟨hx, hp⟩; exact ⟨⟨x, hx⟩, hp, rfl⟩

/-- So the two have the same number of elements. -/
theorem card_val_filter {N : ℕ} (P : ℕ → Prop) [DecidablePred P] :
    (Finset.univ.filter (fun q : Fin N => P q.val)).card = ((Finset.range N).filter P).card := by
  rw [← map_val_filter, Finset.card_map]

/-- A sum over the indices of Fin N at or before p of a function of the value: the sum over the numbers 0 … p. -/
theorem sum_fin_le {M : Type} [AddCommMonoid M] {N : ℕ} (p : Fin N) (g : ℕ → M) :
    ∑ v ∈ Finset.univ.filter (fun v : Fin N => v.val ≤ p.val), g v.val = ∑ v ∈ Finset.range (p.val + 1), g v := by
  have hset : (Finset.univ.filter (fun v : Fin N => v.val ≤ p.val)).map Fin.valEmbedding = Finset.range (p.val + 1) := by
    rw [map_val_filter (fun v => v ≤ p.val)]
    ext x
    have := p.isLt
    simp only [Finset.mem_filter, Finset.mem_range]
    omega
  rw [← hset, Finset.sum_map]
  rfl

/-- A sum of numbers as words is the word of the sum. -/
theorem ofNat_sum {ι : Type} [DecidableEq ι] (S : Finset ι) (f : ι → ℕ) :
    (∑ i ∈ S, BitVec.ofNat 32 (f i)) = BitVec.ofNat 32 (∑ i ∈ S, f i) := by
  induction S using Finset.induction_on with
  | empty => rfl
  | insert a S ha ih => rw [Finset.sum_insert ha, Finset.sum_insert ha, ih, BitVec.ofNat_add]

/-! ## The mask, its running count, the index words -/

/-- The mask of the upper triangle at (a, b): one exactly when a ≤ b. -/
theorem triuMask_apply (a b : Fin 512) : triuMask (ix2 a b) = if a.val ≤ b.val then 1#1 else 0#1 := by
  have hc : cmpi .sge
      (addi (iotaInDim S512x512 32 0) (broadcastInDim S512x512 ![] bcast_S_S512x512 (constantI S_ 32 4294967295#32)))
      (iotaInDim S512x512 32 1) (ix2 a b) = if b.val < a.val then 1#1 else 0#1 :=
    sge_pred a.val b.val a.isLt b.isLt
  have hz : ∀ bits : BitVec 32,
      broadcastInDim S512x512 ![] bcast_S_S512x512 (constant (F := Ideal) S_ .f32 bits) (ix2 a b) = Ideal.ofBits .f32 bits :=
    fun _ => rfl
  have hcmp : ∀ x y : Ideal .f32, FloatOps.cmpf (F := Ideal) .une x y = BitVec.ofBool (decide (x ≠ y)) := fun _ _ => rfl
  have h0 : Ideal.ofBits .f32 0x00000000#32 = 0 := by simp [Ideal.ofBits, Ideal.ieee]
  have h1 : Ideal.ofBits .f32 0x3F800000#32 = 1 := by simp [Ideal.ofBits, Ideal.ieee, -EReal.coe_mul]; norm_num
  unfold triuMask
  rw [cmpf_apply, select_apply, hc, hz, hz, hcmp, h0, h1]
  by_cases h : b.val < a.val
  · rw [if_pos h, select_one, if_neg (by omega)]
    simp
  · rw [if_neg h, select_zero, if_pos (by omega)]
    simp

/-- The running count of the mask at position q of the flattened square: cnt q, as a word. -/
theorem csum_apply (q : Fin 262144) : csum (ix1 q) = BitVec.ofNat 32 (Cert.Spec.cnt q.val) := by
  unfold csum
  rw [Cert.LibCumsum.cumsum_vec (T := 262144) 262143 rfl reduceWindows_S262144_S262144_w262144s1p262143_0 h_S_
    (extui 32 (shapeCast S262144 triuMask shapeCasts_S512x512_S262144) natLt_1_32)
    (broadcastInDim S_ ![] bcast_S_S_ (constantI S_ 32 0#32)) (fun _ => rfl) q]
  have hterm : ∀ t' : Fin 262144,
      extui 32 (shapeCast S262144 triuMask shapeCasts_S512x512_S262144) natLt_1_32 (ix1 t')
        = if t'.val / 512 ≤ t'.val % 512 then 1#32 else 0#32 := by
    intro t'
    show (triuMask (Shape.reshapeEquiv _ (ix1 t'))).setWidth 32 = _
    rw [reshape_sq, triuMask_apply]
    show (if t'.val / 512 ≤ t'.val % 512 then 1#1 else 0#1).setWidth 32 = _
    by_cases h : t'.val / 512 ≤ t'.val % 512
    · rw [if_pos h, if_pos h]; rfl
    · rw [if_neg h, if_neg h]; rfl
  rw [Finset.sum_congr rfl (fun t' _ => hterm t'), Cert.LibCumsum.sum_indicator, Finset.filter_filter]
  refine congrArg (BitVec.ofNat 32) ?_
  rw [card_val_filter (fun t' => t' ≤ q.val ∧ t' / 512 ≤ t' % 512)]
  unfold Cert.Spec.cnt
  refine congrArg Finset.card ?_
  ext x
  have := q.isLt
  simp only [Finset.mem_filter, Finset.mem_range]
  omega

/-- The running count is at most 131328 < 2^31: as a signed word it is itself. -/
theorem cnt_toInt (q : Fin 262144) : (BitVec.ofNat 32 (Cert.Spec.cnt q.val)).toInt = (Cert.Spec.cnt q.val : ℤ) :=
  toInt_small _ (by have := Cert.Spec.cnt_le q.val q.isLt; omega)

/-- Clipping below at zero changes nothing: the running count is not negative. -/
theorem csumClip_apply (q : Fin 262144) : csumClip (ix1 q) = BitVec.ofNat 32 (Cert.Spec.cnt q.val) := by
  show IntOp.maxsi (0#32) (csum (ix1 q)) = _
  rw [csum_apply]
  unfold IntOp.maxsi
  have hslt : (BitVec.ofNat 32 (Cert.Spec.cnt q.val)).slt 0#32 = false := by
    rw [BitVec.slt, cnt_toInt q]
    exact decide_eq_false (by show ¬ ((Cert.Spec.cnt q.val : ℤ) < 0); omega)
  rw [hslt]
  rfl

/-- The index word of position q: the running count (the move up of a negative word does not happen). -/
theorem idxWords_apply (q : Fin 262144) (z : Fin 1) : idxWords (ix2 q z) = BitVec.ofNat 32 (Cert.Spec.cnt q.val) := by
  unfold idxWords
  rw [bcastCol_apply (by decide)]
  show Scalar.select (IntOp.cmpi .slt (csumClip (ix1 q)) 0#32) (IntOp.addi (csumClip (ix1 q)) 131328#32) (csumClip (ix1 q)) = _
  rw [csumClip_apply]
  have hslt : IntOp.cmpi .slt (BitVec.ofNat 32 (Cert.Spec.cnt q.val)) 0#32 = 0#1 := by
    show BitVec.ofBool ((BitVec.ofNat 32 (Cert.Spec.cnt q.val)).slt 0#32) = 0#1
    have : (BitVec.ofNat 32 (Cert.Spec.cnt q.val)).slt 0#32 = false := by
      rw [BitVec.slt, cnt_toInt q]
      exact decide_eq_false (by show ¬ ((Cert.Spec.cnt q.val : ℤ) < 0); omega)
    rw [this]; rfl
  rw [hslt, select_zero]

/-! ## The counts and their running sum -/

/-- Entry v of the counts: the number of positions whose running count is v. -/
theorem counts_apply (v : Fin 131328) :
    counts (ix1 v)
      = BitVec.ofNat 32 (Finset.univ.filter (fun q : Fin 262144 => Cert.Spec.cnt q.val = v.val)).card := by
  unfold counts
  show Host.scatter (⟨[], [0], [0], 1, scatter_S131328_S262144x1_S262144_n_0_0_1_wf⟩ :
      ScatterDims (⟨1, ![131328]⟩ : Shape) (⟨2, ![262144, 1]⟩ : Shape) (⟨1, ![262144]⟩ : Shape)) IntOp.addi _ _ _ (ix1 v) = _
  rw [scatter_vec_addi]
  show 0#32 + ∑ e ∈ Finset.univ.filter (fun e : Fin 262144 => (idxWords (ix2 e (0 : Fin 1))).toInt = (v.val : ℤ)), 1#32 = _
  rw [BitVec.zero_add, Finset.sum_filter]
  show (∑ e : Fin 262144, if (idxWords (ix2 e (0 : Fin 1))).toInt = (v.val : ℤ) then 1#32 else 0#32) = _
  rw [Cert.LibCumsum.sum_indicator]
  refine congrArg (BitVec.ofNat 32) (congrArg Finset.card ?_)
  refine Finset.filter_congr fun e _ => ?_
  rw [idxWords_apply, cnt_toInt e]
  exact Nat.cast_inj

/-- Entry p of the flat index table: the flat position of the p-th pair. -/
theorem flat_eq (p : Fin 131328) : flat (ix1 p) = BitVec.ofNat 32 (Cert.Spec.pos p.val) := by
  unfold flat
  rw [Cert.LibCumsum.cumsum_vec (T := 131328) 131327 rfl reduceWindows_S131328_S131328_w131328s1p131327_0 h_S_
    counts (broadcastInDim S_ ![] bcast_S_S_ (constantI S_ 32 0#32)) (fun _ => rfl) p]
  rw [Finset.sum_congr rfl (fun v _ => counts_apply v)]
  rw [sum_fin_le p (fun v => BitVec.ofNat 32 (Finset.univ.filter (fun q : Fin 262144 => Cert.Spec.cnt q.val = v)).card),
    ofNat_sum]
  refine congrArg (BitVec.ofNat 32) ?_
  rw [← Cert.Spec.card_cnt_le p.val p.isLt, ← card_val_filter (fun q => Cert.Spec.cnt q ≤ p.val)]
  rw [Finset.card_eq_sum_card_fiberwise (f := fun q : Fin 262144 => Cert.Spec.cnt q.val)
    (s := Finset.univ.filter (fun q : Fin 262144 => Cert.Spec.cnt q.val ≤ p.val)) (t := Finset.range (p.val + 1))
    (fun q hq => by
      have h1 : Cert.Spec.cnt q.val ≤ p.val := (Finset.mem_filter.1 (Finset.mem_coe.1 hq)).2
      exact Finset.mem_coe.2 (Finset.mem_range.2 (show Cert.Spec.cnt q.val < p.val + 1 by omega)))]
  refine Finset.sum_congr rfl fun v hv => ?_
  have hv' : v ≤ p.val := by have := Finset.mem_range.1 hv; omega
  refine congrArg Finset.card ?_
  rw [Finset.filter_filter]
  refine Finset.filter_congr fun q _ => ?_
  constructor
  · intro h; exact ⟨by omega, h⟩
  · intro h; exact h.2

end Cert.ReferenceIdeal.Hand

end
-- ==== Proof.ROps.lean ====
import proofs.«427551_j57200374448374_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's own operations: operations 0 to 2 of @main's. -/
abbrev ops0 : List (HloOp τ sig (Elt F)) :=
  [
    reshape main_arg0 main_v0 rfl shapeCasts_S1024x32x16_S1024x512,
    nullary main_cst (constant S_ .f32 0x3F800000#32),
    unary main_cst main_v1 (broadcastInDim S512x512 ![] bcast_S_S512x512 : (⟨S_, .f32⟩ : BufTy).Contents (Elt F) → (⟨S512x512, .f32⟩ : BufTy).Contents (Elt F)) ]

/-- Each touches buffers of the device only. -/
theorem ops0_sub : (ops0 : List (HloOp τ sig (Elt F))).Forall fun op => op.bufs ⊆ tcRefs τ sig :=
  ⟨
    reshape_bufs_sub .., nullary_bufs_sub .., unary_bufs_sub ..⟩

/-- The operations of the call of @triu over the record main_call0: operations 3 to 11 of @main's. -/
abbrev ops1 : List (HloOp τ sig (Elt F)) :=
  [
    TRef.nullary main_call0.v0 (iotaInDim S512x512 32 0),
    TRef.nullary main_call0.c (constantI S_ 32 4294967295#32),
    TRef.unary main_call0.c main_call0.v1 (broadcastInDim S512x512 ![] bcast_S_S512x512),
    TRef.binary main_call0.v0 main_call0.v1 main_call0.v2 addi,
    TRef.nullary main_call0.v3 (iotaInDim S512x512 32 1),
    TRef.binary main_call0.v2 main_call0.v3 main_call0.v4 (cmpi .sge),
    TRef.nullary main_call0.cst (constant S_ .f32 0x00000000#32),
    TRef.unary main_call0.cst main_call0.v5 (broadcastInDim S512x512 ![] bcast_S_S512x512),
    TRef.ternary main_call0.v4 main_call0.v5 (TRef.of main_v1 : TRef sig ⟨S512x512, .f32⟩) main_call0.v6 select ]

/-- Each touches buffers of the device only. -/
theorem ops1_sub : (ops1 : List (HloOp τ sig (Elt F))).Forall fun op => op.bufs ⊆ tcRefs τ sig :=
  ⟨
    nullary_bufs_sub .., nullary_bufs_sub .., unary_bufs_sub .., binary_bufs_sub .., nullary_bufs_sub .., binary_bufs_sub ..,
    nullary_bufs_sub .., unary_bufs_sub .., ternary_bufs_sub ..⟩

/-- @main's own operations: operations 12 to 14 of @main's. -/
abbrev ops2 : List (HloOp τ sig (Elt F)) :=
  [
    nullary main_cst_0 (constant S_ .f32 0x00000000#32),
    unary main_cst_0 main_v3 (broadcastInDim S512x512 ![] bcast_S_S512x512 : (⟨S_, .f32⟩ : BufTy).Contents (Elt F) → (⟨S512x512, .f32⟩ : BufTy).Contents (Elt F)),
    binary main_v2 main_v3 main_v4 (cmpf .une : (⟨S512x512, .f32⟩ : BufTy).Contents (Elt F) → (⟨S512x512, .f32⟩ : BufTy).Contents (Elt F) → (⟨S512x512, .i1⟩ : BufTy).Contents (Elt F)) ]

/-- Each touches buffers of the device only. -/
theorem ops2_sub : (ops2 : List (HloOp τ sig (Elt F))).Forall fun op => op.bufs ⊆ tcRefs τ sig :=
  ⟨
    nullary_bufs_sub .., unary_bufs_sub .., binary_bufs_sub ..⟩

/-- The operations of the call of @cumsum over the record main_call1: operations 15 to 19 of @main's. -/
abbrev ops3 : List (HloOp τ sig (Elt F)) :=
  [
    TRef.reshape (TRef.of main_v4 : TRef sig ⟨S512x512, .i1⟩) main_call1.v0 rfl shapeCasts_S512x512_S262144,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![262144] ![1] ![262143] ![0] x v reduceWindows_S262144_S262144_w262144s1p262143_0 h_S_) ]

/-- Each touches buffers of the device only. -/
theorem ops3_sub : (ops3 : List (HloOp τ sig (Elt F))).Forall fun op => op.bufs ⊆ tcRefs τ sig :=
  ⟨
    reshape_bufs_sub .., unary_bufs_sub .., nullary_bufs_sub .., unary_bufs_sub .., binary_bufs_sub ..⟩

/-- @main's own operations: operations 20 to 22 of @main's. -/
abbrev ops4 : List (HloOp τ sig (Elt F)) :=
  [
    nullary main_c (constantI S_ 32 0#32),
    unary main_c main_v6 (broadcastInDim S131328 ![] bcast_S_S131328 : (⟨S_, .i32⟩ : BufTy).Contents (Elt F) → (⟨S131328, .i32⟩ : BufTy).Contents (Elt F)),
    nullary main_c_1 (constantI S_ 32 0#32) ]

/-- Each touches buffers of the device only. -/
theorem ops4_sub : (ops4 : List (HloOp τ sig (Elt F))).Forall fun op => op.bufs ⊆ tcRefs τ sig :=
  ⟨
    nullary_bufs_sub .., unary_bufs_sub .., nullary_bufs_sub ..⟩

/-- The operations of the call of @clip over the record main_call2: operations 23 to 25 of @main's. -/
abbrev ops5 : List (HloOp τ sig (Elt F)) :=
  [
    TRef.unary (TRef.of main_c_1 : TRef sig ⟨S_, .i32⟩) main_call2.v0 id,
    TRef.unary main_call2.v0 main_call2.v1 (broadcastInDim S262144 ![] bcast_S_S262144),
    TRef.binary main_call2.v1 (TRef.of main_v5 : TRef sig ⟨S262144, .i32⟩) main_call2.v2 maxsi ]

/-- Each touches buffers of the device only. -/
theorem ops5_sub : (ops5 : List (HloOp τ sig (Elt F))).Forall fun op => op.bufs ⊆ tcRefs τ sig :=
  ⟨
    unary_bufs_sub .., unary_bufs_sub .., binary_bufs_sub ..⟩

/-- @main's own operations: operations 26 to 36 of @main's. -/
abbrev ops6 : List (HloOp τ sig (Elt F)) :=
  [
    nullary main_c_2 (constantI S_ 32 0#32),
    unary main_c_2 main_v8 (broadcastInDim S262144 ![] bcast_S_S262144 : (⟨S_, .i32⟩ : BufTy).Contents (Elt F) → (⟨S262144, .i32⟩ : BufTy).Contents (Elt F)),
    binary main_v7 main_v8 main_v9 (cmpi .slt : (⟨S262144, .i32⟩ : BufTy).Contents (Elt F) → (⟨S262144, .i32⟩ : BufTy).Contents (Elt F) → (⟨S262144, .i1⟩ : BufTy).Contents (Elt F)),
    nullary main_c_3 (constantI S_ 32 131328#32),
    unary main_c_3 main_v10 (broadcastInDim S262144 ![] bcast_S_S262144 : (⟨S_, .i32⟩ : BufTy).Contents (Elt F) → (⟨S262144, .i32⟩ : BufTy).Contents (Elt F)),
    binary main_v7 main_v10 main_v11 (addi : (⟨S262144, .i32⟩ : BufTy).Contents (Elt F) → (⟨S262144, .i32⟩ : BufTy).Contents (Elt F) → (⟨S262144, .i32⟩ : BufTy).Contents (Elt F)),
    ternary main_v9 main_v11 main_v7 main_v12 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v12 main_v13 (broadcastInDim S262144x1 ![0] bcast_S262144_S262144x1_0 : (⟨S262144, .i32⟩ : BufTy).Contents (Elt F) → (⟨S262144x1, .i32⟩ : BufTy).Contents (Elt F)),
    nullary main_c_4 (constantI S_ 32 1#32),
    unary main_c_4 main_v14 (broadcastInDim S262144 ![] bcast_S_S262144 : (⟨S_, .i32⟩ : BufTy).Contents (Elt F) → (⟨S262144, .i32⟩ : BufTy).Contents (Elt F)),
    ternary main_v6 main_v13 main_v14 main_v15 ((fun x i u => Host.scatter scatter_S131328_S262144x1_S262144_n_0_0_1 IntOp.addi x i u) : (⟨S131328, .i32⟩ : BufTy).Contents (Elt F) → (⟨S262144x1, .i32⟩ : BufTy).Contents (Elt F) → (⟨S262144, .i32⟩ : BufTy).Contents (Elt F) → (⟨S131328, .i32⟩ : BufTy).Contents (Elt F)) ]

/-- Each touches buffers of the device only. -/
theorem ops6_sub : (ops6 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩

/-- The operations of the call of @cumsum_1 over the record main_call3: operations 37 to 39 of @main's. -/
abbrev ops7 : List (HloOp τ sig (Elt F)) :=
  [
    TRef.nullary main_call3.call0.c (constantI S_ 32 0#32),
    TRef.unary main_call3.call0.c main_call3.call0.v0 (broadcastInDim S_ ![] bcast_S_S_),
    TRef.binary (TRef.of main_v15 : TRef sig ⟨S131328, .i32⟩) main_call3.call0.v0 main_call3.call0.v1 (fun x v => Host.reduceWindow IntOp.addi ![131328] ![1] ![131327] ![0] x v reduceWindows_S131328_S131328_w131328s1p131327_0 h_S_) ]

/-- Each touches buffers of the device only. -/
theorem ops7_sub : (ops7 : List (HloOp τ sig (Elt F))).Forall fun op => op.bufs ⊆ tcRefs τ sig :=
  ⟨
    nullary_bufs_sub .., unary_bufs_sub .., binary_bufs_sub ..⟩

/-- @main's own operations: operations 40 to 40 of @main's. -/
abbrev ops8 : List (HloOp τ sig (Elt F)) :=
  [
    nullary main_c_5 (constantI S_ 32 512#32) ]

/-- Each touches buffers of the device only. -/
theorem ops8_sub : (ops8 : List (HloOp τ sig (Elt F))).Forall fun op => op.bufs ⊆ tcRefs τ sig :=
  nullary_bufs_sub ..

/-- The operations of the call of @floor_divide over the record main_call4: operations 41 to 56 of @main's. -/
abbrev ops9 : List (HloOp τ sig (Elt F)) :=
  [
    TRef.unary (TRef.of main_c_5 : TRef sig ⟨S_, .i32⟩) main_call4.v0 (broadcastInDim S131328 ![] bcast_S_S131328),
    TRef.binary (TRef.of main_v16 : TRef sig ⟨S131328, .i32⟩) main_call4.v0 main_call4.v1 Host.divsi,
    TRef.unary (TRef.of main_v16 : TRef sig ⟨S131328, .i32⟩) main_call4.v2 signi,
    TRef.unary (TRef.of main_c_5 : TRef sig ⟨S_, .i32⟩) main_call4.v3 signi,
    TRef.unary main_call4.v3 main_call4.v4 (broadcastInDim S131328 ![] bcast_S_S131328),
    TRef.binary main_call4.v2 main_call4.v4 main_call4.v5 (cmpi .ne),
    TRef.unary (TRef.of main_c_5 : TRef sig ⟨S_, .i32⟩) main_call4.v6 (broadcastInDim S131328 ![] bcast_S_S131328),
    TRef.binary (TRef.of main_v16 : TRef sig ⟨S131328, .i32⟩) main_call4.v6 main_call4.v7 Host.remsi,
    TRef.nullary main_call4.c (constantI S_ 32 0#32),
    TRef.unary main_call4.c main_call4.v8 (broadcastInDim S131328 ![] bcast_S_S131328),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S131328 ![] bcast_S_S131328),
    TRef.binary main_call4.v1 main_call4.v11 main_call4.v12 subi,
    TRef.ternary main_call4.v10 main_call4.v12 main_call4.v1 main_call4.call0.v0 select ]

/-- Each touches buffers of the device only. -/
theorem ops9_sub : (ops9 : List (HloOp τ sig (Elt F))).Forall fun op => op.bufs ⊆ tcRefs τ sig :=
  ⟨
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..⟩

/-- @main's own operations: operations 57 to 57 of @main's. -/
abbrev ops10 : List (HloOp τ sig (Elt F)) :=
  [
    nullary main_c_6 (constantI S_ 32 512#32) ]

/-- Each touches buffers of the device only. -/
theorem ops10_sub : (ops10 : List (HloOp τ sig (Elt F))).Forall fun op => op.bufs ⊆ tcRefs τ sig :=
  nullary_bufs_sub ..

/-- The operations of the call of @remainder over the record main_call5: operations 58 to 78 of @main's. -/
abbrev ops11 : List (HloOp τ sig (Elt F)) :=
  [
    TRef.unary (TRef.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S131328 ![] bcast_S_S131328),
    TRef.binary (TRef.of main_v17 : TRef sig ⟨S131328, .i32⟩) main_call5.v3 main_call5.v4 Host.remsi,
    TRef.nullary main_call5.c_1 (constantI S_ 32 0#32),
    TRef.unary main_call5.c_1 main_call5.v5 (broadcastInDim S131328 ![] bcast_S_S131328),
    TRef.binary main_call5.v4 main_call5.v5 main_call5.v6 (cmpi .ne),
    TRef.nullary main_call5.c_2 (constantI S_ 32 0#32),
    TRef.unary main_call5.c_2 main_call5.v7 (broadcastInDim S131328 ![] bcast_S_S131328),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S131328 ![] bcast_S_S131328),
    TRef.binary main_call5.v8 main_call5.v10 main_call5.v11 (cmpi .ne),
    TRef.binary main_call5.v11 main_call5.v6 main_call5.v12 andi,
    TRef.unary main_call5.call0.v0 main_call5.v13 (broadcastInDim S131328 ![] bcast_S_S131328),
    TRef.binary main_call5.v4 main_call5.v13 main_call5.v14 addi,
    TRef.ternary main_call5.v12 main_call5.v14 main_call5.v4 main_call5.v15 select ]

/-- Each touches buffers of the device only. -/
theorem ops11_sub : (ops11 : List (HloOp τ sig (Elt F))).Forall fun op => op.bufs ⊆ tcRefs τ sig :=
  ⟨
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩

/-- @main's own operations: operations 79 to 79 of @main's. -/
abbrev ops12 : List (HloOp τ sig (Elt F)) :=
  [
    nullary main_c_7 (constantI S_ 32 1#32) ]

/-- Each touches buffers of the device only. -/
theorem ops12_sub : (ops12 : List (HloOp τ sig (Elt F))).Forall fun op => op.bufs ⊆ tcRefs τ sig :=
  nullary_bufs_sub ..

/-- The operations of the call of @floor_divide over the record main_call6: operations 80 to 95 of @main's. -/
abbrev ops13 : List (HloOp τ sig (Elt F)) :=
  [
    TRef.unary (TRef.of main_c_7 : TRef sig ⟨S_, .i32⟩) main_call6.v0 (broadcastInDim S131328 ![] bcast_S_S131328),
    TRef.binary (TRef.of main_v16 : TRef sig ⟨S131328, .i32⟩) main_call6.v0 main_call6.v1 Host.divsi,
    TRef.unary (TRef.of main_v16 : TRef sig ⟨S131328, .i32⟩) main_call6.v2 signi,
    TRef.unary (TRef.of main_c_7 : TRef sig ⟨S_, .i32⟩) main_call6.v3 signi,
    TRef.unary main_call6.v3 main_call6.v4 (broadcastInDim S131328 ![] bcast_S_S131328),
    TRef.binary main_call6.v2 main_call6.v4 main_call6.v5 (cmpi .ne),
    TRef.unary (TRef.of main_c_7 : TRef sig ⟨S_, .i32⟩) main_call6.v6 (broadcastInDim S131328 ![] bcast_S_S131328),
    TRef.binary (TRef.of main_v16 : TRef sig ⟨S131328, .i32⟩) main_call6.v6 main_call6.v7 Host.remsi,
    TRef.nullary main_call6.c (constantI S_ 32 0#32),
    TRef.unary main_call6.c main_call6.v8 (broadcastInDim S131328 ![] bcast_S_S131328),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S131328 ![] bcast_S_S131328),
    TRef.binary main_call6.v1 main_call6.v11 main_call6.v12 subi,
    TRef.ternary main_call6.v10 main_call6.v12 main_call6.v1 main_call6.call0.v0 select ]

/-- Each touches buffers of the device only. -/
theorem ops13_sub : (ops13 : List (HloOp τ sig (Elt F))).Forall fun op => op.bufs ⊆ tcRefs τ sig :=
  ⟨
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..⟩

/-- @main's own operations: operations 96 to 96 of @main's. -/
abbrev ops14 : List (HloOp τ sig (Elt F)) :=
  [
    nullary main_c_8 (constantI S_ 32 512#32) ]

/-- Each touches buffers of the device only. -/
theorem ops14_sub : (ops14 : List (HloOp τ sig (Elt F))).Forall fun op => op.bufs ⊆ tcRefs τ sig :=
  nullary_bufs_sub ..

/-- The operations of the call of @remainder over the record main_call7: operations 97 to 117 of @main's. -/
abbrev ops15 : List (HloOp τ sig (Elt F)) :=
  [
    TRef.unary (TRef.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S131328 ![] bcast_S_S131328),
    TRef.binary (TRef.of main_v19 : TRef sig ⟨S131328, .i32⟩) main_call7.v3 main_call7.v4 Host.remsi,
    TRef.nullary main_call7.c_1 (constantI S_ 32 0#32),
    TRef.unary main_call7.c_1 main_call7.v5 (broadcastInDim S131328 ![] bcast_S_S131328),
    TRef.binary main_call7.v4 main_call7.v5 main_call7.v6 (cmpi .ne),
    TRef.nullary main_call7.c_2 (constantI S_ 32 0#32),
    TRef.unary main_call7.c_2 main_call7.v7 (broadcastInDim S131328 ![] bcast_S_S131328),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S131328 ![] bcast_S_S131328),
    TRef.binary main_call7.v8 main_call7.v10 main_call7.v11 (cmpi .ne),
    TRef.binary main_call7.v11 main_call7.v6 main_call7.v12 andi,
    TRef.unary main_call7.call0.v0 main_call7.v13 (broadcastInDim S131328 ![] bcast_S_S131328),
    TRef.binary main_call7.v4 main_call7.v13 main_call7.v14 addi,
    TRef.ternary main_call7.v12 main_call7.v14 main_call7.v4 main_call7.v15 select ]

/-- Each touches buffers of the device only. -/
theorem ops15_sub : (ops15 : List (HloOp τ sig (Elt F))).Forall fun op => op.bufs ⊆ tcRefs τ sig :=
  ⟨
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩

/-- @main's own operations: operations 118 to 137 of @main's. -/
abbrev ops16 : List (HloOp τ sig (Elt F)) :=
  [
    nullary main_c_9 (constantI S_ 32 0#32),
    unary main_c_9 main_v21 (broadcastInDim S131328 ![] bcast_S_S131328 : (⟨S_, .i32⟩ : BufTy).Contents (Elt F) → (⟨S131328, .i32⟩ : BufTy).Contents (Elt F)),
    binary main_v18 main_v21 main_v22 (cmpi .slt : (⟨S131328, .i32⟩ : BufTy).Contents (Elt F) → (⟨S131328, .i32⟩ : BufTy).Contents (Elt F) → (⟨S131328, .i1⟩ : BufTy).Contents (Elt F)),
    nullary main_c_10 (constantI S_ 32 512#32),
    unary main_c_10 main_v23 (broadcastInDim S131328 ![] bcast_S_S131328 : (⟨S_, .i32⟩ : BufTy).Contents (Elt F) → (⟨S131328, .i32⟩ : BufTy).Contents (Elt F)),
    binary main_v18 main_v23 main_v24 (addi : (⟨S131328, .i32⟩ : BufTy).Contents (Elt F) → (⟨S131328, .i32⟩ : BufTy).Contents (Elt F) → (⟨S131328, .i32⟩ : BufTy).Contents (Elt F)),
    ternary main_v22 main_v24 main_v18 main_v25 (select : (⟨S131328, .i1⟩ : BufTy).Contents (Elt F) → (⟨S131328, .i32⟩ : BufTy).Contents (Elt F) → (⟨S131328, .i32⟩ : BufTy).Contents (Elt F) → (⟨S131328, .i32⟩ : BufTy).Contents (Elt F)),
    unary main_v25 main_v26 (broadcastInDim S131328x1 ![0] bcast_S131328_S131328x1_0 : (⟨S131328, .i32⟩ : BufTy).Contents (Elt F) → (⟨S131328x1, .i32⟩ : BufTy).Contents (Elt F)),
    binary main_v0 main_v26 main_v27 ((fun x i => Host.gather gather_S1024x512_S131328x1_S1024x131328_0_1_n_n_1_1_10241 x i) : (⟨S1024x512, .f32⟩ : BufTy).Contents (Elt F) → (⟨S131328x1, .i32⟩ : BufTy).Contents (Elt F) → (⟨S1024x131328, .f32⟩ : BufTy).Contents (Elt F)),
    nullary main_c_11 (constantI S_ 32 0#32),
    unary main_c_11 main_v28 (broadcastInDim S131328 ![] bcast_S_S131328 : (⟨S_, .i32⟩ : BufTy).Contents (Elt F) → (⟨S131328, .i32⟩ : BufTy).Contents (Elt F)),
    binary main_v20 main_v28 main_v29 (cmpi .slt : (⟨S131328, .i32⟩ : BufTy).Contents (Elt F) → (⟨S131328, .i32⟩ : BufTy).Contents (Elt F) → (⟨S131328, .i1⟩ : BufTy).Contents (Elt F)),
    nullary main_c_12 (constantI S_ 32 512#32),
    unary main_c_12 main_v30 (broadcastInDim S131328 ![] bcast_S_S131328 : (⟨S_, .i32⟩ : BufTy).Contents (Elt F) → (⟨S131328, .i32⟩ : BufTy).Contents (Elt F)),
    binary main_v20 main_v30 main_v31 (addi : (⟨S131328, .i32⟩ : BufTy).Contents (Elt F) → (⟨S131328, .i32⟩ : BufTy).Contents (Elt F) → (⟨S131328, .i32⟩ : BufTy).Contents (Elt F)),
    ternary main_v29 main_v31 main_v20 main_v32 (select : (⟨S131328, .i1⟩ : BufTy).Contents (Elt F) → (⟨S131328, .i32⟩ : BufTy).Contents (Elt F) → (⟨S131328, .i32⟩ : BufTy).Contents (Elt F) → (⟨S131328, .i32⟩ : BufTy).Contents (Elt F)),
    unary main_v32 main_v33 (broadcastInDim S131328x1 ![0] bcast_S131328_S131328x1_0 : (⟨S131328, .i32⟩ : BufTy).Contents (Elt F) → (⟨S131328x1, .i32⟩ : BufTy).Contents (Elt F)),
    binary main_v0 main_v33 main_v34 ((fun x i => Host.gather gather_S1024x512_S131328x1_S1024x131328_0_1_n_n_1_1_10241 x i) : (⟨S1024x512, .f32⟩ : BufTy).Contents (Elt F) → (⟨S131328x1, .i32⟩ : BufTy).Contents (Elt F) → (⟨S1024x131328, .f32⟩ : BufTy).Contents (Elt F)),
    binary main_v27 main_v34 main_v35 (mulf : (⟨S1024x131328, .f32⟩ : BufTy).Contents (Elt F) → (⟨S1024x131328, .f32⟩ : BufTy).Contents (Elt F) → (⟨S1024x131328, .f32⟩ : BufTy).Contents (Elt F)),
    unary main_v35 main_v36 (broadcastInDim S1024x131328x1 ![0, 1] bcast_S1024x131328_S1024x131328x1_0_1 : (⟨S1024x131328, .f32⟩ : BufTy).Contents (Elt F) → (⟨S1024x131328x1, .f32⟩ : BufTy).Contents (Elt F)) ]

/-- Each touches buffers of the device only. -/
theorem ops16_sub : (ops16 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub ..⟩

/-- @main's operations, in order, the calls written out: the pieces end to end. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16))))))))))))))))

end Cert.ReferenceIdeal.Hand

end
-- ==== Proof.RRun.lean ====
/-
  The reference's run. @main is the straight line of its operations, the functions it calls written out where it
  calls them; every weakly fair execution ends with each buffer at the operations' fold over the launch contents.
  Read stage by stage, that fold at the result buffer is the stages' composition of the argument: the mask of the
  upper triangle, its running count, the counts per running-count value, their running sum, the two coordinate
  tables, the two gathers multiplied. The argument's buffer is written by no operation.
-/
import proofs.«427551_j57200374448374_3_alg».proof.Proof.ROps
import proofs.«427551_j57200374448374_3_alg».proof.Proof.RStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The program is the line of its operations -/

section Line

variable {F : FTy → Type} [FloatOps F]

set_option maxRecDepth 8192 in
/-- @main is the line: the called functions unfolded at their calls, the pieces laid end to end, both sides are one
    chain of steps once sequencing is reassociated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body,
    ops, ops0, ops1, ops2, ops3, ops4, ops5, ops6, ops7, ops8, ops9, ops10, ops11, ops12, ops13, ops14, ops15, ops16,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the device only: piece by piece. -/
theorem ops_sub : (ops : List (HloOp τ sig (Elt F))).Forall fun op => op.bufs ⊆ tcRefs τ sig := by
  simp only [ops, List.forall_append]
  exact ⟨ops0_sub, ops1_sub, ops2_sub, ops3_sub, ops4_sub, ops5_sub, ops6_sub, ops7_sub, ops8_sub, ops9_sub, ops10_sub,
    ops11_sub, ops12_sub, ops13_sub, ops14_sub, ops15_sub, ops16_sub⟩

/-- A literal piece determines every result it writes: operation by operation. -/
local macro "fresh_lit" : tactic =>
  `(tactic| (intro _ h; (repeat (cases h with | head => rfl | tail _ h => ?_)); exact nomatch h))

/-- Every operation of the line determines its results: piece by piece. -/
theorem ops_fresh : ∀ op ∈ (ops : List (HloOp τ sig (Elt F))), op.fresh = ∅ := by
  have f0 : ∀ op ∈ (ops0 : List (HloOp τ sig (Elt F))), op.fresh = ∅ := by fresh_lit
  have f1 : ∀ op ∈ (ops1 : List (HloOp τ sig (Elt F))), op.fresh = ∅ := by fresh_lit
  have f2 : ∀ op ∈ (ops2 : List (HloOp τ sig (Elt F))), op.fresh = ∅ := by fresh_lit
  have f3 : ∀ op ∈ (ops3 : List (HloOp τ sig (Elt F))), op.fresh = ∅ := by fresh_lit
  have f4 : ∀ op ∈ (ops4 : List (HloOp τ sig (Elt F))), op.fresh = ∅ := by fresh_lit
  have f5 : ∀ op ∈ (ops5 : List (HloOp τ sig (Elt F))), op.fresh = ∅ := by fresh_lit
  have f6 : ∀ op ∈ (ops6 : List (HloOp τ sig (Elt F))), op.fresh = ∅ := by fresh_lit
  have f7 : ∀ op ∈ (ops7 : List (HloOp τ sig (Elt F))), op.fresh = ∅ := by fresh_lit
  have f8 : ∀ op ∈ (ops8 : List (HloOp τ sig (Elt F))), op.fresh = ∅ := by fresh_lit
  have f9 : ∀ op ∈ (ops9 : List (HloOp τ sig (Elt F))), op.fresh = ∅ := by fresh_lit
  have f10 : ∀ op ∈ (ops10 : List (HloOp τ sig (Elt F))), op.fresh = ∅ := by fresh_lit
  have f11 : ∀ op ∈ (ops11 : List (HloOp τ sig (Elt F))), op.fresh = ∅ := by fresh_lit
  have f12 : ∀ op ∈ (ops12 : List (HloOp τ sig (Elt F))), op.fresh = ∅ := by fresh_lit
  have f13 : ∀ op ∈ (ops13 : List (HloOp τ sig (Elt F))), op.fresh = ∅ := by fresh_lit
  have f14 : ∀ op ∈ (ops14 : List (HloOp τ sig (Elt F))), op.fresh = ∅ := by fresh_lit
  have f15 : ∀ op ∈ (ops15 : List (HloOp τ sig (Elt F))), op.fresh = ∅ := by fresh_lit
  have f16 : ∀ op ∈ (ops16 : List (HloOp τ sig (Elt F))), op.fresh = ∅ := by fresh_lit
  intro op h
  simp only [ops, List.mem_append] at h
  rcases h with h | h | h | h | h | h | h | h | h | h | h | h | h | h | h | h | h
  exacts [f0 op h, f1 op h, f2 op h, f3 op h, f4 op h, f5 op h, f6 op h, f7 op h, f8 op h, f9 op h, f10 op h, f11 op h, f12 op h, f13 op h, f14 op h, f15 op h, f16 op h]

/-- From any memory with zero counters every weakly fair execution of a program that is the line of a list of
    operations, each touching buffers of the device only and determining its results, terminates, and every buffer
    of the device ends at the list's fold over the launch contents. -/
theorem run_of (L : List (HloOp τ sig (Elt F))) (hmain : ∀ c : Dev nD, main (F := F) c = seq L)
    (hS : L.Forall fun op => op.bufs ⊆ tcRefs τ sig) (hf : ∀ op ∈ L, op.fresh = ∅)
    (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after L (launchContents m c) (b : DevRef τ sig) :=
  run_seq scopedRefs_eq scopedSems_eq defs main (fun _ => L) hmain (fun _ => hS) m ρ (fun _ => hf)

/-- @main's run: every buffer of the device ends at the line's fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_of (F := F) ops (main_eq (F := F)) (ops_sub (F := F)) (ops_fresh (F := F)) m ρ

/-- Two lines run one after the other fold as the second over the first's fold. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Line

/-! ## The stages as functions of what they read -/

/-- The mask of the upper triangle over any float values: the same operations as `triuMask`'s. -/
def triuMaskF (F : FTy → Type) [FloatOps F] : IVec S512x512 1 :=
  cmpf .une
    (select
      (cmpi .sge
        (addi (iotaInDim S512x512 32 0) (broadcastInDim S512x512 ![] bcast_S_S512x512 (constantI S_ 32 4294967295#32)))
        (iotaInDim S512x512 32 1))
      (broadcastInDim S512x512 ![] bcast_S_S512x512 (constant (F := F) S_ .f32 0x00000000#32))
      (broadcastInDim S512x512 ![] bcast_S_S512x512 (constant (F := F) S_ .f32 0x3F800000#32)))
    (broadcastInDim S512x512 ![] bcast_S_S512x512 (constant (F := F) S_ .f32 0x00000000#32))

theorem triuMaskF_ideal : triuMaskF Ideal = triuMask := rfl

/-- The running count of a mask over the flattened square. -/
def csumOf (msk : IVec S512x512 1) : IVec S262144 32 :=
  Host.reduceWindow IntOp.addi ![262144] ![1] ![262143] ![0]
    (extui 32 (shapeCast S262144 msk shapeCasts_S512x512_S262144) natLt_1_32)
    (broadcastInDim S_ ![] bcast_S_S_ (constantI S_ 32 0#32))
    reduceWindows_S262144_S262144_w262144s1p262143_0 h_S_

/-- A running count clipped below at zero, as scatter index words. -/
def idxOf (cs : IVec S262144 32) : IVec S262144x1 32 :=
  broadcastInDim S262144x1 ![0] bcast_S262144_S262144x1_0
    (select
      (cmpi .slt (maxsi (broadcastInDim S262144 ![] bcast_S_S262144 (id (constantI S_ 32 0#32))) cs)
        (broadcastInDim S262144 ![] bcast_S_S262144 (constantI S_ 32 0#32)))
      (addi (maxsi (broadcastInDim S262144 ![] bcast_S_S262144 (id (constantI S_ 32 0#32))) cs)
        (broadcastInDim S262144 ![] bcast_S_S262144 (constantI S_ 32 131328#32)))
      (maxsi (broadcastInDim S262144 ![] bcast_S_S262144 (id (constantI S_ 32 0#32))) cs))

/-- Ones added into zeros at the index words of a running count. -/
def countsOf (cs : IVec S262144 32) : IVec S131328 32 :=
  Host.scatter scatter_S131328_S262144x1_S262144_n_0_0_1 IntOp.addi
    (broadcastInDim S131328 ![] bcast_S_S131328 (constantI S_ 32 0#32))
    (idxOf cs)
    (broadcastInDim S262144 ![] bcast_S_S262144 (constantI S_ 32 1#32))

/-- The running sum of a table of counts. -/
def flatOf (n : IVec S131328 32) : IVec S131328 32 :=
  Host.reduceWindow IntOp.addi ![131328] ![1] ![131327] ![0]
    n
    (broadcastInDim S_ ![] bcast_S_S_ (constantI S_ 32 0#32))
    reduceWindows_S131328_S131328_w131328s1p131327_0 h_S_

/-- The columns of an array gathered at two coordinate tables, multiplied, a trailing axis added. -/
def gatherOf (x : FVec Ideal S1024x512 .f32) (a b : IVec S131328 32) : FVec Ideal S1024x131328x1 .f32 :=
  broadcastInDim S1024x131328x1 ![0, 1] bcast_S1024x131328_S1024x131328x1_0_1
    (mulf
      (Host.gather gather_S1024x512_S131328x1_S1024x131328_0_1_n_n_1_1_10241 x (asIdx a))
      (Host.gather gather_S1024x512_S131328x1_S1024x131328_0_1_n_n_1_1_10241 x (asIdx b)))

theorem csum_eq : csum = csumOf triuMask := rfl
theorem counts_eq : counts = countsOf csum := rfl
theorem flat_eq_flatOf : flat = flatOf counts := rfl
theorem resTerm_eq (X : FVec Ideal S1024x32x16 .f32) :
    resTerm X = gatherOf (shapeCast S1024x512 X shapeCasts_S1024x32x16_S1024x512) iiWords jjWords := rfl

/-! ## The fold, stage by stage

Each lemma reads one stretch of the line from ANY contents W of the device's buffers: what the stretch leaves in the
buffer a later stage reads, as the stage's function of what it read; and that it leaves alone a buffer it does not
write. -/

section Fold

attribute [local irreducible] Host.reduceWindow Host.gather Host.scatter

/-- The fold over a literal stretch at one buffer: the stretch unfolded, each operation's result read at its own
    buffer as its function's value and elsewhere as what was there. -/
local macro "fold_at" : tactic =>
  `(tactic| (simp only [ops0, ops1, ops2, ops3, ops4, ops5, ops6, ops7, ops8, ops9, ops10, ops11, ops12, ops13, ops14,
               ops15, ops16]
             after_results_simp))

/-- A value carried into a typed buffer and read back is the value. -/
theorem ofBuf_toBuf {Val : EltTy → Type} {T : BufTy} (x : TRef sig T) (v : T.Contents Val) :
    x.ofBuf (x.toBuf v) = v := by
  obtain ⟨r, rfl, _, _⟩ := x
  rfl

variable (W : Valuation τ sig (Elt Ideal))

/-- The flattening, and the mask of the triangle: the line's first fifteen operations. -/
theorem v0_A : after ops2 (after ops1 (after ops0 W)) (main_v0 : DevRef τ sig)
    = shapeCast S1024x512 (W (main_arg0 : DevRef τ sig)) shapeCasts_S1024x32x16_S1024x512 := by
  fold_at
  rfl
/-- The mask, over any float values. The values the called function's typed buffers carry are the plain values: one
    carried in and read back is the value, and so are the two at the call's boundary, the operand read from @main's
    buffer and the result left in @main's. -/
theorem v4_A {F : FTy → Type} [FloatOps F] (W' : Valuation τ sig (Elt F)) :
    after ops2 (after ops1 (after ops0 W')) (main_v4 : DevRef τ sig) = triuMaskF F := by
  fold_at
  simp only [ofBuf_toBuf]
  have e2 : ∀ v : (⟨S512x512, .f32⟩ : BufTy).Contents (Elt F), (main_call0.v6).toBuf v = v := fun _ => rfl
  have e1 : ∀ v : (⟨S512x512, .f32⟩ : BufTy).Contents (Elt F),
      (TRef.of main_v1 : TRef sig ⟨S512x512, .f32⟩).ofBuf v = v := fun _ => rfl
  rw [e2, e1]
  rfl

/-- The running count of the mask. -/
theorem v5_B : after ops3 W (main_v5 : DevRef τ sig) = csumOf (W (main_v4 : DevRef τ sig)) := by
  fold_at
  rfl
theorem v0_B : after ops3 W (main_v0 : DevRef τ sig) = W (main_v0 : DevRef τ sig) := by fold_at

/-- The counts per running-count value. -/
theorem v15_C : after ops6 (after ops5 (after ops4 W)) (main_v15 : DevRef τ sig)
    = countsOf (W (main_v5 : DevRef τ sig)) := by
  fold_at
  rfl
theorem v0_C : after ops6 (after ops5 (after ops4 W)) (main_v0 : DevRef τ sig) = W (main_v0 : DevRef τ sig) := by
  fold_at

/-- Their running sum. -/
theorem v16_D : after ops7 W (main_v16 : DevRef τ sig) = flatOf (W (main_v15 : DevRef τ sig)) := by
  fold_at
  rfl
theorem v0_D : after ops7 W (main_v0 : DevRef τ sig) = W (main_v0 : DevRef τ sig) := by fold_at

/-- The floor division by 512. -/
theorem v17_E : after ops9 (after ops8 W) (main_v17 : DevRef τ sig)
    = floorDivW (W (main_v16 : DevRef τ sig)) (constantI S_ 32 512#32) := by
  fold_at
  rfl
theorem v0_E : after ops9 (after ops8 W) (main_v0 : DevRef τ sig) = W (main_v0 : DevRef τ sig) := by fold_at
theorem v16_E : after ops9 (after ops8 W) (main_v16 : DevRef τ sig) = W (main_v16 : DevRef τ sig) := by fold_at

/-- Its remainder by 512: the row coordinates. -/
theorem v18_G : after ops11 (after ops10 W) (main_v18 : DevRef τ sig)
    = remW (W (main_v17 : DevRef τ sig)) (constantI S_ 32 512#32) := by
  fold_at
  rfl
theorem v0_G : after ops11 (after ops10 W) (main_v0 : DevRef τ sig) = W (main_v0 : DevRef τ sig) := by fold_at
theorem v16_G : after ops11 (after ops10 W) (main_v16 : DevRef τ sig) = W (main_v16 : DevRef τ sig) := by fold_at

/-- The floor division by 1. -/
theorem v19_H : after ops13 (after ops12 W) (main_v19 : DevRef τ sig)
    = floorDivW (W (main_v16 : DevRef τ sig)) (constantI S_ 32 1#32) := by
  fold_at
  rfl
theorem v0_H : after ops13 (after ops12 W) (main_v0 : DevRef τ sig) = W (main_v0 : DevRef τ sig) := by fold_at
theorem v18_H : after ops13 (after ops12 W) (main_v18 : DevRef τ sig) = W (main_v18 : DevRef τ sig) := by fold_at

/-- Its remainder by 512: the column coordinates. -/
theorem v20_I : after ops15 (after ops14 W) (main_v20 : DevRef τ sig)
    = remW (W (main_v19 : DevRef τ sig)) (constantI S_ 32 512#32) := by
  fold_at
  rfl
theorem v0_I : after ops15 (after ops14 W) (main_v0 : DevRef τ sig) = W (main_v0 : DevRef τ sig) := by fold_at
theorem v18_I : after ops15 (after ops14 W) (main_v18 : DevRef τ sig) = W (main_v18 : DevRef τ sig) := by fold_at

/-- The two gathers, the product, the trailing axis. -/
theorem v36_J : after ops16 W (main_v36 : DevRef τ sig)
    = gatherOf (W (main_v0 : DevRef τ sig)) (W (main_v18 : DevRef τ sig)) (W (main_v20 : DevRef τ sig)) := by
  fold_at
  rfl

/-- No piece of the line writes the argument's buffer. -/
theorem arg0_0 : after ops0 W (main_arg0 : DevRef τ sig) = W (main_arg0 : DevRef τ sig) := by fold_at
theorem arg0_1 : after ops1 W (main_arg0 : DevRef τ sig) = W (main_arg0 : DevRef τ sig) := by fold_at
theorem arg0_2 : after ops2 W (main_arg0 : DevRef τ sig) = W (main_arg0 : DevRef τ sig) := by fold_at
theorem arg0_3 : after ops3 W (main_arg0 : DevRef τ sig) = W (main_arg0 : DevRef τ sig) := by fold_at
theorem arg0_4 : after ops4 W (main_arg0 : DevRef τ sig) = W (main_arg0 : DevRef τ sig) := by fold_at
theorem arg0_5 : after ops5 W (main_arg0 : DevRef τ sig) = W (main_arg0 : DevRef τ sig) := by fold_at
theorem arg0_6 : after ops6 W (main_arg0 : DevRef τ sig) = W (main_arg0 : DevRef τ sig) := by fold_at
theorem arg0_7 : after ops7 W (main_arg0 : DevRef τ sig) = W (main_arg0 : DevRef τ sig) := by fold_at
theorem arg0_8 : after ops8 W (main_arg0 : DevRef τ sig) = W (main_arg0 : DevRef τ sig) := by fold_at
theorem arg0_9 : after ops9 W (main_arg0 : DevRef τ sig) = W (main_arg0 : DevRef τ sig) := by fold_at
theorem arg0_10 : after ops10 W (main_arg0 : DevRef τ sig) = W (main_arg0 : DevRef τ sig) := by fold_at
theorem arg0_11 : after ops11 W (main_arg0 : DevRef τ sig) = W (main_arg0 : DevRef τ sig) := by fold_at
theorem arg0_12 : after ops12 W (main_arg0 : DevRef τ sig) = W (main_arg0 : DevRef τ sig) := by fold_at
theorem arg0_13 : after ops13 W (main_arg0 : DevRef τ sig) = W (main_arg0 : DevRef τ sig) := by fold_at
theorem arg0_14 : after ops14 W (main_arg0 : DevRef τ sig) = W (main_arg0 : DevRef τ sig) := by fold_at
theorem arg0_15 : after ops15 W (main_arg0 : DevRef τ sig) = W (main_arg0 : DevRef τ sig) := by fold_at
theorem arg0_16 : after ops16 W (main_arg0 : DevRef τ sig) = W (main_arg0 : DevRef τ sig) := by fold_at

end Fold

/-- The line's fold at the result buffer is the stages' composition of the argument's contents: the stretches in
    order, each read from the contents the ones before it leave. -/
theorem res_eq (V : Valuation τ sig (Elt Ideal)) :
    after (ops (F := Ideal)) V (main_v36 : DevRef τ sig) = resTerm (V (main_arg0 : DevRef τ sig)) := by
  have a0 := v0_A V
  have a4 : after ops2 (after ops1 (after ops0 V)) (main_v4 : DevRef τ sig) = triuMask := (v4_A V).trans triuMaskF_ideal
  simp only [ops, after_append]
  generalize after ops2 (after ops1 (after ops0 V)) = VA at a0 a4 ⊢
  have b0 : after ops3 VA (main_v0 : DevRef τ sig) = _ := (v0_B VA).trans a0
  have b5 : after ops3 VA (main_v5 : DevRef τ sig) = csum := by rw [v5_B, a4, csum_eq]
  generalize after ops3 VA = VB at b0 b5 ⊢
  have c0 : after ops6 (after ops5 (after ops4 VB)) (main_v0 : DevRef τ sig) = _ := (v0_C VB).trans b0
  have c15 : after ops6 (after ops5 (after ops4 VB)) (main_v15 : DevRef τ sig) = counts := by
    rw [v15_C, b5, counts_eq]
  generalize after ops6 (after ops5 (after ops4 VB)) = VC at c0 c15 ⊢
  have d0 : after ops7 VC (main_v0 : DevRef τ sig) = _ := (v0_D VC).trans c0
  have d16 : after ops7 VC (main_v16 : DevRef τ sig) = flat := by rw [v16_D, c15, flat_eq_flatOf]
  generalize after ops7 VC = VD at d0 d16 ⊢
  have e0 : after ops9 (after ops8 VD) (main_v0 : DevRef τ sig) = _ := (v0_E VD).trans d0
  have e16 : after ops9 (after ops8 VD) (main_v16 : DevRef τ sig) = flat := (v16_E VD).trans d16
  have e17 : after ops9 (after ops8 VD) (main_v17 : DevRef τ sig) = floorDivW flat (constantI S_ 32 512#32) := by
    rw [v17_E, d16]
  generalize after ops9 (after ops8 VD) = VE at e0 e16 e17 ⊢
  have g0 : after ops11 (after ops10 VE) (main_v0 : DevRef τ sig) = _ := (v0_G VE).trans e0
  have g16 : after ops11 (after ops10 VE) (main_v16 : DevRef τ sig) = flat := (v16_G VE).trans e16
  have g18 : after ops11 (after ops10 VE) (main_v18 : DevRef τ sig) = iiWords := by
    rw [v18_G, e17]; rfl
  generalize after ops11 (after ops10 VE) = VG at g0 g16 g18 ⊢
  have h0 : after ops13 (after ops12 VG) (main_v0 : DevRef τ sig) = _ := (v0_H VG).trans g0
  have h18 : after ops13 (after ops12 VG) (main_v18 : DevRef τ sig) = iiWords := (v18_H VG).trans g18
  have h19 : after ops13 (after ops12 VG) (main_v19 : DevRef τ sig) = floorDivW flat (constantI S_ 32 1#32) := by
    rw [v19_H, g16]
  generalize after ops13 (after ops12 VG) = VH at h0 h18 h19 ⊢
  have i0 : after ops15 (after ops14 VH) (main_v0 : DevRef τ sig) = _ := (v0_I VH).trans h0
  have i18 : after ops15 (after ops14 VH) (main_v18 : DevRef τ sig) = iiWords := (v18_I VH).trans h18
  have i20 : after ops15 (after ops14 VH) (main_v20 : DevRef τ sig) = jjWords := by
    rw [v20_I, h19]; rfl
  generalize after ops15 (after ops14 VH) = VI at i0 i18 i20 ⊢
  rw [v36_J, i0, i18, i20, resTerm_eq]

/-- The argument's buffer is written by no operation of the line. -/
theorem arg0_eq (V : Valuation τ sig (Elt Ideal)) :
    after (ops (F := Ideal)) V (main_arg0 : DevRef τ sig) = V (main_arg0 : DevRef τ sig) := by
  simp only [ops, after_append]
  rw [arg0_16, arg0_15, arg0_14, arg0_13, arg0_12, arg0_11, arg0_10, arg0_9, arg0_8, arg0_7, arg0_6, arg0_5, arg0_4, arg0_3, arg0_2, arg0_1, arg0_0]

/-- From any memory with zero counters every weakly fair execution of the reference terminates with the result
    buffer at the stages' composition of the argument's launch contents, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = resTerm (m ((c.tc : Thread nD τ).loc main_arg0))
      ∧ r.2.mem ((c.tc : Thread nD τ).loc main_arg0) = m ((c.tc : Thread nD τ).loc main_arg0)) :=
  (θ_run defs _ _).mono
    (fun _ h c => ⟨(h c main_v36).trans (res_eq _), (h c main_arg0).trans (arg0_eq _)⟩)
    (run_all m ρ)

end Cert.ReferenceIdeal.Hand

end
-- ==== Proof.RValue.lean ====
/-
  The reference's coordinate tables read as numbers, and its result as the pair products.

  The running sum of the counts holds, at p, the flat position 512·i + j of the p-th pair (i, j). The floor division
  and the remainder the program prints act on words; on the words of numbers below 2³¹, with a positive divisor below
  2³¹, every sign test in them is decided (no operand is negative) and they are the numbers' quotient and remainder.
  So the row table holds (pos / 512) mod 512 = i and the column table (pos / 1) mod 512 = j. Both are below 512, so
  neither the select that moves a negative index up nor the gather's clamp changes them: the gathered columns are
  x(b, i) and x(b, j), and their product is the specification's entry.
-/
import proofs.«427551_j57200374448374_3_alg».proof.Proof.RStages
import proofs.«427551_j57200374448374_3_alg».proof.Proof.RFlat
import proofs.«427551_j57200374448374_3_alg».proof.Proof.RRun
import proofs.«427551_j57200374448374_3_alg».proof.Proof.RCount
import proofs.«427551_j57200374448374_3_alg».proof.Proof.Spec
import Mathlib.Data.BitVec
import Idealize.ShloMosaic.Lib.WordArith
import Idealize.ShloMosaic.Lib.ValueIdx

noncomputable section

namespace Cert.ReferenceIdeal.Hand

open Idealize.ShloMosaic Idealize.SL.Sem Cert.ReferenceIdeal Cert.ReferenceIdeal.Gen
open Idealize.ShloMosaic.ValueIdx Idealize.ShloMosaic.WordArith

namespace RValue

/-! ## The word functions on the words of small numbers -/

/-- The sign word of a word: 0, −1 or 1. -/
def sgnWord (x : BitVec 32) : BitVec 32 := if x = 0 then 0 else if x.msb then -1 else 1

/-- The floor division as the program prints it, on one word and the divisor: the quotient rounded toward zero, less
    one when the signs differ and the remainder is not zero. -/
def fdivWord (x y : BitVec 32) : BitVec 32 :=
  Scalar.select (IntOp.andi (IntOp.cmpi .ne (sgnWord x) (sgnWord y)) (IntOp.cmpi .ne (IntOp.remsi .host x y) 0#32))
    (IntOp.subi (IntOp.divsi .host x y) 1#32) (IntOp.divsi .host x y)

/-- The divisor the remainder uses: one in place of zero. -/
def remDivWord (y : BitVec 32) : BitVec 32 := Scalar.select (IntOp.cmpi .eq y 0#32) 1#32 y

/-- The remainder as the program prints it, on one word and the divisor: the remainder of the dividend's sign, plus the
    divisor when it is not zero and its sign differs from the divisor's. -/
def remWord (x y : BitVec 32) : BitVec 32 :=
  Scalar.select
    (IntOp.andi
      (IntOp.cmpi .ne (IntOp.cmpi .slt (IntOp.remsi .host x (remDivWord y)) 0#32) (IntOp.cmpi .slt (remDivWord y) 0#32))
      (IntOp.cmpi .ne (IntOp.remsi .host x (remDivWord y)) 0#32))
    (IntOp.addi (IntOp.remsi .host x (remDivWord y)) (remDivWord y))
    (IntOp.remsi .host x (remDivWord y))

/-- A number below 2³¹ is a non-negative word. -/
theorem msb_ofNat_small (n : ℕ) (h : n < 2 ^ 31) : (BitVec.ofNat 32 n).msb = false := by
  rw [BitVec.msb_eq_false_iff_two_mul_lt, BitVec.toNat_ofNat, Nat.mod_eq_of_lt (by omega)]; omega

/-- The word of a positive number below 2³¹ is not the zero word. -/
theorem ofNat_ne_zero (d : ℕ) (h0 : 0 < d) (h : d < 2 ^ 31) : BitVec.ofNat 32 d ≠ 0#32 := by
  intro e
  have := congrArg BitVec.toNat e
  rw [toNat_ofNat_of_lt d (by omega)] at this
  simp at this; omega

/-- A division by the word of a positive number below 2³¹ is at neither corner: the divisor is not zero and not −1. -/
theorem not_corner (n d : ℕ) (hd0 : 0 < d) (hd : d < 2 ^ 31) :
    ¬ IntOp.SDivCorner (BitVec.ofNat 32 n) (BitVec.ofNat 32 d) := by
  rintro (e | ⟨-, e⟩)
  · exact ofNat_ne_zero d hd0 hd e
  · have := congrArg BitVec.toNat e
    rw [toNat_ofNat_of_lt d (by omega)] at this
    simp at this; omega

/-- On non-negative words the signed quotient is the numbers' quotient … -/
theorem divsi_ofNat (n d : ℕ) (hn : n < 2 ^ 31) (hd0 : 0 < d) (hd : d < 2 ^ 31) :
    IntOp.divsi .host (BitVec.ofNat 32 n) (BitVec.ofNat 32 d) = BitVec.ofNat 32 (n / d) := by
  unfold IntOp.divsi
  rw [if_neg (not_corner n d hd0 hd), BitVec.sdiv_eq, msb_ofNat_small n hn, msb_ofNat_small d hd]
  apply BitVec.eq_of_toNat_eq
  have : n / d < 2 ^ 32 := lt_of_le_of_lt (Nat.div_le_self n d) (by omega)
  simp only [BitVec.udiv_eq, BitVec.toNat_udiv]
  rw [toNat_ofNat_of_lt n (by omega), toNat_ofNat_of_lt d (by omega), toNat_ofNat_of_lt _ this]

/-- … and the signed remainder the numbers' remainder. -/
theorem remsi_ofNat (n d : ℕ) (hn : n < 2 ^ 31) (hd0 : 0 < d) (hd : d < 2 ^ 31) :
    IntOp.remsi .host (BitVec.ofNat 32 n) (BitVec.ofNat 32 d) = BitVec.ofNat 32 (n % d) := by
  unfold IntOp.remsi
  rw [if_neg (not_corner n d hd0 hd), BitVec.srem_eq, msb_ofNat_small n hn, msb_ofNat_small d hd]
  apply BitVec.eq_of_toNat_eq
  have : n % d < 2 ^ 32 := lt_of_lt_of_le (Nat.mod_lt n hd0) (by omega)
  simp only [BitVec.umod_eq, BitVec.toNat_umod]
  rw [toNat_ofNat_of_lt n (by omega), toNat_ofNat_of_lt d (by omega), toNat_ofNat_of_lt _ this]

/-- A non-negative word is not below zero. -/
theorem slt_zero_ofNat (n : ℕ) (hn : n < 2 ^ 31) : IntOp.cmpi .slt (BitVec.ofNat 32 n) 0#32 = 0#1 := by
  unfold IntOp.cmpi
  have : (BitVec.ofNat 32 n).slt 0#32 = false := by
    rw [BitVec.slt_eq_decide, toInt_ofNat_small n hn]; simp
  simp only [this]; rfl

/-- The sign word of a positive number's word is one. -/
theorem sgnWord_pos (n : ℕ) (h0 : 0 < n) (hn : n < 2 ^ 31) : sgnWord (BitVec.ofNat 32 n) = 1#32 := by
  unfold sgnWord
  rw [if_neg (show ¬ BitVec.ofNat 32 n = 0 from ofNat_ne_zero n h0 hn), msb_ofNat_small n hn]; rfl

/-- The floor division of non-negative words is the numbers' quotient: a zero dividend has remainder zero, a positive
    one the divisor's sign, so the quotient is never lowered. -/
theorem fdivWord_ofNat (n d : ℕ) (hn : n < 2 ^ 31) (hd0 : 0 < d) (hd : d < 2 ^ 31) :
    fdivWord (BitVec.ofNat 32 n) (BitVec.ofNat 32 d) = BitVec.ofNat 32 (n / d) := by
  unfold fdivWord
  rw [divsi_ofNat n d hn hd0 hd, remsi_ofNat n d hn hd0 hd, sgnWord_pos d hd0 hd]
  rcases Nat.eq_zero_or_pos n with rfl | h0
  · have : IntOp.cmpi .ne (BitVec.ofNat 32 (0 % d)) 0#32 = 0#1 := by simp [IntOp.cmpi]
    rw [this]
    simp [Scalar.select, IntOp.andi]
  · rw [sgnWord_pos n h0 hn]
    have : IntOp.cmpi .ne (1#32) 1#32 = 0#1 := by decide
    rw [this]
    simp [Scalar.select, IntOp.andi]

/-- The remainder of non-negative words is the numbers' remainder: neither it nor the divisor is below zero, so the
    divisor is never added. -/
theorem remWord_ofNat (n d : ℕ) (hn : n < 2 ^ 31) (hd0 : 0 < d) (hd : d < 2 ^ 31) :
    remWord (BitVec.ofNat 32 n) (BitVec.ofNat 32 d) = BitVec.ofNat 32 (n % d) := by
  have e0 : IntOp.cmpi .eq (BitVec.ofNat 32 d) 0#32 = 0#1 := by
    unfold IntOp.cmpi
    have : (BitVec.ofNat 32 d == 0#32) = false := by
      rw [beq_eq_false_iff_ne]; exact ofNat_ne_zero d hd0 hd
    simp only [this]; rfl
  have ed : remDivWord (BitVec.ofNat 32 d) = BitVec.ofNat 32 d := by
    unfold remDivWord; rw [e0, select_zero]
  unfold remWord
  rw [ed, remsi_ofNat n d hn hd0 hd]
  have hr : n % d < 2 ^ 31 := lt_trans (Nat.mod_lt n hd0) hd
  rw [slt_zero_ofNat _ hr, slt_zero_ofNat d hd]
  have : IntOp.cmpi .ne (0#1) 0#1 = 0#1 := by decide
  rw [this]
  simp [Scalar.select, IntOp.andi]

/-- The select that moves a negative index up by the extent leaves a non-negative word alone. -/
theorem negsel_ofNat (n : ℕ) (hn : n < 2 ^ 31) (k : BitVec 32) :
    Scalar.select (IntOp.cmpi .slt (BitVec.ofNat 32 n) 0#32) (IntOp.addi (BitVec.ofNat 32 n) k) (BitVec.ofNat 32 n)
      = BitVec.ofNat 32 n := by
  rw [slt_zero_ofNat n hn, select_zero]

/-! ## The tables' operations read at an index -/

/-- The floor division of a table by a constant word, at an index: the word function of the entry. -/
theorem floorDivW_apply (a : IVec S131328 32) (c : BitVec 32) (i : S131328.Idx) :
    floorDivW a (constantI S_ 32 c) i = fdivWord (a i) c := rfl

/-- The remainder of a table by a constant word, at an index: the word function of the entry. -/
theorem remW_apply (a : IVec S131328 32) (c : BitVec 32) (i : S131328.Idx) :
    remW a (constantI S_ 32 c) i = remWord (a i) c := rfl

/-- A table given a trailing axis of extent one reads, at (p, 0), its entry p. -/
theorem bcast_col_apply {α : Type} (v : S131328.Idx → α) (p : Fin 131328) (z : Fin 1) :
    broadcastInDim S131328x1 ![0] bcast_S131328_S131328x1_0 v (ix2 p z) = v (ix1 p) := by
  unfold broadcastInDim
  congr 1
  funext a
  match a with
  | ⟨0, _⟩ => rfl

/-- The index form of a table of words, at (p, 0): the negative-index select of the entry p. -/
theorem asIdx_apply (w : IVec S131328 32) (p : Fin 131328) (z : Fin 1) :
    asIdx w (ix2 p z)
      = Scalar.select (IntOp.cmpi .slt (w (ix1 p)) 0#32) (IntOp.addi (w (ix1 p)) 512#32) (w (ix1 p)) := by
  unfold asIdx
  rw [bcast_col_apply]
  rfl

/-! ## The flat position's quotient and remainder are the pair's row and column

The flat position 512·i + j is below 2¹⁸, its quotient by 512 (mod 512) is i and its remainder j: the counting module's
`pos_lt`, `pos_div`, `pos_mod`. -/

/-- Rows and columns of the 131328 positions are below 512. -/
theorem rowW_lt512 (p : ℕ) (hp : p < 131328) : Cert.Spec.rowW 512 p < 512 :=
  Cert.Spec.rowW_lt 512 p (by rw [Cert.Spec.offW_512_512]; exact hp)
theorem colW_lt512 (p : ℕ) (hp : p < 131328) : Cert.Spec.colW 512 p < 512 :=
  Cert.Spec.colW_lt 512 p (by rw [Cert.Spec.offW_512_512]; exact hp)

/-- The row table holds the row of the pair at p … -/
theorem iiWords_apply (p : Fin 131328) : iiWords (ix1 p) = BitVec.ofNat 32 (Cert.Spec.rowW 512 p.val) := by
  have hpos := Cert.Spec.pos_lt p.val p.isLt
  unfold iiWords
  rw [remW_apply, floorDivW_apply, flat_eq p,
    fdivWord_ofNat _ 512 (by omega) (by norm_num) (by norm_num),
    remWord_ofNat _ 512 (lt_of_le_of_lt (Nat.div_le_self _ _) (by omega)) (by norm_num) (by norm_num),
    Cert.Spec.pos_div p.val p.isLt]

/-- … and the column table its column. -/
theorem jjWords_apply (p : Fin 131328) : jjWords (ix1 p) = BitVec.ofNat 32 (Cert.Spec.colW 512 p.val) := by
  have hpos := Cert.Spec.pos_lt p.val p.isLt
  unfold jjWords
  rw [remW_apply, floorDivW_apply, flat_eq p,
    fdivWord_ofNat _ 1 (by omega) (by norm_num) (by norm_num), Nat.div_one,
    remWord_ofNat _ 512 (by omega) (by norm_num) (by norm_num),
    Cert.Spec.pos_mod p.val p.isLt]

/-- As gather indices the tables hold the same words: no entry is negative. -/
theorem iiIdx_apply (p : Fin 131328) (z : Fin 1) : iiIdx (ix2 p z) = BitVec.ofNat 32 (Cert.Spec.rowW 512 p.val) := by
  unfold iiIdx
  rw [asIdx_apply, iiWords_apply]
  exact negsel_ofNat _ (lt_trans (rowW_lt512 p.val p.isLt) (by norm_num)) _
theorem jjIdx_apply (p : Fin 131328) (z : Fin 1) : jjIdx (ix2 p z) = BitVec.ofNat 32 (Cert.Spec.colW 512 p.val) := by
  unfold jjIdx
  rw [asIdx_apply, jjWords_apply]
  exact negsel_ofNat _ (lt_trans (colW_lt512 p.val p.isLt) (by norm_num)) _

/-! ## The gather of columns read at an index -/

/-- A start index read signed and clamped into the 512 columns. -/
def clampCol (w : BitVec 32) : Fin 512 := ⟨min w.toInt.toNat 511, by omega⟩

/-- The word of a number below 512 clamps to that number. -/
theorem clampCol_ofNat (n : ℕ) (hn : n < 512) : clampCol (BitVec.ofNat 32 n) = ⟨n, hn⟩ := by
  apply Fin.ext
  show min (BitVec.ofNat 32 n).toInt.toNat 511 = n
  rw [toInt_ofNat_small n (by omega), Int.toNat_natCast]; omega

/-- The gather of whole columns (the row axis an offset axis, the column axis collapsed and indexed) read at (b, p):
    the operand at row b and at the column the start index (p, 0) names, read signed and clamped. -/
theorem gather_col_apply {α : Type} (x : S1024x512.Idx → α) (idx : IVec S131328x1 32) (b : Fin 1024) (p : Fin 131328) :
    Host.gather gather_S1024x512_S131328x1_S1024x131328_0_1_n_n_1_1_10241 x idx (ix2 b p)
      = x (ix2 b (clampCol (idx (ix2 p 0)))) := by
  unfold Host.gather
  congr 1
  funext a
  refine Fin.ext ?_
  match a with
  | ⟨0, _⟩ =>
    show GatherDims.start gather_S1024x512_S131328x1_S1024x131328_0_1_n_n_1_1_10241 (ix2 b p) idx 0
        + GatherDims.batchCoord gather_S1024x512_S131328x1_S1024x131328_0_1_n_n_1_1_10241 (ix2 b p) 0
        + GatherDims.offCoord gather_S1024x512_S131328x1_S1024x131328_0_1_n_n_1_1_10241 (ix2 b p) 0 = b.val
    rw [GatherDims.batchCoord_eq_zero _ _ _ List.not_mem_nil]
    have hs : GatherDims.start gather_S1024x512_S131328x1_S1024x131328_0_1_n_n_1_1_10241 (ix2 b p) idx 0 = 0 := by
      unfold GatherDims.start
      rw [dif_neg (by decide)]
    rw [hs]
    unfold GatherDims.offCoord
    rw [dif_pos (by decide)]
    simp only [Nat.zero_add, Nat.add_zero]
    rfl
  | ⟨1, _⟩ =>
    show GatherDims.start gather_S1024x512_S131328x1_S1024x131328_0_1_n_n_1_1_10241 (ix2 b p) idx 1
        + GatherDims.batchCoord gather_S1024x512_S131328x1_S1024x131328_0_1_n_n_1_1_10241 (ix2 b p) 1
        + GatherDims.offCoord gather_S1024x512_S131328x1_S1024x131328_0_1_n_n_1_1_10241 (ix2 b p) 1
        = min (idx (ix2 p 0)).toInt.toNat 511
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S1024x512_S131328x1_S1024x131328_0_1_n_n_1_1_10241).startIndexMap from
      List.mem_singleton.mpr rfl)]
    have hsi : (gather_S1024x512_S131328x1_S1024x131328_0_1_n_n_1_1_10241).siIdx (ix2 b p)
        ⟨List.idxOf (1 : Fin 2) (gather_S1024x512_S131328x1_S1024x131328_0_1_n_n_1_1_10241).startIndexMap,
          List.idxOf_lt_length_iff.2 (List.mem_singleton.mpr rfl)⟩ = ix2 p 0 := by
      funext c; refine Fin.ext ?_
      match c with
      | ⟨0, _⟩ => rfl
      | ⟨1, _⟩ => rfl
    rw [hsi]
    rfl

/-! ## The result -/

/-- The reference's result is the specification's: entry (b, p, 0) is x(b, i)·x(b, j), (i, j) the p-th pair. -/
theorem resTerm_eq (X : FVec Ideal S1024x32x16 .f32) :
    resTerm X = Cert.Spec.result shapeCasts_S1024x32x16_S1024x512 bcast_S1024x131328_S1024x131328x1_0_1 X := by
  unfold resTerm Cert.Spec.result
  refine congrArg _ ?_
  funext j
  obtain ⟨b, p, rfl⟩ : ∃ b p, j = ix2 b p := ⟨j 0, j 1, eq_ix2 j⟩
  have hr := rowW_lt512 p.val p.isLt
  have hc := colW_lt512 p.val p.isLt
  rw [mulf_apply, gather_col_apply, gather_col_apply, iiIdx_apply, jjIdx_apply, clampCol_ofNat _ hr, clampCol_ofNat _ hc]
  unfold Cert.Spec.pairsW
  simp only [Nat.mod_eq_of_lt hr, Nat.mod_eq_of_lt hc]

end RValue

/-- The reference's run leaves the specification's result in the result buffer and the argument as it was. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36)
          = Cert.Spec.result shapeCasts_S1024x32x16_S1024x512 bcast_S1024x131328_S1024x131328x1_0_1
              (m ((c.tc : Thread nD τ).loc main_arg0))
      ∧ r.2.mem ((c.tc : Thread nD τ).loc main_arg0) = m ((c.tc : Thread nD τ).loc main_arg0)) :=
  (θ_run _ _ _).mono (fun r h c => ⟨(h c).1.trans (RValue.resTerm_eq _), (h c).2⟩) (run m ρ)

end Cert.ReferenceIdeal.Hand

end
-- ==== Proof.lean ====
/-
  Quadratic feature expansion: for each of the 1024 rows x (512 features, the argument's two trailing axes flattened),
  every product x[i]·x[j] with i ≤ j < 512, the pairs in row-major order (i outer, j inner), 131328 of them, under a
  trailing axis of extent one.

  The kernel splits the rows i into four blocks of 128; block bi reads the columns from 128·bi on and, for each of its
  rows ri, writes the contiguous run x[i]·x[i], x[i]·x[i+1], …, x[i]·x[511] (i = 128·bi + ri) at the position where the
  earlier rows of the block end; the four results are laid side by side. The reference enumerates the pairs as the
  nonzero positions of an upper-triangular 512 × 512 mask — a running count of the mask, a histogram of that count, a
  running sum of the histogram: entry p of the last is the flat position 512·i + j of the p-th pair — and gathers the two
  factors' columns. Both are the one function `Cert.Spec.result` of the argument (Proof/Spec.lean): the kernel's by
  reading what each block's stores leave (Proof/KBlock.lean) and how the blocks tile the result (Proof/KValue.lean), the
  reference's by counting (Proof/RCount.lean, Proof/RFlat.lean, Proof/RValue.lean). No rewrite was made when the kernel
  was read over the extended reals, so nothing is owed for that step; each product is the same two factors in the same
  order on both sides, so no finiteness is used.
-/
import proofs.«427551_j57200374448374_3_alg».proof.Defs
import proofs.«427551_j57200374448374_3_alg».proof.Proof.Gen.Kernel
import proofs.«427551_j57200374448374_3_alg».proof.Proof.Gen.KernelIdeal
import proofs.«427551_j57200374448374_3_alg».proof.Proof.Gen.ReferenceIdeal
import proofs.«427551_j57200374448374_3_alg».proof.Proof.Gen.Pre_finite_inputs
import proofs.«427551_j57200374448374_3_alg».proof.Proof.BKRun
import proofs.«427551_j57200374448374_3_alg».proof.Proof.KValue
import proofs.«427551_j57200374448374_3_alg».proof.Proof.RValue

noncomputable section

namespace Cert.Proof

open Idealize.ShloMosaic Idealize.SL.Sem

/-- The word-level kernel runs to its end and leaves its argument as it found it. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference runs to its end and leaves its argument as it found it: its run with the result dropped. -/
theorem frame_referenceIdeal : Cert.frame_ReferenceIdeal := fun m ρ _ =>
  (θ_run Cert.ReferenceIdeal.defs _ _).mono (fun _ h c => (h c).2) (Cert.ReferenceIdeal.Hand.run_value m ρ)

/-- From memories that agree on the argument both programs end with the same array: every pair product of the
    flattened rows. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
